-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x64 : Shape := ⟨2, ![128, 64]⟩
abbrev S64 : Shape := ⟨1, ![64]⟩
abbrev S3x144x64 : Shape := ⟨3, ![3, 144, 64]⟩
abbrev S3x64 : Shape := ⟨2, ![3, 64]⟩
abbrev S3x64x64 : Shape := ⟨3, ![3, 64, 64]⟩
abbrev S3x192x64 : Shape := ⟨3, ![3, 192, 64]⟩
abbrev S3x192 : Shape := ⟨2, ![3, 192]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3x144x64 : S_.BroadcastsInDim S3x144x64 (![] : Fin 0 → Fin S3x144x64.rank)
  reducesTo_S3x144x64_S_d0_1_2 : S3x144x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x192x64 : S_.BroadcastsInDim S3x192x64 (![] : Fin 0 → Fin S3x192x64.rank)
  reducesTo_S3x192x64_S_d0_1_2 : S3x192x64.ReducesTo [0, 1, 2] S_
  bcast_S_S3x192 : S_.BroadcastsInDim S3x192 (![] : Fin 0 → Fin S3x192.rank)
  reducesTo_S3x192_S_d0_1 : S3x192.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_v82 : IVec S_ 1) (main_v84 : IVec S2x800000 1) : IVec S_ 1 :=
  let main_c_33 : IVec S_ 1 := constantI S_ 1 1#1
  let main_v85 : IVec S_ 1 := (fun x v => Host.reduce IntOp.andi x v reducesTo_S2x800000_S_d0_1 h_S_) main_v84 main_c_33
  let main_v86 : IVec S_ 1 := andi main_v82 main_v85
  main_v86

def fn_part4 {F : FTy → Type} [FloatOps F] (main_arg1 : IVec S2x800000 32) (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S64x1 .f32 := Host.absf main_arg16
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_c_30 : IVec S_ 32 := constantI S_ 32 4294917296#32
  let main_v79 : IVec S2x800000 32 := broadcastInDim S2x800000 ![] bcast_S_S2x800000 main_c_30
  let main_v80 : IVec S2x800000 1 := cmpi .sge main_arg1 main_v79
  let main_c_31 : IVec S_ 1 := constantI S_ 1 1#1
  let main_v81 : IVec S_ 1 := (fun x v => Host.reduce IntOp.andi x v reducesTo_S2x800000_S_d0_1 h_S_) main_v80 main_c_31
  let main_v82 : IVec S_ 1 := andi main_v78 main_v81
  let main_c_32 : IVec S_ 32 := constantI S_ 32 50000#32
  let main_v83 : IVec S2x800000 32 := broadcastInDim S2x800000 ![] bcast_S_S2x800000 main_c_32
  let main_v84 : IVec S2x800000 1 := cmpi .slt main_arg1 main_v83
  fn_part5 (F := F) main_v82 main_v84

def fn_part3 {F : FTy → Type} [FloatOps F] (main_arg1 : IVec S2x800000 32) (main_arg13 : FVec F S3x192 .f32) (main_arg14 : FVec F S64x64 .f32) (main_arg15 : FVec F S64 .f32) (main_arg16 : FVec F S64x1 .f32) (main_arg17 : FVec F S1 .f32) (main_v48 : IVec S_ 1) (main_v49 : FVec F S3x192 .f32) (main_v50 : FVec F S3x192 .f32) : IVec S_ 1 :=
  let main_v51 : IVec S3x192 1 := cmpf .olt main_v49 main_v50
  let main_c_19 : IVec S_ 1 := constantI S_ 1 1#1
  let main_v52 : IVec S_ 1 := (fun x v => Host.reduce IntOp.andi x v reducesTo_S3x192_S_d0_1 h_S_) main_v51 main_c_19
  let main_v53 : IVec S_ 1 := andi main_v48 main_v52
  let main_v54 : FVec F S3x192 .f32 := Host.absf main_arg13
  let main_cst_20 : FVec F S_ .f32 := constant S_ .f32 0x7F800000#32
  let main_v55 : FVec F S3x192 .f32 := broadcastInDim S3x192 ![] bcast_S_S3x192 main_cst_20
  let main_v56 : IVec S3x192 1 := cmpf .olt main_v54 main_v55
  let main_c_21 : IVec S_ 1 := constantI S_ 1 1#1
  let main_v57 : IVec S_ 1 := (fun x v => Host.reduce IntOp.andi x v reducesTo_S3x192_S_d0_1 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg16 main_arg17 main_v63 main_v67

def fn_part2 {F : FTy → Type} [FloatOps F] (main_arg1 : IVec S2x800000 32) (main_arg9 : FVec F S3x64 .f32) (main_arg10 : FVec F S3x192x64 .f32) (main_arg11 : FVec F S3x192x64 .f32) (main_arg12 : FVec F S3x192 .f32) (main_arg13 : FVec F S3x192 .f32) (main_arg14 : FVec F S64x64 .f32) (main_arg15 : FVec F S64 .f32) (main_arg16 : FVec F S64x1 .f32) (main_arg17 : FVec F S1 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x192x64 .f32 := Host.absf main_arg10
  let main_cst_14 : FVec F S_ .f32 := constant S_ .f32 0x7F800000#32
  let main_v40 : FVec F S3x192x64 .f32 := broadcastInDim S3x192x64 ![] bcast_S_S3x192x64 main_cst_14
  let main_v41 : IVec S3x192x64 1 := cmpf .olt main_v39 main_v40
  let main_c_15 : IVec S_ 1 := constantI S_ 1 1#1
  let main_v42 : IVec S_ 1 := (fun x v => Host.reduce IntOp.andi x v reducesTo_S3x192x64_S_d0_1_2 h_S_) main_v41 main_c_15
  let main_v43 : IVec S_ 1 := andi main_v38 main_v42
  let main_v44 : FVec F S3x192x64 .f32 := Host.absf main_arg11
  let main_cst_16 : FVec F S_ .f32 := constant S_ .f32 0x7F800000#32
  let main_v45 : FVec F S3x192x64 .f32 := broadcastInDim S3x192x64 ![] bcast_S_S3x192x64 main_cst_16
  let main_v46 : IVec S3x192x64 1 := cmpf .olt main_v44 main_v45
  let main_c_17 : IVec S_ 1 := constantI S_ 1 1#1
  let main_v47 : IVec S_ 1 := (fun x v => Host.reduce IntOp.andi x v reducesTo_S3x192x64_S_d0_1_2 h_S_) main_v46 main_c_17
  let main_v48 : IVec S_ 1 := andi main_v43 main_v47
  let main_v49 : FVec F S3x192 .f32 := Host.absf main_arg12
  let main_cst_18 : FVec F S_ .f32 := constant S_ .f32 0x7F800000#32
  let main_v50 : FVec F S3x192 .f32 := broadcastInDim S3x192 ![] bcast_S_S3x192 main_cst_18
  fn_part3 (F := F) main_arg1 main_arg13 main_arg14 main_arg15 main_arg16 main_arg17 main_v48 main_v49 main_v50

def fn_part1 {F : FTy → Type} [FloatOps F] (main_arg1 : IVec S2x800000 32) (main_arg6 : FVec F S3x144x64 .f32) (main_arg7 : FVec F S3x64 .f32) (main_arg8 : FVec F S3x64x64 .f32) (main_arg9 : FVec F S3x64 .f32) (main_arg10 : FVec F S3x192x64 .f32) (main_arg11 : FVec F S3x192x64 .f32) (main_arg12 : FVec F S3x192 .f32) (main_arg13 : FVec F S3x192 .f32) (main_arg14 : FVec F S64x64 .f32) (main_arg15 : FVec F S64 .f32) (main_arg16 : FVec F S64x1 .f32) (main_arg17 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x144x64 .f32 := Host.absf main_arg6
  let main_cst_6 : FVec F S_ .f32 := constant S_ .f32 0x7F800000#32
  let main_v20 : FVec F S3x144x64 .f32 := broadcastInDim S3x144x64 ![] bcast_S_S3x144x64 main_cst_6
  let main_v21 : IVec S3x144x64 1 := cmpf .olt main_v19 main_v20
  let main_c_7 : IVec S_ 1 := constantI S_ 1 1#1
  let main_v22 : IVec S_ 1 := (fun x v => Host.reduce IntOp.andi x v reducesTo_S3x144x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg8
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg1 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S800000x16 .f32) (main_arg3 : IVec S50000 32) (main_arg4 : FVec F S128x64 .f32) (main_arg5 : FVec F S64 .f32) (main_arg6 : FVec F S3x144x64 .f32) (main_arg7 : FVec F S3x64 .f32) (main_arg8 : FVec F S3x64x64 .f32) (main_arg9 : FVec F S3x64 .f32) (main_arg10 : FVec F S3x192x64 .f32) (main_arg11 : FVec F S3x192x64 .f32) (main_arg12 : FVec F S3x192 .f32) (main_arg13 : FVec F S3x192 .f32) (main_arg14 : FVec F S64x64 .f32) (main_arg15 : FVec F S64 .f32) (main_arg16 : FVec F S64x1 .f32) (main_arg17 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x64 : Shape := ⟨2, ![128, 64]⟩
abbrev S64 : Shape := ⟨1, ![64]⟩
abbrev S3x144x64 : Shape := ⟨3, ![3, 144, 64]⟩
abbrev S3x64 : Shape := ⟨2, ![3, 64]⟩
abbrev S3x64x64 : Shape := ⟨3, ![3, 64, 64]⟩
abbrev S3x192x64 : Shape := ⟨3, ![3, 192, 64]⟩
abbrev S3x192 : Shape := ⟨2, ![3, 192]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S_ : Shape := ⟨0, ![]⟩
abbrev S800000x1 : Shape := ⟨2, ![800000, 1]⟩
abbrev S1x1 : Shape := ⟨2, ![1, 1]⟩
abbrev S800000x64 : Shape := ⟨2, ![800000, 64]⟩
abbrev S1x144x64 : Shape := ⟨3, ![1, 144, 64]⟩
abbrev S144x64 : Shape := ⟨2, ![144, 64]⟩
abbrev S1x64x64 : Shape := ⟨3, ![1, 64, 64]⟩
abbrev S8000x64 : Shape := ⟨2, ![8000, 64]⟩
abbrev S8000x16 : Shape := ⟨2, ![8000, 16]⟩
abbrev S8000x144 : Shape := ⟨2, ![8000, 144]⟩
abbrev S1x192x64 : Shape := ⟨3, ![1, 192, 64]⟩
abbrev S192x64 : Shape := ⟨2, ![192, 64]⟩
abbrev S1x192 : Shape := ⟨2, ![1, 192]⟩
abbrev S192 : Shape := ⟨1, ![192]⟩
abbrev S5000x192 : Shape := ⟨2, ![5000, 192]⟩
abbrev S50000x1 : Shape := ⟨2, ![50000, 1]⟩

abbrev nBuf : Space → Nat
  | .hbm => 275
  | .vmem => 72
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S50000, .i32⟩
  | 4 => ⟨S128x64, .f32⟩
  | 5 => ⟨S64, .f32⟩
  | 6 => ⟨S3x144x64, .f32⟩
  | 7 => ⟨S3x64, .f32⟩
  | 8 => ⟨S3x64x64, .f32⟩
  | 9 => ⟨S3x64, .f32⟩
  | 10 => ⟨S3x192x64, .f32⟩
  | 11 => ⟨S3x192x64, .f32⟩
  | 12 => ⟨S3x192, .f32⟩
  | 13 => ⟨S3x192, .f32⟩
  | 14 => ⟨S64x64, .f32⟩
  | 15 => ⟨S64, .f32⟩
  | 16 => ⟨S64x1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S1x64, .f32⟩
  | 23 => ⟨S50000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S1, .i32⟩
  | 33 => ⟨S_, .i32⟩
  | 34 => ⟨S800000x1, .i32⟩
  | 35 => ⟨S800000x1, .i1⟩
  | 36 => ⟨S1x1, .i32⟩
  | 37 => ⟨S800000x1, .i32⟩
  | 38 => ⟨S800000x1, .i1⟩
  | 39 => ⟨S800000x1, .i1⟩
  | 40 => ⟨S_, .i1⟩
  | 41 => ⟨S800000, .i1⟩
  | 42 => ⟨S800000x64, .f32⟩
  | 43 => ⟨S800000x64, .i1⟩
  | 44 => ⟨S_, .f32⟩
  | 45 => ⟨S800000x64, .f32⟩
  | 46 => ⟨S800000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S1, .i32⟩
  | 56 => ⟨S_, .i32⟩
  | 57 => ⟨S800000x1, .i32⟩
  | 58 => ⟨S800000x1, .i1⟩
  | 59 => ⟨S1x1, .i32⟩
  | 60 => ⟨S800000x1, .i32⟩
  | 61 => ⟨S800000x1, .i1⟩
  | 62 => ⟨S800000x1, .i1⟩
  | 63 => ⟨S_, .i1⟩
  | 64 => ⟨S800000, .i1⟩
  | 65 => ⟨S800000x64, .f32⟩
  | 66 => ⟨S800000x64, .i1⟩
  | 67 => ⟨S_, .f32⟩
  | 68 => ⟨S800000x64, .f32⟩
  | 69 => ⟨S800000x64, .f32⟩
  | 70 => ⟨S1x144x64, .f32⟩
  | 71 => ⟨S144x64, .f32⟩
  | 72 => ⟨S1x64, .f32⟩
  | 73 => ⟨S64, .f32⟩
  | 74 => ⟨S1x64x64, .f32⟩
  | 75 => ⟨S64x64, .f32⟩
  | 76 => ⟨S1x64, .f32⟩
  | 77 => ⟨S64, .f32⟩
  | 78 => ⟨S1x64, .f32⟩
  | 79 => ⟨S1x64, .f32⟩
  | 80 => ⟨S800000x64, .f32⟩
  | 81 => ⟨S_, .f32⟩
  | 82 => ⟨S50000x64, .f32⟩
  | 83 => ⟨S800000x1, .i32⟩
  | 84 => ⟨S50000x64, .f32⟩
  | 85 => ⟨S1x192x64, .f32⟩
  | 86 => ⟨S192x64, .f32⟩
  | 87 => ⟨S1x192x64, .f32⟩
  | 88 => ⟨S192x64, .f32⟩
  | 89 => ⟨S1x192, .f32⟩
  | 90 => ⟨S192, .f32⟩
  | 91 => ⟨S1x192, .f32⟩
  | 92 => ⟨S192, .f32⟩
  | 93 => ⟨S1x192, .f32⟩
  | 94 => ⟨S1x192, .f32⟩
  | 95 => ⟨S50000x64, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S1, .i32⟩
  | 105 => ⟨S_, .i32⟩
  | 106 => ⟨S800000x1, .i32⟩
  | 107 => ⟨S800000x1, .i1⟩
  | 108 => ⟨S1x1, .i32⟩
  | 109 => ⟨S800000x1, .i32⟩
  | 110 => ⟨S800000x1, .i1⟩
  | 111 => ⟨S800000x1, .i1⟩
  | 112 => ⟨S_, .i1⟩
  | 113 => ⟨S800000, .i1⟩
  | 114 => ⟨S800000x64, .f32⟩
  | 115 => ⟨S800000x64, .i1⟩
  | 116 => ⟨S_, .f32⟩
  | 117 => ⟨S800000x64, .f32⟩
  | 118 => ⟨S800000x64, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S1, .i32⟩
  | _ => ⟨S50000x128, .f32⟩

abbrev hbmTy0_1 (i : Nat) : BufTy := match i % 128 with
  | 0 => ⟨S_, .i32⟩
  | 1 => ⟨S800000x1, .i32⟩
  | 2 => ⟨S800000x1, .i1⟩
  | 3 => ⟨S1x1, .i32⟩
  | 4 => ⟨S800000x1, .i32⟩
  | 5 => ⟨S800000x1, .i1⟩
  | 6 => ⟨S800000x1, .i1⟩
  | 7 => ⟨S_, .i1⟩
  | 8 => ⟨S800000, .i1⟩
  | 9 => ⟨S800000x64, .f32⟩
  | 10 => ⟨S800000x64, .i1⟩
  | 11 => ⟨S_, .f32⟩
  | 12 => ⟨S800000x64, .f32⟩
  | 13 => ⟨S800000x64, .f32⟩
  | 14 => ⟨S1x144x64, .f32⟩
  | 15 => ⟨S144x64, .f32⟩
  | 16 => ⟨S1x64, .f32⟩
  | 17 => ⟨S64, .f32⟩
  | 18 => ⟨S1x64x64, .f32⟩
  | 19 => ⟨S64x64, .f32⟩
  | 20 => ⟨S1x64, .f32⟩
  | 21 => ⟨S64, .f32⟩
  | 22 => ⟨S1x64, .f32⟩
  | 23 => ⟨S1x64, .f32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S1x192x64, .f32⟩
  | 30 => ⟨S192x64, .f32⟩
  | 31 => ⟨S1x192x64, .f32⟩
  | 32 => ⟨S192x64, .f32⟩
  | 33 => ⟨S1x192, .f32⟩
  | 34 => ⟨S192, .f32⟩
  | 35 => ⟨S1x192, .f32⟩
  | 36 => ⟨S192, .f32⟩
  | 37 => ⟨S1x192, .f32⟩
  | 38 => ⟨S1x192, .f32⟩
  | 39 => ⟨S50000x64, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S1, .i32⟩
  | 49 => ⟨S_, .i32⟩
  | 50 => ⟨S800000x1, .i32⟩
  | 51 => ⟨S800000x1, .i1⟩
  | 52 => ⟨S1x1, .i32⟩
  | 53 => ⟨S800000x1, .i32⟩
  | 54 => ⟨S800000x1, .i1⟩
  | 55 => ⟨S800000x1, .i1⟩
  | 56 => ⟨S_, .i1⟩
  | 57 => ⟨S800000, .i1⟩
  | 58 => ⟨S800000x64, .f32⟩
  | 59 => ⟨S800000x64, .i1⟩
  | 60 => ⟨S_, .f32⟩
  | 61 => ⟨S800000x64, .f32⟩
  | 62 => ⟨S800000x64, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S1, .i32⟩
  | 72 => ⟨S_, .i32⟩
  | 73 => ⟨S800000x1, .i32⟩
  | 74 => ⟨S800000x1, .i1⟩
  | 75 => ⟨S1x1, .i32⟩
  | 76 => ⟨S800000x1, .i32⟩
  | 77 => ⟨S800000x1, .i1⟩
  | 78 => ⟨S800000x1, .i1⟩
  | 79 => ⟨S_, .i1⟩
  | 80 => ⟨S800000, .i1⟩
  | 81 => ⟨S800000x64, .f32⟩
  | 82 => ⟨S800000x64, .i1⟩
  | 83 => ⟨S_, .f32⟩
  | 84 => ⟨S800000x64, .f32⟩
  | 85 => ⟨S800000x64, .f32⟩
  | 86 => ⟨S1x144x64, .f32⟩
  | 87 => ⟨S144x64, .f32⟩
  | 88 => ⟨S1x64, .f32⟩
  | 89 => ⟨S64, .f32⟩
  | 90 => ⟨S1x64x64, .f32⟩
  | 91 => ⟨S64x64, .f32⟩
  | 92 => ⟨S1x64, .f32⟩
  | 93 => ⟨S64, .f32⟩
  | 94 => ⟨S1x64, .f32⟩
  | 95 => ⟨S1x64, .f32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S1x192x64, .f32⟩
  | 102 => ⟨S192x64, .f32⟩
  | 103 => ⟨S1x192x64, .f32⟩
  | 104 => ⟨S192x64, .f32⟩
  | 105 => ⟨S1x192, .f32⟩
  | 106 => ⟨S192, .f32⟩
  | 107 => ⟨S1x192, .f32⟩
  | 108 => ⟨S192, .f32⟩
  | 109 => ⟨S1x192, .f32⟩
  | 110 => ⟨S1x192, .f32⟩
  | 111 => ⟨S50000x64, .f32⟩
  | 112 => ⟨S_, .f32⟩
  | 113 => ⟨S64x64, .f32⟩
  | 114 => ⟨S50000x1, .i32⟩
  | 115 => ⟨S64x64, .f32⟩
  | 116 => ⟨S_, .f32⟩
  | 117 => ⟨S50000, .f32⟩
  | 118 => ⟨S_, .f32⟩
  | 119 => ⟨S64, .f32⟩
  | 120 => ⟨S50000x1, .i32⟩
  | 121 => ⟨S64, .f32⟩
  | 122 => ⟨S_, .f32⟩
  | 123 => ⟨S64, .f32⟩
  | 124 => ⟨S64, .f32⟩
  | 125 => ⟨S64x1, .f32⟩
  | 126 => ⟨S64x64, .f32⟩
  | 127 => ⟨S64x64, .f32⟩
  | _ => ⟨S50000x128, .f32⟩

abbrev hbmTy0_2 (i : Nat) : BufTy := match i % 128 with
  | 0 => ⟨S64x64, .f32⟩
  | 1 => ⟨S1x64, .f32⟩
  | 2 => ⟨S64x64, .f32⟩
  | 3 => ⟨S64x64, .f32⟩
  | 4 => ⟨S_, .f32⟩
  | 5 => ⟨S64x64, .f32⟩
  | 6 => ⟨S64x64, .f32⟩
  | 7 => ⟨S64x1, .f32⟩
  | 8 => ⟨S1x1, .f32⟩
  | 9 => ⟨S64x1, .f32⟩
  | 10 => ⟨S64x1, .f32⟩
  | 11 => ⟨S64x1, .f32⟩
  | 12 => ⟨S64x1, .f32⟩
  | 13 => ⟨S_, .f32⟩
  | 14 => ⟨S64x1, .f32⟩
  | 15 => ⟨S64x1, .f32⟩
  | 16 => ⟨S_, .f32⟩
  | 17 => ⟨S64x1, .f32⟩
  | 18 => ⟨S64x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S8000x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x16, .f32⟩
  | .local _ .vmem, ⟨11, _⟩ => ⟨S8000x16, .f32⟩
  | .local _ .vmem, ⟨12, _⟩ => ⟨S144x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S8000x64, .f32⟩
  | .local _ .vmem, ⟨17, _⟩ => ⟨S8000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S192x64, .f32⟩
  | .local _ .vmem, ⟨23, _⟩ => ⟨S192x64, .f32⟩
  | .local _ .vmem, ⟨24, _⟩ => ⟨S1x192, .f32⟩
  | .local _ .vmem, ⟨25, _⟩ => ⟨S1x192, .f32⟩
  | .local _ .vmem, ⟨26, _⟩ => ⟨S5000x64, .f32⟩
  | .local _ .vmem, ⟨27, _⟩ => ⟨S5000x64, .f32⟩
  | .local _ .vmem, ⟨28, _⟩ => ⟨S8000x64, .f32⟩
  | .local _ .vmem, ⟨29, _⟩ => ⟨S8000x64, .f32⟩
  | .local _ .vmem, ⟨30, _⟩ => ⟨S8000x64, .f32⟩
  | .local _ .vmem, ⟨31, _⟩ => ⟨S8000x64, .f32⟩
  | .local _ .vmem, ⟨32, _⟩ => ⟨S8000x16, .f32⟩
  | .local _ .vmem, ⟨33, _⟩ => ⟨S8000x16, .f32⟩
  | .local _ .vmem, ⟨34, _⟩ => ⟨S144x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S8000x64, .f32⟩
  | .local _ .vmem, ⟨39, _⟩ => ⟨S8000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S192x64, .f32⟩
  | .local _ .vmem, ⟨45, _⟩ => ⟨S192x64, .f32⟩
  | .local _ .vmem, ⟨46, _⟩ => ⟨S1x192, .f32⟩
  | .local _ .vmem, ⟨47, _⟩ => ⟨S1x192, .f32⟩
  | .local _ .vmem, ⟨48, _⟩ => ⟨S5000x64, .f32⟩
  | .local _ .vmem, ⟨49, _⟩ => ⟨S5000x64, .f32⟩
  | .local _ .vmem, ⟨50, _⟩ => ⟨S8000x64, .f32⟩
  | .local _ .vmem, ⟨51, _⟩ => ⟨S8000x64, .f32⟩
  | .local _ .vmem, ⟨52, _⟩ => ⟨S8000x64, .f32⟩
  | .local _ .vmem, ⟨53, _⟩ => ⟨S8000x64, .f32⟩
  | .local _ .vmem, ⟨54, _⟩ => ⟨S8000x16, .f32⟩
  | .local _ .vmem, ⟨55, _⟩ => ⟨S8000x16, .f32⟩
  | .local _ .vmem, ⟨56, _⟩ => ⟨S144x64, .f32⟩
  | .local _ .vmem, ⟨57, _⟩ => ⟨S1x64, .f32⟩
  | .local _ .vmem, ⟨58, _⟩ => ⟨S64x64, .f32⟩
  | .local _ .vmem, ⟨59, _⟩ => ⟨S1x64, .f32⟩
  | .local _ .vmem, ⟨60, _⟩ => ⟨S8000x64, .f32⟩
  | .local _ .vmem, ⟨61, _⟩ => ⟨S8000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S192x64, .f32⟩
  | .local _ .vmem, ⟨67, _⟩ => ⟨S192x64, .f32⟩
  | .local _ .vmem, ⟨68, _⟩ => ⟨S1x192, .f32⟩
  | .local _ .vmem, ⟨69, _⟩ => ⟨S1x192, .f32⟩
  | .local _ .vmem, ⟨70, _⟩ => ⟨S5000x64, .f32⟩
  | .local _ .vmem, ⟨71, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v6 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v7 : Ref sig .tc := ⟨.hbm, 69, rfl⟩
abbrev main_v8 : Ref sig .tc := ⟨.hbm, 70, rfl⟩
abbrev main_v9 : Ref sig .tc := ⟨.hbm, 71, rfl⟩
abbrev main_v10 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_cst : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_call2_c : Ref sig .tc := ⟨.hbm, 96, rfl⟩
abbrev main_call2_v0 : Ref sig .tc := ⟨.hbm, 97, rfl⟩
abbrev main_call2_v1 : Ref sig .tc := ⟨.hbm, 98, rfl⟩
abbrev main_call2_c_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_c_1 : Ref sig .tc := ⟨.hbm, 104, rfl⟩
abbrev main_call2_c_2 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_3 : Ref sig .tc := ⟨.hbm, 112, rfl⟩
abbrev main_call2_v12 : Ref sig .tc := ⟨.hbm, 113, rfl⟩
abbrev main_call2_v13 : Ref sig .tc := ⟨.hbm, 114, rfl⟩
abbrev main_call2_v14 : Ref sig .tc := ⟨.hbm, 115, rfl⟩
abbrev main_call2_cst : Ref sig .tc := ⟨.hbm, 116, rfl⟩
abbrev main_call2_v15 : Ref sig .tc := ⟨.hbm, 117, rfl⟩
abbrev main_v33 : Ref sig .tc := ⟨.hbm, 118, rfl⟩
abbrev main_call3_c : Ref sig .tc := ⟨.hbm, 119, rfl⟩
abbrev main_call3_v0 : Ref sig .tc := ⟨.hbm, 120, rfl⟩
abbrev main_call3_v1 : Ref sig .tc := ⟨.hbm, 121, rfl⟩
abbrev main_call3_c_0 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_v5 : Ref sig .tc := ⟨.hbm, 126, rfl⟩
abbrev main_call3_c_1 : Ref sig .tc := ⟨.hbm, 127, rfl⟩
abbrev main_call3_c_2 : Ref sig .tc := ⟨.hbm, 128, rfl⟩
abbrev main_call3_v6 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_call3_v11 : Ref sig .tc := ⟨.hbm, 134, rfl⟩
abbrev main_call3_c_3 : Ref sig .tc := ⟨.hbm, 135, rfl⟩
abbrev main_call3_v12 : Ref sig .tc := ⟨.hbm, 136, rfl⟩
abbrev main_call3_v13 : Ref sig .tc := ⟨.hbm, 137, rfl⟩
abbrev main_call3_v14 : Ref sig .tc := ⟨.hbm, 138, rfl⟩
abbrev main_call3_cst : Ref sig .tc := ⟨.hbm, 139, rfl⟩
abbrev main_call3_v15 : Ref sig .tc := ⟨.hbm, 140, rfl⟩
abbrev main_v34 : Ref sig .tc := ⟨.hbm, 141, rfl⟩
abbrev main_v35 : Ref sig .tc := ⟨.hbm, 142, rfl⟩
abbrev main_v36 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_v45 : Ref sig .tc := ⟨.hbm, 152, rfl⟩
abbrev main_cst_0 : Ref sig .tc := ⟨.hbm, 153, rfl⟩
abbrev main_v46 : Ref sig .tc := ⟨.hbm, 154, rfl⟩
abbrev main_v47 : Ref sig .tc := ⟨.hbm, 155, rfl⟩
abbrev main_v48 : Ref sig .tc := ⟨.hbm, 156, rfl⟩
abbrev main_v49 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_call4_c : Ref sig .tc := ⟨.hbm, 168, rfl⟩
abbrev main_call4_v0 : Ref sig .tc := ⟨.hbm, 169, rfl⟩
abbrev main_call4_v1 : Ref sig .tc := ⟨.hbm, 170, rfl⟩
abbrev main_call4_c_0 : Ref sig .tc := ⟨.hbm, 171, rfl⟩
abbrev main_call4_v2 : Ref sig .tc := ⟨.hbm, 172, rfl⟩
abbrev main_call4_v3 : Ref sig .tc := ⟨.hbm, 173, rfl⟩
abbrev main_call4_v4 : Ref sig .tc := ⟨.hbm, 174, rfl⟩
abbrev main_call4_v5 : Ref sig .tc := ⟨.hbm, 175, rfl⟩
abbrev main_call4_c_1 : Ref sig .tc := ⟨.hbm, 176, rfl⟩
abbrev main_call4_c_2 : Ref sig .tc := ⟨.hbm, 177, rfl⟩
abbrev main_call4_v6 : Ref sig .tc := ⟨.hbm, 178, rfl⟩
abbrev main_call4_v7 : Ref sig .tc := ⟨.hbm, 179, rfl⟩
abbrev main_call4_v8 : Ref sig .tc := ⟨.hbm, 180, rfl⟩
abbrev main_call4_v9 : Ref sig .tc := ⟨.hbm, 181, rfl⟩
abbrev main_call4_v10 : Ref sig .tc := ⟨.hbm, 182, rfl⟩
abbrev main_call4_v11 : Ref sig .tc := ⟨.hbm, 183, rfl⟩
abbrev main_call4_c_3 : Ref sig .tc := ⟨.hbm, 184, rfl⟩
abbrev main_call4_v12 : Ref sig .tc := ⟨.hbm, 185, rfl⟩
abbrev main_call4_v13 : Ref sig .tc := ⟨.hbm, 186, rfl⟩
abbrev main_call4_v14 : Ref sig .tc := ⟨.hbm, 187, rfl⟩
abbrev main_call4_cst : Ref sig .tc := ⟨.hbm, 188, rfl⟩
abbrev main_call4_v15 : Ref sig .tc := ⟨.hbm, 189, rfl⟩
abbrev main_v60 : Ref sig .tc := ⟨.hbm, 190, rfl⟩
abbrev main_call5_c : Ref sig .tc := ⟨.hbm, 191, rfl⟩
abbrev main_call5_v0 : Ref sig .tc := ⟨.hbm, 192, rfl⟩
abbrev main_call5_v1 : Ref sig .tc := ⟨.hbm, 193, rfl⟩
abbrev main_call5_c_0 : Ref sig .tc := ⟨.hbm, 194, rfl⟩
abbrev main_call5_v2 : Ref sig .tc := ⟨.hbm, 195, rfl⟩
abbrev main_call5_v3 : Ref sig .tc := ⟨.hbm, 196, rfl⟩
abbrev main_call5_v4 : Ref sig .tc := ⟨.hbm, 197, rfl⟩
abbrev main_call5_v5 : Ref sig .tc := ⟨.hbm, 198, rfl⟩
abbrev main_call5_c_1 : Ref sig .tc := ⟨.hbm, 199, rfl⟩
abbrev main_call5_c_2 : Ref sig .tc := ⟨.hbm, 200, rfl⟩
abbrev main_call5_v6 : Ref sig .tc := ⟨.hbm, 201, rfl⟩
abbrev main_call5_v7 : Ref sig .tc := ⟨.hbm, 202, rfl⟩
abbrev main_call5_v8 : Ref sig .tc := ⟨.hbm, 203, rfl⟩
abbrev main_call5_v9 : Ref sig .tc := ⟨.hbm, 204, rfl⟩
abbrev main_call5_v10 : Ref sig .tc := ⟨.hbm, 205, rfl⟩
abbrev main_call5_v11 : Ref sig .tc := ⟨.hbm, 206, rfl⟩
abbrev main_call5_c_3 : Ref sig .tc := ⟨.hbm, 207, rfl⟩
abbrev main_call5_v12 : Ref sig .tc := ⟨.hbm, 208, rfl⟩
abbrev main_call5_v13 : Ref sig .tc := ⟨.hbm, 209, rfl⟩
abbrev main_call5_v14 : Ref sig .tc := ⟨.hbm, 210, rfl⟩
abbrev main_call5_cst : Ref sig .tc := ⟨.hbm, 211, rfl⟩
abbrev main_call5_v15 : Ref sig .tc := ⟨.hbm, 212, rfl⟩
abbrev main_v61 : Ref sig .tc := ⟨.hbm, 213, rfl⟩
abbrev main_v62 : Ref sig .tc := ⟨.hbm, 214, rfl⟩
abbrev main_v63 : Ref sig .tc := ⟨.hbm, 215, rfl⟩
abbrev main_v64 : Ref sig .tc := ⟨.hbm, 216, rfl⟩
abbrev main_v65 : Ref sig .tc := ⟨.hbm, 217, rfl⟩
abbrev main_v66 : Ref sig .tc := ⟨.hbm, 218, rfl⟩
abbrev main_v67 : Ref sig .tc := ⟨.hbm, 219, rfl⟩
abbrev main_v68 : Ref sig .tc := ⟨.hbm, 220, rfl⟩
abbrev main_v69 : Ref sig .tc := ⟨.hbm, 221, rfl⟩
abbrev main_v70 : Ref sig .tc := ⟨.hbm, 222, rfl⟩
abbrev main_v71 : Ref sig .tc := ⟨.hbm, 223, rfl⟩
abbrev main_v72 : Ref sig .tc := ⟨.hbm, 224, rfl⟩
abbrev main_cst_1 : Ref sig .tc := ⟨.hbm, 225, rfl⟩
abbrev main_v73 : Ref sig .tc := ⟨.hbm, 226, rfl⟩
abbrev main_v74 : Ref sig .tc := ⟨.hbm, 227, rfl⟩
abbrev main_v75 : Ref sig .tc := ⟨.hbm, 228, rfl⟩
abbrev main_v76 : Ref sig .tc := ⟨.hbm, 229, rfl⟩
abbrev main_v77 : Ref sig .tc := ⟨.hbm, 230, rfl⟩
abbrev main_v78 : Ref sig .tc := ⟨.hbm, 231, rfl⟩
abbrev main_v79 : Ref sig .tc := ⟨.hbm, 232, rfl⟩
abbrev main_v80 : Ref sig .tc := ⟨.hbm, 233, rfl⟩
abbrev main_v81 : Ref sig .tc := ⟨.hbm, 234, rfl⟩
abbrev main_v82 : Ref sig .tc := ⟨.hbm, 235, rfl⟩
abbrev main_v83 : Ref sig .tc := ⟨.hbm, 236, rfl⟩
abbrev main_v84 : Ref sig .tc := ⟨.hbm, 237, rfl⟩
abbrev main_v85 : Ref sig .tc := ⟨.hbm, 238, rfl⟩
abbrev main_v86 : Ref sig .tc := ⟨.hbm, 239, rfl⟩
abbrev main_cst_2 : Ref sig .tc := ⟨.hbm, 240, rfl⟩
abbrev main_v87 : Ref sig .tc := ⟨.hbm, 241, rfl⟩
abbrev main_v88 : Ref sig .tc := ⟨.hbm, 242, rfl⟩
abbrev main_v89 : Ref sig .tc := ⟨.hbm, 243, rfl⟩
abbrev main_cst_3 : Ref sig .tc := ⟨.hbm, 244, rfl⟩
abbrev main_v90 : Ref sig .tc := ⟨.hbm, 245, rfl⟩
abbrev main_cst_4 : Ref sig .tc := ⟨.hbm, 246, rfl⟩
abbrev main_v91 : Ref sig .tc := ⟨.hbm, 247, rfl⟩
abbrev main_v92 : Ref sig .tc := ⟨.hbm, 248, rfl⟩
abbrev main_v93 : Ref sig .tc := ⟨.hbm, 249, rfl⟩
abbrev main_cst_5 : Ref sig .tc := ⟨.hbm, 250, rfl⟩
abbrev main_v94 : Ref sig .tc := ⟨.hbm, 251, rfl⟩
abbrev main_v95 : Ref sig .tc := ⟨.hbm, 252, rfl⟩
abbrev main_v96 : Ref sig .tc := ⟨.hbm, 253, rfl⟩
abbrev main_v97 : Ref sig .tc := ⟨.hbm, 254, rfl⟩
abbrev main_v98 : Ref sig .tc := ⟨.hbm, 255, rfl⟩
abbrev main_v99 : Ref sig .tc := ⟨.hbm, 256, rfl⟩
abbrev main_v100 : Ref sig .tc := ⟨.hbm, 257, rfl⟩
abbrev main_v101 : Ref sig .tc := ⟨.hbm, 258, rfl⟩
abbrev main_v102 : Ref sig .tc := ⟨.hbm, 259, rfl⟩
abbrev main_call6_cst : Ref sig .tc := ⟨.hbm, 260, rfl⟩
abbrev main_call6_v0 : Ref sig .tc := ⟨.hbm, 261, rfl⟩
abbrev main_v103 : Ref sig .tc := ⟨.hbm, 262, rfl⟩
abbrev main_v104 : Ref sig .tc := ⟨.hbm, 263, rfl⟩
abbrev main_v105 : Ref sig .tc := ⟨.hbm, 264, rfl⟩
abbrev main_v106 : Ref sig .tc := ⟨.hbm, 265, rfl⟩
abbrev main_v107 : Ref sig .tc := ⟨.hbm, 266, rfl⟩
abbrev main_v108 : Ref sig .tc := ⟨.hbm, 267, rfl⟩
abbrev main_v109 : Ref sig .tc := ⟨.hbm, 268, rfl⟩
abbrev main_cst_6 : Ref sig .tc := ⟨.hbm, 269, rfl⟩
abbrev main_v110 : Ref sig .tc := ⟨.hbm, 270, rfl⟩
abbrev main_v111 : Ref sig .tc := ⟨.hbm, 271, rfl⟩
abbrev main_cst_7 : Ref sig .tc := ⟨.hbm, 272, rfl⟩
abbrev main_v112 : Ref sig .tc := ⟨.hbm, 273, rfl⟩
abbrev main_v113 : Ref sig .tc := ⟨.hbm, 274, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg7_0 : Ref sig .tc := ⟨.vmem, 60, rfl⟩
abbrev cc5_stg7_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg6_0 : Ref sig .tc := ⟨.vmem, 70, rfl⟩
abbrev cc6_stg6_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem7_0 : DmaSem sig := 60
abbrev cc5_sem7_1 : DmaSem sig := 61
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66
abbrev cc6_sem3_0 : DmaSem sig := 67
abbrev cc6_sem4_0 : DmaSem sig := 68
abbrev cc6_sem5_0 : DmaSem sig := 69
abbrev cc6_sem6_0 : DmaSem sig := 70
abbrev cc6_sem6_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S144x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S192x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S192x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x192 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S144x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S8000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S192x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S192x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x192 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x192 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S144x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S8000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S192x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S192x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x192 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x192 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S3x144x64_S1x144x64_0_0_0 : S3x144x64.Slices ![0, 0, 0] S1x144x64
  shapeCasts_S1x144x64_S144x64 : S1x144x64.ShapeCasts S144x64
  slices_S3x64_S1x64_0_0 : S3x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x16_S8000x16_0_0 : ∀ a, (![0, 0] : Fin 2 → Nat) a + S8000x16.size a ≤ S8000x16.size a
  h_S8000x16 : 0 < S8000x16.numel
  concatenates_S8000x64_S8000x64_S8000x16_S8000x144_d1 : Shape.Concatenates [S8000x64, S8000x64, S8000x16] S8000x144 1
  inb_S144x64_S144x64_0_0 : ∀ a, (![0, 0] : Fin 2 → Nat) a + S144x64.size a ≤ S144x64.size a
  h_S144x64 : 0 < S144x64.numel
  shapeCasts_S144x64_S144x64 : S144x64.ShapeCasts S144x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S50000x64 : S_.BroadcastsInDim S50000x64 (![] : Fin 0 → Fin S50000x64.rank)
  slices_S3x192x64_S1x192x64_0_0_0 : S3x192x64.Slices ![0, 0, 0] S1x192x64
  shapeCasts_S1x192x64_S192x64 : S1x192x64.ShapeCasts S192x64
  slices_S3x192_S1x192_0_0 : S3x192.Slices ![0, 0] S1x192
  shapeCasts_S1x192_S192 : S1x192.ShapeCasts S192
  shapeCasts_S192_S1x192 : S192.ShapeCasts S1x192
  shapeCasts_S5000x64_S5000x64 : S5000x64.ShapeCasts S5000x64
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  slices_S5000x192_o0_0_S5000x64 : S5000x192.Slices ![0, 0] S5000x64
  slices_S5000x192_o0_64_S5000x64 : S5000x192.Slices ![0, 64] S5000x64
  slices_S5000x192_o0_128_S5000x64 : S5000x192.Slices ![0, 128] S5000x64
  slices_S3x144x64_S1x144x64_1_0_0 : S3x144x64.Slices ![1, 0, 0] S1x144x64
  slices_S3x64_S1x64_1_0 : S3x64.Slices ![1, 0] S1x64
  slices_S3x64x64_S1x64x64_1_0_0 : S3x64x64.Slices ![1, 0, 0] S1x64x64
  slices_S3x192x64_S1x192x64_1_0_0 : S3x192x64.Slices ![1, 0, 0] S1x192x64
  slices_S3x192_S1x192_1_0 : S3x192.Slices ![1, 0] S1x192
  slices_S3x144x64_S1x144x64_2_0_0 : S3x144x64.Slices ![2, 0, 0] S1x144x64
  slices_S3x64_S1x64_2_0 : S3x64.Slices ![2, 0] S1x64
  slices_S3x64x64_S1x64x64_2_0_0 : S3x64x64.Slices ![2, 0, 0] S1x64x64
  slices_S3x192x64_S1x192x64_2_0_0 : S3x192x64.Slices ![2, 0, 0] S1x192x64
  slices_S3x192_S1x192_2_0 : S3x192.Slices ![2, 0] S1x192
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  dot_S8000x144_S144x64_S8000x64_1_0_0_1_n_n_wf : DotDims.WF S8000x144 S144x64 S8000x64 [1] [0] [0] [1] [] []
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  dot_S5000x64_S192x64_S5000x192_1_1_0_0_n_n_wf : DotDims.WF S5000x64 S192x64 S5000x192 [1] [1] [0] [0] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x64_S64x64_1_0_0_1_n_n_wf : DotDims.WF S64x64 S64x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .f32 = 32 ∨ (Rect.block (s := S800000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x16.size a ≤ S800000x16.size a
  hwx1_2 : ∀ i : grid1.Coords, EltTy.bits .f32 = 32 ∨ (Rect.block (s := S800000x16) S8000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S144x64.size a ≤ S144x64.size a
  hwx1_3 : ∀ i : grid1.Coords, EltTy.bits .f32 = 32 ∨ (Rect.block (s := S144x64) S144x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x64.size a ≤ S800000x64.size a
  hwx1_7 : ∀ i : grid1.Coords, EltTy.bits .f32 = 32 ∨ (Rect.block (s := S800000x64) S8000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S192x64.size a ≤ S192x64.size a
  hwx2_2 : ∀ i : grid2.Coords, EltTy.bits .f32 = 32 ∨ (Rect.block (s := S192x64) S192x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S192x64.size a ≤ S192x64.size a
  hwx2_3 : ∀ i : grid2.Coords, EltTy.bits .f32 = 32 ∨ (Rect.block (s := S192x64) S192x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x192.size a ≤ S1x192.size a
  hwx2_4 : ∀ i : grid2.Coords, EltTy.bits .f32 = 32 ∨ (Rect.block (s := S1x192) S1x192.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x192.size a ≤ S1x192.size a
  hwx2_5 : ∀ i : grid2.Coords, EltTy.bits .f32 = 32 ∨ (Rect.block (s := S1x192) S1x192.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S800000x64.size a
  hwx3_0 : ∀ i : grid3.Coords, EltTy.bits .f32 = 32 ∨ (Rect.block (s := S800000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S800000x64.size a
  hwx3_1 : ∀ i : grid3.Coords, EltTy.bits .f32 = 32 ∨ (Rect.block (s := S800000x64) S8000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x16.size a ≤ S800000x16.size a
  hwx3_2 : ∀ i : grid3.Coords, EltTy.bits .f32 = 32 ∨ (Rect.block (s := S800000x16) S8000x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S144x64.size a ≤ S144x64.size a
  hwx3_3 : ∀ i : grid3.Coords, EltTy.bits .f32 = 32 ∨ (Rect.block (s := S144x64) S144x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8000x64.size a ≤ S800000x64.size a
  hwx3_7 : ∀ i : grid3.Coords, EltTy.bits .f32 = 32 ∨ (Rect.block (s := S800000x64) S8000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S192x64.size a ≤ S192x64.size a
  hwx4_2 : ∀ i : grid4.Coords, EltTy.bits .f32 = 32 ∨ (Rect.block (s := S192x64) S192x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S192x64.size a ≤ S192x64.size a
  hwx4_3 : ∀ i : grid4.Coords, EltTy.bits .f32 = 32 ∨ (Rect.block (s := S192x64) S192x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x192.size a ≤ S1x192.size a
  hwx4_4 : ∀ i : grid4.Coords, EltTy.bits .f32 = 32 ∨ (Rect.block (s := S1x192) S1x192.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x192.size a ≤ S1x192.size a
  hwx4_5 : ∀ i : grid4.Coords, EltTy.bits .f32 = 32 ∨ (Rect.block (s := S1x192) S1x192.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S800000x64.size a
  hwx5_0 : ∀ i : grid5.Coords, EltTy.bits .f32 = 32 ∨ (Rect.block (s := S800000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x64.size a ≤ S800000x64.size a
  hwx5_1 : ∀ i : grid5.Coords, EltTy.bits .f32 = 32 ∨ (Rect.block (s := S800000x64) S8000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x16.size a ≤ S800000x16.size a
  hwx5_2 : ∀ i : grid5.Coords, EltTy.bits .f32 = 32 ∨ (Rect.block (s := S800000x16) S8000x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S144x64.size a ≤ S144x64.size a
  hwx5_3 : ∀ i : grid5.Coords, EltTy.bits .f32 = 32 ∨ (Rect.block (s := S144x64) S144x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S8000x64.size a ≤ S800000x64.size a
  hwx5_7 : ∀ i : grid5.Coords, EltTy.bits .f32 = 32 ∨ (Rect.block (s := S800000x64) S8000x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S192x64.size a ≤ S192x64.size a
  hwx6_2 : ∀ i : grid6.Coords, EltTy.bits .f32 = 32 ∨ (Rect.block (s := S192x64) S192x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S192x64.size a ≤ S192x64.size a
  hwx6_3 : ∀ i : grid6.Coords, EltTy.bits .f32 = 32 ∨ (Rect.block (s := S192x64) S192x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x192.size a ≤ S1x192.size a
  hwx6_4 : ∀ i : grid6.Coords, EltTy.bits .f32 = 32 ∨ (Rect.block (s := S1x192) S1x192.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x192.size a ≤ S1x192.size a
  hwx6_5 : ∀ i : grid6.Coords, EltTy.bits .f32 = 32 ∨ (Rect.block (s := S1x192) S1x192.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S50000x64.size a
  hwx6_6 : ∀ i : grid6.Coords, EltTy.bits .f32 = 32 ∨ (Rect.block (s := S50000x64) S5000x64.size (cc6_transform_6 i) (hinb6_6 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x144_S144x64_S8000x64_1_0_0_1_n_n : DotDims S8000x144 S144x64 S8000x64 where
  lhsContracting := [1]
  rhsContracting := [0]
  lhsNonContracting := [0]
  rhsNonContracting := [1]
  lhsBatch := []
  rhsBatch := []
  wf := dot_S8000x144_S144x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S192x64_S5000x192_1_1_0_0_n_n : DotDims S5000x64 S192x64 S5000x192 where
  lhsContracting := [1]
  rhsContracting := [1]
  lhsNonContracting := [0]
  rhsNonContracting := [0]
  lhsBatch := []
  rhsBatch := []
  wf := dot_S5000x64_S192x64_S5000x192_1_1_0_0_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S144x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S8000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v21) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S192x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S192x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1x192.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v33) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S8000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S144x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v44) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v45) S8000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v48) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S192x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v52) S192x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v57) S1x192.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v58) S1x192.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v59) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v60) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S8000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg2) S8000x16.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v63) S144x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v67) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v71) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v72) S8000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v75) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v59) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v77) S192x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79) S192x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v84) S1x192.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v85) S1x192.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v86) S5000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x64 : Shape := ⟨2, ![128, 64]⟩
abbrev S64 : Shape := ⟨1, ![64]⟩
abbrev S3x144x64 : Shape := ⟨3, ![3, 144, 64]⟩
abbrev S3x64 : Shape := ⟨2, ![3, 64]⟩
abbrev S3x64x64 : Shape := ⟨3, ![3, 64, 64]⟩
abbrev S3x192x64 : Shape := ⟨3, ![3, 192, 64]⟩
abbrev S3x192 : Shape := ⟨2, ![3, 192]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S1x144x64 : Shape := ⟨3, ![1, 144, 64]⟩
abbrev S144x64 : Shape := ⟨2, ![144, 64]⟩
abbrev S1x64x64 : Shape := ⟨3, ![1, 64, 64]⟩
abbrev S1x192x64 : Shape := ⟨3, ![1, 192, 64]⟩
abbrev S192x64 : Shape := ⟨2, ![192, 64]⟩
abbrev S1x192 : Shape := ⟨2, ![1, 192]⟩
abbrev S192 : Shape := ⟨1, ![192]⟩
abbrev S_ : Shape := ⟨0, ![]⟩
abbrev S800000x1 : Shape := ⟨2, ![800000, 1]⟩
abbrev S800000x64 : Shape := ⟨2, ![800000, 64]⟩
abbrev S800000x144 : Shape := ⟨2, ![800000, 144]⟩
abbrev S64x192 : Shape := ⟨2, ![64, 192]⟩
abbrev S50000x192 : Shape := ⟨2, ![50000, 192]⟩
abbrev S50000x1 : Shape := ⟨2, ![50000, 1]⟩
abbrev S1x1 : Shape := ⟨2, ![1, 1]⟩

abbrev nBuf : Space → Nat
  | .hbm => 340
  | .vmem => 0
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S50000, .i32⟩
  | 4 => ⟨S128x64, .f32⟩
  | 5 => ⟨S64, .f32⟩
  | 6 => ⟨S3x144x64, .f32⟩
  | 7 => ⟨S3x64, .f32⟩
  | 8 => ⟨S3x64x64, .f32⟩
  | 9 => ⟨S3x64, .f32⟩
  | 10 => ⟨S3x192x64, .f32⟩
  | 11 => ⟨S3x192x64, .f32⟩
  | 12 => ⟨S3x192, .f32⟩
  | 13 => ⟨S3x192, .f32⟩
  | 14 => ⟨S64x64, .f32⟩
  | 15 => ⟨S64, .f32⟩
  | 16 => ⟨S64x1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S50000x64, .f32⟩
  | 23 => ⟨S1x64, .f32⟩
  | 24 => ⟨S50000x64, .f32⟩
  | 25 => ⟨S50000x64, .f32⟩
  | 26 => ⟨S1x144x64, .f32⟩
  | 27 => ⟨S144x64, .f32⟩
  | 28 => ⟨S1x64, .f32⟩
  | 29 => ⟨S64, .f32⟩
  | 30 => ⟨S1x64x64, .f32⟩
  | 31 => ⟨S64x64, .f32⟩
  | 32 => ⟨S1x64, .f32⟩
  | 33 => ⟨S64, .f32⟩
  | 34 => ⟨S1x192x64, .f32⟩
  | 35 => ⟨S192x64, .f32⟩
  | 36 => ⟨S1x192x64, .f32⟩
  | 37 => ⟨S192x64, .f32⟩
  | 38 => ⟨S1x192, .f32⟩
  | 39 => ⟨S192, .f32⟩
  | 40 => ⟨S1x192, .f32⟩
  | 41 => ⟨S192, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x64, .f32⟩
  | 60 => ⟨S800000x144, .f32⟩
  | 61 => ⟨S800000x64, .f32⟩
  | 62 => ⟨S1x64, .f32⟩
  | 63 => ⟨S800000x64, .f32⟩
  | 64 => ⟨S800000x64, .f32⟩
  | 65 => ⟨S_, .f32⟩
  | 66 => ⟨S800000x64, .f32⟩
  | 67 => ⟨S800000x64, .f32⟩
  | 68 => ⟨S800000x64, .f32⟩
  | 69 => ⟨S1x64, .f32⟩
  | 70 => ⟨S800000x64, .f32⟩
  | 71 => ⟨S800000x64, .f32⟩
  | 72 => ⟨S_, .f32⟩
  | 73 => ⟨S50000x64, .f32⟩
  | 74 => ⟨S800000x1, .i32⟩
  | 75 => ⟨S50000x64, .f32⟩
  | 76 => ⟨S64x192, .f32⟩
  | 77 => ⟨S50000x192, .f32⟩
  | 78 => ⟨S1x192, .f32⟩
  | 79 => ⟨S50000x192, .f32⟩
  | 80 => ⟨S50000x192, .f32⟩
  | 81 => ⟨S64x192, .f32⟩
  | 82 => ⟨S50000x192, .f32⟩
  | 83 => ⟨S1x192, .f32⟩
  | 84 => ⟨S50000x192, .f32⟩
  | 85 => ⟨S50000x192, .f32⟩
  | 86 => ⟨S50000x64, .f32⟩
  | 87 => ⟨S50000x64, .f32⟩
  | 88 => ⟨S50000x64, .f32⟩
  | 89 => ⟨S50000x64, .f32⟩
  | 90 => ⟨S50000x64, .f32⟩
  | 91 => ⟨S_, .f32⟩
  | 92 => ⟨S50000x64, .f32⟩
  | 93 => ⟨S50000x64, .f32⟩
  | 94 => ⟨S_, .f32⟩
  | 95 => ⟨S50000x64, .f32⟩
  | 96 => ⟨S50000x64, .f32⟩
  | 97 => ⟨S50000x64, .f32⟩
  | 98 => ⟨S50000x64, .f32⟩
  | 99 => ⟨S50000x64, .f32⟩
  | 100 => ⟨S50000x64, .f32⟩
  | 101 => ⟨S50000x64, .f32⟩
  | 102 => ⟨S_, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S50000x64, .f32⟩
  | 109 => ⟨S50000x64, .f32⟩
  | 110 => ⟨S50000x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S50000x64, .f32⟩
  | 118 => ⟨S50000x64, .f32⟩
  | 119 => ⟨S1x144x64, .f32⟩
  | 120 => ⟨S144x64, .f32⟩
  | 121 => ⟨S1x64, .f32⟩
  | 122 => ⟨S64, .f32⟩
  | 123 => ⟨S1x64x64, .f32⟩
  | 124 => ⟨S64x64, .f32⟩
  | 125 => ⟨S1x64, .f32⟩
  | 126 => ⟨S64, .f32⟩
  | 127 => ⟨S1x192x64, .f32⟩
  | _ => ⟨S50000x128, .f32⟩

abbrev hbmTy0_1 (i : Nat) : BufTy := match i % 128 with
  | 0 => ⟨S192x64, .f32⟩
  | 1 => ⟨S1x192x64, .f32⟩
  | 2 => ⟨S192x64, .f32⟩
  | 3 => ⟨S1x192, .f32⟩
  | 4 => ⟨S192, .f32⟩
  | 5 => ⟨S1x192, .f32⟩
  | 6 => ⟨S192, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S800000x144, .f32⟩
  | 26 => ⟨S800000x64, .f32⟩
  | 27 => ⟨S1x64, .f32⟩
  | 28 => ⟨S800000x64, .f32⟩
  | 29 => ⟨S800000x64, .f32⟩
  | 30 => ⟨S_, .f32⟩
  | 31 => ⟨S800000x64, .f32⟩
  | 32 => ⟨S800000x64, .f32⟩
  | 33 => ⟨S800000x64, .f32⟩
  | 34 => ⟨S1x64, .f32⟩
  | 35 => ⟨S800000x64, .f32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S64x192, .f32⟩
  | 42 => ⟨S50000x192, .f32⟩
  | 43 => ⟨S1x192, .f32⟩
  | 44 => ⟨S50000x192, .f32⟩
  | 45 => ⟨S50000x192, .f32⟩
  | 46 => ⟨S64x192, .f32⟩
  | 47 => ⟨S50000x192, .f32⟩
  | 48 => ⟨S1x192, .f32⟩
  | 49 => ⟨S50000x192, .f32⟩
  | 50 => ⟨S50000x192, .f32⟩
  | 51 => ⟨S50000x64, .f32⟩
  | 52 => ⟨S50000x64, .f32⟩
  | 53 => ⟨S50000x64, .f32⟩
  | 54 => ⟨S50000x64, .f32⟩
  | 55 => ⟨S50000x64, .f32⟩
  | 56 => ⟨S_, .f32⟩
  | 57 => ⟨S50000x64, .f32⟩
  | 58 => ⟨S50000x64, .f32⟩
  | 59 => ⟨S_, .f32⟩
  | 60 => ⟨S50000x64, .f32⟩
  | 61 => ⟨S50000x64, .f32⟩
  | 62 => ⟨S50000x64, .f32⟩
  | 63 => ⟨S50000x64, .f32⟩
  | 64 => ⟨S50000x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S50000x64, .f32⟩
  | 74 => ⟨S50000x64, .f32⟩
  | 75 => ⟨S50000x64, .f32⟩
  | 76 => ⟨S50000x64, .f32⟩
  | 77 => ⟨S50000x64, .f32⟩
  | 78 => ⟨S_, .f32⟩
  | 79 => ⟨S50000x64, .f32⟩
  | 80 => ⟨S50000x64, .f32⟩
  | 81 => ⟨S50000x64, .f32⟩
  | 82 => ⟨S50000x64, .f32⟩
  | 83 => ⟨S50000x64, .f32⟩
  | 84 => ⟨S1x144x64, .f32⟩
  | 85 => ⟨S144x64, .f32⟩
  | 86 => ⟨S1x64, .f32⟩
  | 87 => ⟨S64, .f32⟩
  | 88 => ⟨S1x64x64, .f32⟩
  | 89 => ⟨S64x64, .f32⟩
  | 90 => ⟨S1x64, .f32⟩
  | 91 => ⟨S64, .f32⟩
  | 92 => ⟨S1x192x64, .f32⟩
  | 93 => ⟨S192x64, .f32⟩
  | 94 => ⟨S1x192x64, .f32⟩
  | 95 => ⟨S192x64, .f32⟩
  | 96 => ⟨S1x192, .f32⟩
  | 97 => ⟨S192, .f32⟩
  | 98 => ⟨S1x192, .f32⟩
  | 99 => ⟨S192, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x64, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x64, .f32⟩
  | 118 => ⟨S800000x144, .f32⟩
  | 119 => ⟨S800000x64, .f32⟩
  | 120 => ⟨S1x64, .f32⟩
  | 121 => ⟨S800000x64, .f32⟩
  | 122 => ⟨S800000x64, .f32⟩
  | 123 => ⟨S_, .f32⟩
  | 124 => ⟨S800000x64, .f32⟩
  | 125 => ⟨S800000x64, .f32⟩
  | 126 => ⟨S800000x64, .f32⟩
  | 127 => ⟨S1x64, .f32⟩
  | _ => ⟨S50000x128, .f32⟩

abbrev hbmTy0_2 (i : Nat) : BufTy := match i % 128 with
  | 0 => ⟨S800000x64, .f32⟩
  | 1 => ⟨S800000x64, .f32⟩
  | 2 => ⟨S_, .f32⟩
  | 3 => ⟨S50000x64, .f32⟩
  | 4 => ⟨S800000x1, .i32⟩
  | 5 => ⟨S50000x64, .f32⟩
  | 6 => ⟨S64x192, .f32⟩
  | 7 => ⟨S50000x192, .f32⟩
  | 8 => ⟨S1x192, .f32⟩
  | 9 => ⟨S50000x192, .f32⟩
  | 10 => ⟨S50000x192, .f32⟩
  | 11 => ⟨S64x192, .f32⟩
  | 12 => ⟨S50000x192, .f32⟩
  | 13 => ⟨S1x192, .f32⟩
  | 14 => ⟨S50000x192, .f32⟩
  | 15 => ⟨S50000x192, .f32⟩
  | 16 => ⟨S50000x64, .f32⟩
  | 17 => ⟨S50000x64, .f32⟩
  | 18 => ⟨S50000x64, .f32⟩
  | 19 => ⟨S50000x64, .f32⟩
  | 20 => ⟨S50000x64, .f32⟩
  | 21 => ⟨S_, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S50000x64, .f32⟩
  | 29 => ⟨S50000x64, .f32⟩
  | 30 => ⟨S50000x64, .f32⟩
  | 31 => ⟨S50000x64, .f32⟩
  | 32 => ⟨S_, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S50000x64, .f32⟩
  | 39 => ⟨S50000x64, .f32⟩
  | 40 => ⟨S50000x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S50000x64, .f32⟩
  | 47 => ⟨S50000x64, .f32⟩
  | 48 => ⟨S50000x64, .f32⟩
  | 49 => ⟨S_, .f32⟩
  | 50 => ⟨S64x64, .f32⟩
  | 51 => ⟨S50000x1, .i32⟩
  | 52 => ⟨S64x64, .f32⟩
  | 53 => ⟨S_, .f32⟩
  | 54 => ⟨S50000, .f32⟩
  | 55 => ⟨S_, .f32⟩
  | 56 => ⟨S64, .f32⟩
  | 57 => ⟨S50000x1, .i32⟩
  | 58 => ⟨S64, .f32⟩
  | 59 => ⟨S_, .f32⟩
  | 60 => ⟨S64, .f32⟩
  | 61 => ⟨S64, .f32⟩
  | 62 => ⟨S64x1, .f32⟩
  | 63 => ⟨S64x64, .f32⟩
  | 64 => ⟨S64x64, .f32⟩
  | 65 => ⟨S64x64, .f32⟩
  | 66 => ⟨S1x64, .f32⟩
  | 67 => ⟨S64x64, .f32⟩
  | 68 => ⟨S64x64, .f32⟩
  | 69 => ⟨S_, .f32⟩
  | 70 => ⟨S64x64, .f32⟩
  | 71 => ⟨S64x64, .f32⟩
  | 72 => ⟨S64x1, .f32⟩
  | 73 => ⟨S1x1, .f32⟩
  | 74 => ⟨S64x1, .f32⟩
  | 75 => ⟨S64x1, .f32⟩
  | 76 => ⟨S64x1, .f32⟩
  | 77 => ⟨S64x1, .f32⟩
  | 78 => ⟨S_, .f32⟩
  | 79 => ⟨S64x1, .f32⟩
  | 80 => ⟨S64x1, .f32⟩
  | 81 => ⟨S_, .f32⟩
  | 82 => ⟨S64x1, .f32⟩
  | 83 => ⟨S64x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_c_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_1 : Ref sig .tc := ⟨.hbm, 51, rfl⟩
abbrev main_v31 : Ref sig .tc := ⟨.hbm, 52, rfl⟩
abbrev main_v32 : Ref sig .tc := ⟨.hbm, 53, rfl⟩
abbrev main_c_2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call0_cst : Ref sig .tc := ⟨.hbm, 65, rfl⟩
abbrev main_call0_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_3 : Ref sig .tc := ⟨.hbm, 91, rfl⟩
abbrev main_v66 : Ref sig .tc := ⟨.hbm, 92, rfl⟩
abbrev main_v67 : Ref sig .tc := ⟨.hbm, 93, rfl⟩
abbrev main_cst_4 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_5 : Ref sig .tc := ⟨.hbm, 102, rfl⟩
abbrev main_v75 : Ref sig .tc := ⟨.hbm, 103, rfl⟩
abbrev main_v76 : Ref sig .tc := ⟨.hbm, 104, rfl⟩
abbrev main_cst_6 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_7 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_c_8 : Ref sig .tc := ⟨.hbm, 135, rfl⟩
abbrev main_v105 : Ref sig .tc := ⟨.hbm, 136, rfl⟩
abbrev main_v106 : Ref sig .tc := ⟨.hbm, 137, rfl⟩
abbrev main_c_9 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_c_10 : Ref sig .tc := ⟨.hbm, 144, rfl⟩
abbrev main_v112 : Ref sig .tc := ⟨.hbm, 145, rfl⟩
abbrev main_v113 : Ref sig .tc := ⟨.hbm, 146, rfl⟩
abbrev main_c_11 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_call1_cst : Ref sig .tc := ⟨.hbm, 158, rfl⟩
abbrev main_call1_v0 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_12 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_13 : Ref sig .tc := ⟨.hbm, 184, rfl⟩
abbrev main_v147 : Ref sig .tc := ⟨.hbm, 185, rfl⟩
abbrev main_v148 : Ref sig .tc := ⟨.hbm, 186, rfl⟩
abbrev main_cst_14 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_15 : Ref sig .tc := ⟨.hbm, 195, rfl⟩
abbrev main_v156 : Ref sig .tc := ⟨.hbm, 196, rfl⟩
abbrev main_v157 : Ref sig .tc := ⟨.hbm, 197, rfl⟩
abbrev main_cst_16 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_cst_17 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_c_18 : Ref sig .tc := ⟨.hbm, 228, rfl⟩
abbrev main_v186 : Ref sig .tc := ⟨.hbm, 229, rfl⟩
abbrev main_v187 : Ref sig .tc := ⟨.hbm, 230, rfl⟩
abbrev main_c_19 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_c_20 : Ref sig .tc := ⟨.hbm, 237, rfl⟩
abbrev main_v193 : Ref sig .tc := ⟨.hbm, 238, rfl⟩
abbrev main_v194 : Ref sig .tc := ⟨.hbm, 239, rfl⟩
abbrev main_c_21 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_call2_cst : Ref sig .tc := ⟨.hbm, 251, rfl⟩
abbrev main_call2_v0 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_cst_22 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_cst_23 : Ref sig .tc := ⟨.hbm, 277, rfl⟩
abbrev main_v228 : Ref sig .tc := ⟨.hbm, 278, rfl⟩
abbrev main_v229 : Ref sig .tc := ⟨.hbm, 279, rfl⟩
abbrev main_cst_24 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_cst_25 : Ref sig .tc := ⟨.hbm, 288, rfl⟩
abbrev main_v237 : Ref sig .tc := ⟨.hbm, 289, rfl⟩
abbrev main_v238 : Ref sig .tc := ⟨.hbm, 290, rfl⟩
abbrev main_cst_26 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_cst_27 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_cst_28 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_cst_29 : Ref sig .tc := ⟨.hbm, 309, rfl⟩
abbrev main_v254 : Ref sig .tc := ⟨.hbm, 310, rfl⟩
abbrev main_cst_30 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_cst_31 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_call3_cst : Ref sig .tc := ⟨.hbm, 325, rfl⟩
abbrev main_call3_v0 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_cst_32 : Ref sig .tc := ⟨.hbm, 334, rfl⟩
abbrev main_v274 : Ref sig .tc := ⟨.hbm, 335, rfl⟩
abbrev main_v275 : Ref sig .tc := ⟨.hbm, 336, rfl⟩
abbrev main_cst_33 : Ref sig .tc := ⟨.hbm, 337, rfl⟩
abbrev main_v276 : Ref sig .tc := ⟨.hbm, 338, rfl⟩
abbrev main_v277 : Ref sig .tc := ⟨.hbm, 339, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x144x64_S1x144x64_0_0_0 : S3x144x64.Slices ![0, 0, 0] S1x144x64
  shapeCasts_S1x144x64_S144x64 : S1x144x64.ShapeCasts S144x64
  slices_S3x64_S1x64_0_0 : S3x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  slices_S3x192x64_S1x192x64_0_0_0 : S3x192x64.Slices ![0, 0, 0] S1x192x64
  shapeCasts_S1x192x64_S192x64 : S1x192x64.ShapeCasts S192x64
  slices_S3x192_S1x192_0_0 : S3x192.Slices ![0, 0] S1x192
  shapeCasts_S1x192_S192 : S1x192.ShapeCasts S192
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  transposes_S192x64_S64x192_1_0 : S192x64.Transposes [1, 0] S64x192
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  slices_S3x144x64_S1x144x64_1_0_0 : S3x144x64.Slices ![1, 0, 0] S1x144x64
  slices_S3x64_S1x64_1_0 : S3x64.Slices ![1, 0] S1x64
  slices_S3x64x64_S1x64x64_1_0_0 : S3x64x64.Slices ![1, 0, 0] S1x64x64
  slices_S3x192x64_S1x192x64_1_0_0 : S3x192x64.Slices ![1, 0, 0] S1x192x64
  slices_S3x192_S1x192_1_0 : S3x192.Slices ![1, 0] S1x192
  slices_S3x144x64_S1x144x64_2_0_0 : S3x144x64.Slices ![2, 0, 0] S1x144x64
  slices_S3x64_S1x64_2_0 : S3x64.Slices ![2, 0] S1x64
  slices_S3x64x64_S1x64x64_2_0_0 : S3x64x64.Slices ![2, 0, 0] S1x64x64
  slices_S3x192x64_S1x192x64_2_0_0 : S3x192x64.Slices ![2, 0, 0] S1x192x64
  slices_S3x192_S1x192_2_0 : S3x192.Slices ![2, 0] S1x192
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  dot_S800000x144_S144x64_S800000x64_1_0_0_1_n_n_wf : DotDims.WF S800000x144 S144x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x64_S64x192_S50000x192_1_0_0_1_n_n_wf : DotDims.WF S50000x64 S64x192 S50000x192 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x64_S64x64_1_0_0_1_n_n_wf : DotDims.WF S64x64 S64x64 S64x64 [1] [0] [0] [1] [] []
  dot_S64x64_S64x1_S64x1_1_0_0_1_n_n_wf : DotDims.WF S64x64 S64x1 S64x1 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x64_S800000x64_1_0_0_1_n_n : DotDims S800000x144 S144x64 S800000x64 where
  lhsContracting := [1]
  rhsContracting := [0]
  lhsNonContracting := [0]
  rhsNonContracting := [1]
  lhsBatch := []
  rhsBatch := []
  wf := dot_S800000x144_S144x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x192_S50000x192_1_0_0_1_n_n : DotDims S50000x64 S64x192 S50000x192 where
  lhsContracting := [1]
  rhsContracting := [0]
  lhsNonContracting := [0]
  rhsNonContracting := [1]
  lhsBatch := []
  rhsBatch := []
  wf := dot_S50000x64_S64x192_S50000x192_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.Spec.lean ====
/-
  The mathematics both programs compute, index by index over the extended reals.

  A graph network on N = 50000 nodes and E = 800000 edges, hidden width 64.  Three row-wise functions
  carry all the arithmetic; each is written for ANY number of rows `n`, because entry (p, q) of each
  depends only on row p of its row-indexed operands (`*_congr`): a block of rows of the result is the
  same function of the matching block of rows of the operands, which is what lets a grid of row blocks
  be read as one whole-array function.

  * `embedAt`   x w b           : (x · w)(p, q) + b(0, q)                       — the node embedding;
  * `edgeAt`    xr xc ea …      : relu([xr | xc | ea] · w1 + b1) · w2 + b2       — the message of an edge from
                                   the two gathered node rows and the edge's attributes, `catAt` being the
                                   concatenation along the feature axis (64 + 64 + 16 = 144 columns);
  * `gruAt`     agg h …         : the GRU cell, gates in the order r, z, n: with gi = agg · wihᵀ + bih and
                                   gh = h · whhᵀ + bhh (192 = 3 · 64 columns each),
                                   r = σ(gi_r + gh_r), z = σ(gi_z + gh_z), n = tanh(gi_n + r · gh_n),
                                   h' = (1 − z) · n + z · h, σ the logistic function 1 / (1 + e^(−t)).

  The two float words the programs share are kept as words (`zeroW`, `oneW`): the same word on both sides is
  never evaluated.
-/
import Idealize.ShloMosaic.PureOps.Ideal
import Idealize.ShloMosaic.PureOps.Ideal.Laws
import Idealize.ShloMosaic.Lib.ValueIdx

noncomputable section

open scoped BigOperators

namespace Cert.Gnn

open Idealize.ShloMosaic Idealize.ShloMosaic.ValueIdx

/-- An r × c array of extended reals. -/
abbrev Mat (r c : Nat) : Type := (⟨2, ![r, c]⟩ : Shape).Idx → EReal

/-- The word of +0.0, the threshold of the rectifier. -/
abbrev zeroW : EReal := Ideal.ofBits .f32 0x00000000#32
/-- The word of 1.0 in the GRU's convex combination. -/
abbrev oneW : EReal := Ideal.ofBits .f32 0x3F800000#32

/-! ## The node embedding -/

/-- Entry (p, q) of x · w + b, the bias a single row. -/
def embedAt {n : Nat} (x : Mat n 128) (w : Mat 128 64) (b : Mat 1 64) (p : Fin n) (q : Fin 64) : EReal :=
  (∑ k : Fin 128, x (ix2 p k) * w (ix2 k q)) + b (ix2 0 q)

/-- x · w + b as an array. -/
def embedG {n : Nat} (x : Mat n 128) (w : Mat 128 64) (b : Mat 1 64) : Mat n 64 :=
  fun i => embedAt x w b (i 0) (i 1)

theorem embedG_ix2 {n : Nat} (x : Mat n 128) (w : Mat 128 64) (b : Mat 1 64) (p : Fin n) (q : Fin 64) :
    embedG x w b (ix2 p q) = embedAt x w b p q := rfl

/-- Row p of the embedding reads row p of x only. -/
theorem embedAt_congr {n n' : Nat} {x : Mat n 128} {x' : Mat n' 128} (w : Mat 128 64) (b : Mat 1 64)
    {p : Fin n} {p' : Fin n'} (hx : ∀ k : Fin 128, x (ix2 p k) = x' (ix2 p' k)) (q : Fin 64) :
    embedAt x w b p q = embedAt x' w b p' q := by
  unfold embedAt
  exact congrArg (· + b (ix2 0 q)) (Finset.sum_congr rfl fun k _ => by rw [hx k])

/-! ## The message of an edge -/

/-- Column l of the concatenation [xr | xc | ea] at row p: columns 0–63 are xr's, 64–127 xc's, 128–143 ea's. -/
def catAt {n : Nat} (xr xc : Mat n 64) (ea : Mat n 16) (p : Fin n) (l : Fin 144) : EReal :=
  if h : l.val < 64 then xr (ix2 p ⟨l.val, h⟩)
  else if h' : l.val < 128 then xc (ix2 p ⟨l.val - 64, by omega⟩)
  else ea (ix2 p ⟨l.val - 128, by omega⟩)

/-- The hidden layer: relu of the first affine map, at row p and hidden unit k. -/
def hiddenAt {n : Nat} (xr xc : Mat n 64) (ea : Mat n 16) (w1 : Mat 144 64) (b1 : Mat 1 64) (p : Fin n) (k : Fin 64) : EReal :=
  max ((∑ l : Fin 144, catAt xr xc ea p l * w1 (ix2 l k)) + b1 (ix2 0 k)) zeroW

/-- Entry (p, q) of the message: the second affine map of the hidden layer. -/
def edgeAt {n : Nat} (xr xc : Mat n 64) (ea : Mat n 16) (w1 : Mat 144 64) (b1 : Mat 1 64) (w2 : Mat 64 64) (b2 : Mat 1 64)
    (p : Fin n) (q : Fin 64) : EReal :=
  (∑ k : Fin 64, hiddenAt xr xc ea w1 b1 p k * w2 (ix2 k q)) + b2 (ix2 0 q)

/-- The messages as an array. -/
def edgeG {n : Nat} (xr xc : Mat n 64) (ea : Mat n 16) (w1 : Mat 144 64) (b1 : Mat 1 64) (w2 : Mat 64 64) (b2 : Mat 1 64) : Mat n 64 :=
  fun i => edgeAt xr xc ea w1 b1 w2 b2 (i 0) (i 1)

theorem edgeG_ix2 {n : Nat} (xr xc : Mat n 64) (ea : Mat n 16) (w1 : Mat 144 64) (b1 : Mat 1 64) (w2 : Mat 64 64) (b2 : Mat 1 64)
    (p : Fin n) (q : Fin 64) : edgeG xr xc ea w1 b1 w2 b2 (ix2 p q) = edgeAt xr xc ea w1 b1 w2 b2 p q := rfl

/-- Row p of the concatenation reads row p of each piece only. -/
theorem catAt_congr {n n' : Nat} {xr xc : Mat n 64} {ea : Mat n 16} {xr' xc' : Mat n' 64} {ea' : Mat n' 16}
    {p : Fin n} {p' : Fin n'} (hr : ∀ k : Fin 64, xr (ix2 p k) = xr' (ix2 p' k)) (hc : ∀ k : Fin 64, xc (ix2 p k) = xc' (ix2 p' k))
    (he : ∀ k : Fin 16, ea (ix2 p k) = ea' (ix2 p' k)) (l : Fin 144) : catAt xr xc ea p l = catAt xr' xc' ea' p' l := by
  unfold catAt
  split
  · exact hr _
  · split
    · exact hc _
    · exact he _

/-- Row p of the messages reads row p of the gathered rows and of the edge attributes only. -/
theorem edgeAt_congr {n n' : Nat} {xr xc : Mat n 64} {ea : Mat n 16} {xr' xc' : Mat n' 64} {ea' : Mat n' 16}
    (w1 : Mat 144 64) (b1 : Mat 1 64) (w2 : Mat 64 64) (b2 : Mat 1 64)
    {p : Fin n} {p' : Fin n'} (hr : ∀ k : Fin 64, xr (ix2 p k) = xr' (ix2 p' k)) (hc : ∀ k : Fin 64, xc (ix2 p k) = xc' (ix2 p' k))
    (he : ∀ k : Fin 16, ea (ix2 p k) = ea' (ix2 p' k)) (q : Fin 64) :
    edgeAt xr xc ea w1 b1 w2 b2 p q = edgeAt xr' xc' ea' w1 b1 w2 b2 p' q := by
  unfold edgeAt hiddenAt
  refine congrArg (· + b2 (ix2 0 q)) (Finset.sum_congr rfl fun k _ => ?_)
  refine congrArg (fun t => max (t + b1 (ix2 0 k)) zeroW * w2 (ix2 k q)) (Finset.sum_congr rfl fun l _ => ?_)
  rw [catAt_congr hr hc he l]

/-! ## The GRU cell -/

/-- One of the two gate pre-activations: (a · wᵀ)(p, g) + b(0, g), over the 192 = 3 · 64 gate columns. -/
def gateIn {n : Nat} (a : Mat n 64) (w : Mat 192 64) (b : Mat 1 192) (p : Fin n) (g : Fin 192) : EReal :=
  (∑ k : Fin 64, a (ix2 p k) * w (ix2 g k)) + b (ix2 0 g)

/-- Entry (p, q) of the updated hidden state. -/
def gruAt {n : Nat} (agg h : Mat n 64) (wih whh : Mat 192 64) (bih bhh : Mat 1 192) (p : Fin n) (q : Fin 64) : EReal :=
  let r := Ideal.logistic (gateIn agg wih bih p ⟨q.val, by omega⟩ + gateIn h whh bhh p ⟨q.val, by omega⟩)
  let z := Ideal.logistic (gateIn agg wih bih p ⟨q.val + 64, by omega⟩ + gateIn h whh bhh p ⟨q.val + 64, by omega⟩)
  let c := Ideal.tanh (gateIn agg wih bih p ⟨q.val + 128, by omega⟩ + r * gateIn h whh bhh p ⟨q.val + 128, by omega⟩)
  (oneW - z) * c + z * h (ix2 p q)

/-- The updated hidden state as an array. -/
def gruG {n : Nat} (agg h : Mat n 64) (wih whh : Mat 192 64) (bih bhh : Mat 1 192) : Mat n 64 :=
  fun i => gruAt agg h wih whh bih bhh (i 0) (i 1)

theorem gruG_ix2 {n : Nat} (agg h : Mat n 64) (wih whh : Mat 192 64) (bih bhh : Mat 1 192) (p : Fin n) (q : Fin 64) :
    gruG agg h wih whh bih bhh (ix2 p q) = gruAt agg h wih whh bih bhh p q := rfl

theorem gateIn_congr {n n' : Nat} {a : Mat n 64} {a' : Mat n' 64} (w : Mat 192 64) (b : Mat 1 192) {p : Fin n} {p' : Fin n'}
    (ha : ∀ k : Fin 64, a (ix2 p k) = a' (ix2 p' k)) (g : Fin 192) : gateIn a w b p g = gateIn a' w b p' g := by
  unfold gateIn
  exact congrArg (· + b (ix2 0 g)) (Finset.sum_congr rfl fun k _ => by rw [ha k])

/-- Row p of the update reads row p of the aggregate and of the state only. -/
theorem gruAt_congr {n n' : Nat} {agg h : Mat n 64} {agg' h' : Mat n' 64} (wih whh : Mat 192 64) (bih bhh : Mat 1 192)
    {p : Fin n} {p' : Fin n'} (ha : ∀ k : Fin 64, agg (ix2 p k) = agg' (ix2 p' k)) (hh : ∀ k : Fin 64, h (ix2 p k) = h' (ix2 p' k))
    (q : Fin 64) : gruAt agg h wih whh bih bhh p q = gruAt agg' h' wih whh bih bhh p' q := by
  unfold gruAt
  simp only [gateIn_congr wih bih ha, gateIn_congr whh bhh hh, hh q]

/-- A vector as a one-row matrix: the form in which a bias enters the row-wise functions. -/
def rowVec {n : Nat} (v : (⟨1, ![n]⟩ : Shape).Idx → EReal) : Mat 1 n := fun i => v (ix1 (i 1))

/-! ## One round of message passing

Over ABSTRACT row gathers `gr`, `gc` (the source and target node rows of every edge) and an abstract
scatter-add `seg` (the messages summed into their source nodes): each program supplies its own host
operations for the three, and the round is the GRU update of the state by the aggregated messages. -/

/-- h ↦ GRU(seg(message(gr h, gc h, ea)), h). -/
def layer {N E : Nat} (gr gc : Mat N 64 → Mat E 64) (seg : Mat E 64 → Mat N 64) (ea : Mat E 16)
    (w1 : Mat 144 64) (b1 : Mat 1 64) (w2 : Mat 64 64) (b2 : Mat 1 64)
    (wih whh : Mat 192 64) (bih bhh : Mat 1 192) (h : Mat N 64) : Mat N 64 :=
  gruG (seg (edgeG (gr h) (gc h) ea w1 b1 w2 b2)) h wih whh bih bhh

end Cert.Gnn

end
-- ==== Proof.KHost.lean ====
/-
  The kernel program's row gather, and the host functions around its three rounds.

  `takeFill h idx` is what the kernel program does for h[idx]: a negative index is wrapped once
  (idx + 50000), the row is gathered at the wrapped index, and a row whose wrapped index is outside
  0 … 49999 is replaced by the not-a-number word.  Where every index lies in −50000 … 49999 the wrapped
  index is in range, the replacement never happens, and `takeFill` is the plain gather at the wrapped
  index (`takeFill_eq`) — which is all the reference does.
-/
import proofs.«420387_j4148938408095_1_alg».proof.Proof.Spec
import proofs.«420387_j4148938408095_1_alg».proof.Proof.Gen.KernelIdeal
import Idealize.ShloMosaic.Lib.ValueIdx
import Idealize.ShloMosaic.Lib.StableHlo.Predicate
import Idealize.ShloMosaic.Lib.ValueLayout

noncomputable section

namespace Cert.KernelIdeal.KHost

open Idealize.ShloMosaic Idealize.ShloMosaic.TcCoe Idealize.ShloMosaic.ValueIdx Cert.KernelIdeal Cert.KernelIdeal.Gen Cert.Gnn

/-- Row 0 of the edge list: each edge's source node. -/
def rowOf (ei : IVec S2x800000 32) : IVec S800000 32 :=
  shapeCast S800000 (extractStridedSlice S1x800000 ![0, 0] ei slices_S2x800000_S1x800000_0_0) shapeCasts_S1x800000_S800000

/-- Row 1 of the edge list: each edge's target node. -/
def colOf (ei : IVec S2x800000 32) : IVec S800000 32 :=
  shapeCast S800000 (extractStridedSlice S1x800000 ![1, 0] ei slices_S2x800000_S1x800000_1_0) shapeCasts_S1x800000_S800000

/-- A negative index wrapped once around the 50000 rows, as a column of start indices. -/
def wrapIdx (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Per edge: is the wrapped index within 0 … 49999? -/
def inRange (I : IVec S800000x1 32) : IVec S800000 1 :=
  Host.reduce IntOp.andi
    (andi (cmpi .sge I (broadcastInDim S800000x1 ![] bcast_S_S800000x1 (constantI S_ 32 0#32)))
      (cmpi .sle I (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The plain gather of rows at the wrapped index. -/
def gatherWrap (h : Vec Ideal S50000x64 .f32) (idx : IVec S800000 32) : Vec Ideal S800000x64 .f32 :=
  Host.gather gather_S50000x64_S800000x1_S800000x64_1_0_n_n_0_1_164 h (wrapIdx idx)

/-- The kernel program's h[idx]: the gather, an out-of-range row replaced by the not-a-number word. -/
def takeFill (h : Vec Ideal S50000x64 .f32) (idx : IVec S800000 32) : Vec Ideal S800000x64 .f32 :=
  select (broadcastInDim S800000x64 ![0] bcast_S800000_S800000x64_0 (inRange (wrapIdx idx)))
    (gatherWrap h idx)
    (broadcastInDim S800000x64 ![] bcast_S_S800000x64 (constant (F := Ideal) S_ .f32 0x7FC00000#32))

/-- An integer in the signed 32-bit range is its own balanced remainder modulo 2³². -/
theorem bmod32 {n : Int} (h₁ : -2 ^ 31 ≤ n) (h₂ : n < 2 ^ 31) : n.bmod (2 ^ 32) = n :=
  Int.bmod_eq_of_le (by omega) (by omega)

/-- A word w with −50000 ≤ w < 50000, wrapped once (w + 50000 when w is negative: no overflow, the sum
    lies in 0 … 49999), lies in 0 … 49999: both range tests of the wrapped word come out 1. -/
theorem wrap_bit (w : BitVec 32) (h : -50000 ≤ w.toInt ∧ w.toInt < 50000) :
    IntOp.andi
      (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  have h0 : (0#32 : BitVec 32).toInt = 0 := by decide
  have h9 : (49999#32 : BitVec 32).toInt = 49999 := by decide
  have h5 : (50000#32 : BitVec 32).toInt = 50000 := by decide
  rw [IntOp.andi_eq_one, IntOp.cmpi_sge, IntOp.cmpi_sle, h0, h9]
  by_cases hn : w.toInt < 0
  · -- w negative: the wrapped word is w + 50000, and −50000 ≤ w < 0 puts it in 0 … 49999
    have hc : IntOp.cmpi .slt w 0#32 = 1#1 := IntOp.cmpi_slt.2 (by rw [h0]; exact hn)
    have ha : (IntOp.addi w 50000#32).toInt = w.toInt + 50000 := by
      rw [IntOp.addi, BitVec.toInt_add, h5, bmod32 (by omega) (by omega)]
    rw [hc, select_one, ha]
    omega
  · -- w non-negative: the wrapped word is w itself, and 0 ≤ w < 50000
    have hc : IntOp.cmpi .slt w 0#32 = 0#1 :=
      eq_zero_of_ne_one (fun hh => hn (by have := IntOp.cmpi_slt.1 hh; rw [h0] at this; exact this))
    rw [hc, select_zero]
    omega

/-- A left fold by "and" from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- A reduction by "and" from 1 of an array that is 1 everywhere is 1 at every result index. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x hx _

/-- With every index in −50000 … 49999 the range test of the wrapped index is 1 at every edge: each entry of
    the tested column is the wrapped word of one index, whose two range tests are 1. -/
theorem inRange_wrap (idx : IVec S800000 32)
    (hr : ∀ e : S800000.Idx, -50000 ≤ (idx e).toInt ∧ (idx e).toInt < 50000) (k : S800000.Idx) :
    inRange (wrapIdx idx) k = 1#1 := by
  unfold inRange
  refine reduce_andi_one _ _ _ _ rfl (fun i => ?_) k
  simp only [andi, cmpi, wrapIdx, broadcastInDim, select, addi, constantI]
  exact wrap_bit (idx _) (hr _)

/-- With every index in −50000 … 49999 no row is replaced. -/
theorem takeFill_eq (h : Vec Ideal S50000x64 .f32) (idx : IVec S800000 32)
    (hr : ∀ e : S800000.Idx, -50000 ≤ (idx e).toInt ∧ (idx e).toInt < 50000) :
    takeFill h idx = gatherWrap h idx := by
  funext j
  -- the mask bit at j's row is 1 …
  have hbit : broadcastInDim S800000x64 ![0] bcast_S800000_S800000x64_0 (inRange (wrapIdx idx)) j = 1#1 := by
    simp only [broadcastInDim]
    exact inRange_wrap idx hr _
  -- … so the select keeps the gathered row
  unfold takeFill
  rw [select_apply, hbit]
  exact select_one _ _

/-- Entry e of the source row is entry (0, e) of the edge list. -/
theorem rowOf_apply (ei : IVec S2x800000 32) (e : Fin 800000) : rowOf ei (ix1 e) = ei (ix2 0 e) := by
  unfold rowOf
  -- the reshape [1, 800000] → [800000] reads (0, e); the slice from row 0 reads row 0 + 0
  rw [shapeCast_1a_a_apply]
  exact slice2_axis0_apply 0 ei _ (0 : Fin 1) e (0 : Fin 2) rfl

/-- Entry e of the target row is entry (1, e) of the edge list. -/
theorem colOf_apply (ei : IVec S2x800000 32) (e : Fin 800000) : colOf ei (ix1 e) = ei (ix2 1 e) := by
  unfold colOf
  -- the reshape [1, 800000] → [800000] reads (0, e); the slice from row 1 reads row 1 + 0
  rw [shapeCast_1a_a_apply]
  exact slice2_axis0_apply 1 ei _ (0 : Fin 1) e (1 : Fin 2) rfl

/-! ## The other host functions of the kernel program -/

/-- A bias vector as a one-row matrix. -/
def biasRow (b : Vec Ideal S64 .f32) : Vec Ideal S1x64 .f32 := shapeCast S1x64 b shapeCasts_S64_S1x64

/-- Layer o's first message weight out of the stack of three. -/
def w1At (o : Fin 3 → Nat) (hs : S3x144x64.Slices o S1x144x64) (w : Vec Ideal S3x144x64 .f32) : Vec Ideal S144x64 .f32 :=
  shapeCast S144x64 (extractStridedSlice S1x144x64 o w hs) shapeCasts_S1x144x64_S144x64
/-- Layer o's message bias (either of the two), as a one-row matrix. -/
def b64At (o : Fin 2 → Nat) (hs : S3x64.Slices o S1x64) (b : Vec Ideal S3x64 .f32) : Vec Ideal S1x64 .f32 :=
  shapeCast S1x64 (shapeCast S64 (extractStridedSlice S1x64 o b hs) shapeCasts_S1x64_S64) shapeCasts_S64_S1x64
/-- Layer o's second message weight. -/
def w2At (o : Fin 3 → Nat) (hs : S3x64x64.Slices o S1x64x64) (w : Vec Ideal S3x64x64 .f32) : Vec Ideal S64x64 .f32 :=
  shapeCast S64x64 (extractStridedSlice S1x64x64 o w hs) shapeCasts_S1x64x64_S64x64
/-- Layer o's GRU weight (input or hidden). -/
def wgAt (o : Fin 3 → Nat) (hs : S3x192x64.Slices o S1x192x64) (w : Vec Ideal S3x192x64 .f32) : Vec Ideal S192x64 .f32 :=
  shapeCast S192x64 (extractStridedSlice S1x192x64 o w hs) shapeCasts_S1x192x64_S192x64
/-- Layer o's GRU bias (input or hidden), as a one-row matrix. -/
def bgAt (o : Fin 2 → Nat) (hs : S3x192.Slices o S1x192) (b : Vec Ideal S3x192 .f32) : Vec Ideal S1x192 .f32 :=
  shapeCast S1x192 (shapeCast S192 (extractStridedSlice S1x192 o b hs) shapeCasts_S1x192_S192) shapeCasts_S192_S1x192

/-- The messages summed into their source nodes: a scatter-add into zeros. -/
def segSum (row : IVec S800000 32) (msg : Vec Ideal S800000x64 .f32) : Vec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 row) msg

/-- The graph readout: mean pool of the node states by graph, two affine maps with a rectifier between, a logistic. -/
def readout (h : FVec Ideal S50000x64 .f32) (batch : IVec S50000 32) (w1 : FVec Ideal S64x64 .f32) (b1 : FVec Ideal S64 .f32)
    (w2 : FVec Ideal S64x1 .f32) (b2 : FVec Ideal S1 .f32) : FVec Ideal S64x1 .f32 :=
  let sums : FVec Ideal S64x64 .f32 := Host.scatterAdd scatter_S64x64_S50000x1_S50000x64_1_0_0_1
    (broadcastInDim S64x64 ![] bcast_S_S64x64 (constant (F := Ideal) S_ .f32 0x00000000#32))
    (broadcastInDim S50000x1 ![0] bcast_S50000_S50000x1_0 batch) h
  let counts : FVec Ideal S64 .f32 := Host.scatterAdd scatter_S64_S50000x1_S50000_n_0_0_1
    (broadcastInDim S64 ![] bcast_S_S64 (constant (F := Ideal) S_ .f32 0x00000000#32))
    (broadcastInDim S50000x1 ![0] bcast_S50000_S50000x1_0 batch)
    (broadcastInDim S50000 ![] bcast_S_S50000 (constant (F := Ideal) S_ .f32 0x3F800000#32))
  let den : FVec Ideal S64 .f32 := maximumf counts (broadcastInDim S64 ![] bcast_S_S64 (constant (F := Ideal) S_ .f32 0x3F800000#32))
  let g : FVec Ideal S64x64 .f32 := Host.divf sums (broadcastInDim S64x64 ![0, 1] bcast_S64x1_S64x64_0_1 (broadcastInDim S64x1 ![0] bcast_S64_S64x1_0 den))
  let a1 : FVec Ideal S64x64 .f32 := addf (Host.dotGeneral dot_S64x64_S64x64_S64x64_1_0_0_1_n_n none g w1)
    (broadcastInDim S64x64 ![0, 1] bcast_S1x64_S64x64_0_1 (broadcastInDim S1x64 ![1] bcast_S64_S1x64_1 b1))
  let r1 : FVec Ideal S64x64 .f32 := maximumf a1 (broadcastInDim S64x64 ![] bcast_S_S64x64 (constant (F := Ideal) S_ .f32 0x00000000#32))
  let a2 : FVec Ideal S64x1 .f32 := addf (Host.dotGeneral dot_S64x64_S64x1_S64x1_1_0_0_1_n_n none r1 w2)
    (broadcastInDim S64x1 ![0, 1] bcast_S1x1_S64x1_0_1 (broadcastInDim S1x1 ![1] bcast_S1_S1x1_1 b2))
  Host.divf (broadcastInDim S64x1 ![] bcast_S_S64x1 (constant (F := Ideal) S_ .f32 0x3F800000#32))
    (addf (broadcastInDim S64x1 ![] bcast_S_S64x1 (constant (F := Ideal) S_ .f32 0x3F800000#32)) (Host.exp (Host.negf a2)))

end Cert.KernelIdeal.KHost

end
-- ==== Proof.PayEmbedEdge.lean ====
/-
  The embedding body and the edge body of the kernel program, each read at an index.

  Both bodies are a product with a zero accumulator (a sum over the contracted axis), a one-row bias
  broadcast down the rows, and — for the edge body — a concatenation along the columns in front, a
  maximum with zero between two such products.  A change of float format is the identity on the
  extended reals.  Entry (p, q) of each body is the specification's `embedAt` / `edgeAt`.
-/
import proofs.«420387_j4148938408095_1_alg».proof.Proof.Spec
import proofs.«420387_j4148938408095_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Payload

open Idealize.ShloMosaic Idealize.ShloMosaic.ValueIdx Idealize.SL.Sem Cert.KernelIdeal Cert.KernelIdeal.Gen Cert.Gnn

/-! ## A rows × contraction by contraction × columns product at an index

The three products of the two bodies have the same dimension numbers (the left operand's columns contracted
with the right operand's rows, no batch axis) at three sizes.  Given what the dimension numbers' two operand
indices read on each axis, entry (p, q) of the product into a zero accumulator is the sum over the contracted
coordinate c of left (p, c) times right (c, q). -/

theorem product_apply {m k n : Nat} {φ₁ φ₂ : FTy} (D : DotDims ⟨2, ![m, k]⟩ ⟨2, ![k, n]⟩ ⟨2, ![m, n]⟩)
    (hr : D.contr.rank = 1) (hs : D.contr.size ⟨0, by omega⟩ = k)
    (l0 : ∀ (i : (⟨2, ![m, n]⟩ : Shape).Idx) (c : D.contr.Idx), (D.lhsIdx i c 0).val = (i 0).val)
    (l1 : ∀ (i : (⟨2, ![m, n]⟩ : Shape).Idx) (c : D.contr.Idx), (D.lhsIdx i c 1).val = (c ⟨0, by omega⟩).val)
    (r0 : ∀ (i : (⟨2, ![m, n]⟩ : Shape).Idx) (c : D.contr.Idx), (D.rhsIdx i c 0).val = (c ⟨0, by omega⟩).val)
    (r1 : ∀ (i : (⟨2, ![m, n]⟩ : Shape).Idx) (c : D.contr.Idx), (D.rhsIdx i c 1).val = (i 1).val)
    (x : FVec Ideal ⟨2, ![m, k]⟩ φ₁) (w : FVec Ideal ⟨2, ![k, n]⟩ φ₂) (p : Fin m) (q : Fin n) :
    matmul D none x w (constant (F := Ideal) ⟨2, ![m, n]⟩ .f32 0x00000000#32) (ix2 p q)
      = ∑ c : Fin k, x (ix2 p c) * w (ix2 c q) := by
  simp only [matmul]
  rw [Ideal.matmul_constant_zero_apply, ← Equiv.sum_comp (contrEquiv1 D k hr hs).symm]
  refine Finset.sum_congr rfl fun c _ => ?_
  have hc := contrEquiv1_symm_val D k hr hs c
  have el : D.lhsIdx (ix2 p q) ((contrEquiv1 D k hr hs).symm c) = ix2 p c := funext fun a => Fin.ext (by
    match a with
    | ⟨0, _⟩ => exact l0 _ _
    | ⟨1, _⟩ => exact (l1 _ _).trans hc)
  have er : D.rhsIdx (ix2 p q) ((contrEquiv1 D k hr hs).symm c) = ix2 c q := funext fun a => Fin.ext (by
    match a with
    | ⟨0, _⟩ => exact (r0 _ _).trans hc
    | ⟨1, _⟩ => exact r1 _ _)
  rw [el, er]

/-! ### What the three products' operand indices read on each axis -/

theorem lhs_embed_0 (i : S5000x64.Idx) (c : dot_S5000x128_S128x64_S5000x64_1_0_0_1_n_n.contr.Idx) :
    (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs_embed_1 (i : S5000x64.Idx) (c : dot_S5000x128_S128x64_S5000x64_1_0_0_1_n_n.contr.Idx) :
    (dot_S5000x128_S128x64_S5000x64_1_0_0_1_n_n.lhsIdx i c 1).val = (c ⟨0, by decide⟩).val :=
  dot_S5000x128_S128x64_S5000x64_1_0_0_1_n_n.lhsIdx_val_of_single rfl i c
theorem rhs_embed_0 (i : S5000x64.Idx) (c : dot_S5000x128_S128x64_S5000x64_1_0_0_1_n_n.contr.Idx) :
    (dot_S5000x128_S128x64_S5000x64_1_0_0_1_n_n.rhsIdx i c 0).val = (c ⟨0, by decide⟩).val :=
  dot_S5000x128_S128x64_S5000x64_1_0_0_1_n_n.rhsIdx_val_of_single rfl i c
theorem rhs_embed_1 (i : S5000x64.Idx) (c : dot_S5000x128_S128x64_S5000x64_1_0_0_1_n_n.contr.Idx) :
    (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The embedding's product at (p, q). -/
theorem embed_product (x : FVec Ideal S5000x128 .bf16) (w : FVec Ideal S128x64 .bf16) (p : Fin 5000) (q : Fin 64) :
    matmul dot_S5000x128_S128x64_S5000x64_1_0_0_1_n_n none x w (constant (F := Ideal) S5000x64 .f32 0x00000000#32) (ix2 p q)
      = ∑ c : Fin 128, x (ix2 p c) * w (ix2 c q) :=
  product_apply dot_S5000x128_S128x64_S5000x64_1_0_0_1_n_n rfl rfl lhs_embed_0 lhs_embed_1 rhs_embed_0 rhs_embed_1 x w p q

/-- The embedding body is x · w + b. -/
theorem embed_eq (x : Vec Ideal S5000x128 .f32) (w : Vec Ideal S128x64 .f32) (b : Vec Ideal S1x64 .f32) :
    k0_pay1 (F := Ideal) x w b = embedG x w b := by
  funext j
  obtain ⟨p, q, rfl⟩ : ∃ (p : Fin 5000) (q : Fin 64), j = ix2 p q := ⟨j 0, j 1, eq_ix2 j⟩
  rw [embedG_ix2]
  unfold embedAt
  simp only [k0_pay1]
  rw [addf_apply, broadcastTo_1b_ab_apply, shapeCast_self, embed_product]
  rfl

/-! ## The edge body -/

theorem lhs_hidden_0 (i : S8000x64.Idx) (c : dot_S8000x144_S144x64_S8000x64_1_0_0_1_n_n.contr.Idx) :
    (dot_S8000x144_S144x64_S8000x64_1_0_0_1_n_n.lhsIdx i c 0).val = (i 0).val := by
  unfold DotDims.lhsIdx
  rw [dif_neg (show ¬(0 : Fin S8000x144.rank) ∈ dot_S8000x144_S144x64_S8000x64_1_0_0_1_n_n.lhsBatch by decide),
    dif_pos (show (0 : Fin S8000x144.rank) ∈ dot_S8000x144_S144x64_S8000x64_1_0_0_1_n_n.lhsNonContracting by decide)]
  rfl
theorem lhs_hidden_1 (i : S8000x64.Idx) (c : dot_S8000x144_S144x64_S8000x64_1_0_0_1_n_n.contr.Idx) :
    (dot_S8000x144_S144x64_S8000x64_1_0_0_1_n_n.lhsIdx i c 1).val = (c ⟨0, by decide⟩).val :=
  dot_S8000x144_S144x64_S8000x64_1_0_0_1_n_n.lhsIdx_val_of_single rfl i c
theorem rhs_hidden_0 (i : S8000x64.Idx) (c : dot_S8000x144_S144x64_S8000x64_1_0_0_1_n_n.contr.Idx) :
    (dot_S8000x144_S144x64_S8000x64_1_0_0_1_n_n.rhsIdx i c 0).val = (c ⟨0, by decide⟩).val :=
  dot_S8000x144_S144x64_S8000x64_1_0_0_1_n_n.rhsIdx_val_of_single rfl i c
theorem rhs_hidden_1 (i : S8000x64.Idx) (c : dot_S8000x144_S144x64_S8000x64_1_0_0_1_n_n.contr.Idx) :
    (dot_S8000x144_S144x64_S8000x64_1_0_0_1_n_n.rhsIdx i c 1).val = (i 1).val := by
  unfold DotDims.rhsIdx
  rw [dif_neg (show ¬(1 : Fin S144x64.rank) ∈ dot_S8000x144_S144x64_S8000x64_1_0_0_1_n_n.rhsBatch by decide),
    dif_pos (show (1 : Fin S144x64.rank) ∈ dot_S8000x144_S144x64_S8000x64_1_0_0_1_n_n.rhsNonContracting by decide)]
  rfl

/-- The hidden layer's product at (p, q): 144 = 64 + 64 + 16 contracted columns. -/
theorem hidden_product (x : FVec Ideal S8000x144 .bf16) (w : FVec Ideal S144x64 .bf16) (p : Fin 8000) (q : Fin 64) :
    matmul dot_S8000x144_S144x64_S8000x64_1_0_0_1_n_n none x w (constant (F := Ideal) S8000x64 .f32 0x00000000#32) (ix2 p q)
      = ∑ c : Fin 144, x (ix2 p c) * w (ix2 c q) :=
  product_apply dot_S8000x144_S144x64_S8000x64_1_0_0_1_n_n rfl rfl lhs_hidden_0 lhs_hidden_1 rhs_hidden_0 rhs_hidden_1 x w p q

theorem lhs_message_0 (i : S8000x64.Idx) (c : dot_S8000x64_S64x64_S8000x64_1_0_0_1_n_n.contr.Idx) :
    (dot_S8000x64_S64x64_S8000x64_1_0_0_1_n_n.lhsIdx i c 0).val = (i 0).val := by
  unfold DotDims.lhsIdx
  rw [dif_neg (show ¬(0 : Fin S8000x64.rank) ∈ dot_S8000x64_S64x64_S8000x64_1_0_0_1_n_n.lhsBatch by decide),
    dif_pos (show (0 : Fin S8000x64.rank) ∈ dot_S8000x64_S64x64_S8000x64_1_0_0_1_n_n.lhsNonContracting by decide)]
  rfl
theorem lhs_message_1 (i : S8000x64.Idx) (c : dot_S8000x64_S64x64_S8000x64_1_0_0_1_n_n.contr.Idx) :
    (dot_S8000x64_S64x64_S8000x64_1_0_0_1_n_n.lhsIdx i c 1).val = (c ⟨0, by decide⟩).val :=
  dot_S8000x64_S64x64_S8000x64_1_0_0_1_n_n.lhsIdx_val_of_single rfl i c
theorem rhs_message_0 (i : S8000x64.Idx) (c : dot_S8000x64_S64x64_S8000x64_1_0_0_1_n_n.contr.Idx) :
    (dot_S8000x64_S64x64_S8000x64_1_0_0_1_n_n.rhsIdx i c 0).val = (c ⟨0, by decide⟩).val :=
  dot_S8000x64_S64x64_S8000x64_1_0_0_1_n_n.rhsIdx_val_of_single rfl i c
theorem rhs_message_1 (i : S8000x64.Idx) (c : dot_S8000x64_S64x64_S8000x64_1_0_0_1_n_n.contr.Idx) :
    (dot_S8000x64_S64x64_S8000x64_1_0_0_1_n_n.rhsIdx i c 1).val = (i 1).val := by
  unfold DotDims.rhsIdx
  rw [dif_neg (show ¬(1 : Fin S64x64.rank) ∈ dot_S8000x64_S64x64_S8000x64_1_0_0_1_n_n.rhsBatch by decide),
    dif_pos (show (1 : Fin S64x64.rank) ∈ dot_S8000x64_S64x64_S8000x64_1_0_0_1_n_n.rhsNonContracting by decide)]
  rfl

/-- The second layer's product at (p, q). -/
theorem message_product (x : FVec Ideal S8000x64 .bf16) (w : FVec Ideal S64x64 .bf16) (p : Fin 8000) (q : Fin 64) :
    matmul dot_S8000x64_S64x64_S8000x64_1_0_0_1_n_n none x w (constant (F := Ideal) S8000x64 .f32 0x00000000#32) (ix2 p q)
      = ∑ c : Fin 64, x (ix2 p c) * w (ix2 c q) :=
  product_apply dot_S8000x64_S64x64_S8000x64_1_0_0_1_n_n rfl rfl lhs_message_0 lhs_message_1 rhs_message_0 rhs_message_1 x w p q

/-- Column l of the concatenation [xr | xc | ea] at row p: the piece whose span of columns holds l (0–63, 64–127,
    128–143), at l less the widths of the pieces before it. -/
theorem cat_apply (xr xc : FVec Ideal S8000x64 .f32) (ea : FVec Ideal S8000x16 .f32) (p : Fin 8000) (l : Fin 144) :
    concatenate S8000x144 1 [⟨S8000x64, xr⟩, ⟨S8000x64, xc⟩, ⟨S8000x16, ea⟩]
        concatenates_S8000x64_S8000x64_S8000x16_S8000x144_d1 (ix2 p l)
      = catAt xr xc ea p l := by
  unfold catAt
  by_cases h : l.val < 64
  · rw [dif_pos h]
    exact concatenate_apply_piece (1 : Fin S8000x144.rank) _ _ (ix2 p l) 0 (by simp) S8000x64 xr rfl rfl 0 rfl
      (ix2 p ⟨l.val, h⟩)
      (fun b hb => by
        match b with
        | ⟨0, _⟩ => rfl
        | ⟨1, _⟩ => exact absurd rfl hb)
      (Nat.zero_add _)
  · rw [dif_neg h]
    by_cases h' : l.val < 128
    · rw [dif_pos h']
      exact concatenate_apply_piece (1 : Fin S8000x144.rank) _ _ (ix2 p l) 1 (by simp) S8000x64 xc rfl rfl 64 rfl
        (ix2 p ⟨l.val - 64, by omega⟩)
        (fun b hb => by
          match b with
          | ⟨0, _⟩ => rfl
          | ⟨1, _⟩ => exact absurd rfl hb)
        (by show 64 + (l.val - 64) = l.val; omega)
    · rw [dif_neg h']
      exact concatenate_apply_piece (1 : Fin S8000x144.rank) _ _ (ix2 p l) 2 (by simp) S8000x16 ea rfl rfl 128 rfl
        (ix2 p ⟨l.val - 128, by have := l.isLt; omega⟩)
        (fun b hb => by
          match b with
          | ⟨0, _⟩ => rfl
          | ⟨1, _⟩ => exact absurd rfl hb)
        (by show 128 + (l.val - 128) = l.val; omega)

/-- The edge body is relu([xr | xc | ea] · w1 + b1) · w2 + b2. -/
theorem edge_eq (xr xc : Vec Ideal S8000x64 .f32) (ea : Vec Ideal S8000x16 .f32) (w1 : Vec Ideal S144x64 .f32)
    (b1 : Vec Ideal S1x64 .f32) (w2 : Vec Ideal S64x64 .f32) (b2 : Vec Ideal S1x64 .f32) :
    k1_pay1 (F := Ideal) xr xc ea w1 b1 w2 b2 = edgeG xr xc ea w1 b1 w2 b2 := by
  funext j
  obtain ⟨p, q, rfl⟩ : ∃ (p : Fin 8000) (q : Fin 64), j = ix2 p q := ⟨j 0, j 1, eq_ix2 j⟩
  rw [edgeG_ix2]
  unfold edgeAt
  simp only [k1_pay1, shapeCast_self]
  rw [addf_apply, broadcastTo_1b_ab_apply, message_product]
  refine congrArg (· + b2 (ix2 0 q)) (Finset.sum_congr rfl fun c _ => ?_)
  rw [truncf_apply, truncf_apply, maximumf_apply, addf_apply, broadcast_apply, broadcastTo_1b_ab_apply, hidden_product]
  unfold hiddenAt
  refine congrArg (fun t => max (t + b1 (ix2 0 c)) zeroW * w2 (ix2 c q)) (Finset.sum_congr rfl fun l _ => ?_)
  rw [truncf_apply, truncf_apply, cat_apply, shapeCast_self, shapeCast_self]

end Cert.KernelIdeal.Payload

end
-- ==== Proof.Region0.lean ====
/-
  The embedding region: its output array after the run, as one function of the arrays it found.

  Ten grid points, point t writing rows 5000 t … 5000 t + 4999 of the output from the same rows of x
  and the whole of w and b.  The embedding is row-wise, so each block written is that block of
  `embedG` of the whole arrays, and the ten blocks cover the 50000 rows.
-/
import proofs.«420387_j4148938408095_1_alg».proof.Proof.Spec
import proofs.«420387_j4148938408095_1_alg».proof.Proof.PayEmbedEdge
import proofs.«420387_j4148938408095_1_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region0

open Idealize.ShloMosaic Idealize.ShloMosaic.TcCoe Idealize.ShloMosaic.ValueIdx Idealize.SL.Sem Cert.KernelIdeal Cert.KernelIdeal.Gen Cert.Gnn Cert.KernelIdeal.Payload

variable (V : (c : Dev nD) → (b : Ref sig .tc) → Buf (Elt Ideal) ((c : Thread nD τ).loc b))

/-- The zero offsets of a whole-buffer rectangle, as the body's accesses spell them. -/
theorem zero_offsets : (![0, 0] : Fin 2 → Nat) = fun _ => 0 := funext fun a => by fin_cases a <;> rfl

/-- The index maps over the ten grid points: x (window 0) and the output (window 3) are at block (t, 0), the
    weight and the bias (windows 1, 2) at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A grid point is below ten. -/
theorem point_lt (t : Fin cfg0.N) : t.val < 10 := lt_of_lt_of_eq t.isLt N_0

/-- Row p of block t of x is row 5000 t + p of x. -/
theorem x_block (c : Dev nD) (t : Fin cfg0.N) (p : Fin 5000) (k : Fin 128) (r : Fin 50000)
    (hr : r.val = 5000 * t.val + p.val) :
    iblk0 V c 0 t (ix2 p k) = V c main_arg0 (ix2 r k) := by
  obtain ⟨e0, e1, -⟩ := index_maps t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight's one block is the weight. -/
theorem w_block (c : Dev nD) (t : Fin cfg0.N) : iblk0 V c 1 t = V c main_arg4 := by
  obtain ⟨-, -, e2, e3, -⟩ := index_maps t
  funext j
  obtain ⟨k, q, rfl⟩ : ∃ (k : Fin 128) (q : Fin 64), j = ix2 k q := ⟨j 0, j 1, eq_ix2 j⟩
  unfold iblk0
  rw [View.read_apply]
  show V c main_arg4 _ = V c main_arg4 _
  congr 1
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- The bias's one block is the bias. -/
theorem b_block (c : Dev nD) (t : Fin cfg0.N) : iblk0 V c 2 t = V c main_v4 := by
  obtain ⟨-, -, -, -, e4, e5, -⟩ := index_maps t
  funext j
  obtain ⟨k, q, rfl⟩ : ∃ (k : Fin 1) (q : Fin 64), j = ix2 k q := ⟨j 0, j 1, eq_ix2 j⟩
  unfold iblk0
  rw [View.read_apply]
  show V c main_v4 _ = V c main_v4 _
  congr 1
  funext a
  apply Fin.ext
  match a with
  | ⟨0, _⟩ => show win0_2.index t (0 : Fin 2) * 1 + 1 * k.val = k.val; rw [e4]; omega
  | ⟨1, _⟩ => show win0_2.index t (1 : Fin 2) * 64 + 1 * q.val = q.val; rw [e5]; omega

/-- Entry (p, q) of the output's block t sits at (5000 t + p, q) of the output. -/
theorem out_index (t : Fin cfg0.N) (p : Fin 5000) (q : Fin 64) (r : Fin 50000) (hr : r.val = 5000 * t.val + p.val) :
    ((cfg0.win 3).blk t).view.emb (ix2 p q) = ix2 r q := by
  obtain ⟨-, -, -, -, -, -, e6, e7⟩ := index_maps t
  funext a
  apply Fin.ext
  match a with
  | ⟨0, _⟩ => show win0_3.index t (0 : Fin 2) * 5000 + 1 * p.val = r.val; rw [e6, hr]; omega
  | ⟨1, _⟩ => show win0_3.index t (1 : Fin 2) * 64 + 1 * q.val = q.val; rw [e7]; omega

/-- What point t writes back is block t of the embedding of the whole arrays: the embedding is row-wise, and row p
    of the block of x is row 5000 t + p of x. -/
theorem flushed_eq (c : Dev nD) (t : Fin cfg0.N) :
    (dat0 V c).flushed 3 t
      = ((cfg0.win 3).blk t).view.read (Elt Ideal) (embedG (V c main_arg0) (V c main_arg4) (V c main_v4)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x64) zero_offsets,
    View.ld_unit_zero (S := S1x64) zero_offsets]
  rw [embed_eq, w_block, b_block]
  funext j
  obtain ⟨p, q, rfl⟩ : ∃ (p : Fin 5000) (q : Fin 64), j = ix2 p q := ⟨j 0, j 1, eq_ix2 j⟩
  have ht := point_lt t
  have hi := out_index t p q ⟨5000 * t.val + p.val, by omega⟩ rfl
  show embedG (n := 5000) (iblk0 V c 0 t) (V c main_arg4) (V c main_v4) (ix2 p q)
    = embedG (V c main_arg0) (V c main_arg4) (V c main_v4) (((cfg0.win 3).blk t).view.emb (ix2 p q))
  rw [hi, embedG_ix2, embedG_ix2]
  exact embedAt_congr _ _ (fun k => x_block V c t p k _ rfl) q

/-- An index of the output is in point t's block iff each coordinate is in the block's range on its axis. -/
theorem mem_block (t : Fin cfg0.N) (i : S50000x64.Idx) :
    i ∈ ((cfg0.win 3).blk t).view.set
      ↔ ∀ a : Fin 2, win0_3.index t a * S5000x64.size a ≤ (i a).val
          ∧ (i a).val < win0_3.index t a * S5000x64.size a + S5000x64.size a := by
  show i ∈ ((View.whole main_v5).slice (win0_3.rect t)).set ↔ _
  rw [View.set_slice_whole, Rect.mem_set_unit]
  exact Iff.rfl

/-- Every index of the output is in some point's block: row r is in block r / 5000. -/
theorem covered (i : S50000x64.Idx) :
    ∃ t : Fin cfg0.N, (cfg0.win 3).flush t = true ∧ i ∈ ((cfg0.win 3).blk t).view.set := by
  have h0 : (i 0).val < 50000 := (i 0).isLt
  have h1 : (i 1).val < 64 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, e6, e7⟩ := index_maps t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    rw [e6]; omega
  | ⟨1, _⟩ =>
    show win0_3.index t (1 : Fin 2) * 64 ≤ (i 1).val ∧ (i 1).val < win0_3.index t (1 : Fin 2) * 64 + 64
    rw [e7]; omega

/-- The node states after the embedding region. -/
theorem final (c : Dev nD) : (dat0 (F := Ideal) V c).arrAt 3 cfg0.N
    = embedG (V c main_arg0) (V c main_arg4) (V c main_v4) :=
  (dat0 V c).arrAt_eq_of_cover 3 (embedG (V c main_arg0) (V c main_arg4) (V c main_v4))
    (fun t _ => flushed_eq V c t) covered

end Cert.KernelIdeal.Region0

end
-- ==== Proof.Region1.lean ====
/-
  The first message region: its output array after the run, as one function of the arrays it found.

  A hundred grid points, point t writing rows 8000 t … 8000 t + 7999 of the messages from the same
  rows of the two gathered arrays and of the edge attributes, and the whole of the four weights.
  The message is row-wise, so each block written is that block of `edgeG` of the whole arrays, and
  the hundred blocks cover the 800000 rows.
-/
import proofs.«420387_j4148938408095_1_alg».proof.Proof.Spec
import proofs.«420387_j4148938408095_1_alg».proof.Proof.PayEmbedEdge
import proofs.«420387_j4148938408095_1_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region1

open Idealize.ShloMosaic Idealize.ShloMosaic.TcCoe Idealize.ShloMosaic.ValueIdx Idealize.SL.Sem Cert.KernelIdeal Cert.KernelIdeal.Gen Cert.Gnn Cert.KernelIdeal.Payload

variable (V : (c : Dev nD) → (b : Ref sig .tc) → Buf (Elt Ideal) ((c : Thread nD τ).loc b))

/-! ## Rows of a block as rows of the array -/

/-- Row `p` of the `s`-th block of 8000 rows is row 8000 s + p of the 800000. -/
def blockRow (s : Nat) (hs : s < 100) (p : Fin 8000) : Fin 800000 := ⟨8000 * s + p.val, by omega⟩

/-- The message is row-wise: if three blocks of 8000 rows are the `s`-th blocks of three arrays of 800000 rows, and
    the weights are the same, then the message of the blocks at row `p` is the message of the arrays at row
    8000 s + p. -/
theorem message_of_block (A0 A1 : Mat 800000 64) (A2 : Mat 800000 16) (B0 B1 : Mat 8000 64) (B2 : Mat 8000 16)
    (w1 w1' : Mat 144 64) (b1 b1' : Mat 1 64) (w2 w2' : Mat 64 64) (b2 b2' : Mat 1 64) (s : Nat) (hs : s < 100)
    (h0 : ∀ (p : Fin 8000) (k : Fin 64), B0 (ix2 p k) = A0 (ix2 (blockRow s hs p) k))
    (h1 : ∀ (p : Fin 8000) (k : Fin 64), B1 (ix2 p k) = A1 (ix2 (blockRow s hs p) k))
    (h2 : ∀ (p : Fin 8000) (k : Fin 16), B2 (ix2 p k) = A2 (ix2 (blockRow s hs p) k))
    (h3 : w1' = w1) (h4 : b1' = b1) (h5 : w2' = w2) (h6 : b2' = b2) (p : Fin 8000) (q : Fin 64) :
    edgeG B0 B1 B2 w1' b1' w2' b2' (ix2 p q) = edgeG A0 A1 A2 w1 b1 w2 b2 (ix2 (blockRow s hs p) q) := by
  subst h3 h4 h5 h6
  rw [edgeG_ix2, edgeG_ix2]
  exact edgeAt_congr w1' b1' w2' b2' (h0 p) (h1 p) (h2 p) q

/-! ## What the body leaves, for any blocks -/

/-- The zero offsets of a whole-buffer rectangle are the constant zero. -/
theorem offsets_zero : (![0, 0] : Fin 2 → Nat) = fun _ => 0 := funext fun a => by fin_cases a <;> rfl

/-- The body loads its seven buffers whole and stores once, whole: what it leaves in the output buffer is the
    message of what the input buffers hold. -/
theorem body_leaves (x0 x1 : Vec Ideal S8000x64 .f32) (x2 : Vec Ideal S8000x16 .f32) (x3 : Vec Ideal S144x64 .f32)
    (x4 : Vec Ideal S1x64 .f32) (x5 : Vec Ideal S64x64 .f32) (x6 : Vec Ideal S1x64 .f32) :
    out1_7 (F := Ideal) x0 x1 x2 x3 x4 x5 x6 = edgeG x0 x1 x2 x3 x4 x5 x6 := by
  unfold out1_7
  rw [View.canon_unit_zero offsets_zero]
  simp only [View.ld_unit_zero (S := S8000x64) offsets_zero, View.ld_unit_zero (S := S8000x16) offsets_zero,
    View.ld_unit_zero (S := S144x64) offsets_zero, View.ld_unit_zero (S := S1x64) offsets_zero,
    View.ld_unit_zero (S := S64x64) offsets_zero]
  exact edge_eq x0 x1 x2 x3 x4 x5 x6

/-! ## The windows' blocks, read off the arrays -/

/-- The printed index maps over the hundred points: the three row-blocked inputs and the output sit at block
    (t, 0), the four weights at block (0, 0). -/
theorem index_maps : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The grid has a hundred points. -/
theorem point_lt (t : Fin cfg1.N) : t.val < 100 := Nat.lt_of_lt_of_eq t.isLt N_1

/-- Window 0's block at point t is rows 8000 t … 8000 t + 7999 of the first gathered array. -/
theorem gatheredA_rows (c : Dev nD) (t : Fin cfg1.N) (p : Fin 8000) (k : Fin 64) :
    (iblk1 V c 0 t : Mat 8000 64) (ix2 p k) = (V c main_v6 : Mat 800000 64) (ix2 (blockRow t.val (point_lt t) p) k) := by
  obtain ⟨e0, e1, -⟩ := index_maps t
  unfold iblk1
  rw [View.read_apply]
  show V c main_v6 _ = V c main_v6 _
  refine congrArg (V c main_v6) (funext fun a => Fin.ext ?_)
  match a with
  | ⟨0, _⟩ => show win1_0.index t (0 : Fin 2) * 8000 + 1 * p.val = 8000 * t.val + p.val; rw [e0]; omega
  | ⟨1, _⟩ => show win1_0.index t (1 : Fin 2) * 64 + 1 * k.val = k.val; rw [e1]; omega

/-- Window 1's block at point t is the same rows of the second gathered array. -/
theorem gatheredB_rows (c : Dev nD) (t : Fin cfg1.N) (p : Fin 8000) (k : Fin 64) :
    (iblk1 V c 1 t : Mat 8000 64) (ix2 p k) = (V c main_v7 : Mat 800000 64) (ix2 (blockRow t.val (point_lt t) p) k) := by
  obtain ⟨-, -, e0, e1, -⟩ := index_maps t
  unfold iblk1
  rw [View.read_apply]
  show V c main_v7 _ = V c main_v7 _
  refine congrArg (V c main_v7) (funext fun a => Fin.ext ?_)
  match a with
  | ⟨0, _⟩ => show win1_1.index t (0 : Fin 2) * 8000 + 1 * p.val = 8000 * t.val + p.val; rw [e0]; omega
  | ⟨1, _⟩ => show win1_1.index t (1 : Fin 2) * 64 + 1 * k.val = k.val; rw [e1]; omega

/-- Window 2's block at point t is the same rows of the edge attributes. -/
theorem attr_rows (c : Dev nD) (t : Fin cfg1.N) (p : Fin 8000) (k : Fin 16) :
    (iblk1 V c 2 t : Mat 8000 16) (ix2 p k) = (V c main_arg2 : Mat 800000 16) (ix2 (blockRow t.val (point_lt t) p) k) := by
  obtain ⟨-, -, -, -, e0, e1, -⟩ := index_maps t
  unfold iblk1
  rw [View.read_apply]
  show V c main_arg2 _ = V c main_arg2 _
  refine congrArg (V c main_arg2) (funext fun a => Fin.ext ?_)
  match a with
  | ⟨0, _⟩ => show win1_2.index t (0 : Fin 2) * 8000 + 1 * p.val = 8000 * t.val + p.val; rw [e0]; omega
  | ⟨1, _⟩ => show win1_2.index t (1 : Fin 2) * 16 + 1 * k.val = k.val; rw [e1]; omega

/-- Window 3's block at every point is the whole first weight: its one block, at block index (0, 0). -/
theorem weightA_whole (c : Dev nD) (t : Fin cfg1.N) : (iblk1 V c 3 t : Mat 144 64) = (V c main_v9 : Mat 144 64) := by
  obtain ⟨-, -, -, -, -, -, e0, e1, -⟩ := index_maps t
  funext j
  obtain ⟨p, k, rfl⟩ : ∃ (p : Fin 144) (k : Fin 64), j = ix2 p k := ⟨j 0, j 1, eq_ix2 j⟩
  unfold iblk1
  rw [View.read_apply]
  show V c main_v9 _ = V c main_v9 _
  refine congrArg (V c main_v9) (funext fun a => Fin.ext ?_)
  match a with
  | ⟨0, _⟩ => show win1_3.index t (0 : Fin 2) * 144 + 1 * p.val = p.val; rw [e0]; omega
  | ⟨1, _⟩ => show win1_3.index t (1 : Fin 2) * 64 + 1 * k.val = k.val; rw [e1]; omega

/-- Window 4's block at every point is the whole first bias. -/
theorem biasA_whole (c : Dev nD) (t : Fin cfg1.N) : (iblk1 V c 4 t : Mat 1 64) = (V c main_v16 : Mat 1 64) := by
  obtain ⟨-, -, -, -, -, -, -, -, e0, e1, -⟩ := index_maps t
  funext j
  obtain ⟨p, k, rfl⟩ : ∃ (p : Fin 1) (k : Fin 64), j = ix2 p k := ⟨j 0, j 1, eq_ix2 j⟩
  unfold iblk1
  rw [View.read_apply]
  show V c main_v16 _ = V c main_v16 _
  refine congrArg (V c main_v16) (funext fun a => Fin.ext ?_)
  match a with
  | ⟨0, _⟩ => show win1_4.index t (0 : Fin 2) * 1 + 1 * p.val = p.val; rw [e0]; omega
  | ⟨1, _⟩ => show win1_4.index t (1 : Fin 2) * 64 + 1 * k.val = k.val; rw [e1]; omega

/-- Window 5's block at every point is the whole second weight. -/
theorem weightB_whole (c : Dev nD) (t : Fin cfg1.N) : (iblk1 V c 5 t : Mat 64 64) = (V c main_v13 : Mat 64 64) := by
  obtain ⟨-, -, -, -, -, -, -, -, -, -, e0, e1, -⟩ := index_maps t
  funext j
  obtain ⟨p, k, rfl⟩ : ∃ (p : Fin 64) (k : Fin 64), j = ix2 p k := ⟨j 0, j 1, eq_ix2 j⟩
  unfold iblk1
  rw [View.read_apply]
  show V c main_v13 _ = V c main_v13 _
  refine congrArg (V c main_v13) (funext fun a => Fin.ext ?_)
  match a with
  | ⟨0, _⟩ => show win1_5.index t (0 : Fin 2) * 64 + 1 * p.val = p.val; rw [e0]; omega
  | ⟨1, _⟩ => show win1_5.index t (1 : Fin 2) * 64 + 1 * k.val = k.val; rw [e1]; omega

/-- Window 6's block at every point is the whole second bias. -/
theorem biasB_whole (c : Dev nD) (t : Fin cfg1.N) : (iblk1 V c 6 t : Mat 1 64) = (V c main_v17 : Mat 1 64) := by
  obtain ⟨-, -, -, -, -, -, -, -, -, -, -, -, e0, e1, -⟩ := index_maps t
  funext j
  obtain ⟨p, k, rfl⟩ : ∃ (p : Fin 1) (k : Fin 64), j = ix2 p k := ⟨j 0, j 1, eq_ix2 j⟩
  unfold iblk1
  rw [View.read_apply]
  show V c main_v17 _ = V c main_v17 _
  refine congrArg (V c main_v17) (funext fun a => Fin.ext ?_)
  match a with
  | ⟨0, _⟩ => show win1_6.index t (0 : Fin 2) * 1 + 1 * p.val = p.val; rw [e0]; omega
  | ⟨1, _⟩ => show win1_6.index t (1 : Fin 2) * 64 + 1 * k.val = k.val; rw [e1]; omega

/-- Entry (p, q) of the output block at point t sits at row 8000 t + p, column q of the messages. -/
theorem out_place (t : Fin cfg1.N) (p : Fin 8000) (q : Fin 64) :
    (((cfg1.win 7).blk t).view.emb (ix2 p q) : S800000x64.Idx) = ix2 (blockRow t.val (point_lt t) p) q := by
  obtain ⟨-, -, -, -, -, -, -, -, -, -, -, -, -, -, e0, e1⟩ := index_maps t
  refine funext fun a => Fin.ext ?_
  match a with
  | ⟨0, _⟩ => show win1_7.index t (0 : Fin 2) * 8000 + 1 * p.val = 8000 * t.val + p.val; rw [e0]; omega
  | ⟨1, _⟩ => show win1_7.index t (1 : Fin 2) * 64 + 1 * q.val = q.val; rw [e1]; omega

/-! ## What a point writes back -/

/-- What point t writes back is block t of the message of the whole arrays. -/
theorem flushed_eq (c : Dev nD) (t : Fin cfg1.N) :
    (dat1 (F := Ideal) V c).flushed 7 t = ((cfg1.win 7).blk t).view.read (Elt Ideal)
      (edgeG (V c main_v6) (V c main_v7) (V c main_arg2) (V c main_v9) (V c main_v16) (V c main_v13) (V c main_v17)) := by
  show (cfg1.win 7).cut (grid1.coords t) ((dat1 V c).after 7 t) = _
  rw [after1_7, body_leaves (iblk1 V c 0 t) (iblk1 V c 1 t) (iblk1 V c 2 t) (iblk1 V c 3 t) (iblk1 V c 4 t) (iblk1 V c 5 t) (iblk1 V c 6 t)]
  refine funext fun (j : S8000x64.Idx) => ?_
  obtain ⟨p, q, rfl⟩ : ∃ (p : Fin 8000) (q : Fin 64), j = ix2 p q := ⟨j 0, j 1, eq_ix2 j⟩
  have hplace := out_place t p q
  show edgeG (iblk1 V c 0 t) (iblk1 V c 1 t) (iblk1 V c 2 t) (iblk1 V c 3 t) (iblk1 V c 4 t) (iblk1 V c 5 t) (iblk1 V c 6 t) (ix2 p q)
    = edgeG (V c main_v6) (V c main_v7) (V c main_arg2) (V c main_v9) (V c main_v16) (V c main_v13) (V c main_v17)
        (((cfg1.win 7).blk t).view.emb (ix2 p q))
  rw [hplace]
  exact message_of_block (V c main_v6) (V c main_v7) (V c main_arg2) (iblk1 V c 0 t) (iblk1 V c 1 t) (iblk1 V c 2 t)
    (V c main_v9) (iblk1 V c 3 t) (V c main_v16) (iblk1 V c 4 t) (V c main_v13) (iblk1 V c 5 t) (V c main_v17) (iblk1 V c 6 t)
    t.val (point_lt t) (gatheredA_rows V c t) (gatheredB_rows V c t) (attr_rows V c t)
    (weightA_whole V c t) (biasA_whole V c t) (weightB_whole V c t) (biasB_whole V c t) p q

/-! ## The hundred blocks cover the array -/

/-- An index of the messages is in point t's block iff each coordinate is in the block's range on its axis. -/
theorem mem_block (t : Fin cfg1.N) (i : S800000x64.Idx) :
    i ∈ ((cfg1.win 7).blk t).view.set ↔ ∀ a : Fin 2, win1_7.index t a * S8000x64.size a ≤ (i a).val ∧ (i a).val < win1_7.index t a * S8000x64.size a + S8000x64.size a := by
  show i ∈ ((View.whole main_v18).slice (win1_7.rect t)).set ↔ _
  rw [View.set_slice_whole, Rect.mem_set_unit]
  exact Iff.rfl

/-- Row r is in the block of point r / 8000, which writes back: 100 · 8000 = 800000. -/
theorem covered (i : S800000x64.Idx) : ∃ t : Fin cfg1.N, (cfg1.win 7).flush t = true ∧ i ∈ ((cfg1.win 7).blk t).view.set := by
  have hi0 : (i 0).val < 800000 := (i 0).isLt
  have hi1 : (i 1).val < 64 := (i 1).isLt
  obtain ⟨t, ht⟩ : ∃ t : Fin cfg1.N, t.val = (i 0).val / 8000 :=
    ⟨⟨(i 0).val / 8000, Nat.lt_of_lt_of_eq (show (i 0).val / 8000 < 100 by omega) N_1.symm⟩, rfl⟩
  obtain ⟨-, -, -, -, -, -, -, -, -, -, -, -, -, -, e0, e1⟩ := index_maps t
  refine ⟨t, flush1_7 t, ?_⟩
  rw [mem_block]
  intro a
  match a with
  | ⟨0, _⟩ => show win1_7.index t (0 : Fin 2) * 8000 ≤ (i 0).val ∧ (i 0).val < win1_7.index t (0 : Fin 2) * 8000 + 8000; rw [e0]; omega
  | ⟨1, _⟩ => show win1_7.index t (1 : Fin 2) * 64 ≤ (i 1).val ∧ (i 1).val < win1_7.index t (1 : Fin 2) * 64 + 64; rw [e1]; omega

/-! ## The array after the region -/

/-- The messages after the region. -/
theorem final (c : Dev nD) : (dat1 (F := Ideal) V c).arrAt 7 cfg1.N
    = edgeG (V c main_v6) (V c main_v7) (V c main_arg2) (V c main_v9) (V c main_v16) (V c main_v13) (V c main_v17) :=
  (dat1 V c).arrAt_eq_of_cover 7 _ (fun t _ => flushed_eq V c t) covered

end Cert.KernelIdeal.Region1

end
-- ==== Proof.PayGru.lean ====
/-
  The GRU body of the kernel program read at an index.

  Two products against the transposed weights (contracting the second axis of both operands), a
  one-row bias each, three column slices of 64 out of the 192 gate columns, the logistic function
  and the hyperbolic tangent lane by lane: entry (p, q) is the specification's `gruAt`.  The body
  loads the state before the aggregate, so its first operand is the state.
-/
import proofs.«420387_j4148938408095_1_alg».proof.Proof.Spec
import proofs.«420387_j4148938408095_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Payload

open Idealize.ShloMosaic Idealize.ShloMosaic.TcCoe Idealize.ShloMosaic.ValueIdx Idealize.SL.Sem Cert.KernelIdeal Cert.KernelIdeal.Gen Cert.Gnn

/-! ## The operand indices of the gate product

The product contracts axis 1 of both operands: at the result's entry (row, gate column) and the
contraction position c, the left operand is read at (row, c) and the right operand, the weight
used transposed, at (gate column, c). -/

/-- The left operand's row is the result's row. -/
theorem gate_lhs_0 (i : S5000x192.Idx) (c : dot_S5000x64_S192x64_S5000x192_1_1_0_0_n_n.contr.Idx) :
    (dot_S5000x64_S192x64_S5000x192_1_1_0_0_n_n.lhsIdx i c 0).val = (i 0).val := by
  unfold DotDims.lhsIdx
  rw [dif_neg (show ¬(0 : Fin S5000x64.rank) ∈ dot_S5000x64_S192x64_S5000x192_1_1_0_0_n_n.lhsBatch by decide),
    dif_pos (show (0 : Fin S5000x64.rank) ∈ dot_S5000x64_S192x64_S5000x192_1_1_0_0_n_n.lhsNonContracting by decide)]
  rfl

/-- The left operand's column is the contraction position. -/
theorem gate_lhs_1 (i : S5000x192.Idx) (c : dot_S5000x64_S192x64_S5000x192_1_1_0_0_n_n.contr.Idx) :
    (dot_S5000x64_S192x64_S5000x192_1_1_0_0_n_n.lhsIdx i c 1).val = (c ⟨0, by decide⟩).val :=
  dot_S5000x64_S192x64_S5000x192_1_1_0_0_n_n.lhsIdx_val_of_single rfl i c

/-- The weight's row is the result's gate column. -/
theorem gate_rhs_0 (i : S5000x192.Idx) (c : dot_S5000x64_S192x64_S5000x192_1_1_0_0_n_n.contr.Idx) :
    (dot_S5000x64_S192x64_S5000x192_1_1_0_0_n_n.rhsIdx i c 0).val = (i 1).val := by
  unfold DotDims.rhsIdx
  rw [dif_neg (show ¬(0 : Fin S192x64.rank) ∈ dot_S5000x64_S192x64_S5000x192_1_1_0_0_n_n.rhsBatch by decide),
    dif_pos (show (0 : Fin S192x64.rank) ∈ dot_S5000x64_S192x64_S5000x192_1_1_0_0_n_n.rhsNonContracting by decide)]
  rfl

/-- The weight's column is the contraction position. -/
theorem gate_rhs_1 (i : S5000x192.Idx) (c : dot_S5000x64_S192x64_S5000x192_1_1_0_0_n_n.contr.Idx) :
    (dot_S5000x64_S192x64_S5000x192_1_1_0_0_n_n.rhsIdx i c 1).val = (c ⟨0, by decide⟩).val :=
  dot_S5000x64_S192x64_S5000x192_1_1_0_0_n_n.rhsIdx_val_of_single rfl i c

/-! ## The gate product at an entry -/

/-- Entry (p, g) of a · wᵀ accumulated into zero: the sum over the 64 shared columns. -/
theorem gate_product (a : FVec Ideal S5000x64 .bf16) (w : FVec Ideal S192x64 .bf16) (p : Fin 5000) (g : Fin 192) :
    matmul dot_S5000x64_S192x64_S5000x192_1_1_0_0_n_n none a w (constant (F := Ideal) S5000x192 .f32 0x00000000#32) (ix2 p g)
      = ∑ k : Fin 64, a (ix2 p k) * w (ix2 g k) := by
  simp only [matmul]
  rw [Ideal.matmul_constant_zero_apply,
    ← Equiv.sum_comp (contrEquiv1 dot_S5000x64_S192x64_S5000x192_1_1_0_0_n_n 64 rfl rfl).symm]
  refine Finset.sum_congr rfl fun k _ => ?_
  have hk := contrEquiv1_symm_val dot_S5000x64_S192x64_S5000x192_1_1_0_0_n_n 64 rfl rfl k
  have el : dot_S5000x64_S192x64_S5000x192_1_1_0_0_n_n.lhsIdx (ix2 p g)
      ((contrEquiv1 dot_S5000x64_S192x64_S5000x192_1_1_0_0_n_n 64 rfl rfl).symm k) = ix2 p k :=
    funext fun ax => Fin.ext (by
      match ax with
      | ⟨0, _⟩ => exact gate_lhs_0 _ _
      | ⟨1, _⟩ => exact (gate_lhs_1 _ _).trans hk)
  have er : dot_S5000x64_S192x64_S5000x192_1_1_0_0_n_n.rhsIdx (ix2 p g)
      ((contrEquiv1 dot_S5000x64_S192x64_S5000x192_1_1_0_0_n_n 64 rfl rfl).symm k) = ix2 g k :=
    funext fun ax => Fin.ext (by
      match ax with
      | ⟨0, _⟩ => exact gate_rhs_0 _ _
      | ⟨1, _⟩ => exact (gate_rhs_1 _ _).trans hk)
  rw [el, er]

/-! ## The three gates' column slices, and the two lane-by-lane functions -/

/-- Columns 0–63 of the 192 gate columns: the reset gate's. -/
theorem slice_reset (X : FVec Ideal S5000x192 .f32) (hs : S5000x192.Slices ![0, 0] S5000x64) (p : Fin 5000) (q : Fin 64) :
    extractStridedSlice S5000x64 ![0, 0] X hs (ix2 p q) = X (ix2 p ⟨q.val, by omega⟩) :=
  slice2_axis1_apply 0 X hs p q ⟨q.val, by omega⟩ (Nat.zero_add _).symm

/-- Columns 64–127: the update gate's. -/
theorem slice_update (X : FVec Ideal S5000x192 .f32) (hs : S5000x192.Slices ![0, 64] S5000x64) (p : Fin 5000) (q : Fin 64) :
    extractStridedSlice S5000x64 ![0, 64] X hs (ix2 p q) = X (ix2 p ⟨q.val + 64, by omega⟩) :=
  slice2_axis1_apply 64 X hs p q ⟨q.val + 64, by omega⟩ (Nat.add_comm _ _)

/-- Columns 128–191: the candidate's. -/
theorem slice_cand (X : FVec Ideal S5000x192 .f32) (hs : S5000x192.Slices ![0, 128] S5000x64) (p : Fin 5000) (q : Fin 64) :
    extractStridedSlice S5000x64 ![0, 128] X hs (ix2 p q) = X (ix2 p ⟨q.val + 128, by omega⟩) :=
  slice2_axis1_apply 128 X hs p q ⟨q.val + 128, by omega⟩ (Nat.add_comm _ _)

/-- The logistic function lane by lane. -/
theorem logistic_at {s : Shape} {φ : FTy} (x : FVec Ideal s φ) (i : s.Idx) : logistic x i = Ideal.logistic (x i) := rfl

/-- The hyperbolic tangent lane by lane. -/
theorem tanh_at {s : Shape} {φ : FTy} (x : FVec Ideal s φ) (i : s.Idx) : tanh x i = Ideal.tanh (x i) := rfl

/-- The GRU body: first operand the state h, second the aggregate. -/
theorem gru_eq (h agg : Vec Ideal S5000x64 .f32) (wih whh : Vec Ideal S192x64 .f32) (bih bhh : Vec Ideal S1x192 .f32) :
    k2_pay1 (F := Ideal) h agg wih whh bih bhh = gruG agg h wih whh bih bhh := by
  funext j
  obtain ⟨p, q, rfl⟩ : ∃ (p : Fin 5000) (q : Fin 64), j = ix2 p q := ⟨j 0, j 1, eq_ix2 j⟩
  rw [gruG_ix2]
  unfold k2_pay1 gruAt gateIn
  dsimp only
  simp only [addf_apply, mulf_apply, subf_apply, broadcast_apply, truncf_apply, logistic_at, tanh_at,
    slice_reset, slice_update, slice_cand, gate_product, broadcastTo_1b_ab_apply, shapeCast_self]
  rfl

end Cert.KernelIdeal.Payload

end
-- ==== Proof.Region2.lean ====
/-
  The first GRU region: its output array after the run, as one function of the arrays it found.

  Ten grid points, point t writing rows 5000 t … 5000 t + 4999 of the new state from the same rows
  of the aggregate (window 0) and of the old state (window 1), and the whole of the four weights.
  The update is row-wise, so each block written is that block of `gruG` of the whole arrays, and
  the ten blocks cover the 50000 rows.
-/
import proofs.«420387_j4148938408095_1_alg».proof.Proof.Spec
import proofs.«420387_j4148938408095_1_alg».proof.Proof.PayGru
import proofs.«420387_j4148938408095_1_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region2

open Idealize.ShloMosaic Idealize.ShloMosaic.TcCoe Idealize.ShloMosaic.ValueIdx Idealize.SL.Sem Cert.KernelIdeal Cert.KernelIdeal.Gen Cert.Gnn Cert.KernelIdeal.Payload

variable (V : (c : Dev nD) → (b : Ref sig .tc) → Buf (Elt Ideal) ((c : Thread nD τ).loc b))

/-- The zero offsets of a whole-buffer rectangle, as the body's accesses spell them. -/
theorem zero_offsets : (![0, 0] : Fin 2 → Nat) = fun _ => 0 := funext fun a => by fin_cases a <;> rfl

/-- The index maps over the ten grid points: the aggregate, the state and the output (windows 0, 1, 6) are at
    block (t, 0), the four weights (windows 2 to 5) at block (0, 0). -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A grid point is below ten. -/
theorem point_lt (t : Fin cfg2.N) : t.val < 10 := lt_of_lt_of_eq t.isLt N_2

/-- Row p of block t of the aggregate is row 5000 t + p of the aggregate. -/
theorem agg_block (c : Dev nD) (t : Fin cfg2.N) (p : Fin 5000) (k : Fin 64) (r : Fin 50000)
    (hr : r.val = 5000 * t.val + p.val) :
    iblk2 V c 0 t (ix2 p k) = V c main_v21 (ix2 r k) := by
  obtain ⟨ea, eb, -⟩ := index_maps t
  unfold iblk2
  rw [View.read_apply]
  show V c main_v21 _ = V c main_v21 _
  congr 1
  funext a
  apply Fin.ext
  match a with
  | ⟨0, _⟩ => show win2_0.index t (0 : Fin 2) * 5000 + 1 * p.val = r.val; rw [ea, hr]; omega
  | ⟨1, _⟩ => show win2_0.index t (1 : Fin 2) * 64 + 1 * k.val = k.val; rw [eb]; omega

/-- Row p of block t of the state is row 5000 t + p of the state. -/
theorem state_block (c : Dev nD) (t : Fin cfg2.N) (p : Fin 5000) (k : Fin 64) (r : Fin 50000)
    (hr : r.val = 5000 * t.val + p.val) :
    iblk2 V c 1 t (ix2 p k) = V c main_v5 (ix2 r k) := by
  obtain ⟨-, -, ea, eb, -⟩ := index_maps t
  unfold iblk2
  rw [View.read_apply]
  show V c main_v5 _ = V c main_v5 _
  congr 1
  funext a
  apply Fin.ext
  match a with
  | ⟨0, _⟩ => show win2_1.index t (0 : Fin 2) * 5000 + 1 * p.val = r.val; rw [ea, hr]; omega
  | ⟨1, _⟩ => show win2_1.index t (1 : Fin 2) * 64 + 1 * k.val = k.val; rw [eb]; omega

/-- The input weight's one block is the input weight. -/
theorem wih_block (c : Dev nD) (t : Fin cfg2.N) : iblk2 V c 2 t = V c main_v23 := by
  obtain ⟨-, -, -, -, ea, eb, -⟩ := index_maps t
  funext j
  obtain ⟨g, k, rfl⟩ : ∃ (g : Fin 192) (k : Fin 64), j = ix2 g k := ⟨j 0, j 1, eq_ix2 j⟩
  unfold iblk2
  rw [View.read_apply]
  show V c main_v23 _ = V c main_v23 _
  congr 1
  funext a
  apply Fin.ext
  match a with
  | ⟨0, _⟩ => show win2_2.index t (0 : Fin 2) * 192 + 1 * g.val = g.val; rw [ea]; omega
  | ⟨1, _⟩ => show win2_2.index t (1 : Fin 2) * 64 + 1 * k.val = k.val; rw [eb]; omega

/-- The hidden weight's one block is the hidden weight. -/
theorem whh_block (c : Dev nD) (t : Fin cfg2.N) : iblk2 V c 3 t = V c main_v25 := by
  obtain ⟨-, -, -, -, -, -, ea, eb, -⟩ := index_maps t
  funext j
  obtain ⟨g, k, rfl⟩ : ∃ (g : Fin 192) (k : Fin 64), j = ix2 g k := ⟨j 0, j 1, eq_ix2 j⟩
  unfold iblk2
  rw [View.read_apply]
  show V c main_v25 _ = V c main_v25 _
  congr 1
  funext a
  apply Fin.ext
  match a with
  | ⟨0, _⟩ => show win2_3.index t (0 : Fin 2) * 192 + 1 * g.val = g.val; rw [ea]; omega
  | ⟨1, _⟩ => show win2_3.index t (1 : Fin 2) * 64 + 1 * k.val = k.val; rw [eb]; omega

/-- The input bias's one block is the input bias. -/
theorem bih_block (c : Dev nD) (t : Fin cfg2.N) : iblk2 V c 4 t = V c main_v30 := by
  obtain ⟨-, -, -, -, -, -, -, -, ea, eb, -⟩ := index_maps t
  funext j
  obtain ⟨k, g, rfl⟩ : ∃ (k : Fin 1) (g : Fin 192), j = ix2 k g := ⟨j 0, j 1, eq_ix2 j⟩
  unfold iblk2
  rw [View.read_apply]
  show V c main_v30 _ = V c main_v30 _
  congr 1
  funext a
  apply Fin.ext
  match a with
  | ⟨0, _⟩ => show win2_4.index t (0 : Fin 2) * 1 + 1 * k.val = k.val; rw [ea]; omega
  | ⟨1, _⟩ => show win2_4.index t (1 : Fin 2) * 192 + 1 * g.val = g.val; rw [eb]; omega

/-- The hidden bias's one block is the hidden bias. -/
theorem bhh_block (c : Dev nD) (t : Fin cfg2.N) : iblk2 V c 5 t = V c main_v31 := by
  obtain ⟨-, -, -, -, -, -, -, -, -, -, ea, eb, -⟩ := index_maps t
  funext j
  obtain ⟨k, g, rfl⟩ : ∃ (k : Fin 1) (g : Fin 192), j = ix2 k g := ⟨j 0, j 1, eq_ix2 j⟩
  unfold iblk2
  rw [View.read_apply]
  show V c main_v31 _ = V c main_v31 _
  congr 1
  funext a
  apply Fin.ext
  match a with
  | ⟨0, _⟩ => show win2_5.index t (0 : Fin 2) * 1 + 1 * k.val = k.val; rw [ea]; omega
  | ⟨1, _⟩ => show win2_5.index t (1 : Fin 2) * 192 + 1 * g.val = g.val; rw [eb]; omega

/-- Entry (p, q) of the output's block t sits at (5000 t + p, q) of the output. -/
theorem out_index (t : Fin cfg2.N) (p : Fin 5000) (q : Fin 64) (r : Fin 50000) (hr : r.val = 5000 * t.val + p.val) :
    ((cfg2.win 6).blk t).view.emb (ix2 p q) = ix2 r q := by
  obtain ⟨-, -, -, -, -, -, -, -, -, -, -, -, ea, eb⟩ := index_maps t
  funext a
  apply Fin.ext
  match a with
  | ⟨0, _⟩ => show win2_6.index t (0 : Fin 2) * 5000 + 1 * p.val = r.val; rw [ea, hr]; omega
  | ⟨1, _⟩ => show win2_6.index t (1 : Fin 2) * 64 + 1 * q.val = q.val; rw [eb]; omega

/-- What point t writes back is block t of the update of the whole arrays: the update is row-wise, and row p of the
    blocks of the aggregate and of the state is row 5000 t + p of each. -/
theorem flushed_eq (c : Dev nD) (t : Fin cfg2.N) :
    (dat2 V c).flushed 6 t
      = ((cfg2.win 6).blk t).view.read (Elt Ideal)
          (gruG (V c main_v21) (V c main_v5) (V c main_v23) (V c main_v25) (V c main_v30) (V c main_v31)) := by
  show (cfg2.win 6).cut (grid2.coords t) ((dat2 V c).after 6 t) = _
  rw [after2_6]
  unfold out2_6
  rw [View.canon_unit_zero zero_offsets]
  simp only [View.ld_unit_zero (S := S5000x64) zero_offsets, View.ld_unit_zero (S := S192x64) zero_offsets,
    View.ld_unit_zero (S := S1x192) zero_offsets]
  rw [gru_eq, wih_block, whh_block, bih_block, bhh_block]
  funext j
  obtain ⟨p, q, rfl⟩ : ∃ (p : Fin 5000) (q : Fin 64), j = ix2 p q := ⟨j 0, j 1, eq_ix2 j⟩
  have ht := point_lt t
  have hi := out_index t p q ⟨5000 * t.val + p.val, by omega⟩ rfl
  show gruG (n := 5000) (iblk2 V c 0 t) (iblk2 V c 1 t) (V c main_v23) (V c main_v25) (V c main_v30) (V c main_v31) (ix2 p q)
    = gruG (V c main_v21) (V c main_v5) (V c main_v23) (V c main_v25) (V c main_v30) (V c main_v31)
        (((cfg2.win 6).blk t).view.emb (ix2 p q))
  rw [hi, gruG_ix2, gruG_ix2]
  exact gruAt_congr _ _ _ _ (fun k => agg_block V c t p k _ rfl) (fun k => state_block V c t p k _ rfl) q

/-- An index of the output is in point t's block iff each coordinate is in the block's range on its axis. -/
theorem mem_block (t : Fin cfg2.N) (i : S50000x64.Idx) :
    i ∈ ((cfg2.win 6).blk t).view.set
      ↔ ∀ a : Fin 2, win2_6.index t a * S5000x64.size a ≤ (i a).val
          ∧ (i a).val < win2_6.index t a * S5000x64.size a + S5000x64.size a := by
  show i ∈ ((View.whole main_v32).slice (win2_6.rect t)).set ↔ _
  rw [View.set_slice_whole, Rect.mem_set_unit]
  exact Iff.rfl

/-- Every index of the output is in some point's block: row r is in block r / 5000. -/
theorem covered (i : S50000x64.Idx) :
    ∃ t : Fin cfg2.N, (cfg2.win 6).flush t = true ∧ i ∈ ((cfg2.win 6).blk t).view.set := by
  have hrow : (i 0).val < 50000 := (i 0).isLt
  have hcol : (i 1).val < 64 := (i 1).isLt
  obtain ⟨t, ht⟩ : ∃ t : Fin cfg2.N, t.val = (i 0).val / 5000 :=
    ⟨⟨(i 0).val / 5000, lt_of_lt_of_eq (by omega : (i 0).val / 5000 < 10) N_2.symm⟩, rfl⟩
  obtain ⟨-, -, -, -, -, -, -, -, -, -, -, -, ea, eb⟩ := index_maps t
  refine ⟨t, flush2_6 t, ?_⟩
  rw [mem_block]
  intro a
  match a with
  | ⟨0, _⟩ =>
    show win2_6.index t (0 : Fin 2) * 5000 ≤ (i 0).val ∧ (i 0).val < win2_6.index t (0 : Fin 2) * 5000 + 5000
    rw [ea]; omega
  | ⟨1, _⟩ =>
    show win2_6.index t (1 : Fin 2) * 64 ≤ (i 1).val ∧ (i 1).val < win2_6.index t (1 : Fin 2) * 64 + 64
    rw [eb]; omega

/-- The node states after the region. -/
theorem final (c : Dev nD) : (dat2 (F := Ideal) V c).arrAt 6 cfg2.N
    = gruG (V c main_v21) (V c main_v5) (V c main_v23) (V c main_v25) (V c main_v30) (V c main_v31) :=
  (dat2 V c).arrAt_eq_of_cover 6
    (gruG (V c main_v21) (V c main_v5) (V c main_v23) (V c main_v25) (V c main_v30) (V c main_v31))
    (fun t _ => flushed_eq V c t) covered

end Cert.KernelIdeal.Region2

end
-- ==== Proof.PaySiblings.lean ====
/-
  The second and third rounds' bodies are the first round's.

  The three message bodies are one term (the same operations over the same shapes and dimension
  records), and so are the three GRU bodies; what is proved of the first is, word for word, true
  of the others.
-/
import proofs.«420387_j4148938408095_1_alg».proof.Proof.Spec
import proofs.«420387_j4148938408095_1_alg».proof.Proof.PayEmbedEdge
import proofs.«420387_j4148938408095_1_alg».proof.Proof.PayGru

set_option maxRecDepth 16384

noncomputable section

open scoped BigOperators

namespace Cert.KernelIdeal.Payload

open Idealize.ShloMosaic Idealize.ShloMosaic.TcCoe Idealize.ShloMosaic.ValueIdx Idealize.SL.Sem Cert.KernelIdeal Cert.KernelIdeal.Gen Cert.Gnn

/-- The second round's message body. -/
theorem edge_eq3 (xr xc : Vec Ideal S8000x64 .f32) (ea : Vec Ideal S8000x16 .f32) (w1 : Vec Ideal S144x64 .f32)
    (b1 : Vec Ideal S1x64 .f32) (w2 : Vec Ideal S64x64 .f32) (b2 : Vec Ideal S1x64 .f32) :
    k3_pay1 (F := Ideal) xr xc ea w1 b1 w2 b2 = edgeG xr xc ea w1 b1 w2 b2 := edge_eq xr xc ea w1 b1 w2 b2

/-- The third round's message body. -/
theorem edge_eq5 (xr xc : Vec Ideal S8000x64 .f32) (ea : Vec Ideal S8000x16 .f32) (w1 : Vec Ideal S144x64 .f32)
    (b1 : Vec Ideal S1x64 .f32) (w2 : Vec Ideal S64x64 .f32) (b2 : Vec Ideal S1x64 .f32) :
    k5_pay1 (F := Ideal) xr xc ea w1 b1 w2 b2 = edgeG xr xc ea w1 b1 w2 b2 := edge_eq xr xc ea w1 b1 w2 b2

/-- The second round's GRU body. -/
theorem gru_eq4 (h agg : Vec Ideal S5000x64 .f32) (wih whh : Vec Ideal S192x64 .f32) (bih bhh : Vec Ideal S1x192 .f32) :
    k4_pay1 (F := Ideal) h agg wih whh bih bhh = gruG agg h wih whh bih bhh := gru_eq h agg wih whh bih bhh

/-- The third round's GRU body. -/
theorem gru_eq6 (h agg : Vec Ideal S5000x64 .f32) (wih whh : Vec Ideal S192x64 .f32) (bih bhh : Vec Ideal S1x192 .f32) :
    k6_pay1 (F := Ideal) h agg wih whh bih bhh = gruG agg h wih whh bih bhh := gru_eq h agg wih whh bih bhh

end Cert.KernelIdeal.Payload

end
-- ==== Proof.Region3.lean ====
/-
  The second message region: its output array after the run, as one function of the arrays it found.

  A hundred grid points, point t writing rows 8000 t … 8000 t + 7999 of the messages from the same
  rows of the two gathered arrays and of the edge attributes, and the whole of the four weights.
  The message is row-wise, so each block written is that block of `edgeG` of the whole arrays, and
  the hundred blocks cover the 800000 rows.
-/
import proofs.«420387_j4148938408095_1_alg».proof.Proof.Spec
import proofs.«420387_j4148938408095_1_alg».proof.Proof.PaySiblings
import proofs.«420387_j4148938408095_1_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region3

open Idealize.ShloMosaic Idealize.ShloMosaic.TcCoe Idealize.ShloMosaic.ValueIdx Idealize.SL.Sem Cert.KernelIdeal Cert.KernelIdeal.Gen Cert.Gnn Cert.KernelIdeal.Payload

variable (V : (c : Dev nD) → (b : Ref sig .tc) → Buf (Elt Ideal) ((c : Thread nD τ).loc b))

/-! ## Rows of a block as rows of the array -/

/-- Row `p` of the `s`-th block of 8000 rows is row 8000 s + p of the 800000. -/
def blockRow (s : Nat) (hs : s < 100) (p : Fin 8000) : Fin 800000 := ⟨8000 * s + p.val, by omega⟩

/-- The message is row-wise: if three blocks of 8000 rows are the `s`-th blocks of three arrays of 800000 rows, and
    the weights are the same, then the message of the blocks at row `p` is the message of the arrays at row
    8000 s + p. -/
theorem message_of_block (A0 A1 : Mat 800000 64) (A2 : Mat 800000 16) (B0 B1 : Mat 8000 64) (B2 : Mat 8000 16)
    (w1 w1' : Mat 144 64) (b1 b1' : Mat 1 64) (w2 w2' : Mat 64 64) (b2 b2' : Mat 1 64) (s : Nat) (hs : s < 100)
    (h0 : ∀ (p : Fin 8000) (k : Fin 64), B0 (ix2 p k) = A0 (ix2 (blockRow s hs p) k))
    (h1 : ∀ (p : Fin 8000) (k : Fin 64), B1 (ix2 p k) = A1 (ix2 (blockRow s hs p) k))
    (h2 : ∀ (p : Fin 8000) (k : Fin 16), B2 (ix2 p k) = A2 (ix2 (blockRow s hs p) k))
    (h3 : w1' = w1) (h4 : b1' = b1) (h5 : w2' = w2) (h6 : b2' = b2) (p : Fin 8000) (q : Fin 64) :
    edgeG B0 B1 B2 w1' b1' w2' b2' (ix2 p q) = edgeG A0 A1 A2 w1 b1 w2 b2 (ix2 (blockRow s hs p) q) := by
  subst h3 h4 h5 h6
  rw [edgeG_ix2, edgeG_ix2]
  exact edgeAt_congr w1' b1' w2' b2' (h0 p) (h1 p) (h2 p) q

/-! ## What the body leaves, for any blocks -/

/-- The zero offsets of a whole-buffer rectangle are the constant zero. -/
theorem offsets_zero : (![0, 0] : Fin 2 → Nat) = fun _ => 0 := funext fun a => by fin_cases a <;> rfl

/-- The body loads its seven buffers whole and stores once, whole: what it leaves in the output buffer is the
    message of what the input buffers hold. -/
theorem body_leaves (x0 x1 : Vec Ideal S8000x64 .f32) (x2 : Vec Ideal S8000x16 .f32) (x3 : Vec Ideal S144x64 .f32)
    (x4 : Vec Ideal S1x64 .f32) (x5 : Vec Ideal S64x64 .f32) (x6 : Vec Ideal S1x64 .f32) :
    out3_7 (F := Ideal) x0 x1 x2 x3 x4 x5 x6 = edgeG x0 x1 x2 x3 x4 x5 x6 := by
  unfold out3_7
  rw [View.canon_unit_zero offsets_zero]
  simp only [View.ld_unit_zero (S := S8000x64) offsets_zero, View.ld_unit_zero (S := S8000x16) offsets_zero,
    View.ld_unit_zero (S := S144x64) offsets_zero, View.ld_unit_zero (S := S1x64) offsets_zero,
    View.ld_unit_zero (S := S64x64) offsets_zero]
  exact edge_eq3 x0 x1 x2 x3 x4 x5 x6

/-! ## The windows' blocks, read off the arrays -/

/-- The printed index maps over the hundred points: the three row-blocked inputs and the output sit at block
    (t, 0), the four weights at block (0, 0). -/
theorem index_maps : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The grid has a hundred points. -/
theorem point_lt (t : Fin cfg3.N) : t.val < 100 := Nat.lt_of_lt_of_eq t.isLt N_3

/-- Window 0's block at point t is rows 8000 t … 8000 t + 7999 of the first gathered array. -/
theorem gatheredA_rows (c : Dev nD) (t : Fin cfg3.N) (p : Fin 8000) (k : Fin 64) :
    (iblk3 V c 0 t : Mat 8000 64) (ix2 p k) = (V c main_v33 : Mat 800000 64) (ix2 (blockRow t.val (point_lt t) p) k) := by
  obtain ⟨e0, e1, -⟩ := index_maps t
  unfold iblk3
  rw [View.read_apply]
  show V c main_v33 _ = V c main_v33 _
  refine congrArg (V c main_v33) (funext fun a => Fin.ext ?_)
  match a with
  | ⟨0, _⟩ => show win3_0.index t (0 : Fin 2) * 8000 + 1 * p.val = 8000 * t.val + p.val; rw [e0]; omega
  | ⟨1, _⟩ => show win3_0.index t (1 : Fin 2) * 64 + 1 * k.val = k.val; rw [e1]; omega

/-- Window 1's block at point t is the same rows of the second gathered array. -/
theorem gatheredB_rows (c : Dev nD) (t : Fin cfg3.N) (p : Fin 8000) (k : Fin 64) :
    (iblk3 V c 1 t : Mat 8000 64) (ix2 p k) = (V c main_v34 : Mat 800000 64) (ix2 (blockRow t.val (point_lt t) p) k) := by
  obtain ⟨-, -, e0, e1, -⟩ := index_maps t
  unfold iblk3
  rw [View.read_apply]
  show V c main_v34 _ = V c main_v34 _
  refine congrArg (V c main_v34) (funext fun a => Fin.ext ?_)
  match a with
  | ⟨0, _⟩ => show win3_1.index t (0 : Fin 2) * 8000 + 1 * p.val = 8000 * t.val + p.val; rw [e0]; omega
  | ⟨1, _⟩ => show win3_1.index t (1 : Fin 2) * 64 + 1 * k.val = k.val; rw [e1]; omega

/-- Window 2's block at point t is the same rows of the edge attributes. -/
theorem attr_rows (c : Dev nD) (t : Fin cfg3.N) (p : Fin 8000) (k : Fin 16) :
    (iblk3 V c 2 t : Mat 8000 16) (ix2 p k) = (V c main_arg2 : Mat 800000 16) (ix2 (blockRow t.val (point_lt t) p) k) := by
  obtain ⟨-, -, -, -, e0, e1, -⟩ := index_maps t
  unfold iblk3
  rw [View.read_apply]
  show V c main_arg2 _ = V c main_arg2 _
  refine congrArg (V c main_arg2) (funext fun a => Fin.ext ?_)
  match a with
  | ⟨0, _⟩ => show win3_2.index t (0 : Fin 2) * 8000 + 1 * p.val = 8000 * t.val + p.val; rw [e0]; omega
  | ⟨1, _⟩ => show win3_2.index t (1 : Fin 2) * 16 + 1 * k.val = k.val; rw [e1]; omega

/-- Window 3's block at every point is the whole first weight: its one block, at block index (0, 0). -/
theorem weightA_whole (c : Dev nD) (t : Fin cfg3.N) : (iblk3 V c 3 t : Mat 144 64) = (V c main_v36 : Mat 144 64) := by
  obtain ⟨-, -, -, -, -, -, e0, e1, -⟩ := index_maps t
  funext j
  obtain ⟨p, k, rfl⟩ : ∃ (p : Fin 144) (k : Fin 64), j = ix2 p k := ⟨j 0, j 1, eq_ix2 j⟩
  unfold iblk3
  rw [View.read_apply]
  show V c main_v36 _ = V c main_v36 _
  refine congrArg (V c main_v36) (funext fun a => Fin.ext ?_)
  match a with
  | ⟨0, _⟩ => show win3_3.index t (0 : Fin 2) * 144 + 1 * p.val = p.val; rw [e0]; omega
  | ⟨1, _⟩ => show win3_3.index t (1 : Fin 2) * 64 + 1 * k.val = k.val; rw [e1]; omega

/-- Window 4's block at every point is the whole first bias. -/
theorem biasA_whole (c : Dev nD) (t : Fin cfg3.N) : (iblk3 V c 4 t : Mat 1 64) = (V c main_v43 : Mat 1 64) := by
  obtain ⟨-, -, -, -, -, -, -, -, e0, e1, -⟩ := index_maps t
  funext j
  obtain ⟨p, k, rfl⟩ : ∃ (p : Fin 1) (k : Fin 64), j = ix2 p k := ⟨j 0, j 1, eq_ix2 j⟩
  unfold iblk3
  rw [View.read_apply]
  show V c main_v43 _ = V c main_v43 _
  refine congrArg (V c main_v43) (funext fun a => Fin.ext ?_)
  match a with
  | ⟨0, _⟩ => show win3_4.index t (0 : Fin 2) * 1 + 1 * p.val = p.val; rw [e0]; omega
  | ⟨1, _⟩ => show win3_4.index t (1 : Fin 2) * 64 + 1 * k.val = k.val; rw [e1]; omega

/-- Window 5's block at every point is the whole second weight. -/
theorem weightB_whole (c : Dev nD) (t : Fin cfg3.N) : (iblk3 V c 5 t : Mat 64 64) = (V c main_v40 : Mat 64 64) := by
  obtain ⟨-, -, -, -, -, -, -, -, -, -, e0, e1, -⟩ := index_maps t
  funext j
  obtain ⟨p, k, rfl⟩ : ∃ (p : Fin 64) (k : Fin 64), j = ix2 p k := ⟨j 0, j 1, eq_ix2 j⟩
  unfold iblk3
  rw [View.read_apply]
  show V c main_v40 _ = V c main_v40 _
  refine congrArg (V c main_v40) (funext fun a => Fin.ext ?_)
  match a with
  | ⟨0, _⟩ => show win3_5.index t (0 : Fin 2) * 64 + 1 * p.val = p.val; rw [e0]; omega
  | ⟨1, _⟩ => show win3_5.index t (1 : Fin 2) * 64 + 1 * k.val = k.val; rw [e1]; omega

/-- Window 6's block at every point is the whole second bias. -/
theorem biasB_whole (c : Dev nD) (t : Fin cfg3.N) : (iblk3 V c 6 t : Mat 1 64) = (V c main_v44 : Mat 1 64) := by
  obtain ⟨-, -, -, -, -, -, -, -, -, -, -, -, e0, e1, -⟩ := index_maps t
  funext j
  obtain ⟨p, k, rfl⟩ : ∃ (p : Fin 1) (k : Fin 64), j = ix2 p k := ⟨j 0, j 1, eq_ix2 j⟩
  unfold iblk3
  rw [View.read_apply]
  show V c main_v44 _ = V c main_v44 _
  refine congrArg (V c main_v44) (funext fun a => Fin.ext ?_)
  match a with
  | ⟨0, _⟩ => show win3_6.index t (0 : Fin 2) * 1 + 1 * p.val = p.val; rw [e0]; omega
  | ⟨1, _⟩ => show win3_6.index t (1 : Fin 2) * 64 + 1 * k.val = k.val; rw [e1]; omega

/-- Entry (p, q) of the output block at point t sits at row 8000 t + p, column q of the messages. -/
theorem out_place (t : Fin cfg3.N) (p : Fin 8000) (q : Fin 64) :
    (((cfg3.win 7).blk t).view.emb (ix2 p q) : S800000x64.Idx) = ix2 (blockRow t.val (point_lt t) p) q := by
  obtain ⟨-, -, -, -, -, -, -, -, -, -, -, -, -, -, e0, e1⟩ := index_maps t
  refine funext fun a => Fin.ext ?_
  match a with
  | ⟨0, _⟩ => show win3_7.index t (0 : Fin 2) * 8000 + 1 * p.val = 8000 * t.val + p.val; rw [e0]; omega
  | ⟨1, _⟩ => show win3_7.index t (1 : Fin 2) * 64 + 1 * q.val = q.val; rw [e1]; omega

/-! ## What a point writes back -/

/-- What point t writes back is block t of the message of the whole arrays. -/
theorem flushed_eq (c : Dev nD) (t : Fin cfg3.N) :
    (dat3 (F := Ideal) V c).flushed 7 t = ((cfg3.win 7).blk t).view.read (Elt Ideal)
      (edgeG (V c main_v33) (V c main_v34) (V c main_arg2) (V c main_v36) (V c main_v43) (V c main_v40) (V c main_v44)) := by
  show (cfg3.win 7).cut (grid3.coords t) ((dat3 V c).after 7 t) = _
  rw [after3_7, body_leaves (iblk3 V c 0 t) (iblk3 V c 1 t) (iblk3 V c 2 t) (iblk3 V c 3 t) (iblk3 V c 4 t) (iblk3 V c 5 t) (iblk3 V c 6 t)]
  refine funext fun (j : S8000x64.Idx) => ?_
  obtain ⟨p, q, rfl⟩ : ∃ (p : Fin 8000) (q : Fin 64), j = ix2 p q := ⟨j 0, j 1, eq_ix2 j⟩
  have hplace := out_place t p q
  show edgeG (iblk3 V c 0 t) (iblk3 V c 1 t) (iblk3 V c 2 t) (iblk3 V c 3 t) (iblk3 V c 4 t) (iblk3 V c 5 t) (iblk3 V c 6 t) (ix2 p q)
    = edgeG (V c main_v33) (V c main_v34) (V c main_arg2) (V c main_v36) (V c main_v43) (V c main_v40) (V c main_v44)
        (((cfg3.win 7).blk t).view.emb (ix2 p q))
  rw [hplace]
  exact message_of_block (V c main_v33) (V c main_v34) (V c main_arg2) (iblk3 V c 0 t) (iblk3 V c 1 t) (iblk3 V c 2 t)
    (V c main_v36) (iblk3 V c 3 t) (V c main_v43) (iblk3 V c 4 t) (V c main_v40) (iblk3 V c 5 t) (V c main_v44) (iblk3 V c 6 t)
    t.val (point_lt t) (gatheredA_rows V c t) (gatheredB_rows V c t) (attr_rows V c t)
    (weightA_whole V c t) (biasA_whole V c t) (weightB_whole V c t) (biasB_whole V c t) p q

/-! ## The hundred blocks cover the array -/

/-- An index of the messages is in point t's block iff each coordinate is in the block's range on its axis. -/
theorem mem_block (t : Fin cfg3.N) (i : S800000x64.Idx) :
    i ∈ ((cfg3.win 7).blk t).view.set ↔ ∀ a : Fin 2, win3_7.index t a * S8000x64.size a ≤ (i a).val ∧ (i a).val < win3_7.index t a * S8000x64.size a + S8000x64.size a := by
  show i ∈ ((View.whole main_v45).slice (win3_7.rect t)).set ↔ _
  rw [View.set_slice_whole, Rect.mem_set_unit]
  exact Iff.rfl

/-- Row r is in the block of point r / 8000, which writes back: 100 · 8000 = 800000. -/
theorem covered (i : S800000x64.Idx) : ∃ t : Fin cfg3.N, (cfg3.win 7).flush t = true ∧ i ∈ ((cfg3.win 7).blk t).view.set := by
  have hi0 : (i 0).val < 800000 := (i 0).isLt
  have hi1 : (i 1).val < 64 := (i 1).isLt
  obtain ⟨t, ht⟩ : ∃ t : Fin cfg3.N, t.val = (i 0).val / 8000 :=
    ⟨⟨(i 0).val / 8000, Nat.lt_of_lt_of_eq (show (i 0).val / 8000 < 100 by omega) N_3.symm⟩, rfl⟩
  obtain ⟨-, -, -, -, -, -, -, -, -, -, -, -, -, -, e0, e1⟩ := index_maps t
  refine ⟨t, flush3_7 t, ?_⟩
  rw [mem_block]
  intro a
  match a with
  | ⟨0, _⟩ => show win3_7.index t (0 : Fin 2) * 8000 ≤ (i 0).val ∧ (i 0).val < win3_7.index t (0 : Fin 2) * 8000 + 8000; rw [e0]; omega
  | ⟨1, _⟩ => show win3_7.index t (1 : Fin 2) * 64 ≤ (i 1).val ∧ (i 1).val < win3_7.index t (1 : Fin 2) * 64 + 64; rw [e1]; omega

/-! ## The array after the region -/

/-- The messages after the region. -/
theorem final (c : Dev nD) : (dat3 (F := Ideal) V c).arrAt 7 cfg3.N
    = edgeG (V c main_v33) (V c main_v34) (V c main_arg2) (V c main_v36) (V c main_v43) (V c main_v40) (V c main_v44) :=
  (dat3 V c).arrAt_eq_of_cover 7 _ (fun t _ => flushed_eq V c t) covered

end Cert.KernelIdeal.Region3

end
-- ==== Proof.Region4.lean ====
/-
  The second GRU region: its output array after the run, as one function of the arrays it found.

  Ten grid points, point t writing rows 5000 t … 5000 t + 4999 of the new state from the same rows
  of the aggregate (window 0) and of the old state (window 1), and the whole of the four weights.
  The update is row-wise, so each block written is that block of `gruG` of the whole arrays, and
  the ten blocks cover the 50000 rows.
-/
import proofs.«420387_j4148938408095_1_alg».proof.Proof.Spec
import proofs.«420387_j4148938408095_1_alg».proof.Proof.PaySiblings
import proofs.«420387_j4148938408095_1_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region4

open Idealize.ShloMosaic Idealize.ShloMosaic.TcCoe Idealize.ShloMosaic.ValueIdx Idealize.SL.Sem Cert.KernelIdeal Cert.KernelIdeal.Gen Cert.Gnn Cert.KernelIdeal.Payload

variable (V : (c : Dev nD) → (b : Ref sig .tc) → Buf (Elt Ideal) ((c : Thread nD τ).loc b))

/-- The zero offsets of a whole-buffer rectangle, as the body's accesses spell them. -/
theorem zero_offsets : (![0, 0] : Fin 2 → Nat) = fun _ => 0 := funext fun a => by fin_cases a <;> rfl

/-- The index maps over the ten grid points: the aggregate, the state and the output (windows 0, 1, 6) are at
    block (t, 0), the four weights (windows 2 to 5) at block (0, 0). -/
theorem index_maps : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- A grid point is below ten. -/
theorem point_lt (t : Fin cfg4.N) : t.val < 10 := lt_of_lt_of_eq t.isLt N_4

/-- Row p of block t of the aggregate is row 5000 t + p of the aggregate. -/
theorem agg_block (c : Dev nD) (t : Fin cfg4.N) (p : Fin 5000) (k : Fin 64) (r : Fin 50000)
    (hr : r.val = 5000 * t.val + p.val) :
    iblk4 V c 0 t (ix2 p k) = V c main_v48 (ix2 r k) := by
  obtain ⟨ea, eb, -⟩ := index_maps t
  unfold iblk4
  rw [View.read_apply]
  show V c main_v48 _ = V c main_v48 _
  congr 1
  funext a
  apply Fin.ext
  match a with
  | ⟨0, _⟩ => show win4_0.index t (0 : Fin 2) * 5000 + 1 * p.val = r.val; rw [ea, hr]; omega
  | ⟨1, _⟩ => show win4_0.index t (1 : Fin 2) * 64 + 1 * k.val = k.val; rw [eb]; omega

/-- Row p of block t of the state is row 5000 t + p of the state. -/
theorem state_block (c : Dev nD) (t : Fin cfg4.N) (p : Fin 5000) (k : Fin 64) (r : Fin 50000)
    (hr : r.val = 5000 * t.val + p.val) :
    iblk4 V c 1 t (ix2 p k) = V c main_v32 (ix2 r k) := by
  obtain ⟨-, -, ea, eb, -⟩ := index_maps t
  unfold iblk4
  rw [View.read_apply]
  show V c main_v32 _ = V c main_v32 _
  congr 1
  funext a
  apply Fin.ext
  match a with
  | ⟨0, _⟩ => show win4_1.index t (0 : Fin 2) * 5000 + 1 * p.val = r.val; rw [ea, hr]; omega
  | ⟨1, _⟩ => show win4_1.index t (1 : Fin 2) * 64 + 1 * k.val = k.val; rw [eb]; omega

/-- The input weight's one block is the input weight. -/
theorem wih_block (c : Dev nD) (t : Fin cfg4.N) : iblk4 V c 2 t = V c main_v50 := by
  obtain ⟨-, -, -, -, ea, eb, -⟩ := index_maps t
  funext j
  obtain ⟨g, k, rfl⟩ : ∃ (g : Fin 192) (k : Fin 64), j = ix2 g k := ⟨j 0, j 1, eq_ix2 j⟩
  unfold iblk4
  rw [View.read_apply]
  show V c main_v50 _ = V c main_v50 _
  congr 1
  funext a
  apply Fin.ext
  match a with
  | ⟨0, _⟩ => show win4_2.index t (0 : Fin 2) * 192 + 1 * g.val = g.val; rw [ea]; omega
  | ⟨1, _⟩ => show win4_2.index t (1 : Fin 2) * 64 + 1 * k.val = k.val; rw [eb]; omega

/-- The hidden weight's one block is the hidden weight. -/
theorem whh_block (c : Dev nD) (t : Fin cfg4.N) : iblk4 V c 3 t = V c main_v52 := by
  obtain ⟨-, -, -, -, -, -, ea, eb, -⟩ := index_maps t
  funext j
  obtain ⟨g, k, rfl⟩ : ∃ (g : Fin 192) (k : Fin 64), j = ix2 g k := ⟨j 0, j 1, eq_ix2 j⟩
  unfold iblk4
  rw [View.read_apply]
  show V c main_v52 _ = V c main_v52 _
  congr 1
  funext a
  apply Fin.ext
  match a with
  | ⟨0, _⟩ => show win4_3.index t (0 : Fin 2) * 192 + 1 * g.val = g.val; rw [ea]; omega
  | ⟨1, _⟩ => show win4_3.index t (1 : Fin 2) * 64 + 1 * k.val = k.val; rw [eb]; omega

/-- The input bias's one block is the input bias. -/
theorem bih_block (c : Dev nD) (t : Fin cfg4.N) : iblk4 V c 4 t = V c main_v57 := by
  obtain ⟨-, -, -, -, -, -, -, -, ea, eb, -⟩ := index_maps t
  funext j
  obtain ⟨k, g, rfl⟩ : ∃ (k : Fin 1) (g : Fin 192), j = ix2 k g := ⟨j 0, j 1, eq_ix2 j⟩
  unfold iblk4
  rw [View.read_apply]
  show V c main_v57 _ = V c main_v57 _
  congr 1
  funext a
  apply Fin.ext
  match a with
  | ⟨0, _⟩ => show win4_4.index t (0 : Fin 2) * 1 + 1 * k.val = k.val; rw [ea]; omega
  | ⟨1, _⟩ => show win4_4.index t (1 : Fin 2) * 192 + 1 * g.val = g.val; rw [eb]; omega

/-- The hidden bias's one block is the hidden bias. -/
theorem bhh_block (c : Dev nD) (t : Fin cfg4.N) : iblk4 V c 5 t = V c main_v58 := by
  obtain ⟨-, -, -, -, -, -, -, -, -, -, ea, eb, -⟩ := index_maps t
  funext j
  obtain ⟨k, g, rfl⟩ : ∃ (k : Fin 1) (g : Fin 192), j = ix2 k g := ⟨j 0, j 1, eq_ix2 j⟩
  unfold iblk4
  rw [View.read_apply]
  show V c main_v58 _ = V c main_v58 _
  congr 1
  funext a
  apply Fin.ext
  match a with
  | ⟨0, _⟩ => show win4_5.index t (0 : Fin 2) * 1 + 1 * k.val = k.val; rw [ea]; omega
  | ⟨1, _⟩ => show win4_5.index t (1 : Fin 2) * 192 + 1 * g.val = g.val; rw [eb]; omega

/-- Entry (p, q) of the output's block t sits at (5000 t + p, q) of the output. -/
theorem out_index (t : Fin cfg4.N) (p : Fin 5000) (q : Fin 64) (r : Fin 50000) (hr : r.val = 5000 * t.val + p.val) :
    ((cfg4.win 6).blk t).view.emb (ix2 p q) = ix2 r q := by
  obtain ⟨-, -, -, -, -, -, -, -, -, -, -, -, ea, eb⟩ := index_maps t
  funext a
  apply Fin.ext
  match a with
  | ⟨0, _⟩ => show win4_6.index t (0 : Fin 2) * 5000 + 1 * p.val = r.val; rw [ea, hr]; omega
  | ⟨1, _⟩ => show win4_6.index t (1 : Fin 2) * 64 + 1 * q.val = q.val; rw [eb]; omega

/-- What point t writes back is block t of the update of the whole arrays: the update is row-wise, and row p of the
    blocks of the aggregate and of the state is row 5000 t + p of each. -/
theorem flushed_eq (c : Dev nD) (t : Fin cfg4.N) :
    (dat4 V c).flushed 6 t
      = ((cfg4.win 6).blk t).view.read (Elt Ideal)
          (gruG (V c main_v48) (V c main_v32) (V c main_v50) (V c main_v52) (V c main_v57) (V c main_v58)) := by
  show (cfg4.win 6).cut (grid4.coords t) ((dat4 V c).after 6 t) = _
  rw [after4_6]
  unfold out4_6
  rw [View.canon_unit_zero zero_offsets]
  simp only [View.ld_unit_zero (S := S5000x64) zero_offsets, View.ld_unit_zero (S := S192x64) zero_offsets,
    View.ld_unit_zero (S := S1x192) zero_offsets]
  rw [gru_eq4, wih_block, whh_block, bih_block, bhh_block]
  funext j
  obtain ⟨p, q, rfl⟩ : ∃ (p : Fin 5000) (q : Fin 64), j = ix2 p q := ⟨j 0, j 1, eq_ix2 j⟩
  have ht := point_lt t
  have hi := out_index t p q ⟨5000 * t.val + p.val, by omega⟩ rfl
  show gruG (n := 5000) (iblk4 V c 0 t) (iblk4 V c 1 t) (V c main_v50) (V c main_v52) (V c main_v57) (V c main_v58) (ix2 p q)
    = gruG (V c main_v48) (V c main_v32) (V c main_v50) (V c main_v52) (V c main_v57) (V c main_v58)
        (((cfg4.win 6).blk t).view.emb (ix2 p q))
  rw [hi, gruG_ix2, gruG_ix2]
  exact gruAt_congr _ _ _ _ (fun k => agg_block V c t p k _ rfl) (fun k => state_block V c t p k _ rfl) q

/-- An index of the output is in point t's block iff each coordinate is in the block's range on its axis. -/
theorem mem_block (t : Fin cfg4.N) (i : S50000x64.Idx) :
    i ∈ ((cfg4.win 6).blk t).view.set
      ↔ ∀ a : Fin 2, win4_6.index t a * S5000x64.size a ≤ (i a).val
          ∧ (i a).val < win4_6.index t a * S5000x64.size a + S5000x64.size a := by
  show i ∈ ((View.whole main_v59).slice (win4_6.rect t)).set ↔ _
  rw [View.set_slice_whole, Rect.mem_set_unit]
  exact Iff.rfl

/-- Every index of the output is in some point's block: row r is in block r / 5000. -/
theorem covered (i : S50000x64.Idx) :
    ∃ t : Fin cfg4.N, (cfg4.win 6).flush t = true ∧ i ∈ ((cfg4.win 6).blk t).view.set := by
  have hrow : (i 0).val < 50000 := (i 0).isLt
  have hcol : (i 1).val < 64 := (i 1).isLt
  obtain ⟨t, ht⟩ : ∃ t : Fin cfg4.N, t.val = (i 0).val / 5000 :=
    ⟨⟨(i 0).val / 5000, lt_of_lt_of_eq (by omega : (i 0).val / 5000 < 10) N_4.symm⟩, rfl⟩
  obtain ⟨-, -, -, -, -, -, -, -, -, -, -, -, ea, eb⟩ := index_maps t
  refine ⟨t, flush4_6 t, ?_⟩
  rw [mem_block]
  intro a
  match a with
  | ⟨0, _⟩ =>
    show win4_6.index t (0 : Fin 2) * 5000 ≤ (i 0).val ∧ (i 0).val < win4_6.index t (0 : Fin 2) * 5000 + 5000
    rw [ea]; omega
  | ⟨1, _⟩ =>
    show win4_6.index t (1 : Fin 2) * 64 ≤ (i 1).val ∧ (i 1).val < win4_6.index t (1 : Fin 2) * 64 + 64
    rw [eb]; omega

/-- The node states after the region. -/
theorem final (c : Dev nD) : (dat4 (F := Ideal) V c).arrAt 6 cfg4.N
    = gruG (V c main_v48) (V c main_v32) (V c main_v50) (V c main_v52) (V c main_v57) (V c main_v58) :=
  (dat4 V c).arrAt_eq_of_cover 6
    (gruG (V c main_v48) (V c main_v32) (V c main_v50) (V c main_v52) (V c main_v57) (V c main_v58))
    (fun t _ => flushed_eq V c t) covered

end Cert.KernelIdeal.Region4

end
-- ==== Proof.Region5.lean ====
/-
  The third message region: its output array after the run, as one function of the arrays it found.

  A hundred grid points, point t writing rows 8000 t … 8000 t + 7999 of the messages from the same
  rows of the two gathered arrays and of the edge attributes, and the whole of the four weights.
  The message is row-wise, so each block written is that block of `edgeG` of the whole arrays, and
  the hundred blocks cover the 800000 rows.
-/
import proofs.«420387_j4148938408095_1_alg».proof.Proof.Spec
import proofs.«420387_j4148938408095_1_alg».proof.Proof.PaySiblings
import proofs.«420387_j4148938408095_1_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region5

open Idealize.ShloMosaic Idealize.ShloMosaic.TcCoe Idealize.ShloMosaic.ValueIdx Idealize.SL.Sem Cert.KernelIdeal Cert.KernelIdeal.Gen Cert.Gnn Cert.KernelIdeal.Payload

variable (V : (c : Dev nD) → (b : Ref sig .tc) → Buf (Elt Ideal) ((c : Thread nD τ).loc b))

/-! ## Rows of a block as rows of the array -/

/-- Row `p` of the `s`-th block of 8000 rows is row 8000 s + p of the 800000. -/
def blockRow (s : Nat) (hs : s < 100) (p : Fin 8000) : Fin 800000 := ⟨8000 * s + p.val, by omega⟩

/-- The message is row-wise: if three blocks of 8000 rows are the `s`-th blocks of three arrays of 800000 rows, and
    the weights are the same, then the message of the blocks at row `p` is the message of the arrays at row
    8000 s + p. -/
theorem message_of_block (A0 A1 : Mat 800000 64) (A2 : Mat 800000 16) (B0 B1 : Mat 8000 64) (B2 : Mat 8000 16)
    (w1 w1' : Mat 144 64) (b1 b1' : Mat 1 64) (w2 w2' : Mat 64 64) (b2 b2' : Mat 1 64) (s : Nat) (hs : s < 100)
    (h0 : ∀ (p : Fin 8000) (k : Fin 64), B0 (ix2 p k) = A0 (ix2 (blockRow s hs p) k))
    (h1 : ∀ (p : Fin 8000) (k : Fin 64), B1 (ix2 p k) = A1 (ix2 (blockRow s hs p) k))
    (h2 : ∀ (p : Fin 8000) (k : Fin 16), B2 (ix2 p k) = A2 (ix2 (blockRow s hs p) k))
    (h3 : w1' = w1) (h4 : b1' = b1) (h5 : w2' = w2) (h6 : b2' = b2) (p : Fin 8000) (q : Fin 64) :
    edgeG B0 B1 B2 w1' b1' w2' b2' (ix2 p q) = edgeG A0 A1 A2 w1 b1 w2 b2 (ix2 (blockRow s hs p) q) := by
  subst h3 h4 h5 h6
  rw [edgeG_ix2, edgeG_ix2]
  exact edgeAt_congr w1' b1' w2' b2' (h0 p) (h1 p) (h2 p) q

/-! ## What the body leaves, for any blocks -/

/-- The zero offsets of a whole-buffer rectangle are the constant zero. -/
theorem offsets_zero : (![0, 0] : Fin 2 → Nat) = fun _ => 0 := funext fun a => by fin_cases a <;> rfl

/-- The body loads its seven buffers whole and stores once, whole: what it leaves in the output buffer is the
    message of what the input buffers hold. -/
theorem body_leaves (x0 x1 : Vec Ideal S8000x64 .f32) (x2 : Vec Ideal S8000x16 .f32) (x3 : Vec Ideal S144x64 .f32)
    (x4 : Vec Ideal S1x64 .f32) (x5 : Vec Ideal S64x64 .f32) (x6 : Vec Ideal S1x64 .f32) :
    out5_7 (F := Ideal) x0 x1 x2 x3 x4 x5 x6 = edgeG x0 x1 x2 x3 x4 x5 x6 := by
  unfold out5_7
  rw [View.canon_unit_zero offsets_zero]
  simp only [View.ld_unit_zero (S := S8000x64) offsets_zero, View.ld_unit_zero (S := S8000x16) offsets_zero,
    View.ld_unit_zero (S := S144x64) offsets_zero, View.ld_unit_zero (S := S1x64) offsets_zero,
    View.ld_unit_zero (S := S64x64) offsets_zero]
  exact edge_eq5 x0 x1 x2 x3 x4 x5 x6

/-! ## The windows' blocks, read off the arrays -/

/-- The printed index maps over the hundred points: the three row-blocked inputs and the output sit at block
    (t, 0), the four weights at block (0, 0). -/
theorem index_maps : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- The grid has a hundred points. -/
theorem point_lt (t : Fin cfg5.N) : t.val < 100 := Nat.lt_of_lt_of_eq t.isLt N_5

/-- Window 0's block at point t is rows 8000 t … 8000 t + 7999 of the first gathered array. -/
theorem gatheredA_rows (c : Dev nD) (t : Fin cfg5.N) (p : Fin 8000) (k : Fin 64) :
    (iblk5 V c 0 t : Mat 8000 64) (ix2 p k) = (V c main_v60 : Mat 800000 64) (ix2 (blockRow t.val (point_lt t) p) k) := by
  obtain ⟨e0, e1, -⟩ := index_maps t
  unfold iblk5
  rw [View.read_apply]
  show V c main_v60 _ = V c main_v60 _
  refine congrArg (V c main_v60) (funext fun a => Fin.ext ?_)
  match a with
  | ⟨0, _⟩ => show win5_0.index t (0 : Fin 2) * 8000 + 1 * p.val = 8000 * t.val + p.val; rw [e0]; omega
  | ⟨1, _⟩ => show win5_0.index t (1 : Fin 2) * 64 + 1 * k.val = k.val; rw [e1]; omega

/-- Window 1's block at point t is the same rows of the second gathered array. -/
theorem gatheredB_rows (c : Dev nD) (t : Fin cfg5.N) (p : Fin 8000) (k : Fin 64) :
    (iblk5 V c 1 t : Mat 8000 64) (ix2 p k) = (V c main_v61 : Mat 800000 64) (ix2 (blockRow t.val (point_lt t) p) k) := by
  obtain ⟨-, -, e0, e1, -⟩ := index_maps t
  unfold iblk5
  rw [View.read_apply]
  show V c main_v61 _ = V c main_v61 _
  refine congrArg (V c main_v61) (funext fun a => Fin.ext ?_)
  match a with
  | ⟨0, _⟩ => show win5_1.index t (0 : Fin 2) * 8000 + 1 * p.val = 8000 * t.val + p.val; rw [e0]; omega
  | ⟨1, _⟩ => show win5_1.index t (1 : Fin 2) * 64 + 1 * k.val = k.val; rw [e1]; omega

/-- Window 2's block at point t is the same rows of the edge attributes. -/
theorem attr_rows (c : Dev nD) (t : Fin cfg5.N) (p : Fin 8000) (k : Fin 16) :
    (iblk5 V c 2 t : Mat 8000 16) (ix2 p k) = (V c main_arg2 : Mat 800000 16) (ix2 (blockRow t.val (point_lt t) p) k) := by
  obtain ⟨-, -, -, -, e0, e1, -⟩ := index_maps t
  unfold iblk5
  rw [View.read_apply]
  show V c main_arg2 _ = V c main_arg2 _
  refine congrArg (V c main_arg2) (funext fun a => Fin.ext ?_)
  match a with
  | ⟨0, _⟩ => show win5_2.index t (0 : Fin 2) * 8000 + 1 * p.val = 8000 * t.val + p.val; rw [e0]; omega
  | ⟨1, _⟩ => show win5_2.index t (1 : Fin 2) * 16 + 1 * k.val = k.val; rw [e1]; omega

/-- Window 3's block at every point is the whole first weight: its one block, at block index (0, 0). -/
theorem weightA_whole (c : Dev nD) (t : Fin cfg5.N) : (iblk5 V c 3 t : Mat 144 64) = (V c main_v63 : Mat 144 64) := by
  obtain ⟨-, -, -, -, -, -, e0, e1, -⟩ := index_maps t
  funext j
  obtain ⟨p, k, rfl⟩ : ∃ (p : Fin 144) (k : Fin 64), j = ix2 p k := ⟨j 0, j 1, eq_ix2 j⟩
  unfold iblk5
  rw [View.read_apply]
  show V c main_v63 _ = V c main_v63 _
  refine congrArg (V c main_v63) (funext fun a => Fin.ext ?_)
  match a with
  | ⟨0, _⟩ => show win5_3.index t (0 : Fin 2) * 144 + 1 * p.val = p.val; rw [e0]; omega
  | ⟨1, _⟩ => show win5_3.index t (1 : Fin 2) * 64 + 1 * k.val = k.val; rw [e1]; omega

/-- Window 4's block at every point is the whole first bias. -/
theorem biasA_whole (c : Dev nD) (t : Fin cfg5.N) : (iblk5 V c 4 t : Mat 1 64) = (V c main_v70 : Mat 1 64) := by
  obtain ⟨-, -, -, -, -, -, -, -, e0, e1, -⟩ := index_maps t
  funext j
  obtain ⟨p, k, rfl⟩ : ∃ (p : Fin 1) (k : Fin 64), j = ix2 p k := ⟨j 0, j 1, eq_ix2 j⟩
  unfold iblk5
  rw [View.read_apply]
  show V c main_v70 _ = V c main_v70 _
  refine congrArg (V c main_v70) (funext fun a => Fin.ext ?_)
  match a with
  | ⟨0, _⟩ => show win5_4.index t (0 : Fin 2) * 1 + 1 * p.val = p.val; rw [e0]; omega
  | ⟨1, _⟩ => show win5_4.index t (1 : Fin 2) * 64 + 1 * k.val = k.val; rw [e1]; omega

/-- Window 5's block at every point is the whole second weight. -/
theorem weightB_whole (c : Dev nD) (t : Fin cfg5.N) : (iblk5 V c 5 t : Mat 64 64) = (V c main_v67 : Mat 64 64) := by
  obtain ⟨-, -, -, -, -, -, -, -, -, -, e0, e1, -⟩ := index_maps t
  funext j
  obtain ⟨p, k, rfl⟩ : ∃ (p : Fin 64) (k : Fin 64), j = ix2 p k := ⟨j 0, j 1, eq_ix2 j⟩
  unfold iblk5
  rw [View.read_apply]
  show V c main_v67 _ = V c main_v67 _
  refine congrArg (V c main_v67) (funext fun a => Fin.ext ?_)
  match a with
  | ⟨0, _⟩ => show win5_5.index t (0 : Fin 2) * 64 + 1 * p.val = p.val; rw [e0]; omega
  | ⟨1, _⟩ => show win5_5.index t (1 : Fin 2) * 64 + 1 * k.val = k.val; rw [e1]; omega

/-- Window 6's block at every point is the whole second bias. -/
theorem biasB_whole (c : Dev nD) (t : Fin cfg5.N) : (iblk5 V c 6 t : Mat 1 64) = (V c main_v71 : Mat 1 64) := by
  obtain ⟨-, -, -, -, -, -, -, -, -, -, -, -, e0, e1, -⟩ := index_maps t
  funext j
  obtain ⟨p, k, rfl⟩ : ∃ (p : Fin 1) (k : Fin 64), j = ix2 p k := ⟨j 0, j 1, eq_ix2 j⟩
  unfold iblk5
  rw [View.read_apply]
  show V c main_v71 _ = V c main_v71 _
  refine congrArg (V c main_v71) (funext fun a => Fin.ext ?_)
  match a with
  | ⟨0, _⟩ => show win5_6.index t (0 : Fin 2) * 1 + 1 * p.val = p.val; rw [e0]; omega
  | ⟨1, _⟩ => show win5_6.index t (1 : Fin 2) * 64 + 1 * k.val = k.val; rw [e1]; omega

/-- Entry (p, q) of the output block at point t sits at row 8000 t + p, column q of the messages. -/
theorem out_place (t : Fin cfg5.N) (p : Fin 8000) (q : Fin 64) :
    (((cfg5.win 7).blk t).view.emb (ix2 p q) : S800000x64.Idx) = ix2 (blockRow t.val (point_lt t) p) q := by
  obtain ⟨-, -, -, -, -, -, -, -, -, -, -, -, -, -, e0, e1⟩ := index_maps t
  refine funext fun a => Fin.ext ?_
  match a with
  | ⟨0, _⟩ => show win5_7.index t (0 : Fin 2) * 8000 + 1 * p.val = 8000 * t.val + p.val; rw [e0]; omega
  | ⟨1, _⟩ => show win5_7.index t (1 : Fin 2) * 64 + 1 * q.val = q.val; rw [e1]; omega

/-! ## What a point writes back -/

/-- What point t writes back is block t of the message of the whole arrays. -/
theorem flushed_eq (c : Dev nD) (t : Fin cfg5.N) :
    (dat5 (F := Ideal) V c).flushed 7 t = ((cfg5.win 7).blk t).view.read (Elt Ideal)
      (edgeG (V c main_v60) (V c main_v61) (V c main_arg2) (V c main_v63) (V c main_v70) (V c main_v67) (V c main_v71)) := by
  show (cfg5.win 7).cut (grid5.coords t) ((dat5 V c).after 7 t) = _
  rw [after5_7, body_leaves (iblk5 V c 0 t) (iblk5 V c 1 t) (iblk5 V c 2 t) (iblk5 V c 3 t) (iblk5 V c 4 t) (iblk5 V c 5 t) (iblk5 V c 6 t)]
  refine funext fun (j : S8000x64.Idx) => ?_
  obtain ⟨p, q, rfl⟩ : ∃ (p : Fin 8000) (q : Fin 64), j = ix2 p q := ⟨j 0, j 1, eq_ix2 j⟩
  have hplace := out_place t p q
  show edgeG (iblk5 V c 0 t) (iblk5 V c 1 t) (iblk5 V c 2 t) (iblk5 V c 3 t) (iblk5 V c 4 t) (iblk5 V c 5 t) (iblk5 V c 6 t) (ix2 p q)
    = edgeG (V c main_v60) (V c main_v61) (V c main_arg2) (V c main_v63) (V c main_v70) (V c main_v67) (V c main_v71)
        (((cfg5.win 7).blk t).view.emb (ix2 p q))
  rw [hplace]
  exact message_of_block (V c main_v60) (V c main_v61) (V c main_arg2) (iblk5 V c 0 t) (iblk5 V c 1 t) (iblk5 V c 2 t)
    (V c main_v63) (iblk5 V c 3 t) (V c main_v70) (iblk5 V c 4 t) (V c main_v67) (iblk5 V c 5 t) (V c main_v71) (iblk5 V c 6 t)
    t.val (point_lt t) (gatheredA_rows V c t) (gatheredB_rows V c t) (attr_rows V c t)
    (weightA_whole V c t) (biasA_whole V c t) (weightB_whole V c t) (biasB_whole V c t) p q

/-! ## The hundred blocks cover the array -/

/-- An index of the messages is in point t's block iff each coordinate is in the block's range on its axis. -/
theorem mem_block (t : Fin cfg5.N) (i : S800000x64.Idx) :
    i ∈ ((cfg5.win 7).blk t).view.set ↔ ∀ a : Fin 2, win5_7.index t a * S8000x64.size a ≤ (i a).val ∧ (i a).val < win5_7.index t a * S8000x64.size a + S8000x64.size a := by
  show i ∈ ((View.whole main_v72).slice (win5_7.rect t)).set ↔ _
  rw [View.set_slice_whole, Rect.mem_set_unit]
  exact Iff.rfl

/-- Row r is in the block of point r / 8000, which writes back: 100 · 8000 = 800000. -/
theorem covered (i : S800000x64.Idx) : ∃ t : Fin cfg5.N, (cfg5.win 7).flush t = true ∧ i ∈ ((cfg5.win 7).blk t).view.set := by
  have hi0 : (i 0).val < 800000 := (i 0).isLt
  have hi1 : (i 1).val < 64 := (i 1).isLt
  obtain ⟨t, ht⟩ : ∃ t : Fin cfg5.N, t.val = (i 0).val / 8000 :=
    ⟨⟨(i 0).val / 8000, Nat.lt_of_lt_of_eq (show (i 0).val / 8000 < 100 by omega) N_5.symm⟩, rfl⟩
  obtain ⟨-, -, -, -, -, -, -, -, -, -, -, -, -, -, e0, e1⟩ := index_maps t
  refine ⟨t, flush5_7 t, ?_⟩
  rw [mem_block]
  intro a
  match a with
  | ⟨0, _⟩ => show win5_7.index t (0 : Fin 2) * 8000 ≤ (i 0).val ∧ (i 0).val < win5_7.index t (0 : Fin 2) * 8000 + 8000; rw [e0]; omega
  | ⟨1, _⟩ => show win5_7.index t (1 : Fin 2) * 64 ≤ (i 1).val ∧ (i 1).val < win5_7.index t (1 : Fin 2) * 64 + 64; rw [e1]; omega

/-! ## The array after the region -/

/-- The messages after the region. -/
theorem final (c : Dev nD) : (dat5 (F := Ideal) V c).arrAt 7 cfg5.N
    = edgeG (V c main_v60) (V c main_v61) (V c main_arg2) (V c main_v63) (V c main_v70) (V c main_v67) (V c main_v71) :=
  (dat5 V c).arrAt_eq_of_cover 7 _ (fun t _ => flushed_eq V c t) covered

end Cert.KernelIdeal.Region5

end
-- ==== Proof.Region6.lean ====
/-
  The third GRU region: its output array after the run, as one function of the arrays it found.

  Ten grid points, point t writing rows 5000 t … 5000 t + 4999 of the new state from the same rows
  of the aggregate (window 0) and of the old state (window 1), and the whole of the four weights.
  The update is row-wise, so each block written is that block of `gruG` of the whole arrays, and
  the ten blocks cover the 50000 rows.
-/
import proofs.«420387_j4148938408095_1_alg».proof.Proof.Spec
import proofs.«420387_j4148938408095_1_alg».proof.Proof.PaySiblings
import proofs.«420387_j4148938408095_1_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region6

open Idealize.ShloMosaic Idealize.ShloMosaic.TcCoe Idealize.ShloMosaic.ValueIdx Idealize.SL.Sem Cert.KernelIdeal Cert.KernelIdeal.Gen Cert.Gnn Cert.KernelIdeal.Payload

variable (V : (c : Dev nD) → (b : Ref sig .tc) → Buf (Elt Ideal) ((c : Thread nD τ).loc b))

/-- The zero offsets of a whole-buffer rectangle, as the body's accesses spell them. -/
theorem zero_offsets : (![0, 0] : Fin 2 → Nat) = fun _ => 0 := funext fun a => by fin_cases a <;> rfl

/-- The index maps over the ten grid points: the aggregate, the state and the output (windows 0, 1, 6) are at
    block (t, 0), the four weights (windows 2 to 5) at block (0, 0). -/
theorem index_maps : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- A grid point is below ten. -/
theorem point_lt (t : Fin cfg6.N) : t.val < 10 := lt_of_lt_of_eq t.isLt N_6

/-- Row p of block t of the aggregate is row 5000 t + p of the aggregate. -/
theorem agg_block (c : Dev nD) (t : Fin cfg6.N) (p : Fin 5000) (k : Fin 64) (r : Fin 50000)
    (hr : r.val = 5000 * t.val + p.val) :
    iblk6 V c 0 t (ix2 p k) = V c main_v75 (ix2 r k) := by
  obtain ⟨ea, eb, -⟩ := index_maps t
  unfold iblk6
  rw [View.read_apply]
  show V c main_v75 _ = V c main_v75 _
  congr 1
  funext a
  apply Fin.ext
  match a with
  | ⟨0, _⟩ => show win6_0.index t (0 : Fin 2) * 5000 + 1 * p.val = r.val; rw [ea, hr]; omega
  | ⟨1, _⟩ => show win6_0.index t (1 : Fin 2) * 64 + 1 * k.val = k.val; rw [eb]; omega

/-- Row p of block t of the state is row 5000 t + p of the state. -/
theorem state_block (c : Dev nD) (t : Fin cfg6.N) (p : Fin 5000) (k : Fin 64) (r : Fin 50000)
    (hr : r.val = 5000 * t.val + p.val) :
    iblk6 V c 1 t (ix2 p k) = V c main_v59 (ix2 r k) := by
  obtain ⟨-, -, ea, eb, -⟩ := index_maps t
  unfold iblk6
  rw [View.read_apply]
  show V c main_v59 _ = V c main_v59 _
  congr 1
  funext a
  apply Fin.ext
  match a with
  | ⟨0, _⟩ => show win6_1.index t (0 : Fin 2) * 5000 + 1 * p.val = r.val; rw [ea, hr]; omega
  | ⟨1, _⟩ => show win6_1.index t (1 : Fin 2) * 64 + 1 * k.val = k.val; rw [eb]; omega

/-- The input weight's one block is the input weight. -/
theorem wih_block (c : Dev nD) (t : Fin cfg6.N) : iblk6 V c 2 t = V c main_v77 := by
  obtain ⟨-, -, -, -, ea, eb, -⟩ := index_maps t
  funext j
  obtain ⟨g, k, rfl⟩ : ∃ (g : Fin 192) (k : Fin 64), j = ix2 g k := ⟨j 0, j 1, eq_ix2 j⟩
  unfold iblk6
  rw [View.read_apply]
  show V c main_v77 _ = V c main_v77 _
  congr 1
  funext a
  apply Fin.ext
  match a with
  | ⟨0, _⟩ => show win6_2.index t (0 : Fin 2) * 192 + 1 * g.val = g.val; rw [ea]; omega
  | ⟨1, _⟩ => show win6_2.index t (1 : Fin 2) * 64 + 1 * k.val = k.val; rw [eb]; omega

/-- The hidden weight's one block is the hidden weight. -/
theorem whh_block (c : Dev nD) (t : Fin cfg6.N) : iblk6 V c 3 t = V c main_v79 := by
  obtain ⟨-, -, -, -, -, -, ea, eb, -⟩ := index_maps t
  funext j
  obtain ⟨g, k, rfl⟩ : ∃ (g : Fin 192) (k : Fin 64), j = ix2 g k := ⟨j 0, j 1, eq_ix2 j⟩
  unfold iblk6
  rw [View.read_apply]
  show V c main_v79 _ = V c main_v79 _
  congr 1
  funext a
  apply Fin.ext
  match a with
  | ⟨0, _⟩ => show win6_3.index t (0 : Fin 2) * 192 + 1 * g.val = g.val; rw [ea]; omega
  | ⟨1, _⟩ => show win6_3.index t (1 : Fin 2) * 64 + 1 * k.val = k.val; rw [eb]; omega

/-- The input bias's one block is the input bias. -/
theorem bih_block (c : Dev nD) (t : Fin cfg6.N) : iblk6 V c 4 t = V c main_v84 := by
  obtain ⟨-, -, -, -, -, -, -, -, ea, eb, -⟩ := index_maps t
  funext j
  obtain ⟨k, g, rfl⟩ : ∃ (k : Fin 1) (g : Fin 192), j = ix2 k g := ⟨j 0, j 1, eq_ix2 j⟩
  unfold iblk6
  rw [View.read_apply]
  show V c main_v84 _ = V c main_v84 _
  congr 1
  funext a
  apply Fin.ext
  match a with
  | ⟨0, _⟩ => show win6_4.index t (0 : Fin 2) * 1 + 1 * k.val = k.val; rw [ea]; omega
  | ⟨1, _⟩ => show win6_4.index t (1 : Fin 2) * 192 + 1 * g.val = g.val; rw [eb]; omega

/-- The hidden bias's one block is the hidden bias. -/
theorem bhh_block (c : Dev nD) (t : Fin cfg6.N) : iblk6 V c 5 t = V c main_v85 := by
  obtain ⟨-, -, -, -, -, -, -, -, -, -, ea, eb, -⟩ := index_maps t
  funext j
  obtain ⟨k, g, rfl⟩ : ∃ (k : Fin 1) (g : Fin 192), j = ix2 k g := ⟨j 0, j 1, eq_ix2 j⟩
  unfold iblk6
  rw [View.read_apply]
  show V c main_v85 _ = V c main_v85 _
  congr 1
  funext a
  apply Fin.ext
  match a with
  | ⟨0, _⟩ => show win6_5.index t (0 : Fin 2) * 1 + 1 * k.val = k.val; rw [ea]; omega
  | ⟨1, _⟩ => show win6_5.index t (1 : Fin 2) * 192 + 1 * g.val = g.val; rw [eb]; omega

/-- Entry (p, q) of the output's block t sits at (5000 t + p, q) of the output. -/
theorem out_index (t : Fin cfg6.N) (p : Fin 5000) (q : Fin 64) (r : Fin 50000) (hr : r.val = 5000 * t.val + p.val) :
    ((cfg6.win 6).blk t).view.emb (ix2 p q) = ix2 r q := by
  obtain ⟨-, -, -, -, -, -, -, -, -, -, -, -, ea, eb⟩ := index_maps t
  funext a
  apply Fin.ext
  match a with
  | ⟨0, _⟩ => show win6_6.index t (0 : Fin 2) * 5000 + 1 * p.val = r.val; rw [ea, hr]; omega
  | ⟨1, _⟩ => show win6_6.index t (1 : Fin 2) * 64 + 1 * q.val = q.val; rw [eb]; omega

/-- What point t writes back is block t of the update of the whole arrays: the update is row-wise, and row p of the
    blocks of the aggregate and of the state is row 5000 t + p of each. -/
theorem flushed_eq (c : Dev nD) (t : Fin cfg6.N) :
    (dat6 V c).flushed 6 t
      = ((cfg6.win 6).blk t).view.read (Elt Ideal)
          (gruG (V c main_v75) (V c main_v59) (V c main_v77) (V c main_v79) (V c main_v84) (V c main_v85)) := by
  show (cfg6.win 6).cut (grid6.coords t) ((dat6 V c).after 6 t) = _
  rw [after6_6]
  unfold out6_6
  rw [View.canon_unit_zero zero_offsets]
  simp only [View.ld_unit_zero (S := S5000x64) zero_offsets, View.ld_unit_zero (S := S192x64) zero_offsets,
    View.ld_unit_zero (S := S1x192) zero_offsets]
  rw [gru_eq6, wih_block, whh_block, bih_block, bhh_block]
  funext j
  obtain ⟨p, q, rfl⟩ : ∃ (p : Fin 5000) (q : Fin 64), j = ix2 p q := ⟨j 0, j 1, eq_ix2 j⟩
  have ht := point_lt t
  have hi := out_index t p q ⟨5000 * t.val + p.val, by omega⟩ rfl
  show gruG (n := 5000) (iblk6 V c 0 t) (iblk6 V c 1 t) (V c main_v77) (V c main_v79) (V c main_v84) (V c main_v85) (ix2 p q)
    = gruG (V c main_v75) (V c main_v59) (V c main_v77) (V c main_v79) (V c main_v84) (V c main_v85)
        (((cfg6.win 6).blk t).view.emb (ix2 p q))
  rw [hi, gruG_ix2, gruG_ix2]
  exact gruAt_congr _ _ _ _ (fun k => agg_block V c t p k _ rfl) (fun k => state_block V c t p k _ rfl) q

/-- An index of the output is in point t's block iff each coordinate is in the block's range on its axis. -/
theorem mem_block (t : Fin cfg6.N) (i : S50000x64.Idx) :
    i ∈ ((cfg6.win 6).blk t).view.set
      ↔ ∀ a : Fin 2, win6_6.index t a * S5000x64.size a ≤ (i a).val
          ∧ (i a).val < win6_6.index t a * S5000x64.size a + S5000x64.size a := by
  show i ∈ ((View.whole main_v86).slice (win6_6.rect t)).set ↔ _
  rw [View.set_slice_whole, Rect.mem_set_unit]
  exact Iff.rfl

/-- Every index of the output is in some point's block: row r is in block r / 5000. -/
theorem covered (i : S50000x64.Idx) :
    ∃ t : Fin cfg6.N, (cfg6.win 6).flush t = true ∧ i ∈ ((cfg6.win 6).blk t).view.set := by
  have hrow : (i 0).val < 50000 := (i 0).isLt
  have hcol : (i 1).val < 64 := (i 1).isLt
  obtain ⟨t, ht⟩ : ∃ t : Fin cfg6.N, t.val = (i 0).val / 5000 :=
    ⟨⟨(i 0).val / 5000, lt_of_lt_of_eq (by omega : (i 0).val / 5000 < 10) N_6.symm⟩, rfl⟩
  obtain ⟨-, -, -, -, -, -, -, -, -, -, -, -, ea, eb⟩ := index_maps t
  refine ⟨t, flush6_6 t, ?_⟩
  rw [mem_block]
  intro a
  match a with
  | ⟨0, _⟩ =>
    show win6_6.index t (0 : Fin 2) * 5000 ≤ (i 0).val ∧ (i 0).val < win6_6.index t (0 : Fin 2) * 5000 + 5000
    rw [ea]; omega
  | ⟨1, _⟩ =>
    show win6_6.index t (1 : Fin 2) * 64 ≤ (i 1).val ∧ (i 1).val < win6_6.index t (1 : Fin 2) * 64 + 64
    rw [eb]; omega

/-- The node states after the region. -/
theorem final (c : Dev nD) : (dat6 (F := Ideal) V c).arrAt 6 cfg6.N
    = gruG (V c main_v75) (V c main_v59) (V c main_v77) (V c main_v79) (V c main_v84) (V c main_v85) :=
  (dat6 V c).arrAt_eq_of_cover 6
    (gruG (V c main_v75) (V c main_v59) (V c main_v77) (V c main_v79) (V c main_v84) (V c main_v85))
    (fun t _ => flushed_eq V c t) covered

end Cert.KernelIdeal.Region6

end
-- ==== Proof.KChain.lean ====
/-
  The kernel program's node states as functions of its arguments: the fold through @main, read.

  @main is sixteen host stretches and seven regions.  The fold `W0 … W23` gives the buffer contents
  at every boundary; here it is read at the buffers that carry the computation, up to the end of the
  first round: the node states after the embedding region (`h0`) and after the first round's GRU
  region (`h1`: the round's function `layerK` of the states before it).  A stretch that writes a
  buffer gives it its operation's value of the stretch's inputs; a stretch or region that does not
  write it leaves it; a region's output array is its `final`.

  The walk is one boundary at a time.  For every segment there is the list of the buffers it writes
  (`wr_W…`), and a buffer outside the list is the same on both sides of the segment (`st_W…`; `fr_W…`
  for a whole run of segments, from the round's entry on).  For every stretch there is the value of
  each buffer it writes that is read later, as the stretch's operations composed, over ANY contents
  `S` before the stretch (`hs…`); a long stretch is read one operation at a time, last operation
  first (`fold_eval`).  The edge list's two rows, and every argument read after the embedding region,
  are written once at most (before the first region) and then only carried: what they hold is stated
  at the round's entry (`row_W2`, `col_W2`, `arg_W2`) and again, in the same words, at its exit
  (`row_W8`, `col_W8`, `arg_W8`), so that the next round starts from its entry as this one does.
-/
import proofs.«420387_j4148938408095_1_alg».proof.Proof.Spec
import proofs.«420387_j4148938408095_1_alg».proof.Proof.KHost
import proofs.«420387_j4148938408095_1_alg».proof.Proof.Region0
import proofs.«420387_j4148938408095_1_alg».proof.Proof.Region1
import proofs.«420387_j4148938408095_1_alg».proof.Proof.Region2
import proofs.«420387_j4148938408095_1_alg».proof.Proof.Region3
import proofs.«420387_j4148938408095_1_alg».proof.Proof.Region4
import proofs.«420387_j4148938408095_1_alg».proof.Proof.Region5
import proofs.«420387_j4148938408095_1_alg».proof.Proof.Region6
import proofs.«420387_j4148938408095_1_alg».proof.Proof.Gen.KernelIdeal.Frame
import Idealize.ShloMosaic.Lib.StableHlo.Run

set_option maxRecDepth 16384

noncomputable section

open scoped BigOperators

namespace Cert.KernelIdeal.Chain

open Idealize.ShloMosaic Idealize.ShloMosaic.TcCoe Idealize.ShloMosaic.ValueIdx Idealize.SL.Sem Cert.KernelIdeal Cert.KernelIdeal.Gen Cert.Gnn Cert.KernelIdeal.KHost

variable (m : (ℓ : Loc nD τ sig) → Buf (Elt Ideal) ℓ) (ρ : Dev nD → PrngReg)

/-- One round as the kernel program runs it on core c, the round's weights cut out of the stacks at offset o. -/
def layerK (c : Dev nD) (o3 : Fin 3 → Nat) (o2 : Fin 2 → Nat)
    (s1 : S3x144x64.Slices o3 S1x144x64) (s2 : S3x64.Slices o2 S1x64) (s3 : S3x64x64.Slices o3 S1x64x64)
    (s4 : S3x192x64.Slices o3 S1x192x64) (s5 : S3x192.Slices o2 S1x192)
    (h : Vec Ideal S50000x64 .f32) : Vec Ideal S50000x64 .f32 :=
  layer (N := 50000) (E := 800000)
    (fun h => takeFill h (rowOf (m ((c : Thread nD τ).loc main_arg1))))
    (fun h => takeFill h (colOf (m ((c : Thread nD τ).loc main_arg1))))
    (segSum (rowOf (m ((c : Thread nD τ).loc main_arg1))))
    (m ((c : Thread nD τ).loc main_arg2))
    (w1At o3 s1 (m ((c : Thread nD τ).loc main_arg6))) (b64At o2 s2 (m ((c : Thread nD τ).loc main_arg7)))
    (w2At o3 s3 (m ((c : Thread nD τ).loc main_arg8))) (b64At o2 s2 (m ((c : Thread nD τ).loc main_arg9)))
    (wgAt o3 s4 (m ((c : Thread nD τ).loc main_arg10))) (wgAt o3 s4 (m ((c : Thread nD τ).loc main_arg11)))
    (bgAt o2 s5 (m ((c : Thread nD τ).loc main_arg12))) (bgAt o2 s5 (m ((c : Thread nD τ).loc main_arg13))) h

/-! ## The buffers a segment writes, and what it leaves alone -/

/-- A listed reference's buffer, alone, lies among the list's buffers. -/
theorem sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-- Each operation of a literal stretch writes one buffer, and that buffer is in the literal list. -/
macro "writes_listed" : tactic =>
  `(tactic| (simp only [List.Forall]
             repeat' apply And.intro
             all_goals exact sub_of_mem (by decide)))

/-- One read of one operation's result: at its own result buffer the operation's function of its operands'
    contents, at any other buffer what was there before. -/
macro "read_step" : tactic =>
  `(tactic| (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-- A stretch's fold read at a buffer.  Going in, the contents after each operation are named, first operation first;
    coming back, the operations are opened again last first, so every read still pending is a read of the SAME named
    contents, and all of them move one operation back together. -/
syntax "fold_eval" : tactic
macro_rules
  | `(tactic| fold_eval) =>
    `(tactic| first
        | (rw [StableHlo.after_cons]
           generalize h : HloOp.result _ _ = F
           fold_eval
           subst h
           repeat read_step)
        | rw [StableHlo.after_nil])

/-- Contents moved to a typed reference's buffer type and back are the contents. -/
theorem ofBuf_toBuf {T : BufTy} (x : StableHlo.TRef sig T) (v : T.Contents (Elt Ideal)) :
    x.ofBuf (x.toBuf v) = v := by
  obtain ⟨r, h, _, _⟩ := x
  subst h
  rfl

/-- The buffers the first stretch writes: the edge list's two rows and the embedding's bias row. -/
abbrev wr_W1 : List (Ref sig .tc) := [main_v0, main_v1, main_v2, main_v3, main_v4]
theorem wrsub_W1 : (hostOps0 : List (HloOp τ sig (Elt Ideal))).Forall fun op =>
    op.writes ⊆ (wr_W1.map (Proc.devRef (τ := τ) .tc)).toFinset := by
  writes_listed
/-- The arrays of the embedding region's windows. -/
abbrev wr_W2 : List (Ref sig .tc) := [main_arg0, main_arg4, main_v4, main_v5]

/-- The first stretch leaves every buffer it does not write. -/
theorem st_W1 (c : Dev nD) (b : Ref sig .tc) (h : b ∉ wr_W1) :
    W1 m ρ c (Proc.devRef .tc b) = W0 m ρ c (Proc.devRef .tc b) :=
  StableHlo.after_of_writes_sub hostOps0 _ wrsub_W1 h
/-- The embedding region leaves every buffer that is not one of its windows' arrays. -/
theorem st_W2 (c : Dev nD) (b : Ref sig .tc) (h : b ∉ wr_W2) :
    W2 m ρ c (Proc.devRef .tc b) = W1 m ρ c (Proc.devRef .tc b) :=
  W2_of_ne m ρ c b fun w e => h (e ▸ (by decide : ∀ w : Fin cfg0.W, Pipeline.arrRef spec0 w ∈ wr_W2) w)

/-! ## The first stretch's values, over any contents before it -/

theorem hsRow_W1 (S : Valuation τ sig (Elt Ideal)) :
    StableHlo.after hostOps0 S (Proc.devRef .tc main_v1) = rowOf (S (Proc.devRef .tc main_arg1)) := by
  after_results; rfl
theorem hsCol_W1 (S : Valuation τ sig (Elt Ideal)) :
    StableHlo.after hostOps0 S (Proc.devRef .tc main_v3) = colOf (S (Proc.devRef .tc main_arg1)) := by
  after_results; rfl
theorem hsBias_W1 (S : Valuation τ sig (Elt Ideal)) :
    StableHlo.after hostOps0 S (Proc.devRef .tc main_v4) = biasRow (S (Proc.devRef .tc main_arg5)) := by
  after_results; rfl

/-! ## What is carried from the embedding region's exit on: the edge list's rows and the arguments -/

/-- The arguments read after the embedding region. -/
abbrev carried : List (Ref sig .tc) :=
  [main_arg2, main_arg3, main_arg6, main_arg7, main_arg8, main_arg9, main_arg10, main_arg11, main_arg12, main_arg13,
   main_arg14, main_arg15, main_arg16, main_arg17]

/-- The source row of the edge list, at the embedding region's exit. -/
theorem row_W2 (c : Dev nD) : W2 m ρ c (Proc.devRef .tc main_v1) = rowOf (m ((c : Thread nD τ).loc main_arg1)) :=
  (st_W2 m ρ c main_v1 (by decide)).trans (hsRow_W1 (W0 m ρ c))
/-- The target row of the edge list, at the embedding region's exit. -/
theorem col_W2 (c : Dev nD) : W2 m ρ c (Proc.devRef .tc main_v3) = colOf (m ((c : Thread nD τ).loc main_arg1)) :=
  (st_W2 m ρ c main_v3 (by decide)).trans (hsCol_W1 (W0 m ρ c))
/-- A carried argument, at the embedding region's exit, is as launched. -/
theorem arg_W2 (c : Dev nD) (b : Ref sig .tc) (h : b ∈ carried) :
    W2 m ρ c (Proc.devRef .tc b) = m ((c : Thread nD τ).loc b) :=
  ((st_W2 m ρ c b ((by decide : ∀ x ∈ carried, x ∉ wr_W2) b h)).trans
    (st_W1 m ρ c b ((by decide : ∀ x ∈ carried, x ∉ wr_W1) b h))).trans rfl

/-- The node states after the embedding region. -/
theorem h0 (c : Dev nD) : W2 (F := Ideal) m ρ c (Proc.devRef .tc main_v5)
    = embedG (n := 50000) (m ((c : Thread nD τ).loc main_arg0)) (m ((c : Thread nD τ).loc main_arg4)) (biasRow (m ((c : Thread nD τ).loc main_arg5))) := by
  have e : W2 m ρ c (Proc.devRef .tc main_v5)
      = embedG (n := 50000) (W1 m ρ c (Proc.devRef .tc main_arg0)) (W1 m ρ c (Proc.devRef .tc main_arg4))
          (W1 m ρ c (Proc.devRef .tc main_v4)) :=
    (W2_arr m ρ c 3).trans (Region0.final (V1 m ρ) c)
  have a0 : W1 m ρ c (Proc.devRef .tc main_arg0) = m ((c : Thread nD τ).loc main_arg0) :=
    (st_W1 m ρ c main_arg0 (by decide)).trans rfl
  have a4 : W1 m ρ c (Proc.devRef .tc main_arg4) = m ((c : Thread nD τ).loc main_arg4) :=
    (st_W1 m ρ c main_arg4 (by decide)).trans rfl
  have b4 : W1 m ρ c (Proc.devRef .tc main_v4) = biasRow (m ((c : Thread nD τ).loc main_arg5)) := hsBias_W1 (W0 m ρ c)
  rw [e, a0, a4, b4]

-- ROUND BEGIN
/-! ## The round from W2 to W8: two gathers, the message weights, the message region, the aggregate and the
    GRU weights, the GRU region -/

/-- The buffers the source-row gather writes. -/
abbrev wr_W3 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v6]
theorem wrsub_W3 : (hostOps1 : List (HloOp τ sig (Elt Ideal))).Forall fun op =>
    op.writes ⊆ (wr_W3.map (Proc.devRef (τ := τ) .tc)).toFinset := by
  writes_listed
/-- The buffers the target-row gather writes. -/
abbrev wr_W4 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v7]
theorem wrsub_W4 : (hostOps1_1 : List (HloOp τ sig (Elt Ideal))).Forall fun op =>
    op.writes ⊆ (wr_W4.map (Proc.devRef (τ := τ) .tc)).toFinset := by
  writes_listed
/-- The buffers the message weights' stretch writes. -/
abbrev wr_W5 : List (Ref sig .tc) :=
  [main_v8, main_v9, main_v10, main_v11, main_v12, main_v13, main_v14, main_v15, main_v16, main_v17]
theorem wrsub_W5 : (hostOps1_2 : List (HloOp τ sig (Elt Ideal))).Forall fun op =>
    op.writes ⊆ (wr_W5.map (Proc.devRef (τ := τ) .tc)).toFinset := by
  writes_listed
/-- The arrays of the message region's windows, the edge attributes (an argument, only read) apart. -/
abbrev wr_W6 : List (Ref sig .tc) := [main_v6, main_v7, main_v9, main_v16, main_v13, main_v17, main_v18]
/-- The buffers the aggregate and GRU weights' stretch writes. -/
abbrev wr_W7 : List (Ref sig .tc) :=
  [main_cst, main_v19, main_v20, main_v21, main_v22, main_v23, main_v24, main_v25, main_v26, main_v27, main_v28, main_v29,
   main_v30, main_v31]
theorem wrsub_W7 : (hostOps2 : List (HloOp τ sig (Elt Ideal))).Forall fun op =>
    op.writes ⊆ (wr_W7.map (Proc.devRef (τ := τ) .tc)).toFinset := by
  writes_listed
/-- The arrays of the GRU region's windows. -/
abbrev wr_W8 : List (Ref sig .tc) := [main_v21, main_v5, main_v23, main_v25, main_v30, main_v31, main_v32]

/-- The message region leaves every buffer that is not one of its windows' arrays, and the edge attributes too:
    an input window's array is as the region found it. -/
theorem st_W6 (c : Dev nD) (b : Ref sig .tc) (h : b ∉ wr_W6) :
    W6 m ρ c (Proc.devRef .tc b) = W5 m ρ c (Proc.devRef .tc b) := by
  by_cases e : b = main_arg2
  · subst e
    exact (W6_arr m ρ c 2).trans (((dat1 (V5 m ρ) c).arrAt_in 2 rfl _).trans (A_eq1 (V5 m ρ) c 2))
  · exact W6_of_ne m ρ c b fun w hw =>
      (List.mem_cons.mp (hw ▸ (by decide : ∀ w : Fin cfg1.W, Pipeline.arrRef spec1 w ∈ main_arg2 :: wr_W6) w)).elim e h
/-- The GRU region leaves every buffer that is not one of its windows' arrays. -/
theorem st_W8 (c : Dev nD) (b : Ref sig .tc) (h : b ∉ wr_W8) :
    W8 m ρ c (Proc.devRef .tc b) = W7 m ρ c (Proc.devRef .tc b) :=
  W8_of_ne m ρ c b fun w e => h (e ▸ (by decide : ∀ w : Fin cfg2.W, Pipeline.arrRef spec2 w ∈ wr_W8) w)

/-- Everything written from W2 up to each boundary of the round. -/
abbrev ac_W3 : List (Ref sig .tc) := wr_W3
abbrev ac_W4 : List (Ref sig .tc) := ac_W3 ++ wr_W4
abbrev ac_W5 : List (Ref sig .tc) := ac_W4 ++ wr_W5
abbrev ac_W6 : List (Ref sig .tc) := ac_W5 ++ wr_W6
abbrev ac_W7 : List (Ref sig .tc) := ac_W6 ++ wr_W7
abbrev ac_W8 : List (Ref sig .tc) := ac_W7 ++ wr_W8

/-- A buffer nothing has written since W2 is as it was at W2. -/
theorem fr_W3 (c : Dev nD) (b : Ref sig .tc) (h : b ∉ ac_W3) :
    W3 m ρ c (Proc.devRef .tc b) = W2 m ρ c (Proc.devRef .tc b) :=
  StableHlo.after_of_writes_sub hostOps1 _ wrsub_W3 h
theorem fr_W4 (c : Dev nD) (b : Ref sig .tc) (h : b ∉ ac_W4) :
    W4 m ρ c (Proc.devRef .tc b) = W2 m ρ c (Proc.devRef .tc b) :=
  (StableHlo.after_of_writes_sub hostOps1_1 _ wrsub_W4 fun hb => h (List.mem_append_right _ hb)).trans
    (fr_W3 m ρ c b fun hb => h (List.mem_append_left _ hb))
theorem fr_W5 (c : Dev nD) (b : Ref sig .tc) (h : b ∉ ac_W5) :
    W5 m ρ c (Proc.devRef .tc b) = W2 m ρ c (Proc.devRef .tc b) :=
  (StableHlo.after_of_writes_sub hostOps1_2 _ wrsub_W5 fun hb => h (List.mem_append_right _ hb)).trans
    (fr_W4 m ρ c b fun hb => h (List.mem_append_left _ hb))
theorem fr_W6 (c : Dev nD) (b : Ref sig .tc) (h : b ∉ ac_W6) :
    W6 m ρ c (Proc.devRef .tc b) = W2 m ρ c (Proc.devRef .tc b) :=
  (st_W6 m ρ c b fun hb => h (List.mem_append_right _ hb)).trans
    (fr_W5 m ρ c b fun hb => h (List.mem_append_left _ hb))
theorem fr_W7 (c : Dev nD) (b : Ref sig .tc) (h : b ∉ ac_W7) :
    W7 m ρ c (Proc.devRef .tc b) = W2 m ρ c (Proc.devRef .tc b) :=
  (StableHlo.after_of_writes_sub hostOps2 _ wrsub_W7 fun hb => h (List.mem_append_right _ hb)).trans
    (fr_W6 m ρ c b fun hb => h (List.mem_append_left _ hb))
theorem fr_W8 (c : Dev nD) (b : Ref sig .tc) (h : b ∉ ac_W8) :
    W8 m ρ c (Proc.devRef .tc b) = W2 m ρ c (Proc.devRef .tc b) :=
  (st_W8 m ρ c b fun hb => h (List.mem_append_right _ hb)).trans
    (fr_W7 m ρ c b fun hb => h (List.mem_append_left _ hb))

/-! ### The stretches' values, over any contents before them -/

/-- At the two gathers' typed references the states, an index row and a gathered array are read and written as
    they are: the reference's type is the buffer's. -/
theorem inState_W3 (S : Valuation τ sig (Elt Ideal)) :
    (StableHlo.TRef.of main_v5 : StableHlo.TRef sig ⟨S50000x64, .f32⟩).ofBuf (S (Proc.devRef .tc main_v5))
      = S (Proc.devRef .tc main_v5) := rfl
theorem inIdx_W3 (S : Valuation τ sig (Elt Ideal)) :
    (StableHlo.TRef.of main_v1 : StableHlo.TRef sig ⟨S800000, .i32⟩).ofBuf (S (Proc.devRef .tc main_v1))
      = S (Proc.devRef .tc main_v1) := rfl
theorem outTake_W3 (v : (⟨S800000x64, .f32⟩ : BufTy).Contents (Elt Ideal)) :
    (StableHlo.TRef.of main_v6 : StableHlo.TRef sig ⟨S800000x64, .f32⟩).toBuf v = v := rfl
theorem inIdx_W4 (S : Valuation τ sig (Elt Ideal)) :
    (StableHlo.TRef.of main_v3 : StableHlo.TRef sig ⟨S800000, .i32⟩).ofBuf (S (Proc.devRef .tc main_v3))
      = S (Proc.devRef .tc main_v3) := rfl
theorem outTake_W4 (v : (⟨S800000x64, .f32⟩ : BufTy).Contents (Elt Ideal)) :
    (StableHlo.TRef.of main_v7 : StableHlo.TRef sig ⟨S800000x64, .f32⟩).toBuf v = v := rfl

set_option maxHeartbeats 1000000 in
/-- The source-row gather of the states. -/
theorem hsTake_W3 (S : Valuation τ sig (Elt Ideal)) :
    StableHlo.after hostOps1 S (Proc.devRef .tc main_v6)
      = takeFill (S (Proc.devRef .tc main_v5)) (S (Proc.devRef .tc main_v1)) := by
  fold_eval
  repeat rw [ofBuf_toBuf]
  rw [inState_W3 S, inIdx_W3 S, outTake_W3]
  unfold takeFill gatherWrap inRange wrapIdx
  rfl
set_option maxHeartbeats 1000000 in
/-- The target-row gather of the states. -/
theorem hsTake_W4 (S : Valuation τ sig (Elt Ideal)) :
    StableHlo.after hostOps1_1 S (Proc.devRef .tc main_v7)
      = takeFill (S (Proc.devRef .tc main_v5)) (S (Proc.devRef .tc main_v3)) := by
  fold_eval
  repeat rw [ofBuf_toBuf]
  rw [inState_W3 S, inIdx_W4 S, outTake_W4]
  unfold takeFill gatherWrap inRange wrapIdx
  rfl
/-- The round's four message weights, cut out of the stacks. -/
theorem hsWa_W5 (S : Valuation τ sig (Elt Ideal)) :
    StableHlo.after hostOps1_2 S (Proc.devRef .tc main_v9)
      = w1At ![0, 0, 0] slices_S3x144x64_S1x144x64_0_0_0 (S (Proc.devRef .tc main_arg6)) := by
  after_results; rfl
theorem hsBa_W5 (S : Valuation τ sig (Elt Ideal)) :
    StableHlo.after hostOps1_2 S (Proc.devRef .tc main_v16)
      = b64At ![0, 0] slices_S3x64_S1x64_0_0 (S (Proc.devRef .tc main_arg7)) := by
  after_results; rfl
theorem hsWb_W5 (S : Valuation τ sig (Elt Ideal)) :
    StableHlo.after hostOps1_2 S (Proc.devRef .tc main_v13)
      = w2At ![0, 0, 0] slices_S3x64x64_S1x64x64_0_0_0 (S (Proc.devRef .tc main_arg8)) := by
  after_results; rfl
theorem hsBb_W5 (S : Valuation τ sig (Elt Ideal)) :
    StableHlo.after hostOps1_2 S (Proc.devRef .tc main_v17)
      = b64At ![0, 0] slices_S3x64_S1x64_0_0 (S (Proc.devRef .tc main_arg9)) := by
  after_results; rfl
/-- The messages summed into their source nodes. -/
theorem hsAgg_W7 (S : Valuation τ sig (Elt Ideal)) :
    StableHlo.after hostOps2 S (Proc.devRef .tc main_v21)
      = segSum (S (Proc.devRef .tc main_v1)) (S (Proc.devRef .tc main_v18)) := by
  after_results; rfl
/-- The round's four GRU weights, cut out of the stacks. -/
theorem hsWih_W7 (S : Valuation τ sig (Elt Ideal)) :
    StableHlo.after hostOps2 S (Proc.devRef .tc main_v23)
      = wgAt ![0, 0, 0] slices_S3x192x64_S1x192x64_0_0_0 (S (Proc.devRef .tc main_arg10)) := by
  after_results; rfl
theorem hsWhh_W7 (S : Valuation τ sig (Elt Ideal)) :
    StableHlo.after hostOps2 S (Proc.devRef .tc main_v25)
      = wgAt ![0, 0, 0] slices_S3x192x64_S1x192x64_0_0_0 (S (Proc.devRef .tc main_arg11)) := by
  after_results; rfl
theorem hsBih_W7 (S : Valuation τ sig (Elt Ideal)) :
    StableHlo.after hostOps2 S (Proc.devRef .tc main_v30)
      = bgAt ![0, 0] slices_S3x192_S1x192_0_0 (S (Proc.devRef .tc main_arg12)) := by
  after_results; rfl
theorem hsBhh_W7 (S : Valuation τ sig (Elt Ideal)) :
    StableHlo.after hostOps2 S (Proc.devRef .tc main_v31)
      = bgAt ![0, 0] slices_S3x192_S1x192_0_0 (S (Proc.devRef .tc main_arg13)) := by
  after_results; rfl

/-! ### The message region's inputs at its entry, from the states and the arguments -/

theorem xr_W5 (c : Dev nD) : W5 m ρ c (Proc.devRef .tc main_v6)
    = takeFill (W2 m ρ c (Proc.devRef .tc main_v5)) (rowOf (m ((c : Thread nD τ).loc main_arg1))) :=
  ((StableHlo.after_of_writes_sub hostOps1_2 _ wrsub_W5 (by decide)).trans
    ((StableHlo.after_of_writes_sub hostOps1_1 _ wrsub_W4 (by decide)).trans (hsTake_W3 (W2 m ρ c)))).trans
    (by rw [row_W2 m ρ c])
theorem xc_W5 (c : Dev nD) : W5 m ρ c (Proc.devRef .tc main_v7)
    = takeFill (W2 m ρ c (Proc.devRef .tc main_v5)) (colOf (m ((c : Thread nD τ).loc main_arg1))) :=
  ((StableHlo.after_of_writes_sub hostOps1_2 _ wrsub_W5 (by decide)).trans (hsTake_W4 (W3 m ρ c))).trans
    (by rw [fr_W3 m ρ c main_v5 (by decide), fr_W3 m ρ c main_v3 (by decide), col_W2 m ρ c])
theorem ea_W5 (c : Dev nD) : W5 m ρ c (Proc.devRef .tc main_arg2) = m ((c : Thread nD τ).loc main_arg2) :=
  (fr_W5 m ρ c main_arg2 (by decide)).trans (arg_W2 m ρ c main_arg2 (by decide))
theorem wa_W5 (c : Dev nD) : W5 m ρ c (Proc.devRef .tc main_v9)
    = w1At ![0, 0, 0] slices_S3x144x64_S1x144x64_0_0_0 (m ((c : Thread nD τ).loc main_arg6)) :=
  (hsWa_W5 (W4 m ρ c)).trans (by rw [fr_W4 m ρ c main_arg6 (by decide), arg_W2 m ρ c main_arg6 (by decide)])
theorem ba_W5 (c : Dev nD) : W5 m ρ c (Proc.devRef .tc main_v16)
    = b64At ![0, 0] slices_S3x64_S1x64_0_0 (m ((c : Thread nD τ).loc main_arg7)) :=
  (hsBa_W5 (W4 m ρ c)).trans (by rw [fr_W4 m ρ c main_arg7 (by decide), arg_W2 m ρ c main_arg7 (by decide)])
theorem wb_W5 (c : Dev nD) : W5 m ρ c (Proc.devRef .tc main_v13)
    = w2At ![0, 0, 0] slices_S3x64x64_S1x64x64_0_0_0 (m ((c : Thread nD τ).loc main_arg8)) :=
  (hsWb_W5 (W4 m ρ c)).trans (by rw [fr_W4 m ρ c main_arg8 (by decide), arg_W2 m ρ c main_arg8 (by decide)])
theorem bb_W5 (c : Dev nD) : W5 m ρ c (Proc.devRef .tc main_v17)
    = b64At ![0, 0] slices_S3x64_S1x64_0_0 (m ((c : Thread nD τ).loc main_arg9)) :=
  (hsBb_W5 (W4 m ρ c)).trans (by rw [fr_W4 m ρ c main_arg9 (by decide), arg_W2 m ρ c main_arg9 (by decide)])

/-- The messages: the message region's output array. -/
theorem msg_W6 (c : Dev nD) : W6 m ρ c (Proc.devRef .tc main_v18)
    = edgeG (n := 800000)
        (takeFill (W2 m ρ c (Proc.devRef .tc main_v5)) (rowOf (m ((c : Thread nD τ).loc main_arg1))))
        (takeFill (W2 m ρ c (Proc.devRef .tc main_v5)) (colOf (m ((c : Thread nD τ).loc main_arg1))))
        (m ((c : Thread nD τ).loc main_arg2))
        (w1At ![0, 0, 0] slices_S3x144x64_S1x144x64_0_0_0 (m ((c : Thread nD τ).loc main_arg6)))
        (b64At ![0, 0] slices_S3x64_S1x64_0_0 (m ((c : Thread nD τ).loc main_arg7)))
        (w2At ![0, 0, 0] slices_S3x64x64_S1x64x64_0_0_0 (m ((c : Thread nD τ).loc main_arg8)))
        (b64At ![0, 0] slices_S3x64_S1x64_0_0 (m ((c : Thread nD τ).loc main_arg9))) := by
  have e : W6 m ρ c (Proc.devRef .tc main_v18)
      = edgeG (n := 800000) (W5 m ρ c (Proc.devRef .tc main_v6)) (W5 m ρ c (Proc.devRef .tc main_v7))
          (W5 m ρ c (Proc.devRef .tc main_arg2)) (W5 m ρ c (Proc.devRef .tc main_v9)) (W5 m ρ c (Proc.devRef .tc main_v16))
          (W5 m ρ c (Proc.devRef .tc main_v13)) (W5 m ρ c (Proc.devRef .tc main_v17)) :=
    (W6_arr m ρ c 7).trans (Region1.final (V5 m ρ) c)
  rw [e, xr_W5 m ρ c, xc_W5 m ρ c, ea_W5 m ρ c, wa_W5 m ρ c, ba_W5 m ρ c, wb_W5 m ρ c, bb_W5 m ρ c]

/-! ### The GRU region's inputs at its entry -/

theorem agg_W7 (c : Dev nD) : W7 m ρ c (Proc.devRef .tc main_v21)
    = segSum (rowOf (m ((c : Thread nD τ).loc main_arg1))) (W6 m ρ c (Proc.devRef .tc main_v18)) :=
  (hsAgg_W7 (W6 m ρ c)).trans (by rw [fr_W6 m ρ c main_v1 (by decide), row_W2 m ρ c])
theorem keep_W7 (c : Dev nD) : W7 m ρ c (Proc.devRef .tc main_v5) = W2 m ρ c (Proc.devRef .tc main_v5) :=
  fr_W7 m ρ c main_v5 (by decide)
theorem wih_W7 (c : Dev nD) : W7 m ρ c (Proc.devRef .tc main_v23)
    = wgAt ![0, 0, 0] slices_S3x192x64_S1x192x64_0_0_0 (m ((c : Thread nD τ).loc main_arg10)) :=
  (hsWih_W7 (W6 m ρ c)).trans (by rw [fr_W6 m ρ c main_arg10 (by decide), arg_W2 m ρ c main_arg10 (by decide)])
theorem whh_W7 (c : Dev nD) : W7 m ρ c (Proc.devRef .tc main_v25)
    = wgAt ![0, 0, 0] slices_S3x192x64_S1x192x64_0_0_0 (m ((c : Thread nD τ).loc main_arg11)) :=
  (hsWhh_W7 (W6 m ρ c)).trans (by rw [fr_W6 m ρ c main_arg11 (by decide), arg_W2 m ρ c main_arg11 (by decide)])
theorem bih_W7 (c : Dev nD) : W7 m ρ c (Proc.devRef .tc main_v30)
    = bgAt ![0, 0] slices_S3x192_S1x192_0_0 (m ((c : Thread nD τ).loc main_arg12)) :=
  (hsBih_W7 (W6 m ρ c)).trans (by rw [fr_W6 m ρ c main_arg12 (by decide), arg_W2 m ρ c main_arg12 (by decide)])
theorem bhh_W7 (c : Dev nD) : W7 m ρ c (Proc.devRef .tc main_v31)
    = bgAt ![0, 0] slices_S3x192_S1x192_0_0 (m ((c : Thread nD τ).loc main_arg13)) :=
  (hsBhh_W7 (W6 m ρ c)).trans (by rw [fr_W6 m ρ c main_arg13 (by decide), arg_W2 m ρ c main_arg13 (by decide)])

/-- The node states after the round. -/
theorem h1 (c : Dev nD) : W8 (F := Ideal) m ρ c (Proc.devRef .tc main_v32)
    = layerK m c ![0, 0, 0] ![0, 0] slices_S3x144x64_S1x144x64_0_0_0 slices_S3x64_S1x64_0_0 slices_S3x64x64_S1x64x64_0_0_0
        slices_S3x192x64_S1x192x64_0_0_0 slices_S3x192_S1x192_0_0 (W2 (F := Ideal) m ρ c (Proc.devRef .tc main_v5)) := by
  have e : W8 m ρ c (Proc.devRef .tc main_v32)
      = gruG (n := 50000) (W7 m ρ c (Proc.devRef .tc main_v21)) (W7 m ρ c (Proc.devRef .tc main_v5))
          (W7 m ρ c (Proc.devRef .tc main_v23)) (W7 m ρ c (Proc.devRef .tc main_v25))
          (W7 m ρ c (Proc.devRef .tc main_v30)) (W7 m ρ c (Proc.devRef .tc main_v31)) :=
    (W8_arr m ρ c 6).trans (Region2.final (V7 m ρ) c)
  rw [e, agg_W7 m ρ c, msg_W6 m ρ c, keep_W7 m ρ c, wih_W7 m ρ c, whh_W7 m ρ c, bih_W7 m ρ c, bhh_W7 m ρ c]
  rfl

/-! ### What is carried on from the round's exit -/

/-- The source row of the edge list, at the round's exit. -/
theorem row_W8 (c : Dev nD) : W8 m ρ c (Proc.devRef .tc main_v1) = rowOf (m ((c : Thread nD τ).loc main_arg1)) :=
  (fr_W8 m ρ c main_v1 (by decide)).trans (row_W2 m ρ c)
/-- The target row of the edge list, at the round's exit. -/
theorem col_W8 (c : Dev nD) : W8 m ρ c (Proc.devRef .tc main_v3) = colOf (m ((c : Thread nD τ).loc main_arg1)) :=
  (fr_W8 m ρ c main_v3 (by decide)).trans (col_W2 m ρ c)
/-- A carried argument, at the round's exit, is as launched. -/
theorem arg_W8 (c : Dev nD) (b : Ref sig .tc) (h : b ∈ carried) :
    W8 m ρ c (Proc.devRef .tc b) = m ((c : Thread nD τ).loc b) :=
  (fr_W8 m ρ c b ((by decide : ∀ x ∈ carried, x ∉ ac_W8) b h)).trans (arg_W2 m ρ c b h)
-- ROUND END

end Cert.KernelIdeal.Chain

end
-- ==== Proof.KRound2.lean ====
/-
  The second round of the kernel program's chain: the fold read from the boundary after the first GRU
  region to the boundary after the next, exactly as round one is read (the same lemmas, every name
  of the round shifted).
-/
import proofs.«420387_j4148938408095_1_alg».proof.Proof.KChain
import proofs.«420387_j4148938408095_1_alg».proof.Proof.Spec
import proofs.«420387_j4148938408095_1_alg».proof.Proof.KHost
import proofs.«420387_j4148938408095_1_alg».proof.Proof.Region0
import proofs.«420387_j4148938408095_1_alg».proof.Proof.Region1
import proofs.«420387_j4148938408095_1_alg».proof.Proof.Region2
import proofs.«420387_j4148938408095_1_alg».proof.Proof.Region3
import proofs.«420387_j4148938408095_1_alg».proof.Proof.Region4
import proofs.«420387_j4148938408095_1_alg».proof.Proof.Region5
import proofs.«420387_j4148938408095_1_alg».proof.Proof.Region6
import proofs.«420387_j4148938408095_1_alg».proof.Proof.Gen.KernelIdeal.Frame
import Idealize.ShloMosaic.Lib.StableHlo.Run

set_option maxRecDepth 16384

noncomputable section

open scoped BigOperators

namespace Cert.KernelIdeal.Chain

open Idealize.ShloMosaic Idealize.ShloMosaic.TcCoe Idealize.ShloMosaic.ValueIdx Idealize.SL.Sem Cert.KernelIdeal Cert.KernelIdeal.Gen Cert.Gnn Cert.KernelIdeal.KHost

variable (m : (ℓ : Loc nD τ sig) → Buf (Elt Ideal) ℓ) (ρ : Dev nD → PrngReg)

/-! ## The round from W8 to W14: two gathers, the message weights, the message region, the aggregate and the
    GRU weights, the GRU region -/

/-- The buffers the source-row gather writes. -/
abbrev wr_W9 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v33]
theorem wrsub_W9 : (hostOps3 : List (HloOp τ sig (Elt Ideal))).Forall fun op =>
    op.writes ⊆ (wr_W9.map (Proc.devRef (τ := τ) .tc)).toFinset := by
  writes_listed
/-- The buffers the target-row gather writes. -/
abbrev wr_W10 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v34]
theorem wrsub_W10 : (hostOps3_1 : List (HloOp τ sig (Elt Ideal))).Forall fun op =>
    op.writes ⊆ (wr_W10.map (Proc.devRef (τ := τ) .tc)).toFinset := by
  writes_listed
/-- The buffers the message weights' stretch writes. -/
abbrev wr_W11 : List (Ref sig .tc) :=
  [main_v35, main_v36, main_v37, main_v38, main_v39, main_v40, main_v41, main_v42, main_v43, main_v44]
theorem wrsub_W11 : (hostOps3_2 : List (HloOp τ sig (Elt Ideal))).Forall fun op =>
    op.writes ⊆ (wr_W11.map (Proc.devRef (τ := τ) .tc)).toFinset := by
  writes_listed
/-- The arrays of the message region's windows, the edge attributes (an argument, only read) apart. -/
abbrev wr_W12 : List (Ref sig .tc) := [main_v33, main_v34, main_v36, main_v43, main_v40, main_v44, main_v45]
/-- The buffers the aggregate and GRU weights' stretch writes. -/
abbrev wr_W13 : List (Ref sig .tc) :=
  [main_cst_0, main_v46, main_v47, main_v48, main_v49, main_v50, main_v51, main_v52, main_v53, main_v54, main_v55, main_v56,
   main_v57, main_v58]
theorem wrsub_W13 : (hostOps4 : List (HloOp τ sig (Elt Ideal))).Forall fun op =>
    op.writes ⊆ (wr_W13.map (Proc.devRef (τ := τ) .tc)).toFinset := by
  writes_listed
/-- The arrays of the GRU region's windows. -/
abbrev wr_W14 : List (Ref sig .tc) := [main_v48, main_v32, main_v50, main_v52, main_v57, main_v58, main_v59]

/-- The message region leaves every buffer that is not one of its windows' arrays, and the edge attributes too:
    an input window's array is as the region found it. -/
theorem st_W12 (c : Dev nD) (b : Ref sig .tc) (h : b ∉ wr_W12) :
    W12 m ρ c (Proc.devRef .tc b) = W11 m ρ c (Proc.devRef .tc b) := by
  by_cases e : b = main_arg2
  · subst e
    exact (W12_arr m ρ c 2).trans (((dat3 (V11 m ρ) c).arrAt_in 2 rfl _).trans (A_eq3 (V11 m ρ) c 2))
  · exact W12_of_ne m ρ c b fun w hw =>
      (List.mem_cons.mp (hw ▸ (by decide : ∀ w : Fin cfg3.W, Pipeline.arrRef spec3 w ∈ main_arg2 :: wr_W12) w)).elim e h
/-- The GRU region leaves every buffer that is not one of its windows' arrays. -/
theorem st_W14 (c : Dev nD) (b : Ref sig .tc) (h : b ∉ wr_W14) :
    W14 m ρ c (Proc.devRef .tc b) = W13 m ρ c (Proc.devRef .tc b) :=
  W14_of_ne m ρ c b fun w e => h (e ▸ (by decide : ∀ w : Fin cfg4.W, Pipeline.arrRef spec4 w ∈ wr_W14) w)

/-- Everything written from W8 up to each boundary of the round. -/
abbrev ac_W9 : List (Ref sig .tc) := wr_W9
abbrev ac_W10 : List (Ref sig .tc) := ac_W9 ++ wr_W10
abbrev ac_W11 : List (Ref sig .tc) := ac_W10 ++ wr_W11
abbrev ac_W12 : List (Ref sig .tc) := ac_W11 ++ wr_W12
abbrev ac_W13 : List (Ref sig .tc) := ac_W12 ++ wr_W13
abbrev ac_W14 : List (Ref sig .tc) := ac_W13 ++ wr_W14

/-- A buffer nothing has written since W8 is as it was at W8. -/
theorem fr_W9 (c : Dev nD) (b : Ref sig .tc) (h : b ∉ ac_W9) :
    W9 m ρ c (Proc.devRef .tc b) = W8 m ρ c (Proc.devRef .tc b) :=
  StableHlo.after_of_writes_sub hostOps3 _ wrsub_W9 h
theorem fr_W10 (c : Dev nD) (b : Ref sig .tc) (h : b ∉ ac_W10) :
    W10 m ρ c (Proc.devRef .tc b) = W8 m ρ c (Proc.devRef .tc b) :=
  (StableHlo.after_of_writes_sub hostOps3_1 _ wrsub_W10 fun hb => h (List.mem_append_right _ hb)).trans
    (fr_W9 m ρ c b fun hb => h (List.mem_append_left _ hb))
theorem fr_W11 (c : Dev nD) (b : Ref sig .tc) (h : b ∉ ac_W11) :
    W11 m ρ c (Proc.devRef .tc b) = W8 m ρ c (Proc.devRef .tc b) :=
  (StableHlo.after_of_writes_sub hostOps3_2 _ wrsub_W11 fun hb => h (List.mem_append_right _ hb)).trans
    (fr_W10 m ρ c b fun hb => h (List.mem_append_left _ hb))
theorem fr_W12 (c : Dev nD) (b : Ref sig .tc) (h : b ∉ ac_W12) :
    W12 m ρ c (Proc.devRef .tc b) = W8 m ρ c (Proc.devRef .tc b) :=
  (st_W12 m ρ c b fun hb => h (List.mem_append_right _ hb)).trans
    (fr_W11 m ρ c b fun hb => h (List.mem_append_left _ hb))
theorem fr_W13 (c : Dev nD) (b : Ref sig .tc) (h : b ∉ ac_W13) :
    W13 m ρ c (Proc.devRef .tc b) = W8 m ρ c (Proc.devRef .tc b) :=
  (StableHlo.after_of_writes_sub hostOps4 _ wrsub_W13 fun hb => h (List.mem_append_right _ hb)).trans
    (fr_W12 m ρ c b fun hb => h (List.mem_append_left _ hb))
theorem fr_W14 (c : Dev nD) (b : Ref sig .tc) (h : b ∉ ac_W14) :
    W14 m ρ c (Proc.devRef .tc b) = W8 m ρ c (Proc.devRef .tc b) :=
  (st_W14 m ρ c b fun hb => h (List.mem_append_right _ hb)).trans
    (fr_W13 m ρ c b fun hb => h (List.mem_append_left _ hb))

/-! ### The stretches' values, over any contents before them -/

/-- At the two gathers' typed references the states, an index row and a gathered array are read and written as
    they are: the reference's type is the buffer's. -/
theorem inState_W9 (S : Valuation τ sig (Elt Ideal)) :
    (StableHlo.TRef.of main_v32 : StableHlo.TRef sig ⟨S50000x64, .f32⟩).ofBuf (S (Proc.devRef .tc main_v32))
      = S (Proc.devRef .tc main_v32) := rfl
theorem inIdx_W9 (S : Valuation τ sig (Elt Ideal)) :
    (StableHlo.TRef.of main_v1 : StableHlo.TRef sig ⟨S800000, .i32⟩).ofBuf (S (Proc.devRef .tc main_v1))
      = S (Proc.devRef .tc main_v1) := rfl
theorem outTake_W9 (v : (⟨S800000x64, .f32⟩ : BufTy).Contents (Elt Ideal)) :
    (StableHlo.TRef.of main_v33 : StableHlo.TRef sig ⟨S800000x64, .f32⟩).toBuf v = v := rfl
theorem inIdx_W10 (S : Valuation τ sig (Elt Ideal)) :
    (StableHlo.TRef.of main_v3 : StableHlo.TRef sig ⟨S800000, .i32⟩).ofBuf (S (Proc.devRef .tc main_v3))
      = S (Proc.devRef .tc main_v3) := rfl
theorem outTake_W10 (v : (⟨S800000x64, .f32⟩ : BufTy).Contents (Elt Ideal)) :
    (StableHlo.TRef.of main_v34 : StableHlo.TRef sig ⟨S800000x64, .f32⟩).toBuf v = v := rfl

set_option maxHeartbeats 1000000 in
/-- The source-row gather of the states. -/
theorem hsTake_W9 (S : Valuation τ sig (Elt Ideal)) :
    StableHlo.after hostOps3 S (Proc.devRef .tc main_v33)
      = takeFill (S (Proc.devRef .tc main_v32)) (S (Proc.devRef .tc main_v1)) := by
  fold_eval
  repeat rw [ofBuf_toBuf]
  rw [inState_W9 S, inIdx_W9 S, outTake_W9]
  unfold takeFill gatherWrap inRange wrapIdx
  rfl
set_option maxHeartbeats 1000000 in
/-- The target-row gather of the states. -/
theorem hsTake_W10 (S : Valuation τ sig (Elt Ideal)) :
    StableHlo.after hostOps3_1 S (Proc.devRef .tc main_v34)
      = takeFill (S (Proc.devRef .tc main_v32)) (S (Proc.devRef .tc main_v3)) := by
  fold_eval
  repeat rw [ofBuf_toBuf]
  rw [inState_W9 S, inIdx_W10 S, outTake_W10]
  unfold takeFill gatherWrap inRange wrapIdx
  rfl
/-- The round's four message weights, cut out of the stacks. -/
theorem hsWa_W11 (S : Valuation τ sig (Elt Ideal)) :
    StableHlo.after hostOps3_2 S (Proc.devRef .tc main_v36)
      = w1At ![1, 0, 0] slices_S3x144x64_S1x144x64_1_0_0 (S (Proc.devRef .tc main_arg6)) := by
  after_results; rfl
theorem hsBa_W11 (S : Valuation τ sig (Elt Ideal)) :
    StableHlo.after hostOps3_2 S (Proc.devRef .tc main_v43)
      = b64At ![1, 0] slices_S3x64_S1x64_1_0 (S (Proc.devRef .tc main_arg7)) := by
  after_results; rfl
theorem hsWb_W11 (S : Valuation τ sig (Elt Ideal)) :
    StableHlo.after hostOps3_2 S (Proc.devRef .tc main_v40)
      = w2At ![1, 0, 0] slices_S3x64x64_S1x64x64_1_0_0 (S (Proc.devRef .tc main_arg8)) := by
  after_results; rfl
theorem hsBb_W11 (S : Valuation τ sig (Elt Ideal)) :
    StableHlo.after hostOps3_2 S (Proc.devRef .tc main_v44)
      = b64At ![1, 0] slices_S3x64_S1x64_1_0 (S (Proc.devRef .tc main_arg9)) := by
  after_results; rfl
/-- The messages summed into their source nodes. -/
theorem hsAgg_W13 (S : Valuation τ sig (Elt Ideal)) :
    StableHlo.after hostOps4 S (Proc.devRef .tc main_v48)
      = segSum (S (Proc.devRef .tc main_v1)) (S (Proc.devRef .tc main_v45)) := by
  after_results; rfl
/-- The round's four GRU weights, cut out of the stacks. -/
theorem hsWih_W13 (S : Valuation τ sig (Elt Ideal)) :
    StableHlo.after hostOps4 S (Proc.devRef .tc main_v50)
      = wgAt ![1, 0, 0] slices_S3x192x64_S1x192x64_1_0_0 (S (Proc.devRef .tc main_arg10)) := by
  after_results; rfl
theorem hsWhh_W13 (S : Valuation τ sig (Elt Ideal)) :
    StableHlo.after hostOps4 S (Proc.devRef .tc main_v52)
      = wgAt ![1, 0, 0] slices_S3x192x64_S1x192x64_1_0_0 (S (Proc.devRef .tc main_arg11)) := by
  after_results; rfl
theorem hsBih_W13 (S : Valuation τ sig (Elt Ideal)) :
    StableHlo.after hostOps4 S (Proc.devRef .tc main_v57)
      = bgAt ![1, 0] slices_S3x192_S1x192_1_0 (S (Proc.devRef .tc main_arg12)) := by
  after_results; rfl
theorem hsBhh_W13 (S : Valuation τ sig (Elt Ideal)) :
    StableHlo.after hostOps4 S (Proc.devRef .tc main_v58)
      = bgAt ![1, 0] slices_S3x192_S1x192_1_0 (S (Proc.devRef .tc main_arg13)) := by
  after_results; rfl

/-! ### The message region's inputs at its entry, from the states and the arguments -/

theorem xr_W11 (c : Dev nD) : W11 m ρ c (Proc.devRef .tc main_v33)
    = takeFill (W8 m ρ c (Proc.devRef .tc main_v32)) (rowOf (m ((c : Thread nD τ).loc main_arg1))) :=
  ((StableHlo.after_of_writes_sub hostOps3_2 _ wrsub_W11 (by decide)).trans
    ((StableHlo.after_of_writes_sub hostOps3_1 _ wrsub_W10 (by decide)).trans (hsTake_W9 (W8 m ρ c)))).trans
    (by rw [row_W8 m ρ c])
theorem xc_W11 (c : Dev nD) : W11 m ρ c (Proc.devRef .tc main_v34)
    = takeFill (W8 m ρ c (Proc.devRef .tc main_v32)) (colOf (m ((c : Thread nD τ).loc main_arg1))) :=
  ((StableHlo.after_of_writes_sub hostOps3_2 _ wrsub_W11 (by decide)).trans (hsTake_W10 (W9 m ρ c))).trans
    (by rw [fr_W9 m ρ c main_v32 (by decide), fr_W9 m ρ c main_v3 (by decide), col_W8 m ρ c])
theorem ea_W11 (c : Dev nD) : W11 m ρ c (Proc.devRef .tc main_arg2) = m ((c : Thread nD τ).loc main_arg2) :=
  (fr_W11 m ρ c main_arg2 (by decide)).trans (arg_W8 m ρ c main_arg2 (by decide))
theorem wa_W11 (c : Dev nD) : W11 m ρ c (Proc.devRef .tc main_v36)
    = w1At ![1, 0, 0] slices_S3x144x64_S1x144x64_1_0_0 (m ((c : Thread nD τ).loc main_arg6)) :=
  (hsWa_W11 (W10 m ρ c)).trans (by rw [fr_W10 m ρ c main_arg6 (by decide), arg_W8 m ρ c main_arg6 (by decide)])
theorem ba_W11 (c : Dev nD) : W11 m ρ c (Proc.devRef .tc main_v43)
    = b64At ![1, 0] slices_S3x64_S1x64_1_0 (m ((c : Thread nD τ).loc main_arg7)) :=
  (hsBa_W11 (W10 m ρ c)).trans (by rw [fr_W10 m ρ c main_arg7 (by decide), arg_W8 m ρ c main_arg7 (by decide)])
theorem wb_W11 (c : Dev nD) : W11 m ρ c (Proc.devRef .tc main_v40)
    = w2At ![1, 0, 0] slices_S3x64x64_S1x64x64_1_0_0 (m ((c : Thread nD τ).loc main_arg8)) :=
  (hsWb_W11 (W10 m ρ c)).trans (by rw [fr_W10 m ρ c main_arg8 (by decide), arg_W8 m ρ c main_arg8 (by decide)])
theorem bb_W11 (c : Dev nD) : W11 m ρ c (Proc.devRef .tc main_v44)
    = b64At ![1, 0] slices_S3x64_S1x64_1_0 (m ((c : Thread nD τ).loc main_arg9)) :=
  (hsBb_W11 (W10 m ρ c)).trans (by rw [fr_W10 m ρ c main_arg9 (by decide), arg_W8 m ρ c main_arg9 (by decide)])

/-- The messages: the message region's output array. -/
theorem msg_W12 (c : Dev nD) : W12 m ρ c (Proc.devRef .tc main_v45)
    = edgeG (n := 800000)
        (takeFill (W8 m ρ c (Proc.devRef .tc main_v32)) (rowOf (m ((c : Thread nD τ).loc main_arg1))))
        (takeFill (W8 m ρ c (Proc.devRef .tc main_v32)) (colOf (m ((c : Thread nD τ).loc main_arg1))))
        (m ((c : Thread nD τ).loc main_arg2))
        (w1At ![1, 0, 0] slices_S3x144x64_S1x144x64_1_0_0 (m ((c : Thread nD τ).loc main_arg6)))
        (b64At ![1, 0] slices_S3x64_S1x64_1_0 (m ((c : Thread nD τ).loc main_arg7)))
        (w2At ![1, 0, 0] slices_S3x64x64_S1x64x64_1_0_0 (m ((c : Thread nD τ).loc main_arg8)))
        (b64At ![1, 0] slices_S3x64_S1x64_1_0 (m ((c : Thread nD τ).loc main_arg9))) := by
  have e : W12 m ρ c (Proc.devRef .tc main_v45)
      = edgeG (n := 800000) (W11 m ρ c (Proc.devRef .tc main_v33)) (W11 m ρ c (Proc.devRef .tc main_v34))
          (W11 m ρ c (Proc.devRef .tc main_arg2)) (W11 m ρ c (Proc.devRef .tc main_v36)) (W11 m ρ c (Proc.devRef .tc main_v43))
          (W11 m ρ c (Proc.devRef .tc main_v40)) (W11 m ρ c (Proc.devRef .tc main_v44)) :=
    (W12_arr m ρ c 7).trans (Region3.final (V11 m ρ) c)
  rw [e, xr_W11 m ρ c, xc_W11 m ρ c, ea_W11 m ρ c, wa_W11 m ρ c, ba_W11 m ρ c, wb_W11 m ρ c, bb_W11 m ρ c]

/-! ### The GRU region's inputs at its entry -/

theorem agg_W13 (c : Dev nD) : W13 m ρ c (Proc.devRef .tc main_v48)
    = segSum (rowOf (m ((c : Thread nD τ).loc main_arg1))) (W12 m ρ c (Proc.devRef .tc main_v45)) :=
  (hsAgg_W13 (W12 m ρ c)).trans (by rw [fr_W12 m ρ c main_v1 (by decide), row_W8 m ρ c])
theorem keep_W13 (c : Dev nD) : W13 m ρ c (Proc.devRef .tc main_v32) = W8 m ρ c (Proc.devRef .tc main_v32) :=
  fr_W13 m ρ c main_v32 (by decide)
theorem wih_W13 (c : Dev nD) : W13 m ρ c (Proc.devRef .tc main_v50)
    = wgAt ![1, 0, 0] slices_S3x192x64_S1x192x64_1_0_0 (m ((c : Thread nD τ).loc main_arg10)) :=
  (hsWih_W13 (W12 m ρ c)).trans (by rw [fr_W12 m ρ c main_arg10 (by decide), arg_W8 m ρ c main_arg10 (by decide)])
theorem whh_W13 (c : Dev nD) : W13 m ρ c (Proc.devRef .tc main_v52)
    = wgAt ![1, 0, 0] slices_S3x192x64_S1x192x64_1_0_0 (m ((c : Thread nD τ).loc main_arg11)) :=
  (hsWhh_W13 (W12 m ρ c)).trans (by rw [fr_W12 m ρ c main_arg11 (by decide), arg_W8 m ρ c main_arg11 (by decide)])
theorem bih_W13 (c : Dev nD) : W13 m ρ c (Proc.devRef .tc main_v57)
    = bgAt ![1, 0] slices_S3x192_S1x192_1_0 (m ((c : Thread nD τ).loc main_arg12)) :=
  (hsBih_W13 (W12 m ρ c)).trans (by rw [fr_W12 m ρ c main_arg12 (by decide), arg_W8 m ρ c main_arg12 (by decide)])
theorem bhh_W13 (c : Dev nD) : W13 m ρ c (Proc.devRef .tc main_v58)
    = bgAt ![1, 0] slices_S3x192_S1x192_1_0 (m ((c : Thread nD τ).loc main_arg13)) :=
  (hsBhh_W13 (W12 m ρ c)).trans (by rw [fr_W12 m ρ c main_arg13 (by decide), arg_W8 m ρ c main_arg13 (by decide)])

/-- The node states after the round. -/
theorem h2 (c : Dev nD) : W14 (F := Ideal) m ρ c (Proc.devRef .tc main_v59)
    = layerK m c ![1, 0, 0] ![1, 0] slices_S3x144x64_S1x144x64_1_0_0 slices_S3x64_S1x64_1_0 slices_S3x64x64_S1x64x64_1_0_0
        slices_S3x192x64_S1x192x64_1_0_0 slices_S3x192_S1x192_1_0 (W8 (F := Ideal) m ρ c (Proc.devRef .tc main_v32)) := by
  have e : W14 m ρ c (Proc.devRef .tc main_v59)
      = gruG (n := 50000) (W13 m ρ c (Proc.devRef .tc main_v48)) (W13 m ρ c (Proc.devRef .tc main_v32))
          (W13 m ρ c (Proc.devRef .tc main_v50)) (W13 m ρ c (Proc.devRef .tc main_v52))
          (W13 m ρ c (Proc.devRef .tc main_v57)) (W13 m ρ c (Proc.devRef .tc main_v58)) :=
    (W14_arr m ρ c 6).trans (Region4.final (V13 m ρ) c)
  rw [e, agg_W13 m ρ c, msg_W12 m ρ c, keep_W13 m ρ c, wih_W13 m ρ c, whh_W13 m ρ c, bih_W13 m ρ c, bhh_W13 m ρ c]
  rfl

/-! ### What is carried on from the round's exit -/

/-- The source row of the edge list, at the round's exit. -/
theorem row_W14 (c : Dev nD) : W14 m ρ c (Proc.devRef .tc main_v1) = rowOf (m ((c : Thread nD τ).loc main_arg1)) :=
  (fr_W14 m ρ c main_v1 (by decide)).trans (row_W8 m ρ c)
/-- The target row of the edge list, at the round's exit. -/
theorem col_W14 (c : Dev nD) : W14 m ρ c (Proc.devRef .tc main_v3) = colOf (m ((c : Thread nD τ).loc main_arg1)) :=
  (fr_W14 m ρ c main_v3 (by decide)).trans (col_W8 m ρ c)
/-- A carried argument, at the round's exit, is as launched. -/
theorem arg_W14 (c : Dev nD) (b : Ref sig .tc) (h : b ∈ carried) :
    W14 m ρ c (Proc.devRef .tc b) = m ((c : Thread nD τ).loc b) :=
  (fr_W14 m ρ c b ((by decide : ∀ x ∈ carried, x ∉ ac_W14) b h)).trans (arg_W8 m ρ c b h)

end Cert.KernelIdeal.Chain

end
-- ==== Proof.KRound3.lean ====
/-
  The third round of the kernel program's chain: the fold read from the boundary after the second GRU
  region to the boundary after the next, exactly as round one is read (the same lemmas, every name
  of the round shifted).
-/
import proofs.«420387_j4148938408095_1_alg».proof.Proof.KRound2
import proofs.«420387_j4148938408095_1_alg».proof.Proof.Spec
import proofs.«420387_j4148938408095_1_alg».proof.Proof.KHost
import proofs.«420387_j4148938408095_1_alg».proof.Proof.Region0
import proofs.«420387_j4148938408095_1_alg».proof.Proof.Region1
import proofs.«420387_j4148938408095_1_alg».proof.Proof.Region2
import proofs.«420387_j4148938408095_1_alg».proof.Proof.Region3
import proofs.«420387_j4148938408095_1_alg».proof.Proof.Region4
import proofs.«420387_j4148938408095_1_alg».proof.Proof.Region5
import proofs.«420387_j4148938408095_1_alg».proof.Proof.Region6
import proofs.«420387_j4148938408095_1_alg».proof.Proof.Gen.KernelIdeal.Frame
import Idealize.ShloMosaic.Lib.StableHlo.Run

set_option maxRecDepth 16384

noncomputable section

open scoped BigOperators

namespace Cert.KernelIdeal.Chain

open Idealize.ShloMosaic Idealize.ShloMosaic.TcCoe Idealize.ShloMosaic.ValueIdx Idealize.SL.Sem Cert.KernelIdeal Cert.KernelIdeal.Gen Cert.Gnn Cert.KernelIdeal.KHost

variable (m : (ℓ : Loc nD τ sig) → Buf (Elt Ideal) ℓ) (ρ : Dev nD → PrngReg)

/-! ## The round from W14 to W20: two gathers, the message weights, the message region, the aggregate and the
    GRU weights, the GRU region -/

/-- The buffers the source-row gather writes. -/
abbrev wr_W15 : List (Ref sig .tc) :=
  [main_call4_c, main_call4_v0, main_call4_v1, main_call4_c_0, main_call4_v2, main_call4_v3, main_call4_v4, main_call4_v5,
   main_call4_c_1, main_call4_c_2, main_call4_v6, main_call4_v7, main_call4_v8, main_call4_v9, main_call4_v10, main_call4_v11,
   main_call4_c_3, main_call4_v12, main_call4_v13, main_call4_v14, main_call4_cst, main_call4_v15, main_v60]
theorem wrsub_W15 : (hostOps5 : List (HloOp τ sig (Elt Ideal))).Forall fun op =>
    op.writes ⊆ (wr_W15.map (Proc.devRef (τ := τ) .tc)).toFinset := by
  writes_listed
/-- The buffers the target-row gather writes. -/
abbrev wr_W16 : List (Ref sig .tc) :=
  [main_call5_c, main_call5_v0, main_call5_v1, main_call5_c_0, main_call5_v2, main_call5_v3, main_call5_v4, main_call5_v5,
   main_call5_c_1, main_call5_c_2, main_call5_v6, main_call5_v7, main_call5_v8, main_call5_v9, main_call5_v10, main_call5_v11,
   main_call5_c_3, main_call5_v12, main_call5_v13, main_call5_v14, main_call5_cst, main_call5_v15, main_v61]
theorem wrsub_W16 : (hostOps5_1 : List (HloOp τ sig (Elt Ideal))).Forall fun op =>
    op.writes ⊆ (wr_W16.map (Proc.devRef (τ := τ) .tc)).toFinset := by
  writes_listed
/-- The buffers the message weights' stretch writes. -/
abbrev wr_W17 : List (Ref sig .tc) :=
  [main_v62, main_v63, main_v64, main_v65, main_v66, main_v67, main_v68, main_v69, main_v70, main_v71]
theorem wrsub_W17 : (hostOps5_2 : List (HloOp τ sig (Elt Ideal))).Forall fun op =>
    op.writes ⊆ (wr_W17.map (Proc.devRef (τ := τ) .tc)).toFinset := by
  writes_listed
/-- The arrays of the message region's windows, the edge attributes (an argument, only read) apart. -/
abbrev wr_W18 : List (Ref sig .tc) := [main_v60, main_v61, main_v63, main_v70, main_v67, main_v71, main_v72]
/-- The buffers the aggregate and GRU weights' stretch writes. -/
abbrev wr_W19 : List (Ref sig .tc) :=
  [main_cst_1, main_v73, main_v74, main_v75, main_v76, main_v77, main_v78, main_v79, main_v80, main_v81, main_v82, main_v83,
   main_v84, main_v85]
theorem wrsub_W19 : (hostOps6 : List (HloOp τ sig (Elt Ideal))).Forall fun op =>
    op.writes ⊆ (wr_W19.map (Proc.devRef (τ := τ) .tc)).toFinset := by
  writes_listed
/-- The arrays of the GRU region's windows. -/
abbrev wr_W20 : List (Ref sig .tc) := [main_v75, main_v59, main_v77, main_v79, main_v84, main_v85, main_v86]

/-- The message region leaves every buffer that is not one of its windows' arrays, and the edge attributes too:
    an input window's array is as the region found it. -/
theorem st_W18 (c : Dev nD) (b : Ref sig .tc) (h : b ∉ wr_W18) :
    W18 m ρ c (Proc.devRef .tc b) = W17 m ρ c (Proc.devRef .tc b) := by
  by_cases e : b = main_arg2
  · subst e
    exact (W18_arr m ρ c 2).trans (((dat5 (V17 m ρ) c).arrAt_in 2 rfl _).trans (A_eq5 (V17 m ρ) c 2))
  · exact W18_of_ne m ρ c b fun w hw =>
      (List.mem_cons.mp (hw ▸ (by decide : ∀ w : Fin cfg5.W, Pipeline.arrRef spec5 w ∈ main_arg2 :: wr_W18) w)).elim e h
/-- The GRU region leaves every buffer that is not one of its windows' arrays. -/
theorem st_W20 (c : Dev nD) (b : Ref sig .tc) (h : b ∉ wr_W20) :
    W20 m ρ c (Proc.devRef .tc b) = W19 m ρ c (Proc.devRef .tc b) :=
  W20_of_ne m ρ c b fun w e => h (e ▸ (by decide : ∀ w : Fin cfg6.W, Pipeline.arrRef spec6 w ∈ wr_W20) w)

/-- Everything written from W14 up to each boundary of the round. -/
abbrev ac_W15 : List (Ref sig .tc) := wr_W15
abbrev ac_W16 : List (Ref sig .tc) := ac_W15 ++ wr_W16
abbrev ac_W17 : List (Ref sig .tc) := ac_W16 ++ wr_W17
abbrev ac_W18 : List (Ref sig .tc) := ac_W17 ++ wr_W18
abbrev ac_W19 : List (Ref sig .tc) := ac_W18 ++ wr_W19
abbrev ac_W20 : List (Ref sig .tc) := ac_W19 ++ wr_W20

/-- A buffer nothing has written since W14 is as it was at W14. -/
theorem fr_W15 (c : Dev nD) (b : Ref sig .tc) (h : b ∉ ac_W15) :
    W15 m ρ c (Proc.devRef .tc b) = W14 m ρ c (Proc.devRef .tc b) :=
  StableHlo.after_of_writes_sub hostOps5 _ wrsub_W15 h
theorem fr_W16 (c : Dev nD) (b : Ref sig .tc) (h : b ∉ ac_W16) :
    W16 m ρ c (Proc.devRef .tc b) = W14 m ρ c (Proc.devRef .tc b) :=
  (StableHlo.after_of_writes_sub hostOps5_1 _ wrsub_W16 fun hb => h (List.mem_append_right _ hb)).trans
    (fr_W15 m ρ c b fun hb => h (List.mem_append_left _ hb))
theorem fr_W17 (c : Dev nD) (b : Ref sig .tc) (h : b ∉ ac_W17) :
    W17 m ρ c (Proc.devRef .tc b) = W14 m ρ c (Proc.devRef .tc b) :=
  (StableHlo.after_of_writes_sub hostOps5_2 _ wrsub_W17 fun hb => h (List.mem_append_right _ hb)).trans
    (fr_W16 m ρ c b fun hb => h (List.mem_append_left _ hb))
theorem fr_W18 (c : Dev nD) (b : Ref sig .tc) (h : b ∉ ac_W18) :
    W18 m ρ c (Proc.devRef .tc b) = W14 m ρ c (Proc.devRef .tc b) :=
  (st_W18 m ρ c b fun hb => h (List.mem_append_right _ hb)).trans
    (fr_W17 m ρ c b fun hb => h (List.mem_append_left _ hb))
theorem fr_W19 (c : Dev nD) (b : Ref sig .tc) (h : b ∉ ac_W19) :
    W19 m ρ c (Proc.devRef .tc b) = W14 m ρ c (Proc.devRef .tc b) :=
  (StableHlo.after_of_writes_sub hostOps6 _ wrsub_W19 fun hb => h (List.mem_append_right _ hb)).trans
    (fr_W18 m ρ c b fun hb => h (List.mem_append_left _ hb))
theorem fr_W20 (c : Dev nD) (b : Ref sig .tc) (h : b ∉ ac_W20) :
    W20 m ρ c (Proc.devRef .tc b) = W14 m ρ c (Proc.devRef .tc b) :=
  (st_W20 m ρ c b fun hb => h (List.mem_append_right _ hb)).trans
    (fr_W19 m ρ c b fun hb => h (List.mem_append_left _ hb))

/-! ### The stretches' values, over any contents before them -/

/-- At the two gathers' typed references the states, an index row and a gathered array are read and written as
    they are: the reference's type is the buffer's. -/
theorem inState_W15 (S : Valuation τ sig (Elt Ideal)) :
    (StableHlo.TRef.of main_v59 : StableHlo.TRef sig ⟨S50000x64, .f32⟩).ofBuf (S (Proc.devRef .tc main_v59))
      = S (Proc.devRef .tc main_v59) := rfl
theorem inIdx_W15 (S : Valuation τ sig (Elt Ideal)) :
    (StableHlo.TRef.of main_v1 : StableHlo.TRef sig ⟨S800000, .i32⟩).ofBuf (S (Proc.devRef .tc main_v1))
      = S (Proc.devRef .tc main_v1) := rfl
theorem outTake_W15 (v : (⟨S800000x64, .f32⟩ : BufTy).Contents (Elt Ideal)) :
    (StableHlo.TRef.of main_v60 : StableHlo.TRef sig ⟨S800000x64, .f32⟩).toBuf v = v := rfl
theorem inIdx_W16 (S : Valuation τ sig (Elt Ideal)) :
    (StableHlo.TRef.of main_v3 : StableHlo.TRef sig ⟨S800000, .i32⟩).ofBuf (S (Proc.devRef .tc main_v3))
      = S (Proc.devRef .tc main_v3) := rfl
theorem outTake_W16 (v : (⟨S800000x64, .f32⟩ : BufTy).Contents (Elt Ideal)) :
    (StableHlo.TRef.of main_v61 : StableHlo.TRef sig ⟨S800000x64, .f32⟩).toBuf v = v := rfl

set_option maxHeartbeats 1000000 in
/-- The source-row gather of the states. -/
theorem hsTake_W15 (S : Valuation τ sig (Elt Ideal)) :
    StableHlo.after hostOps5 S (Proc.devRef .tc main_v60)
      = takeFill (S (Proc.devRef .tc main_v59)) (S (Proc.devRef .tc main_v1)) := by
  fold_eval
  repeat rw [ofBuf_toBuf]
  rw [inState_W15 S, inIdx_W15 S, outTake_W15]
  unfold takeFill gatherWrap inRange wrapIdx
  rfl
set_option maxHeartbeats 1000000 in
/-- The target-row gather of the states. -/
theorem hsTake_W16 (S : Valuation τ sig (Elt Ideal)) :
    StableHlo.after hostOps5_1 S (Proc.devRef .tc main_v61)
      = takeFill (S (Proc.devRef .tc main_v59)) (S (Proc.devRef .tc main_v3)) := by
  fold_eval
  repeat rw [ofBuf_toBuf]
  rw [inState_W15 S, inIdx_W16 S, outTake_W16]
  unfold takeFill gatherWrap inRange wrapIdx
  rfl
/-- The round's four message weights, cut out of the stacks. -/
theorem hsWa_W17 (S : Valuation τ sig (Elt Ideal)) :
    StableHlo.after hostOps5_2 S (Proc.devRef .tc main_v63)
      = w1At ![2, 0, 0] slices_S3x144x64_S1x144x64_2_0_0 (S (Proc.devRef .tc main_arg6)) := by
  after_results; rfl
theorem hsBa_W17 (S : Valuation τ sig (Elt Ideal)) :
    StableHlo.after hostOps5_2 S (Proc.devRef .tc main_v70)
      = b64At ![2, 0] slices_S3x64_S1x64_2_0 (S (Proc.devRef .tc main_arg7)) := by
  after_results; rfl
theorem hsWb_W17 (S : Valuation τ sig (Elt Ideal)) :
    StableHlo.after hostOps5_2 S (Proc.devRef .tc main_v67)
      = w2At ![2, 0, 0] slices_S3x64x64_S1x64x64_2_0_0 (S (Proc.devRef .tc main_arg8)) := by
  after_results; rfl
theorem hsBb_W17 (S : Valuation τ sig (Elt Ideal)) :
    StableHlo.after hostOps5_2 S (Proc.devRef .tc main_v71)
      = b64At ![2, 0] slices_S3x64_S1x64_2_0 (S (Proc.devRef .tc main_arg9)) := by
  after_results; rfl
/-- The messages summed into their source nodes. -/
theorem hsAgg_W19 (S : Valuation τ sig (Elt Ideal)) :
    StableHlo.after hostOps6 S (Proc.devRef .tc main_v75)
      = segSum (S (Proc.devRef .tc main_v1)) (S (Proc.devRef .tc main_v72)) := by
  after_results; rfl
/-- The round's four GRU weights, cut out of the stacks. -/
theorem hsWih_W19 (S : Valuation τ sig (Elt Ideal)) :
    StableHlo.after hostOps6 S (Proc.devRef .tc main_v77)
      = wgAt ![2, 0, 0] slices_S3x192x64_S1x192x64_2_0_0 (S (Proc.devRef .tc main_arg10)) := by
  after_results; rfl
theorem hsWhh_W19 (S : Valuation τ sig (Elt Ideal)) :
    StableHlo.after hostOps6 S (Proc.devRef .tc main_v79)
      = wgAt ![2, 0, 0] slices_S3x192x64_S1x192x64_2_0_0 (S (Proc.devRef .tc main_arg11)) := by
  after_results; rfl
theorem hsBih_W19 (S : Valuation τ sig (Elt Ideal)) :
    StableHlo.after hostOps6 S (Proc.devRef .tc main_v84)
      = bgAt ![2, 0] slices_S3x192_S1x192_2_0 (S (Proc.devRef .tc main_arg12)) := by
  after_results; rfl
theorem hsBhh_W19 (S : Valuation τ sig (Elt Ideal)) :
    StableHlo.after hostOps6 S (Proc.devRef .tc main_v85)
      = bgAt ![2, 0] slices_S3x192_S1x192_2_0 (S (Proc.devRef .tc main_arg13)) := by
  after_results; rfl

/-! ### The message region's inputs at its entry, from the states and the arguments -/

theorem xr_W17 (c : Dev nD) : W17 m ρ c (Proc.devRef .tc main_v60)
    = takeFill (W14 m ρ c (Proc.devRef .tc main_v59)) (rowOf (m ((c : Thread nD τ).loc main_arg1))) :=
  ((StableHlo.after_of_writes_sub hostOps5_2 _ wrsub_W17 (by decide)).trans
    ((StableHlo.after_of_writes_sub hostOps5_1 _ wrsub_W16 (by decide)).trans (hsTake_W15 (W14 m ρ c)))).trans
    (by rw [row_W14 m ρ c])
theorem xc_W17 (c : Dev nD) : W17 m ρ c (Proc.devRef .tc main_v61)
    = takeFill (W14 m ρ c (Proc.devRef .tc main_v59)) (colOf (m ((c : Thread nD τ).loc main_arg1))) :=
  ((StableHlo.after_of_writes_sub hostOps5_2 _ wrsub_W17 (by decide)).trans (hsTake_W16 (W15 m ρ c))).trans
    (by rw [fr_W15 m ρ c main_v59 (by decide), fr_W15 m ρ c main_v3 (by decide), col_W14 m ρ c])
theorem ea_W17 (c : Dev nD) : W17 m ρ c (Proc.devRef .tc main_arg2) = m ((c : Thread nD τ).loc main_arg2) :=
  (fr_W17 m ρ c main_arg2 (by decide)).trans (arg_W14 m ρ c main_arg2 (by decide))
theorem wa_W17 (c : Dev nD) : W17 m ρ c (Proc.devRef .tc main_v63)
    = w1At ![2, 0, 0] slices_S3x144x64_S1x144x64_2_0_0 (m ((c : Thread nD τ).loc main_arg6)) :=
  (hsWa_W17 (W16 m ρ c)).trans (by rw [fr_W16 m ρ c main_arg6 (by decide), arg_W14 m ρ c main_arg6 (by decide)])
theorem ba_W17 (c : Dev nD) : W17 m ρ c (Proc.devRef .tc main_v70)
    = b64At ![2, 0] slices_S3x64_S1x64_2_0 (m ((c : Thread nD τ).loc main_arg7)) :=
  (hsBa_W17 (W16 m ρ c)).trans (by rw [fr_W16 m ρ c main_arg7 (by decide), arg_W14 m ρ c main_arg7 (by decide)])
theorem wb_W17 (c : Dev nD) : W17 m ρ c (Proc.devRef .tc main_v67)
    = w2At ![2, 0, 0] slices_S3x64x64_S1x64x64_2_0_0 (m ((c : Thread nD τ).loc main_arg8)) :=
  (hsWb_W17 (W16 m ρ c)).trans (by rw [fr_W16 m ρ c main_arg8 (by decide), arg_W14 m ρ c main_arg8 (by decide)])
theorem bb_W17 (c : Dev nD) : W17 m ρ c (Proc.devRef .tc main_v71)
    = b64At ![2, 0] slices_S3x64_S1x64_2_0 (m ((c : Thread nD τ).loc main_arg9)) :=
  (hsBb_W17 (W16 m ρ c)).trans (by rw [fr_W16 m ρ c main_arg9 (by decide), arg_W14 m ρ c main_arg9 (by decide)])

/-- The messages: the message region's output array. -/
theorem msg_W18 (c : Dev nD) : W18 m ρ c (Proc.devRef .tc main_v72)
    = edgeG (n := 800000)
        (takeFill (W14 m ρ c (Proc.devRef .tc main_v59)) (rowOf (m ((c : Thread nD τ).loc main_arg1))))
        (takeFill (W14 m ρ c (Proc.devRef .tc main_v59)) (colOf (m ((c : Thread nD τ).loc main_arg1))))
        (m ((c : Thread nD τ).loc main_arg2))
        (w1At ![2, 0, 0] slices_S3x144x64_S1x144x64_2_0_0 (m ((c : Thread nD τ).loc main_arg6)))
        (b64At ![2, 0] slices_S3x64_S1x64_2_0 (m ((c : Thread nD τ).loc main_arg7)))
        (w2At ![2, 0, 0] slices_S3x64x64_S1x64x64_2_0_0 (m ((c : Thread nD τ).loc main_arg8)))
        (b64At ![2, 0] slices_S3x64_S1x64_2_0 (m ((c : Thread nD τ).loc main_arg9))) := by
  have e : W18 m ρ c (Proc.devRef .tc main_v72)
      = edgeG (n := 800000) (W17 m ρ c (Proc.devRef .tc main_v60)) (W17 m ρ c (Proc.devRef .tc main_v61))
          (W17 m ρ c (Proc.devRef .tc main_arg2)) (W17 m ρ c (Proc.devRef .tc main_v63)) (W17 m ρ c (Proc.devRef .tc main_v70))
          (W17 m ρ c (Proc.devRef .tc main_v67)) (W17 m ρ c (Proc.devRef .tc main_v71)) :=
    (W18_arr m ρ c 7).trans (Region5.final (V17 m ρ) c)
  rw [e, xr_W17 m ρ c, xc_W17 m ρ c, ea_W17 m ρ c, wa_W17 m ρ c, ba_W17 m ρ c, wb_W17 m ρ c, bb_W17 m ρ c]

/-! ### The GRU region's inputs at its entry -/

theorem agg_W19 (c : Dev nD) : W19 m ρ c (Proc.devRef .tc main_v75)
    = segSum (rowOf (m ((c : Thread nD τ).loc main_arg1))) (W18 m ρ c (Proc.devRef .tc main_v72)) :=
  (hsAgg_W19 (W18 m ρ c)).trans (by rw [fr_W18 m ρ c main_v1 (by decide), row_W14 m ρ c])
theorem keep_W19 (c : Dev nD) : W19 m ρ c (Proc.devRef .tc main_v59) = W14 m ρ c (Proc.devRef .tc main_v59) :=
  fr_W19 m ρ c main_v59 (by decide)
theorem wih_W19 (c : Dev nD) : W19 m ρ c (Proc.devRef .tc main_v77)
    = wgAt ![2, 0, 0] slices_S3x192x64_S1x192x64_2_0_0 (m ((c : Thread nD τ).loc main_arg10)) :=
  (hsWih_W19 (W18 m ρ c)).trans (by rw [fr_W18 m ρ c main_arg10 (by decide), arg_W14 m ρ c main_arg10 (by decide)])
theorem whh_W19 (c : Dev nD) : W19 m ρ c (Proc.devRef .tc main_v79)
    = wgAt ![2, 0, 0] slices_S3x192x64_S1x192x64_2_0_0 (m ((c : Thread nD τ).loc main_arg11)) :=
  (hsWhh_W19 (W18 m ρ c)).trans (by rw [fr_W18 m ρ c main_arg11 (by decide), arg_W14 m ρ c main_arg11 (by decide)])
theorem bih_W19 (c : Dev nD) : W19 m ρ c (Proc.devRef .tc main_v84)
    = bgAt ![2, 0] slices_S3x192_S1x192_2_0 (m ((c : Thread nD τ).loc main_arg12)) :=
  (hsBih_W19 (W18 m ρ c)).trans (by rw [fr_W18 m ρ c main_arg12 (by decide), arg_W14 m ρ c main_arg12 (by decide)])
theorem bhh_W19 (c : Dev nD) : W19 m ρ c (Proc.devRef .tc main_v85)
    = bgAt ![2, 0] slices_S3x192_S1x192_2_0 (m ((c : Thread nD τ).loc main_arg13)) :=
  (hsBhh_W19 (W18 m ρ c)).trans (by rw [fr_W18 m ρ c main_arg13 (by decide), arg_W14 m ρ c main_arg13 (by decide)])

/-- The node states after the round. -/
theorem h3 (c : Dev nD) : W20 (F := Ideal) m ρ c (Proc.devRef .tc main_v86)
    = layerK m c ![2, 0, 0] ![2, 0] slices_S3x144x64_S1x144x64_2_0_0 slices_S3x64_S1x64_2_0 slices_S3x64x64_S1x64x64_2_0_0
        slices_S3x192x64_S1x192x64_2_0_0 slices_S3x192_S1x192_2_0 (W14 (F := Ideal) m ρ c (Proc.devRef .tc main_v59)) := by
  have e : W20 m ρ c (Proc.devRef .tc main_v86)
      = gruG (n := 50000) (W19 m ρ c (Proc.devRef .tc main_v75)) (W19 m ρ c (Proc.devRef .tc main_v59))
          (W19 m ρ c (Proc.devRef .tc main_v77)) (W19 m ρ c (Proc.devRef .tc main_v79))
          (W19 m ρ c (Proc.devRef .tc main_v84)) (W19 m ρ c (Proc.devRef .tc main_v85)) :=
    (W20_arr m ρ c 6).trans (Region6.final (V19 m ρ) c)
  rw [e, agg_W19 m ρ c, msg_W18 m ρ c, keep_W19 m ρ c, wih_W19 m ρ c, whh_W19 m ρ c, bih_W19 m ρ c, bhh_W19 m ρ c]
  rfl

/-! ### What is carried on from the round's exit -/

/-- The source row of the edge list, at the round's exit. -/
theorem row_W20 (c : Dev nD) : W20 m ρ c (Proc.devRef .tc main_v1) = rowOf (m ((c : Thread nD τ).loc main_arg1)) :=
  (fr_W20 m ρ c main_v1 (by decide)).trans (row_W14 m ρ c)
/-- The target row of the edge list, at the round's exit. -/
theorem col_W20 (c : Dev nD) : W20 m ρ c (Proc.devRef .tc main_v3) = colOf (m ((c : Thread nD τ).loc main_arg1)) :=
  (fr_W20 m ρ c main_v3 (by decide)).trans (col_W14 m ρ c)
/-- A carried argument, at the round's exit, is as launched. -/
theorem arg_W20 (c : Dev nD) (b : Ref sig .tc) (h : b ∈ carried) :
    W20 m ρ c (Proc.devRef .tc b) = m ((c : Thread nD τ).loc b) :=
  (fr_W20 m ρ c b ((by decide : ∀ x ∈ carried, x ∉ ac_W20) b h)).trans (arg_W14 m ρ c b h)

end Cert.KernelIdeal.Chain

end
-- ==== Proof.KTail.lean ====
/-
  The kernel program's result from the last node states: the readout, read off the fold.

  After the last GRU region (boundary W20) @main has three more host stretches: the mean pool of
  the node states by graph and the first affine map, the rectifier, and the second affine map with
  the logistic spelled 1 / (1 + e^(−t)).  The result buffer at the end (W23) is the readout
  function of what the node-state buffer and the five readout arguments hold at W20; no region
  lies between, so this is three host stretches read in turn.
-/
import proofs.«420387_j4148938408095_1_alg».proof.Proof.Spec
import proofs.«420387_j4148938408095_1_alg».proof.Proof.KHost
import proofs.«420387_j4148938408095_1_alg».proof.Proof.Gen.KernelIdeal.Frame
import Idealize.ShloMosaic.Lib.StableHlo.Run

set_option maxRecDepth 16384

noncomputable section

open scoped BigOperators

namespace Cert.KernelIdeal.Chain

open Idealize.ShloMosaic Idealize.ShloMosaic.TcCoe Idealize.ShloMosaic.ValueIdx Idealize.SL.Sem Cert.KernelIdeal Cert.KernelIdeal.Gen Cert.Gnn Cert.KernelIdeal.KHost

variable (m : (ℓ : Loc nD τ sig) → Buf (Elt Ideal) ℓ) (ρ : Dev nD → PrngReg)

/-! ## The readout in three pieces, one per host stretch -/

/-- The mean pool of the node states by graph, then the first affine map: what the first stretch computes. -/
def poolAffine (h : FVec Ideal S50000x64 .f32) (batch : IVec S50000 32) (w1 : FVec Ideal S64x64 .f32) (b1 : FVec Ideal S64 .f32) :
    FVec Ideal S64x64 .f32 :=
  let sums : FVec Ideal S64x64 .f32 := Host.scatterAdd scatter_S64x64_S50000x1_S50000x64_1_0_0_1
    (broadcastInDim S64x64 ![] bcast_S_S64x64 (constant (F := Ideal) S_ .f32 0x00000000#32))
    (broadcastInDim S50000x1 ![0] bcast_S50000_S50000x1_0 batch) h
  let counts : FVec Ideal S64 .f32 := Host.scatterAdd scatter_S64_S50000x1_S50000_n_0_0_1
    (broadcastInDim S64 ![] bcast_S_S64 (constant (F := Ideal) S_ .f32 0x00000000#32))
    (broadcastInDim S50000x1 ![0] bcast_S50000_S50000x1_0 batch)
    (broadcastInDim S50000 ![] bcast_S_S50000 (constant (F := Ideal) S_ .f32 0x3F800000#32))
  let den : FVec Ideal S64 .f32 := maximumf counts (broadcastInDim S64 ![] bcast_S_S64 (constant (F := Ideal) S_ .f32 0x3F800000#32))
  let g : FVec Ideal S64x64 .f32 := Host.divf sums (broadcastInDim S64x64 ![0, 1] bcast_S64x1_S64x64_0_1 (broadcastInDim S64x1 ![0] bcast_S64_S64x1_0 den))
  addf (Host.dotGeneral dot_S64x64_S64x64_S64x64_1_0_0_1_n_n none g w1)
    (broadcastInDim S64x64 ![0, 1] bcast_S1x64_S64x64_0_1 (broadcastInDim S1x64 ![1] bcast_S64_S1x64_1 b1))

/-- The rectifier: what the second stretch computes. -/
def rectify (a1 : FVec Ideal S64x64 .f32) : FVec Ideal S64x64 .f32 :=
  maximumf a1 (broadcastInDim S64x64 ![] bcast_S_S64x64 (constant (F := Ideal) S_ .f32 0x00000000#32))

/-- The second affine map and the logistic 1 / (1 + e^(−t)): what the third stretch computes. -/
def affineLogistic (r1 : FVec Ideal S64x64 .f32) (w2 : FVec Ideal S64x1 .f32) (b2 : FVec Ideal S1 .f32) : FVec Ideal S64x1 .f32 :=
  let a2 : FVec Ideal S64x1 .f32 := addf (Host.dotGeneral dot_S64x64_S64x1_S64x1_1_0_0_1_n_n none r1 w2)
    (broadcastInDim S64x1 ![0, 1] bcast_S1x1_S64x1_0_1 (broadcastInDim S1x1 ![1] bcast_S1_S1x1_1 b2))
  Host.divf (broadcastInDim S64x1 ![] bcast_S_S64x1 (constant (F := Ideal) S_ .f32 0x3F800000#32))
    (addf (broadcastInDim S64x1 ![] bcast_S_S64x1 (constant (F := Ideal) S_ .f32 0x3F800000#32)) (Host.exp (Host.negf a2)))

/-- The readout is the three pieces composed. -/
theorem readout_eq (h : FVec Ideal S50000x64 .f32) (batch : IVec S50000 32) (w1 : FVec Ideal S64x64 .f32) (b1 : FVec Ideal S64 .f32)
    (w2 : FVec Ideal S64x1 .f32) (b2 : FVec Ideal S1 .f32) :
    readout h batch w1 b1 w2 b2 = affineLogistic (rectify (poolAffine h batch w1 b1)) w2 b2 := rfl

/-! ## Each stretch over ANY contents it finds, then the three read in turn from the last -/

/-- The last stretch, over whatever it finds: the second affine map and the logistic of the rectified layer's buffer
    and the two arguments. -/
theorem last_of (X : Valuation τ sig (Elt Ideal)) : StableHlo.after hostOps7_2 X (Proc.devRef .tc main_v113)
    = affineLogistic (X (Proc.devRef .tc main_v103)) (X (Proc.devRef .tc main_arg16)) (X (Proc.devRef .tc main_arg17)) := by
  after_results
  rfl

/-- The middle stretch, over whatever it finds: the rectifier of the first affine map's buffer. -/
theorem relu_of (X : Valuation τ sig (Elt Ideal)) : StableHlo.after hostOps7_1 X (Proc.devRef .tc main_v103)
    = rectify (X (Proc.devRef .tc main_v102)) := by
  after_results
  rfl

/-- The first stretch, over whatever it finds: the pooled first affine map of the node states and three arguments. -/
theorem pool_of (X : Valuation τ sig (Elt Ideal)) : StableHlo.after hostOps7 X (Proc.devRef .tc main_v102)
    = poolAffine (X (Proc.devRef .tc main_v86)) (X (Proc.devRef .tc main_arg3)) (X (Proc.devRef .tc main_arg14))
        (X (Proc.devRef .tc main_arg15)) := by
  after_results_simp
  rfl

/-- The middle stretch writes neither argument of the second affine map. -/
theorem relu_keeps (X : Valuation τ sig (Elt Ideal)) :
    StableHlo.after hostOps7_1 X (Proc.devRef .tc main_arg16) = X (Proc.devRef .tc main_arg16)
    ∧ StableHlo.after hostOps7_1 X (Proc.devRef .tc main_arg17) = X (Proc.devRef .tc main_arg17) := by
  refine ⟨?_, ?_⟩ <;> after_results_simp

/-- Nor does the first stretch. -/
theorem pool_keeps (X : Valuation τ sig (Elt Ideal)) :
    StableHlo.after hostOps7 X (Proc.devRef .tc main_arg16) = X (Proc.devRef .tc main_arg16)
    ∧ StableHlo.after hostOps7 X (Proc.devRef .tc main_arg17) = X (Proc.devRef .tc main_arg17) := by
  refine ⟨?_, ?_⟩ <;> after_results_simp

/-! ## The same at the boundaries of the run -/

/-- The result buffer after the last stretch, from what the middle stretch left. -/
theorem last_stretch (c : Dev nD) : W23 (F := Ideal) m ρ c (Proc.devRef .tc main_v113)
    = affineLogistic (W22 (F := Ideal) m ρ c (Proc.devRef .tc main_v103)) (W22 (F := Ideal) m ρ c (Proc.devRef .tc main_arg16))
        (W22 (F := Ideal) m ρ c (Proc.devRef .tc main_arg17)) :=
  last_of (W22 (F := Ideal) m ρ c)

/-- The rectified layer after the middle stretch, from what the first stretch left. -/
theorem relu_stretch (c : Dev nD) : W22 (F := Ideal) m ρ c (Proc.devRef .tc main_v103)
    = rectify (W21 (F := Ideal) m ρ c (Proc.devRef .tc main_v102)) :=
  relu_of (W21 (F := Ideal) m ρ c)

/-- The first affine map after the first stretch, from what the last region left. -/
theorem pool_stretch (c : Dev nD) : W21 (F := Ideal) m ρ c (Proc.devRef .tc main_v102)
    = poolAffine (W20 (F := Ideal) m ρ c (Proc.devRef .tc main_v86)) (W20 (F := Ideal) m ρ c (Proc.devRef .tc main_arg3))
        (W20 (F := Ideal) m ρ c (Proc.devRef .tc main_arg14)) (W20 (F := Ideal) m ρ c (Proc.devRef .tc main_arg15)) :=
  pool_of (W20 (F := Ideal) m ρ c)

/-- The second affine map's weight reaches the last stretch as the last region left it. -/
theorem weight_kept (c : Dev nD) : W22 (F := Ideal) m ρ c (Proc.devRef .tc main_arg16)
    = W20 (F := Ideal) m ρ c (Proc.devRef .tc main_arg16) :=
  (relu_keeps (W21 (F := Ideal) m ρ c)).1.trans (pool_keeps (W20 (F := Ideal) m ρ c)).1

/-- And so does its bias. -/
theorem bias_kept (c : Dev nD) : W22 (F := Ideal) m ρ c (Proc.devRef .tc main_arg17)
    = W20 (F := Ideal) m ρ c (Proc.devRef .tc main_arg17) :=
  (relu_keeps (W21 (F := Ideal) m ρ c)).2.trans (pool_keeps (W20 (F := Ideal) m ρ c)).2

/-- The result is the readout of what the last boundary before the tail holds. -/
theorem out_from_W20 (c : Dev nD) : W23 (F := Ideal) m ρ c (Proc.devRef .tc main_v113)
    = readout (W20 (F := Ideal) m ρ c (Proc.devRef .tc main_v86)) (W20 (F := Ideal) m ρ c (Proc.devRef .tc main_arg3))
        (W20 (F := Ideal) m ρ c (Proc.devRef .tc main_arg14)) (W20 (F := Ideal) m ρ c (Proc.devRef .tc main_arg15))
        (W20 (F := Ideal) m ρ c (Proc.devRef .tc main_arg16)) (W20 (F := Ideal) m ρ c (Proc.devRef .tc main_arg17)) := by
  rw [readout_eq, last_stretch, relu_stretch, pool_stretch, weight_kept, bias_kept]

end Cert.KernelIdeal.Chain

end
-- ==== Proof.RHost.lean ====
/-
  The reference program's host functions, each its own operations composed.

  The two rows of the edge list; a negative index wrapped once and laid out as a column of start
  indices (`wrapIdx`), or laid out unwrapped (`colIdx`, the scatter-add's indices); the rows of the
  node states gathered at a column of indices; the messages summed into the nodes a column names;
  a round's weights cut out of the stacks of three; one round (`layerR`, the specification's round
  over this program's gather and scatter-add, the biases vectors); the graph readout.
-/
import proofs.«420387_j4148938408095_1_alg».proof.Proof.Spec
import proofs.«420387_j4148938408095_1_alg».proof.Proof.Gen.ReferenceIdeal
import Idealize.ShloMosaic.Lib.ValueIdx

noncomputable section

namespace Cert.ReferenceIdeal.RHost

open Idealize.ShloMosaic Idealize.ShloMosaic.TcCoe Idealize.ShloMosaic.ValueIdx Cert.ReferenceIdeal Cert.ReferenceIdeal.Gen Cert.Gnn

/-- Row 0 of the edge list: each edge's source node. -/
def rowOf (ei : IVec S2x800000 32) : IVec S800000 32 :=
  shapeCast S800000 (extractStridedSlice S1x800000 ![0, 0] ei slices_S2x800000_S1x800000_0_0) shapeCasts_S1x800000_S800000

/-- Row 1 of the edge list: each edge's target node. -/
def colOf (ei : IVec S2x800000 32) : IVec S800000 32 :=
  shapeCast S800000 (extractStridedSlice S1x800000 ![1, 0] ei slices_S2x800000_S1x800000_1_0) shapeCasts_S1x800000_S800000

/-- A negative index wrapped once around the 50000 rows, as a column of start indices. -/
def wrapIdx (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- An index vector as a column of start indices, unwrapped. -/
def colIdx (idx : IVec S800000 32) : IVec S800000x1 32 :=
  broadcastInDim S800000x1 ![0] bcast_S800000_S800000x1_0 idx

/-- The rows of the node states at a column of start indices. -/
def gatherR (h : Vec Ideal S50000x64 .f32) (I : IVec S800000x1 32) : Vec Ideal S800000x64 .f32 :=
  Host.gather gather_S50000x64_S800000x1_S800000x64_1_0_n_n_0_1_164 h I

/-- The messages summed into the nodes a column of indices names: a scatter-add into zeros. -/
def segR (I : IVec S800000x1 32) (msg : Vec Ideal S800000x64 .f32) : Vec Ideal S50000x64 .f32 :=
  Host.scatterAdd scatter_S50000x64_S800000x1_S800000x64_1_0_0_1
    (broadcastInDim S50000x64 ![] bcast_S_S50000x64 (constant (F := Ideal) S_ .f32 0x00000000#32)) I msg

/-- Layer o's first message weight out of the stack of three. -/
def w1At (o : Fin 3 → Nat) (hs : S3x144x64.Slices o S1x144x64) (w : Vec Ideal S3x144x64 .f32) : Vec Ideal S144x64 .f32 :=
  shapeCast S144x64 (extractStridedSlice S1x144x64 o w hs) shapeCasts_S1x144x64_S144x64
/-- Layer o's second message weight. -/
def w2At (o : Fin 3 → Nat) (hs : S3x64x64.Slices o S1x64x64) (w : Vec Ideal S3x64x64 .f32) : Vec Ideal S64x64 .f32 :=
  shapeCast S64x64 (extractStridedSlice S1x64x64 o w hs) shapeCasts_S1x64x64_S64x64
/-- Layer o's GRU weight (input or hidden). -/
def wgAt (o : Fin 3 → Nat) (hs : S3x192x64.Slices o S1x192x64) (w : Vec Ideal S3x192x64 .f32) : Vec Ideal S192x64 .f32 :=
  shapeCast S192x64 (extractStridedSlice S1x192x64 o w hs) shapeCasts_S1x192x64_S192x64
/-- Layer o's message bias (either of the two), a vector. -/
def b64VecAt (o : Fin 2 → Nat) (hs : S3x64.Slices o S1x64) (b : Vec Ideal S3x64 .f32) : Vec Ideal S64 .f32 :=
  shapeCast S64 (extractStridedSlice S1x64 o b hs) shapeCasts_S1x64_S64
/-- Layer o's GRU bias (input or hidden), a vector. -/
def bgVecAt (o : Fin 2 → Nat) (hs : S3x192.Slices o S1x192) (b : Vec Ideal S3x192 .f32) : Vec Ideal S192 .f32 :=
  shapeCast S192 (extractStridedSlice S1x192 o b hs) shapeCasts_S1x192_S192

/-- One round as the reference runs it: gathers at `Ir` and `Ic`, scatter-add at `Is`, the round's weights given. -/
def layerR (h : Vec Ideal S50000x64 .f32) (Ir Ic Is : IVec S800000x1 32) (ea : Vec Ideal S800000x16 .f32)
    (w1 : Vec Ideal S144x64 .f32) (b1 : Vec Ideal S64 .f32) (w2 : Vec Ideal S64x64 .f32) (b2 : Vec Ideal S64 .f32)
    (wih whh : Vec Ideal S192x64 .f32) (bih bhh : Vec Ideal S192 .f32) : Vec Ideal S50000x64 .f32 :=
  layer (N := 50000) (E := 800000) (fun h => gatherR h Ir) (fun h => gatherR h Ic) (segR Is) ea
    w1 (rowVec b1) w2 (rowVec b2) wih whh (rowVec bih) (rowVec bhh) h

/-- The graph readout: mean pool of the node states by graph, two affine maps with a rectifier between, a logistic. -/
def readoutR (h : FVec Ideal S50000x64 .f32) (batch : IVec S50000 32) (w1 : FVec Ideal S64x64 .f32) (b1 : FVec Ideal S64 .f32)
    (w2 : FVec Ideal S64x1 .f32) (b2 : FVec Ideal S1 .f32) : FVec Ideal S64x1 .f32 :=
  let sums : FVec Ideal S64x64 .f32 := Host.scatterAdd scatter_S64x64_S50000x1_S50000x64_1_0_0_1
    (broadcastInDim S64x64 ![] bcast_S_S64x64 (constant (F := Ideal) S_ .f32 0x00000000#32))
    (broadcastInDim S50000x1 ![0] bcast_S50000_S50000x1_0 batch) h
  let counts : FVec Ideal S64 .f32 := Host.scatterAdd scatter_S64_S50000x1_S50000_n_0_0_1
    (broadcastInDim S64 ![] bcast_S_S64 (constant (F := Ideal) S_ .f32 0x00000000#32))
    (broadcastInDim S50000x1 ![0] bcast_S50000_S50000x1_0 batch)
    (broadcastInDim S50000 ![] bcast_S_S50000 (constant (F := Ideal) S_ .f32 0x3F800000#32))
  let den : FVec Ideal S64 .f32 := maximumf counts (broadcastInDim S64 ![] bcast_S_S64 (constant (F := Ideal) S_ .f32 0x3F800000#32))
  let g : FVec Ideal S64x64 .f32 := Host.divf sums (broadcastInDim S64x64 ![0, 1] bcast_S64x1_S64x64_0_1 (broadcastInDim S64x1 ![0] bcast_S64_S64x1_0 den))
  let a1 : FVec Ideal S64x64 .f32 := addf (Host.dotGeneral dot_S64x64_S64x64_S64x64_1_0_0_1_n_n none g w1)
    (broadcastInDim S64x64 ![0, 1] bcast_S1x64_S64x64_0_1 (broadcastInDim S1x64 ![1] bcast_S64_S1x64_1 b1))
  let r1 : FVec Ideal S64x64 .f32 := maximumf a1 (broadcastInDim S64x64 ![] bcast_S_S64x64 (constant (F := Ideal) S_ .f32 0x00000000#32))
  let a2 : FVec Ideal S64x1 .f32 := addf (Host.dotGeneral dot_S64x64_S64x1_S64x1_1_0_0_1_n_n none r1 w2)
    (broadcastInDim S64x1 ![0, 1] bcast_S1x1_S64x1_0_1 (broadcastInDim S1x1 ![1] bcast_S1_S1x1_1 b2))
  Host.divf (broadcastInDim S64x1 ![] bcast_S_S64x1 (constant (F := Ideal) S_ .f32 0x3F800000#32))
    (addf (broadcastInDim S64x1 ![] bcast_S_S64x1 (constant (F := Ideal) S_ .f32 0x3F800000#32)) (Host.exp (Host.negf a2)))

end Cert.ReferenceIdeal.RHost

end
-- ==== Proof.RHead.lean ====
/-
  The reference's head stretch, read: from any contents X, after operations 1 … 24 the buffers
  hold the two rows of the edge list, the first round's eight weight slices, and the node embedding
  x · w + b (a product as the sum over the 128 input features, the bias vector broadcast down the
  rows).
-/
import proofs.«420387_j4148938408095_1_alg».proof.Proof.Spec
import proofs.«420387_j4148938408095_1_alg».proof.Proof.RHost
import proofs.«420387_j4148938408095_1_alg».proof.Proof.RRun
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.RChain

open Idealize.ShloMosaic Idealize.ShloMosaic.TcCoe Idealize.ShloMosaic.ValueIdx Idealize.SL.Sem Idealize.ShloMosaic.StableHlo Cert.ReferenceIdeal Cert.ReferenceIdeal.Gen Cert.ReferenceIdeal.Value Cert.ReferenceIdeal.RHost Cert.Gnn

/-! ## The embedding's product and bias at an index

The product contracts the left operand's columns with the right operand's rows, no batch axis: its two operand
indices at entry i and contraction index c read (i 0, c) and (c, i 1).  So entry (p, q) is the sum over the 128
input features c of x (p, c) times w (c, q); the bias vector, broadcast [64] → [1, 64] → [50000, 64], reads its
entry q in every row. -/

theorem head_lhs0 (i : S50000x64.Idx) (c : dot_S50000x128_S128x64_S50000x64_1_0_0_1_n_n.contr.Idx) :
    (dot_S50000x128_S128x64_S50000x64_1_0_0_1_n_n.lhsIdx i c 0).val = (i 0).val := by
  unfold DotDims.lhsIdx
  rw [dif_neg (show ¬(0 : Fin S50000x128.rank) ∈ dot_S50000x128_S128x64_S50000x64_1_0_0_1_n_n.lhsBatch by decide),
    dif_pos (show (0 : Fin S50000x128.rank) ∈ dot_S50000x128_S128x64_S50000x64_1_0_0_1_n_n.lhsNonContracting by decide)]
  rfl
theorem head_lhs1 (i : S50000x64.Idx) (c : dot_S50000x128_S128x64_S50000x64_1_0_0_1_n_n.contr.Idx) :
    (dot_S50000x128_S128x64_S50000x64_1_0_0_1_n_n.lhsIdx i c 1).val = (c ⟨0, by decide⟩).val :=
  dot_S50000x128_S128x64_S50000x64_1_0_0_1_n_n.lhsIdx_val_of_single rfl i c
theorem head_rhs0 (i : S50000x64.Idx) (c : dot_S50000x128_S128x64_S50000x64_1_0_0_1_n_n.contr.Idx) :
    (dot_S50000x128_S128x64_S50000x64_1_0_0_1_n_n.rhsIdx i c 0).val = (c ⟨0, by decide⟩).val :=
  dot_S50000x128_S128x64_S50000x64_1_0_0_1_n_n.rhsIdx_val_of_single rfl i c
theorem head_rhs1 (i : S50000x64.Idx) (c : dot_S50000x128_S128x64_S50000x64_1_0_0_1_n_n.contr.Idx) :
    (dot_S50000x128_S128x64_S50000x64_1_0_0_1_n_n.rhsIdx i c 1).val = (i 1).val := by
  unfold DotDims.rhsIdx
  rw [dif_neg (show ¬(1 : Fin S128x64.rank) ∈ dot_S50000x128_S128x64_S50000x64_1_0_0_1_n_n.rhsBatch by decide),
    dif_pos (show (1 : Fin S128x64.rank) ∈ dot_S50000x128_S128x64_S50000x64_1_0_0_1_n_n.rhsNonContracting by decide)]
  rfl

/-- The product at (p, q): the sum over the input features. -/
theorem head_dot (x : FVec Ideal S50000x128 .f32) (w : FVec Ideal S128x64 .f32) (p : Fin 50000) (q : Fin 64) :
    Host.dotGeneral (F := Ideal) dot_S50000x128_S128x64_S50000x64_1_0_0_1_n_n none x w (ix2 p q) = ∑ c : Fin 128, x (ix2 p c) * w (ix2 c q) := by
  simp only [Host.dotGeneral]
  rw [Ideal.dotGeneral_apply, ← Equiv.sum_comp (contrEquiv1 dot_S50000x128_S128x64_S50000x64_1_0_0_1_n_n 128 rfl rfl).symm]
  refine Finset.sum_congr rfl fun c _ => ?_
  have hc := contrEquiv1_symm_val dot_S50000x128_S128x64_S50000x64_1_0_0_1_n_n 128 rfl rfl c
  have el : dot_S50000x128_S128x64_S50000x64_1_0_0_1_n_n.lhsIdx (ix2 p q) ((contrEquiv1 dot_S50000x128_S128x64_S50000x64_1_0_0_1_n_n 128 rfl rfl).symm c) = ix2 p c :=
    funext fun a => Fin.ext (by
      match a with
      | ⟨0, _⟩ => exact head_lhs0 _ _
      | ⟨1, _⟩ => exact (head_lhs1 _ _).trans hc)
  have er : dot_S50000x128_S128x64_S50000x64_1_0_0_1_n_n.rhsIdx (ix2 p q) ((contrEquiv1 dot_S50000x128_S128x64_S50000x64_1_0_0_1_n_n 128 rfl rfl).symm c) = ix2 c q :=
    funext fun a => Fin.ext (by
      match a with
      | ⟨0, _⟩ => exact (head_rhs0 _ _).trans hc
      | ⟨1, _⟩ => exact head_rhs1 _ _)
  rw [el, er]

/-- The bias at (p, q): the vector's entry q, as the one-row matrix reads it. -/
theorem head_bias (b : FVec Ideal S64 .f32) (p : Fin 50000) (q : Fin 64) :
    broadcastInDim S50000x64 ![0, 1] bcast_S1x64_S50000x64_0_1 (broadcastInDim S1x64 ![1] bcast_S64_S1x64_1 b) (ix2 p q)
      = rowVec b (ix2 0 q) := by
  refine (broadcastInDim_apply _ bcast_S1x64_S50000x64_0_1 _ (ix2 p q) (ix2 ⟨0, Nat.one_pos⟩ q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 ⟨0, Nat.one_pos⟩ q) (ix1 q) (fun a => match a with
    | ⟨0, _⟩ => by show q.val = if (64 : Nat) = 1 then 0 else q.val; rw [if_neg (by decide)])

/-- The embedding's three operations are x · w + b. -/
theorem head_embed (x : FVec Ideal S50000x128 .f32) (w : FVec Ideal S128x64 .f32) (b : FVec Ideal S64 .f32) :
    addf (Host.dotGeneral (F := Ideal) dot_S50000x128_S128x64_S50000x64_1_0_0_1_n_n none x w)
        (broadcastInDim S50000x64 ![0, 1] bcast_S1x64_S50000x64_0_1 (broadcastInDim S1x64 ![1] bcast_S64_S1x64_1 b))
      = embedG (n := 50000) x w (rowVec b) := by
  funext i
  obtain ⟨p, q, rfl⟩ : ∃ (p : Fin 50000) (q : Fin 64), i = ix2 p q := ⟨i 0, i 1, eq_ix2 i⟩
  rw [embedG_ix2, addf_apply, head_dot, head_bias]
  rfl

variable (X : Valuation τ sig (Elt Ideal))

/-- The node states after the embedding. -/
theorem head_state : after (opsH (F := Ideal)) X (Proc.devRef .tc main_v7)
    = embedG (n := 50000) (X (Proc.devRef .tc main_arg0)) (X (Proc.devRef .tc main_arg4)) (rowVec (X (Proc.devRef .tc main_arg5))) := by
  after_results_simp <;> exact head_embed _ _ _

/-- Each edge's source node. -/
theorem head_row : after (opsH (F := Ideal)) X (Proc.devRef .tc main_v1) = rowOf (X (Proc.devRef .tc main_arg1)) := by
  after_results_simp <;> rfl

/-- Each edge's target node. -/
theorem head_col : after (opsH (F := Ideal)) X (Proc.devRef .tc main_v3) = colOf (X (Proc.devRef .tc main_arg1)) := by
  after_results_simp <;> rfl

theorem head_w1 : after (opsH (F := Ideal)) X (Proc.devRef .tc main_v9) = w1At ![0, 0, 0] slices_S3x144x64_S1x144x64_0_0_0 (X (Proc.devRef .tc main_arg6)) := by
  after_results_simp <;> rfl

theorem head_b1 : after (opsH (F := Ideal)) X (Proc.devRef .tc main_v11) = b64VecAt ![0, 0] slices_S3x64_S1x64_0_0 (X (Proc.devRef .tc main_arg7)) := by
  after_results_simp <;> rfl

theorem head_w2 : after (opsH (F := Ideal)) X (Proc.devRef .tc main_v13) = w2At ![0, 0, 0] slices_S3x64x64_S1x64x64_0_0_0 (X (Proc.devRef .tc main_arg8)) := by
  after_results_simp <;> rfl

theorem head_b2 : after (opsH (F := Ideal)) X (Proc.devRef .tc main_v15) = b64VecAt ![0, 0] slices_S3x64_S1x64_0_0 (X (Proc.devRef .tc main_arg9)) := by
  after_results_simp <;> rfl

theorem head_wih : after (opsH (F := Ideal)) X (Proc.devRef .tc main_v17) = wgAt ![0, 0, 0] slices_S3x192x64_S1x192x64_0_0_0 (X (Proc.devRef .tc main_arg10)) := by
  after_results_simp <;> rfl

theorem head_whh : after (opsH (F := Ideal)) X (Proc.devRef .tc main_v19) = wgAt ![0, 0, 0] slices_S3x192x64_S1x192x64_0_0_0 (X (Proc.devRef .tc main_arg11)) := by
  after_results_simp <;> rfl

theorem head_bih : after (opsH (F := Ideal)) X (Proc.devRef .tc main_v21) = bgVecAt ![0, 0] slices_S3x192_S1x192_0_0 (X (Proc.devRef .tc main_arg12)) := by
  after_results_simp <;> rfl

theorem head_bhh : after (opsH (F := Ideal)) X (Proc.devRef .tc main_v23) = bgVecAt ![0, 0] slices_S3x192_S1x192_0_0 (X (Proc.devRef .tc main_arg13)) := by
  after_results_simp <;> rfl

end Cert.ReferenceIdeal.RChain

end
-- ==== Proof.RMsg.lean ====
/-
  The reference's messages, read: the stages of a round from the concatenation to the second bias, taken as
  one term of the two gathered arrays, the edge attributes and the round's weights, compute the
  specification's message function `edgeG`.

  The stages: a concatenation of the three pieces along the columns, a product with the first weight (a
  sum over the 144 concatenated columns), the first bias broadcast down the rows, a maximum with zero, a
  product with the second weight (a sum over the 64 hidden units), the second bias.  A bias is a vector
  here, broadcast [64] → [1, 64] → [800000, 64]: its entry at column k.

  Last, for running the stretch that holds these stages: what an operation over a literal family of three
  references (the concatenation) leaves in its result buffer.
-/
import proofs.«420387_j4148938408095_1_alg».proof.Proof.Spec
import proofs.«420387_j4148938408095_1_alg».proof.Proof.Gen.ReferenceIdeal
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.RChain

open Idealize.ShloMosaic Idealize.ShloMosaic.TcCoe Idealize.ShloMosaic.ValueIdx Idealize.SL.Sem Cert.ReferenceIdeal Cert.ReferenceIdeal.Gen Cert.Gnn

namespace Msg

/-! ## A rows × contraction by contraction × columns product at an index

The two products of a round have the same dimension numbers (the left operand's columns contracted with the
right operand's rows, no batch axis) at two sizes.  Given what the dimension numbers' two operand indices read
on each axis, entry (p, q) of the host's product is the sum over the contracted coordinate c of left (p, c)
times right (c, q). -/

theorem hostProduct_apply {m k n : Nat} {φ₁ φ₂ : FTy} (D : DotDims ⟨2, ![m, k]⟩ ⟨2, ![k, n]⟩ ⟨2, ![m, n]⟩)
    (hr : D.contr.rank = 1) (hs : D.contr.size ⟨0, by omega⟩ = k)
    (l0 : ∀ (i : (⟨2, ![m, n]⟩ : Shape).Idx) (c : D.contr.Idx), (D.lhsIdx i c 0).val = (i 0).val)
    (l1 : ∀ (i : (⟨2, ![m, n]⟩ : Shape).Idx) (c : D.contr.Idx), (D.lhsIdx i c 1).val = (c ⟨0, by omega⟩).val)
    (r0 : ∀ (i : (⟨2, ![m, n]⟩ : Shape).Idx) (c : D.contr.Idx), (D.rhsIdx i c 0).val = (c ⟨0, by omega⟩).val)
    (r1 : ∀ (i : (⟨2, ![m, n]⟩ : Shape).Idx) (c : D.contr.Idx), (D.rhsIdx i c 1).val = (i 1).val)
    (x : FVec Ideal ⟨2, ![m, k]⟩ φ₁) (w : FVec Ideal ⟨2, ![k, n]⟩ φ₂) (p : Fin m) (q : Fin n) :
    Host.dotGeneral D none x w (ix2 p q) = ∑ c : Fin k, x (ix2 p c) * w (ix2 c q) := by
  simp only [Host.dotGeneral]
  rw [Ideal.dotGeneral_apply, ← Equiv.sum_comp (contrEquiv1 D k hr hs).symm]
  refine Finset.sum_congr rfl fun c _ => ?_
  have hc := contrEquiv1_symm_val D k hr hs c
  have el : D.lhsIdx (ix2 p q) ((contrEquiv1 D k hr hs).symm c) = ix2 p c := funext fun a => Fin.ext (by
    match a with
    | ⟨0, _⟩ => exact l0 _ _
    | ⟨1, _⟩ => exact (l1 _ _).trans hc)
  have er : D.rhsIdx (ix2 p q) ((contrEquiv1 D k hr hs).symm c) = ix2 c q := funext fun a => Fin.ext (by
    match a with
    | ⟨0, _⟩ => exact (r0 _ _).trans hc
    | ⟨1, _⟩ => exact r1 _ _)
  rw [el, er]

/-! ### What the two products' operand indices read on each axis -/

theorem lhs_hidden_0 (i : S800000x64.Idx) (c : dot_S800000x144_S144x64_S800000x64_1_0_0_1_n_n.contr.Idx) :
    (dot_S800000x144_S144x64_S800000x64_1_0_0_1_n_n.lhsIdx i c 0).val = (i 0).val := by
  unfold DotDims.lhsIdx
  rw [dif_neg (show ¬(0 : Fin S800000x144.rank) ∈ dot_S800000x144_S144x64_S800000x64_1_0_0_1_n_n.lhsBatch by decide),
    dif_pos (show (0 : Fin S800000x144.rank) ∈ dot_S800000x144_S144x64_S800000x64_1_0_0_1_n_n.lhsNonContracting by decide)]
  rfl
theorem lhs_hidden_1 (i : S800000x64.Idx) (c : dot_S800000x144_S144x64_S800000x64_1_0_0_1_n_n.contr.Idx) :
    (dot_S800000x144_S144x64_S800000x64_1_0_0_1_n_n.lhsIdx i c 1).val = (c ⟨0, by decide⟩).val :=
  dot_S800000x144_S144x64_S800000x64_1_0_0_1_n_n.lhsIdx_val_of_single rfl i c
theorem rhs_hidden_0 (i : S800000x64.Idx) (c : dot_S800000x144_S144x64_S800000x64_1_0_0_1_n_n.contr.Idx) :
    (dot_S800000x144_S144x64_S800000x64_1_0_0_1_n_n.rhsIdx i c 0).val = (c ⟨0, by decide⟩).val :=
  dot_S800000x144_S144x64_S800000x64_1_0_0_1_n_n.rhsIdx_val_of_single rfl i c
theorem rhs_hidden_1 (i : S800000x64.Idx) (c : dot_S800000x144_S144x64_S800000x64_1_0_0_1_n_n.contr.Idx) :
    (dot_S800000x144_S144x64_S800000x64_1_0_0_1_n_n.rhsIdx i c 1).val = (i 1).val := by
  unfold DotDims.rhsIdx
  rw [dif_neg (show ¬(1 : Fin S144x64.rank) ∈ dot_S800000x144_S144x64_S800000x64_1_0_0_1_n_n.rhsBatch by decide),
    dif_pos (show (1 : Fin S144x64.rank) ∈ dot_S800000x144_S144x64_S800000x64_1_0_0_1_n_n.rhsNonContracting by decide)]
  rfl

/-- The hidden layer's product at (p, q): 144 = 64 + 64 + 16 contracted columns. -/
theorem hidden_product (x : FVec Ideal S800000x144 .f32) (w : FVec Ideal S144x64 .f32) (p : Fin 800000) (q : Fin 64) :
    Host.dotGeneral dot_S800000x144_S144x64_S800000x64_1_0_0_1_n_n none x w (ix2 p q) = ∑ c : Fin 144, x (ix2 p c) * w (ix2 c q) :=
  hostProduct_apply dot_S800000x144_S144x64_S800000x64_1_0_0_1_n_n rfl rfl lhs_hidden_0 lhs_hidden_1 rhs_hidden_0 rhs_hidden_1 x w p q

theorem lhs_message_0 (i : S800000x64.Idx) (c : dot_S800000x64_S64x64_S800000x64_1_0_0_1_n_n.contr.Idx) :
    (dot_S800000x64_S64x64_S800000x64_1_0_0_1_n_n.lhsIdx i c 0).val = (i 0).val := by
  unfold DotDims.lhsIdx
  rw [dif_neg (show ¬(0 : Fin S800000x64.rank) ∈ dot_S800000x64_S64x64_S800000x64_1_0_0_1_n_n.lhsBatch by decide),
    dif_pos (show (0 : Fin S800000x64.rank) ∈ dot_S800000x64_S64x64_S800000x64_1_0_0_1_n_n.lhsNonContracting by decide)]
  rfl
theorem lhs_message_1 (i : S800000x64.Idx) (c : dot_S800000x64_S64x64_S800000x64_1_0_0_1_n_n.contr.Idx) :
    (dot_S800000x64_S64x64_S800000x64_1_0_0_1_n_n.lhsIdx i c 1).val = (c ⟨0, by decide⟩).val :=
  dot_S800000x64_S64x64_S800000x64_1_0_0_1_n_n.lhsIdx_val_of_single rfl i c
theorem rhs_message_0 (i : S800000x64.Idx) (c : dot_S800000x64_S64x64_S800000x64_1_0_0_1_n_n.contr.Idx) :
    (dot_S800000x64_S64x64_S800000x64_1_0_0_1_n_n.rhsIdx i c 0).val = (c ⟨0, by decide⟩).val :=
  dot_S800000x64_S64x64_S800000x64_1_0_0_1_n_n.rhsIdx_val_of_single rfl i c
theorem rhs_message_1 (i : S800000x64.Idx) (c : dot_S800000x64_S64x64_S800000x64_1_0_0_1_n_n.contr.Idx) :
    (dot_S800000x64_S64x64_S800000x64_1_0_0_1_n_n.rhsIdx i c 1).val = (i 1).val := by
  unfold DotDims.rhsIdx
  rw [dif_neg (show ¬(1 : Fin S64x64.rank) ∈ dot_S800000x64_S64x64_S800000x64_1_0_0_1_n_n.rhsBatch by decide),
    dif_pos (show (1 : Fin S64x64.rank) ∈ dot_S800000x64_S64x64_S800000x64_1_0_0_1_n_n.rhsNonContracting by decide)]
  rfl

/-- The second layer's product at (p, q). -/
theorem message_product (x : FVec Ideal S800000x64 .f32) (w : FVec Ideal S64x64 .f32) (p : Fin 800000) (q : Fin 64) :
    Host.dotGeneral dot_S800000x64_S64x64_S800000x64_1_0_0_1_n_n none x w (ix2 p q) = ∑ c : Fin 64, x (ix2 p c) * w (ix2 c q) :=
  hostProduct_apply dot_S800000x64_S64x64_S800000x64_1_0_0_1_n_n rfl rfl lhs_message_0 lhs_message_1 rhs_message_0 rhs_message_1 x w p q

/-! ## The layout stages at an index -/

/-- A bias vector broadcast [64] → [1, 64] → [800000, 64] reads, at (p, q), its entry q. -/
theorem bias_apply (b : FVec Ideal S64 .f32) (p : Fin 800000) (q : Fin 64) :
    broadcastInDim S800000x64 ![0, 1] bcast_S1x64_S800000x64_0_1 (broadcastInDim S1x64 ![1] bcast_S64_S1x64_1 b) (ix2 p q)
      = b (ix1 q) :=
  (broadcastInDim_apply _ bcast_S1x64_S800000x64_0_1 _ (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])).trans
    (broadcastInDim_apply _ bcast_S64_S1x64_1 b (ix2 (0 : Fin 1) q) (ix1 q) (fun a => match a with
      | ⟨0, _⟩ => by show q.val = if (64 : Nat) = 1 then 0 else q.val; rw [if_neg (by decide)]))

/-- The rectifier's threshold, the scalar zero word broadcast to every entry. -/
theorem zero_apply (p : Fin 800000) (q : Fin 64) :
    broadcastInDim S800000x64 ![] bcast_S_S800000x64 (constant (F := Ideal) S_ .f32 0x00000000#32) (ix2 p q) = zeroW :=
  broadcastInDim_apply _ bcast_S_S800000x64 _ (ix2 p q) ix0 (fun a => a.elim0)

/-- Column l of the concatenation [gr | gc | ea] at row p: the piece whose span of columns holds l (0–63, 64–127,
    128–143), at l less the widths of the pieces before it. -/
theorem cat_apply (gr gc : FVec Ideal S800000x64 .f32) (ea : FVec Ideal S800000x16 .f32) (p : Fin 800000) (l : Fin 144) :
    concatenate S800000x144 1 [⟨S800000x64, gr⟩, ⟨S800000x64, gc⟩, ⟨S800000x16, ea⟩] concatenates_S800000x64_S800000x64_S800000x16_S800000x144_d1 (ix2 p l)
      = catAt gr gc ea p l := by
  unfold catAt
  by_cases h : l.val < 64
  · rw [dif_pos h]
    exact concatenate_apply_piece (1 : Fin S800000x144.rank) _ _ (ix2 p l) 0 (by simp) S800000x64 gr rfl rfl 0 rfl
      (ix2 p ⟨l.val, h⟩)
      (fun b hb => by
        match b with
        | ⟨0, _⟩ => rfl
        | ⟨1, _⟩ => exact absurd rfl hb)
      (Nat.zero_add _)
  · rw [dif_neg h]
    by_cases h' : l.val < 128
    · rw [dif_pos h']
      exact concatenate_apply_piece (1 : Fin S800000x144.rank) _ _ (ix2 p l) 1 (by simp) S800000x64 gc rfl rfl 64 rfl
        (ix2 p ⟨l.val - 64, by omega⟩)
        (fun b hb => by
          match b with
          | ⟨0, _⟩ => rfl
          | ⟨1, _⟩ => exact absurd rfl hb)
        (by show 64 + (l.val - 64) = l.val; omega)
    · rw [dif_neg h']
      exact concatenate_apply_piece (1 : Fin S800000x144.rank) _ _ (ix2 p l) 2 (by simp) S800000x16 ea rfl rfl 128 rfl
        (ix2 p ⟨l.val - 128, by have := l.isLt; omega⟩)
        (fun b hb => by
          match b with
          | ⟨0, _⟩ => rfl
          | ⟨1, _⟩ => exact absurd rfl hb)
        (by show 128 + (l.val - 128) = l.val; omega)

/-- A vector as a one-row matrix reads the vector's entry. -/
theorem rowVec_ix2 {n : Nat} (v : (⟨1, ![n]⟩ : Shape).Idx → EReal) (u : Fin 1) (q : Fin n) :
    rowVec v (ix2 u q) = v (ix1 q) := rfl

/-! ## A round's message stages, over any inputs -/

/-- The stages from the concatenation to the second bias, as one term of the gathered arrays, the edge
    attributes and the round's weights. -/
def msgOps (gr gc : FVec Ideal S800000x64 .f32) (ea : FVec Ideal S800000x16 .f32) (w1 : FVec Ideal S144x64 .f32)
    (b1 : FVec Ideal S64 .f32) (w2 : FVec Ideal S64x64 .f32) (b2 : FVec Ideal S64 .f32) : FVec Ideal S800000x64 .f32 :=
  addf
    (Host.dotGeneral dot_S800000x64_S64x64_S800000x64_1_0_0_1_n_n none
      (maximumf
        (addf
          (Host.dotGeneral dot_S800000x144_S144x64_S800000x64_1_0_0_1_n_n none
            (concatenate S800000x144 1 [⟨S800000x64, gr⟩, ⟨S800000x64, gc⟩, ⟨S800000x16, ea⟩] concatenates_S800000x64_S800000x64_S800000x16_S800000x144_d1)
            w1)
          (broadcastInDim S800000x64 ![0, 1] bcast_S1x64_S800000x64_0_1 (broadcastInDim S1x64 ![1] bcast_S64_S1x64_1 b1)))
        (broadcastInDim S800000x64 ![] bcast_S_S800000x64 (constant (F := Ideal) S_ .f32 0x00000000#32)))
      w2)
    (broadcastInDim S800000x64 ![0, 1] bcast_S1x64_S800000x64_0_1 (broadcastInDim S1x64 ![1] bcast_S64_S1x64_1 b2))

/-- Those stages compute the specification's message function. -/
theorem msgOps_eq (gr gc : FVec Ideal S800000x64 .f32) (ea : FVec Ideal S800000x16 .f32) (w1 : FVec Ideal S144x64 .f32)
    (b1 : FVec Ideal S64 .f32) (w2 : FVec Ideal S64x64 .f32) (b2 : FVec Ideal S64 .f32) :
    msgOps gr gc ea w1 b1 w2 b2 = edgeG (n := 800000) gr gc ea w1 (rowVec b1) w2 (rowVec b2) := by
  funext j
  obtain ⟨p, q, rfl⟩ : ∃ (p : Fin 800000) (q : Fin 64), j = ix2 p q := ⟨j 0, j 1, eq_ix2 j⟩
  rw [edgeG_ix2]
  unfold edgeAt hiddenAt msgOps
  simp only [rowVec_ix2]
  rw [addf_apply, bias_apply, message_product]
  refine congrArg (· + b2 (ix1 q)) (Finset.sum_congr rfl fun c _ => ?_)
  rw [maximumf_apply, addf_apply, zero_apply, bias_apply, hidden_product]
  refine congrArg (fun t => max (t + b1 (ix1 c)) zeroW * w2 (ix2 c q)) (Finset.sum_congr rfl fun l _ => ?_)
  rw [cat_apply]

/-! ## An operation over three references, run -/

/-- The result of an operation over a literal family of three references (the concatenation's three pieces), each
    operand's contents at its own reference. -/
theorem naryThree_result {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

end Msg

end Cert.ReferenceIdeal.RChain

end
-- ==== Proof.RUpd.lean ====
/-
  The reference's state update over variables: the operations the reference runs in every round
  between the aggregated messages and the new node states, written once for ANY aggregate and
  state, any two weights and any two bias vectors (`gruRef`), are the specification's GRU cell
  `gruG`, the bias vectors read as one-row matrices (`gruRef_eq`).

  The operations: each weight transposed and multiplied from the right (so the product at (p, g)
  is the sum over k of a(p, k) · w(g, k)), the bias vector broadcast down the rows, three column
  slices of 64 out of 192, the logistic function spelled 1 / (1 + e^(−t)) — which is the logistic
  function of the extended reals, the word of 1.0 being the number 1 —, the hyperbolic tangent,
  and (1 − z) · n + z · h.
-/
import proofs.«420387_j4148938408095_1_alg».proof.Proof.Spec
import proofs.«420387_j4148938408095_1_alg».proof.Proof.Gen.ReferenceIdeal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.RChain

open Idealize.ShloMosaic Idealize.ShloMosaic.TcCoe Idealize.ShloMosaic.ValueIdx Idealize.SL.Sem Cert.ReferenceIdeal Cert.ReferenceIdeal.Gen Cert.Gnn

/-! ## The word of 1.0, and the logistic function as the reference spells it -/

/-- The float word 0x3F800000 denotes the number 1. -/
theorem gru_one_word : Ideal.ofBits .f32 0x3F800000#32 = 1 := by
  simp [Ideal.ofBits, Ideal.ieee]
  norm_cast
  norm_num

/-- 1 / (1 + e^(−t)), both ones spelled as the word of 1.0, is the logistic function of the extended reals. -/
theorem gru_logistic_spelled (t : EReal) :
    Ideal.div (Ideal.ofBits .f32 0x3F800000#32) (Ideal.ofBits .f32 0x3F800000#32 + Ideal.exp (-t)) = Ideal.logistic t := by
  rw [gru_one_word]
  rfl

/-! ## One round's state update with its inputs abstracted

The operations of the reference between the aggregate and the new states, for ANY aggregate and
state (50000 rows of 64), any two weights (192 × 64) and any two bias vectors (192). -/

/-- A gate pre-activation as the reference spells it: the weight transposed and multiplied from the
    right, plus the bias vector made a row and broadcast down the rows. -/
def gruGate (a : FVec Ideal S50000x64 .f32) (w : FVec Ideal S192x64 .f32) (b : FVec Ideal S192 .f32) : FVec Ideal S50000x192 .f32 :=
  addf (Host.dotGeneral dot_S50000x64_S64x192_S50000x192_1_0_0_1_n_n none a (transpose S64x192 [1, 0] w transposes_S192x64_S64x192_1_0))
    (broadcastInDim S50000x192 ![0, 1] bcast_S1x192_S50000x192_0_1 (broadcastInDim S1x192 ![1] bcast_S192_S1x192_1 b))

/-- The splat of the word of 1.0. -/
def gruOnes : FVec Ideal S50000x64 .f32 :=
  broadcastInDim S50000x64 ![] bcast_S_S50000x64 (constant (F := Ideal) S_ .f32 0x3F800000#32)

/-- The logistic function as the reference spells it: 1 / (1 + e^(−t)) lane by lane. -/
def gruSigm (t : FVec Ideal S50000x64 .f32) : FVec Ideal S50000x64 .f32 :=
  Host.divf gruOnes (addf gruOnes (Host.exp (Host.negf t)))

/-- The GRU cell as the reference spells it, gates in the order r, z, n. -/
def gruRef (agg h : FVec Ideal S50000x64 .f32) (wih whh : FVec Ideal S192x64 .f32) (bi bh : FVec Ideal S192 .f32) : FVec Ideal S50000x64 .f32 :=
  let gi := gruGate agg wih bi
  let gh := gruGate h whh bh
  let r := gruSigm (addf (extractStridedSlice S50000x64 ![0, 0] gi slices_S50000x192_S50000x64_0_0)
    (extractStridedSlice S50000x64 ![0, 0] gh slices_S50000x192_S50000x64_0_0))
  let z := gruSigm (addf (extractStridedSlice S50000x64 ![0, 64] gi slices_S50000x192_S50000x64_0_64)
    (extractStridedSlice S50000x64 ![0, 64] gh slices_S50000x192_S50000x64_0_64))
  let c := Host.tanh (addf (extractStridedSlice S50000x64 ![0, 128] gi slices_S50000x192_S50000x64_0_128)
    (mulf r (extractStridedSlice S50000x64 ![0, 128] gh slices_S50000x192_S50000x64_0_128)))
  addf (mulf (subf gruOnes z) c) (mulf z h)

/-! ## The operand indices of the reference's gate product

The product contracts axis 1 of the left operand with axis 0 of the transposed weight. -/

theorem gruProd_lhs_0 (i : S50000x192.Idx) (c : dot_S50000x64_S64x192_S50000x192_1_0_0_1_n_n.contr.Idx) :
    (dot_S50000x64_S64x192_S50000x192_1_0_0_1_n_n.lhsIdx i c 0).val = (i 0).val := by
  unfold DotDims.lhsIdx
  rw [dif_neg (show ¬(0 : Fin S50000x64.rank) ∈ dot_S50000x64_S64x192_S50000x192_1_0_0_1_n_n.lhsBatch by decide),
    dif_pos (show (0 : Fin S50000x64.rank) ∈ dot_S50000x64_S64x192_S50000x192_1_0_0_1_n_n.lhsNonContracting by decide)]
  rfl

theorem gruProd_lhs_1 (i : S50000x192.Idx) (c : dot_S50000x64_S64x192_S50000x192_1_0_0_1_n_n.contr.Idx) :
    (dot_S50000x64_S64x192_S50000x192_1_0_0_1_n_n.lhsIdx i c 1).val = (c ⟨0, by decide⟩).val :=
  dot_S50000x64_S64x192_S50000x192_1_0_0_1_n_n.lhsIdx_val_of_single rfl i c

theorem gruProd_rhs_0 (i : S50000x192.Idx) (c : dot_S50000x64_S64x192_S50000x192_1_0_0_1_n_n.contr.Idx) :
    (dot_S50000x64_S64x192_S50000x192_1_0_0_1_n_n.rhsIdx i c 0).val = (c ⟨0, by decide⟩).val :=
  dot_S50000x64_S64x192_S50000x192_1_0_0_1_n_n.rhsIdx_val_of_single rfl i c

theorem gruProd_rhs_1 (i : S50000x192.Idx) (c : dot_S50000x64_S64x192_S50000x192_1_0_0_1_n_n.contr.Idx) :
    (dot_S50000x64_S64x192_S50000x192_1_0_0_1_n_n.rhsIdx i c 1).val = (i 1).val := by
  unfold DotDims.rhsIdx
  rw [dif_neg (show ¬(1 : Fin S64x192.rank) ∈ dot_S50000x64_S64x192_S50000x192_1_0_0_1_n_n.rhsBatch by decide),
    dif_pos (show (1 : Fin S64x192.rank) ∈ dot_S50000x64_S64x192_S50000x192_1_0_0_1_n_n.rhsNonContracting by decide)]
  rfl

/-- Entry (p, g) of a · v for a 64 × 192 right operand: the sum over the 64 shared positions. -/
theorem gruProd_at (a : FVec Ideal S50000x64 .f32) (v : FVec Ideal S64x192 .f32) (p : Fin 50000) (g : Fin 192) :
    Host.dotGeneral dot_S50000x64_S64x192_S50000x192_1_0_0_1_n_n none a v (ix2 p g) = ∑ k : Fin 64, a (ix2 p k) * v (ix2 k g) := by
  simp only [Host.dotGeneral]
  rw [Ideal.dotGeneral_apply,
    ← Equiv.sum_comp (contrEquiv1 dot_S50000x64_S64x192_S50000x192_1_0_0_1_n_n 64 rfl rfl).symm]
  refine Finset.sum_congr rfl fun k _ => ?_
  have hk := contrEquiv1_symm_val dot_S50000x64_S64x192_S50000x192_1_0_0_1_n_n 64 rfl rfl k
  have el : dot_S50000x64_S64x192_S50000x192_1_0_0_1_n_n.lhsIdx (ix2 p g)
      ((contrEquiv1 dot_S50000x64_S64x192_S50000x192_1_0_0_1_n_n 64 rfl rfl).symm k) = ix2 p k :=
    funext fun ax => Fin.ext (by
      match ax with
      | ⟨0, _⟩ => exact gruProd_lhs_0 _ _
      | ⟨1, _⟩ => exact (gruProd_lhs_1 _ _).trans hk)
  have er : dot_S50000x64_S64x192_S50000x192_1_0_0_1_n_n.rhsIdx (ix2 p g)
      ((contrEquiv1 dot_S50000x64_S64x192_S50000x192_1_0_0_1_n_n 64 rfl rfl).symm k) = ix2 k g :=
    funext fun ax => Fin.ext (by
      match ax with
      | ⟨0, _⟩ => exact (gruProd_rhs_0 _ _).trans hk
      | ⟨1, _⟩ => exact gruProd_rhs_1 _ _)
  rw [el, er]

/-! ## The layout operations at an entry -/

/-- A bias vector made a row and broadcast down the rows reads, at (p, g), the vector at g. -/
theorem gruBias_at (b : FVec Ideal S192 .f32) (h1 : S192.BroadcastsInDim S1x192 ![1]) (h2 : S1x192.BroadcastsInDim S50000x192 ![0, 1])
    (p : Fin 50000) (g : Fin 192) :
    broadcastInDim S50000x192 ![0, 1] h2 (broadcastInDim S1x192 ![1] h1 b) (ix2 p g) = b (ix1 g) :=
  (broadcastInDim_apply _ h2 _ (ix2 p g) (ix2 (0 : Fin 1) g) (fun a => match a with
    | ⟨0, _⟩ => by show 0 = if (1 : Nat) = 1 then 0 else p.val; rw [if_pos rfl]
    | ⟨1, _⟩ => by show g.val = if (192 : Nat) = 1 then 0 else g.val; rw [if_neg (by decide)])).trans
  (broadcastInDim_apply _ h1 b (ix2 (0 : Fin 1) g) (ix1 g) (fun a => match a with
    | ⟨0, _⟩ => by show g.val = if (192 : Nat) = 1 then 0 else g.val; rw [if_neg (by decide)]))

/-- The splat of the word of 1.0 reads that word everywhere. -/
theorem gruOnes_at (i : S50000x64.Idx) : gruOnes i = Ideal.ofBits .f32 0x3F800000#32 := by
  unfold gruOnes
  exact (broadcastInDim_apply _ bcast_S_S50000x64 _ i (fun a => a.elim0) (fun a => a.elim0)).trans rfl

/-- Columns 0–63 of the 192 gate columns: the reset gate's. -/
theorem gruSlice_reset (X : FVec Ideal S50000x192 .f32) (hs : S50000x192.Slices ![0, 0] S50000x64) (p : Fin 50000) (q : Fin 64) :
    extractStridedSlice S50000x64 ![0, 0] X hs (ix2 p q) = X (ix2 p ⟨q.val, by omega⟩) :=
  slice2_axis1_apply 0 X hs p q ⟨q.val, by omega⟩ (Nat.zero_add _).symm

/-- Columns 64–127: the update gate's. -/
theorem gruSlice_update (X : FVec Ideal S50000x192 .f32) (hs : S50000x192.Slices ![0, 64] S50000x64) (p : Fin 50000) (q : Fin 64) :
    extractStridedSlice S50000x64 ![0, 64] X hs (ix2 p q) = X (ix2 p ⟨q.val + 64, by omega⟩) :=
  slice2_axis1_apply 64 X hs p q ⟨q.val + 64, by omega⟩ (Nat.add_comm _ _)

/-- Columns 128–191: the candidate's. -/
theorem gruSlice_cand (X : FVec Ideal S50000x192 .f32) (hs : S50000x192.Slices ![0, 128] S50000x64) (p : Fin 50000) (q : Fin 64) :
    extractStridedSlice S50000x64 ![0, 128] X hs (ix2 p q) = X (ix2 p ⟨q.val + 128, by omega⟩) :=
  slice2_axis1_apply 128 X hs p q ⟨q.val + 128, by omega⟩ (Nat.add_comm _ _)

/-! ## The pieces at an entry -/

/-- The reference's gate pre-activation at (p, g) is the specification's, the bias read as a one-row matrix. -/
theorem gruGate_at (a : FVec Ideal S50000x64 .f32) (w : FVec Ideal S192x64 .f32) (b : FVec Ideal S192 .f32) (p : Fin 50000) (g : Fin 192) :
    gruGate a w b (ix2 p g) = gateIn a w (rowVec b) p g := by
  unfold gruGate gateIn rowVec
  rw [addf_apply, gruProd_at, gruBias_at]
  exact congrArg (· + b (ix1 g)) (Finset.sum_congr rfl fun k _ =>
    congrArg (a (ix2 p k) * ·) (transpose_ix2_apply w transposes_S192x64_S64x192_1_0 k g))

/-- The reference's spelling of the logistic function, lane by lane, is the logistic function. -/
theorem gruSigm_at (t : FVec Ideal S50000x64 .f32) (i : S50000x64.Idx) : gruSigm t i = Ideal.logistic (t i) := by
  unfold gruSigm
  show Ideal.div (gruOnes i) (gruOnes i + Ideal.exp (-(t i))) = Ideal.logistic (t i)
  rw [gruOnes_at, gru_logistic_spelled]

/-- The host's hyperbolic tangent lane by lane. -/
theorem gruTanh_at {s : Shape} {φ : FTy} (x : FVec Ideal s φ) (i : s.Idx) : Host.tanh x i = Ideal.tanh (x i) := rfl

/-- The reference's GRU cell is the specification's, the two bias vectors read as one-row matrices. -/
theorem gruRef_eq (agg h : FVec Ideal S50000x64 .f32) (wih whh : FVec Ideal S192x64 .f32) (bi bh : FVec Ideal S192 .f32) :
    gruRef agg h wih whh bi bh = gruG (n := 50000) agg h wih whh (rowVec bi) (rowVec bh) := by
  funext j
  obtain ⟨p, q, rfl⟩ : ∃ (p : Fin 50000) (q : Fin 64), j = ix2 p q := ⟨j 0, j 1, eq_ix2 j⟩
  rw [gruG_ix2]
  unfold gruRef gruAt
  dsimp only
  simp only [addf_apply, mulf_apply, subf_apply, gruTanh_at, gruSigm_at, gruOnes_at,
    gruSlice_reset, gruSlice_update, gruSlice_cand, gruGate_at]

end Cert.ReferenceIdeal.RChain

end
-- ==== Proof.RRound1.lean ====
/-
  The reference's first round, read: from any contents X, after the round's 77 operations the
  state buffer holds the specification's round of the state before it — the rows gathered at the
  wrapped source and target indices, the message function, the scatter-add into the source nodes,
  the GRU update — with the weights the eight slice buffers hold.

  The fold through the operations leaves, in the state buffer, the operations composed over X at the thirteen
  buffers the round reads; that composition is the update's operations (the GRU cell) of the scatter-add of the
  message stages (the message function) of the two gathers, each by its own lemma.
-/
import proofs.«420387_j4148938408095_1_alg».proof.Proof.Spec
import proofs.«420387_j4148938408095_1_alg».proof.Proof.RHost
import proofs.«420387_j4148938408095_1_alg».proof.Proof.RRun
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value
import proofs.«420387_j4148938408095_1_alg».proof.Proof.RMsg
import proofs.«420387_j4148938408095_1_alg».proof.Proof.RUpd

set_option maxRecDepth 16384

noncomputable section

open scoped BigOperators

namespace Cert.ReferenceIdeal.RChain

open Idealize.ShloMosaic Idealize.ShloMosaic.TcCoe Idealize.ShloMosaic.ValueIdx Idealize.SL.Sem Idealize.ShloMosaic.StableHlo Cert.ReferenceIdeal Cert.ReferenceIdeal.Gen Cert.ReferenceIdeal.Value Cert.ReferenceIdeal.RHost Cert.Gnn

variable (X : Valuation τ sig (Elt Ideal))

set_option maxHeartbeats 1000000 in
/-- The node states after the round. -/
theorem opsR1_state : after (opsR1 (F := Ideal)) X (Proc.devRef .tc main_v88)
    = layerR (X (Proc.devRef .tc main_v7)) (wrapIdx (X (Proc.devRef .tc main_v1))) (wrapIdx (X (Proc.devRef .tc main_v3))) (colIdx (X (Proc.devRef .tc main_v1))) (X (Proc.devRef .tc main_arg2))
        (X (Proc.devRef .tc main_v9)) (X (Proc.devRef .tc main_v11)) (X (Proc.devRef .tc main_v13)) (X (Proc.devRef .tc main_v15))
        (X (Proc.devRef .tc main_v17)) (X (Proc.devRef .tc main_v19)) (X (Proc.devRef .tc main_v21)) (X (Proc.devRef .tc main_v23)) := by
  simp (disch := decide) only [after_cons, after_nil, nullary_result', unary_result', binary_result', ternary_result',
    Msg.naryThree_result, nullary_result_ne', unary_result_ne', binary_result_ne', ternary_result_ne', nary_result_ne',
    TRef.toBuf, TRef.ofBuf, cast_eq]
  unfold layerR layer
  rw [← gruRef_eq, ← Msg.msgOps_eq]
  rfl

end Cert.ReferenceIdeal.RChain

end
-- ==== Proof.RSlices2.lean ====
/-
  The reference's weight slices for round two, read: from any contents X, after the sixteen slice
  and reshape operations the eight buffers hold layer 1 of the weight stacks.
-/
import proofs.«420387_j4148938408095_1_alg».proof.Proof.Spec
import proofs.«420387_j4148938408095_1_alg».proof.Proof.RHost
import proofs.«420387_j4148938408095_1_alg».proof.Proof.RRun
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.RChain

open Idealize.ShloMosaic Idealize.ShloMosaic.TcCoe Idealize.ShloMosaic.ValueIdx Idealize.SL.Sem Idealize.ShloMosaic.StableHlo Cert.ReferenceIdeal Cert.ReferenceIdeal.Gen Cert.ReferenceIdeal.Value Cert.ReferenceIdeal.RHost Cert.Gnn

variable (X : Valuation τ sig (Elt Ideal))

theorem opsS2_w1 : after (opsS2 (F := Ideal)) X (Proc.devRef .tc main_v90) = w1At ![1, 0, 0] slices_S3x144x64_S1x144x64_1_0_0 (X (Proc.devRef .tc main_arg6)) := by
  unfold w1At
  dsimp only [opsS2]
  after_results
  rfl

theorem opsS2_b1 : after (opsS2 (F := Ideal)) X (Proc.devRef .tc main_v92) = b64VecAt ![1, 0] slices_S3x64_S1x64_1_0 (X (Proc.devRef .tc main_arg7)) := by
  unfold b64VecAt
  dsimp only [opsS2]
  after_results
  rfl

theorem opsS2_w2 : after (opsS2 (F := Ideal)) X (Proc.devRef .tc main_v94) = w2At ![1, 0, 0] slices_S3x64x64_S1x64x64_1_0_0 (X (Proc.devRef .tc main_arg8)) := by
  unfold w2At
  dsimp only [opsS2]
  after_results
  rfl

theorem opsS2_b2 : after (opsS2 (F := Ideal)) X (Proc.devRef .tc main_v96) = b64VecAt ![1, 0] slices_S3x64_S1x64_1_0 (X (Proc.devRef .tc main_arg9)) := by
  unfold b64VecAt
  dsimp only [opsS2]
  after_results
  rfl

theorem opsS2_wih : after (opsS2 (F := Ideal)) X (Proc.devRef .tc main_v98) = wgAt ![1, 0, 0] slices_S3x192x64_S1x192x64_1_0_0 (X (Proc.devRef .tc main_arg10)) := by
  unfold wgAt
  dsimp only [opsS2]
  after_results
  rfl

theorem opsS2_whh : after (opsS2 (F := Ideal)) X (Proc.devRef .tc main_v100) = wgAt ![1, 0, 0] slices_S3x192x64_S1x192x64_1_0_0 (X (Proc.devRef .tc main_arg11)) := by
  unfold wgAt
  dsimp only [opsS2]
  after_results
  rfl

theorem opsS2_bih : after (opsS2 (F := Ideal)) X (Proc.devRef .tc main_v102) = bgVecAt ![1, 0] slices_S3x192_S1x192_1_0 (X (Proc.devRef .tc main_arg12)) := by
  unfold bgVecAt
  dsimp only [opsS2]
  after_results
  rfl

theorem opsS2_bhh : after (opsS2 (F := Ideal)) X (Proc.devRef .tc main_v104) = bgVecAt ![1, 0] slices_S3x192_S1x192_1_0 (X (Proc.devRef .tc main_arg13)) := by
  unfold bgVecAt
  dsimp only [opsS2]
  after_results
  rfl

end Cert.ReferenceIdeal.RChain

end
-- ==== Proof.RRound2.lean ====
/-
  The reference's second round, read: from any contents X, after the round's 77 operations the
  state buffer holds the specification's round of the state before it — the rows gathered at the
  wrapped source and target indices, the message function, the scatter-add into the source nodes,
  the GRU update — with the weights the eight slice buffers hold.

  The fold through the operations leaves, in the state buffer, the operations composed over X at the thirteen
  buffers the round reads; that composition is the update's operations (the GRU cell) of the scatter-add of the
  message stages (the message function) of the two gathers, each by its own lemma.
-/
import proofs.«420387_j4148938408095_1_alg».proof.Proof.Spec
import proofs.«420387_j4148938408095_1_alg».proof.Proof.RHost
import proofs.«420387_j4148938408095_1_alg».proof.Proof.RRun
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value
import proofs.«420387_j4148938408095_1_alg».proof.Proof.RMsg
import proofs.«420387_j4148938408095_1_alg».proof.Proof.RUpd

set_option maxRecDepth 16384

noncomputable section

open scoped BigOperators

namespace Cert.ReferenceIdeal.RChain

open Idealize.ShloMosaic Idealize.ShloMosaic.TcCoe Idealize.ShloMosaic.ValueIdx Idealize.SL.Sem Idealize.ShloMosaic.StableHlo Cert.ReferenceIdeal Cert.ReferenceIdeal.Gen Cert.ReferenceIdeal.Value Cert.ReferenceIdeal.RHost Cert.Gnn

variable (X : Valuation τ sig (Elt Ideal))

set_option maxHeartbeats 1000000 in
/-- The node states after the round. -/
theorem opsR2_state : after (opsR2 (F := Ideal)) X (Proc.devRef .tc main_v169)
    = layerR (X (Proc.devRef .tc main_v88)) (wrapIdx (X (Proc.devRef .tc main_v1))) (wrapIdx (X (Proc.devRef .tc main_v3))) (colIdx (X (Proc.devRef .tc main_v1))) (X (Proc.devRef .tc main_arg2))
        (X (Proc.devRef .tc main_v90)) (X (Proc.devRef .tc main_v92)) (X (Proc.devRef .tc main_v94)) (X (Proc.devRef .tc main_v96))
        (X (Proc.devRef .tc main_v98)) (X (Proc.devRef .tc main_v100)) (X (Proc.devRef .tc main_v102)) (X (Proc.devRef .tc main_v104)) := by
  simp (disch := decide) only [after_cons, after_nil, nullary_result', unary_result', binary_result', ternary_result',
    Msg.naryThree_result, nullary_result_ne', unary_result_ne', binary_result_ne', ternary_result_ne', nary_result_ne',
    TRef.toBuf, TRef.ofBuf, cast_eq]
  unfold layerR layer
  rw [← gruRef_eq, ← Msg.msgOps_eq]
  rfl

end Cert.ReferenceIdeal.RChain

end
-- ==== Proof.RSlices3.lean ====
/-
  The reference's weight slices for round three, read: from any contents X, after the sixteen slice
  and reshape operations the eight buffers hold layer 2 of the weight stacks.
-/
import proofs.«420387_j4148938408095_1_alg».proof.Proof.Spec
import proofs.«420387_j4148938408095_1_alg».proof.Proof.RHost
import proofs.«420387_j4148938408095_1_alg».proof.Proof.RRun
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.RChain

open Idealize.ShloMosaic Idealize.ShloMosaic.TcCoe Idealize.ShloMosaic.ValueIdx Idealize.SL.Sem Idealize.ShloMosaic.StableHlo Cert.ReferenceIdeal Cert.ReferenceIdeal.Gen Cert.ReferenceIdeal.Value Cert.ReferenceIdeal.RHost Cert.Gnn

variable (X : Valuation τ sig (Elt Ideal))

theorem opsS3_w1 : after (opsS3 (F := Ideal)) X (Proc.devRef .tc main_v171) = w1At ![2, 0, 0] slices_S3x144x64_S1x144x64_2_0_0 (X (Proc.devRef .tc main_arg6)) := by
  unfold w1At
  dsimp only [opsS3]
  after_results
  rfl

theorem opsS3_b1 : after (opsS3 (F := Ideal)) X (Proc.devRef .tc main_v173) = b64VecAt ![2, 0] slices_S3x64_S1x64_2_0 (X (Proc.devRef .tc main_arg7)) := by
  unfold b64VecAt
  dsimp only [opsS3]
  after_results
  rfl

theorem opsS3_w2 : after (opsS3 (F := Ideal)) X (Proc.devRef .tc main_v175) = w2At ![2, 0, 0] slices_S3x64x64_S1x64x64_2_0_0 (X (Proc.devRef .tc main_arg8)) := by
  unfold w2At
  dsimp only [opsS3]
  after_results
  rfl

theorem opsS3_b2 : after (opsS3 (F := Ideal)) X (Proc.devRef .tc main_v177) = b64VecAt ![2, 0] slices_S3x64_S1x64_2_0 (X (Proc.devRef .tc main_arg9)) := by
  unfold b64VecAt
  dsimp only [opsS3]
  after_results
  rfl

theorem opsS3_wih : after (opsS3 (F := Ideal)) X (Proc.devRef .tc main_v179) = wgAt ![2, 0, 0] slices_S3x192x64_S1x192x64_2_0_0 (X (Proc.devRef .tc main_arg10)) := by
  unfold wgAt
  dsimp only [opsS3]
  after_results
  rfl

theorem opsS3_whh : after (opsS3 (F := Ideal)) X (Proc.devRef .tc main_v181) = wgAt ![2, 0, 0] slices_S3x192x64_S1x192x64_2_0_0 (X (Proc.devRef .tc main_arg11)) := by
  unfold wgAt
  dsimp only [opsS3]
  after_results
  rfl

theorem opsS3_bih : after (opsS3 (F := Ideal)) X (Proc.devRef .tc main_v183) = bgVecAt ![2, 0] slices_S3x192_S1x192_2_0 (X (Proc.devRef .tc main_arg12)) := by
  unfold bgVecAt
  dsimp only [opsS3]
  after_results
  rfl

theorem opsS3_bhh : after (opsS3 (F := Ideal)) X (Proc.devRef .tc main_v185) = bgVecAt ![2, 0] slices_S3x192_S1x192_2_0 (X (Proc.devRef .tc main_arg13)) := by
  unfold bgVecAt
  dsimp only [opsS3]
  after_results
  rfl

end Cert.ReferenceIdeal.RChain

end
-- ==== Proof.RRound3.lean ====
/-
  The reference's third round, read: from any contents X, after the round's 77 operations the
  state buffer holds the specification's round of the state before it — the rows gathered at the
  wrapped source and target indices, the message function, the scatter-add into the source nodes,
  the GRU update — with the weights the eight slice buffers hold.

  The fold through the operations leaves, in the state buffer, the operations composed over X at the thirteen
  buffers the round reads; that composition is the update's operations (the GRU cell) of the scatter-add of the
  message stages (the message function) of the two gathers, each by its own lemma.
-/
import proofs.«420387_j4148938408095_1_alg».proof.Proof.Spec
import proofs.«420387_j4148938408095_1_alg».proof.Proof.RHost
import proofs.«420387_j4148938408095_1_alg».proof.Proof.RRun
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value
import proofs.«420387_j4148938408095_1_alg».proof.Proof.RMsg
import proofs.«420387_j4148938408095_1_alg».proof.Proof.RUpd

set_option maxRecDepth 16384

noncomputable section

open scoped BigOperators

namespace Cert.ReferenceIdeal.RChain

open Idealize.ShloMosaic Idealize.ShloMosaic.TcCoe Idealize.ShloMosaic.ValueIdx Idealize.SL.Sem Idealize.ShloMosaic.StableHlo Cert.ReferenceIdeal Cert.ReferenceIdeal.Gen Cert.ReferenceIdeal.Value Cert.ReferenceIdeal.RHost Cert.Gnn

variable (X : Valuation τ sig (Elt Ideal))

set_option maxHeartbeats 1000000 in
/-- The node states after the round. -/
theorem opsR3_state : after (opsR3 (F := Ideal)) X (Proc.devRef .tc main_v250)
    = layerR (X (Proc.devRef .tc main_v169)) (wrapIdx (X (Proc.devRef .tc main_v1))) (wrapIdx (X (Proc.devRef .tc main_v3))) (colIdx (X (Proc.devRef .tc main_v1))) (X (Proc.devRef .tc main_arg2))
        (X (Proc.devRef .tc main_v171)) (X (Proc.devRef .tc main_v173)) (X (Proc.devRef .tc main_v175)) (X (Proc.devRef .tc main_v177))
        (X (Proc.devRef .tc main_v179)) (X (Proc.devRef .tc main_v181)) (X (Proc.devRef .tc main_v183)) (X (Proc.devRef .tc main_v185)) := by
  simp (disch := decide) only [after_cons, after_nil, nullary_result', unary_result', binary_result', ternary_result',
    Msg.naryThree_result, nullary_result_ne', unary_result_ne', binary_result_ne', ternary_result_ne', nary_result_ne',
    TRef.toBuf, TRef.ofBuf, cast_eq]
  unfold layerR layer
  rw [← gruRef_eq, ← Msg.msgOps_eq]
  rfl

end Cert.ReferenceIdeal.RChain

end
-- ==== Proof.RTail.lean ====
/-
  The reference's readout stretch, read: from any contents X, after the last 35 operations the
  result buffer holds the readout of the last node states — the mean pool by graph, two affine
  maps with a rectifier between, the logistic spelled 1 / (1 + e^(−t)).
-/
import proofs.«420387_j4148938408095_1_alg».proof.Proof.Spec
import proofs.«420387_j4148938408095_1_alg».proof.Proof.RHost
import proofs.«420387_j4148938408095_1_alg».proof.Proof.RRun
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.RChain

open Idealize.ShloMosaic Idealize.ShloMosaic.TcCoe Idealize.ShloMosaic.ValueIdx Idealize.SL.Sem Idealize.ShloMosaic.StableHlo Cert.ReferenceIdeal Cert.ReferenceIdeal.Gen Cert.ReferenceIdeal.Value Cert.ReferenceIdeal.RHost Cert.Gnn

variable (X : Valuation τ sig (Elt Ideal))

/-- The result. -/
theorem opsT_result : after (opsT (F := Ideal)) X (Proc.devRef .tc main_v277)
    = readoutR (X (Proc.devRef .tc main_v250)) (X (Proc.devRef .tc main_arg3)) (X (Proc.devRef .tc main_arg14)) (X (Proc.devRef .tc main_arg15)) (X (Proc.devRef .tc main_arg16)) (X (Proc.devRef .tc main_arg17)) := by
  after_results_simp
  rfl

end Cert.ReferenceIdeal.RChain

end
-- ==== Proof.RChain.lean ====
/-
  The reference program's result as a function of its arguments: the fold through its seven
  stretches, read level by level.

  Each stretch's lemma says what its operations leave in the buffers that carry the computation, in
  terms of ANY contents before it; here they are chained from the launch memory: the head stretch
  gives the two index rows, the embedding and the first round's weights; each round gives the new
  node states from the old, the index rows and the edge attributes (all untouched by the stretches
  between, `keptN`, `row_lN`, `col_lN`) and its own weight slices; the last stretch gives the
  readout.  The result (`result`) is the readout of three rounds from the embedding.
-/
import proofs.«420387_j4148938408095_1_alg».proof.Proof.Spec
import proofs.«420387_j4148938408095_1_alg».proof.Proof.RHost
import proofs.«420387_j4148938408095_1_alg».proof.Proof.RRun
import proofs.«420387_j4148938408095_1_alg».proof.Proof.RHead
import proofs.«420387_j4148938408095_1_alg».proof.Proof.RRound1
import proofs.«420387_j4148938408095_1_alg».proof.Proof.RSlices2
import proofs.«420387_j4148938408095_1_alg».proof.Proof.RRound2
import proofs.«420387_j4148938408095_1_alg».proof.Proof.RSlices3
import proofs.«420387_j4148938408095_1_alg».proof.Proof.RRound3
import proofs.«420387_j4148938408095_1_alg».proof.Proof.RTail

set_option maxRecDepth 16384

noncomputable section

open scoped BigOperators

namespace Cert.ReferenceIdeal.RChain

open Idealize.ShloMosaic Idealize.ShloMosaic.TcCoe Idealize.ShloMosaic.ValueIdx Idealize.SL.Sem Idealize.ShloMosaic.StableHlo Cert.ReferenceIdeal Cert.ReferenceIdeal.Gen Cert.ReferenceIdeal.Value Cert.ReferenceIdeal.RHost Cert.Gnn

variable (m : (ℓ : Loc nD τ sig) → Buf (Elt Ideal) ℓ) (c : Dev nD)

/-- A buffer none of the first 1 stretches writes holds its launch contents at level 1. -/
theorem kept1 (r : Ref sig .tc) (h1 : r ∉ (opsH_W : List (Ref sig .tc))) :
    lvl1 (F := Ideal) m c (Proc.devRef .tc r) = m ((c.tc : Thread nD τ).loc r) :=
  (lvl1_keep m c r h1).trans (lvl0_eq m c r)

/-- A buffer none of the first 2 stretches writes holds its launch contents at level 2. -/
theorem kept2 (r : Ref sig .tc) (h1 : r ∉ (opsH_W : List (Ref sig .tc))) (h2 : r ∉ (opsR1_W : List (Ref sig .tc))) :
    lvl2 (F := Ideal) m c (Proc.devRef .tc r) = m ((c.tc : Thread nD τ).loc r) :=
  (lvl2_keep m c r h2).trans ((lvl1_keep m c r h1).trans (lvl0_eq m c r))

/-- A buffer none of the first 3 stretches writes holds its launch contents at level 3. -/
theorem kept3 (r : Ref sig .tc) (h1 : r ∉ (opsH_W : List (Ref sig .tc))) (h2 : r ∉ (opsR1_W : List (Ref sig .tc))) (h3 : r ∉ (opsS2_W : List (Ref sig .tc))) :
    lvl3 (F := Ideal) m c (Proc.devRef .tc r) = m ((c.tc : Thread nD τ).loc r) :=
  (lvl3_keep m c r h3).trans ((lvl2_keep m c r h2).trans ((lvl1_keep m c r h1).trans (lvl0_eq m c r)))

/-- A buffer none of the first 4 stretches writes holds its launch contents at level 4. -/
theorem kept4 (r : Ref sig .tc) (h1 : r ∉ (opsH_W : List (Ref sig .tc))) (h2 : r ∉ (opsR1_W : List (Ref sig .tc))) (h3 : r ∉ (opsS2_W : List (Ref sig .tc))) (h4 : r ∉ (opsR2_W : List (Ref sig .tc))) :
    lvl4 (F := Ideal) m c (Proc.devRef .tc r) = m ((c.tc : Thread nD τ).loc r) :=
  (lvl4_keep m c r h4).trans ((lvl3_keep m c r h3).trans ((lvl2_keep m c r h2).trans ((lvl1_keep m c r h1).trans (lvl0_eq m c r))))

/-- A buffer none of the first 5 stretches writes holds its launch contents at level 5. -/
theorem kept5 (r : Ref sig .tc) (h1 : r ∉ (opsH_W : List (Ref sig .tc))) (h2 : r ∉ (opsR1_W : List (Ref sig .tc))) (h3 : r ∉ (opsS2_W : List (Ref sig .tc))) (h4 : r ∉ (opsR2_W : List (Ref sig .tc))) (h5 : r ∉ (opsS3_W : List (Ref sig .tc))) :
    lvl5 (F := Ideal) m c (Proc.devRef .tc r) = m ((c.tc : Thread nD τ).loc r) :=
  (lvl5_keep m c r h5).trans ((lvl4_keep m c r h4).trans ((lvl3_keep m c r h3).trans ((lvl2_keep m c r h2).trans ((lvl1_keep m c r h1).trans (lvl0_eq m c r)))))

/-- A buffer none of the first 6 stretches writes holds its launch contents at level 6. -/
theorem kept6 (r : Ref sig .tc) (h1 : r ∉ (opsH_W : List (Ref sig .tc))) (h2 : r ∉ (opsR1_W : List (Ref sig .tc))) (h3 : r ∉ (opsS2_W : List (Ref sig .tc))) (h4 : r ∉ (opsR2_W : List (Ref sig .tc))) (h5 : r ∉ (opsS3_W : List (Ref sig .tc))) (h6 : r ∉ (opsR3_W : List (Ref sig .tc))) :
    lvl6 (F := Ideal) m c (Proc.devRef .tc r) = m ((c.tc : Thread nD τ).loc r) :=
  (lvl6_keep m c r h6).trans ((lvl5_keep m c r h5).trans ((lvl4_keep m c r h4).trans ((lvl3_keep m c r h3).trans ((lvl2_keep m c r h2).trans ((lvl1_keep m c r h1).trans (lvl0_eq m c r))))))

/-- A buffer no stretch writes holds its launch contents at the end. -/
theorem kept7 (r : Ref sig .tc) (h1 : r ∉ (opsH_W : List (Ref sig .tc))) (h2 : r ∉ (opsR1_W : List (Ref sig .tc))) (h3 : r ∉ (opsS2_W : List (Ref sig .tc))) (h4 : r ∉ (opsR2_W : List (Ref sig .tc))) (h5 : r ∉ (opsS3_W : List (Ref sig .tc))) (h6 : r ∉ (opsR3_W : List (Ref sig .tc))) (h7 : r ∉ (opsT_W : List (Ref sig .tc))) :
    lvl7 (F := Ideal) m c (Proc.devRef .tc r) = m ((c.tc : Thread nD τ).loc r) :=
  (lvl7_keep m c r h7).trans ((lvl6_keep m c r h6).trans ((lvl5_keep m c r h5).trans ((lvl4_keep m c r h4).trans ((lvl3_keep m c r h3).trans ((lvl2_keep m c r h2).trans ((lvl1_keep m c r h1).trans (lvl0_eq m c r)))))))

/-! ## The two index rows, carried -/

theorem row_l1 : lvl1 (F := Ideal) m c (Proc.devRef .tc main_v1) = rowOf (m ((c.tc : Thread nD τ).loc main_arg1)) := by
  refine (head_row (lvl0 (F := Ideal) m c)).trans ?_
  rw [lvl0_eq m c main_arg1]

theorem col_l1 : lvl1 (F := Ideal) m c (Proc.devRef .tc main_v3) = colOf (m ((c.tc : Thread nD τ).loc main_arg1)) := by
  refine (head_col (lvl0 (F := Ideal) m c)).trans ?_
  rw [lvl0_eq m c main_arg1]

theorem row_l2 : lvl2 (F := Ideal) m c (Proc.devRef .tc main_v1) = rowOf (m ((c.tc : Thread nD τ).loc main_arg1)) :=
  (lvl2_keep m c main_v1 (by decide)).trans (row_l1 m c)

theorem col_l2 : lvl2 (F := Ideal) m c (Proc.devRef .tc main_v3) = colOf (m ((c.tc : Thread nD τ).loc main_arg1)) :=
  (lvl2_keep m c main_v3 (by decide)).trans (col_l1 m c)

theorem row_l3 : lvl3 (F := Ideal) m c (Proc.devRef .tc main_v1) = rowOf (m ((c.tc : Thread nD τ).loc main_arg1)) :=
  (lvl3_keep m c main_v1 (by decide)).trans (row_l2 m c)

theorem col_l3 : lvl3 (F := Ideal) m c (Proc.devRef .tc main_v3) = colOf (m ((c.tc : Thread nD τ).loc main_arg1)) :=
  (lvl3_keep m c main_v3 (by decide)).trans (col_l2 m c)

theorem row_l4 : lvl4 (F := Ideal) m c (Proc.devRef .tc main_v1) = rowOf (m ((c.tc : Thread nD τ).loc main_arg1)) :=
  (lvl4_keep m c main_v1 (by decide)).trans (row_l3 m c)

theorem col_l4 : lvl4 (F := Ideal) m c (Proc.devRef .tc main_v3) = colOf (m ((c.tc : Thread nD τ).loc main_arg1)) :=
  (lvl4_keep m c main_v3 (by decide)).trans (col_l3 m c)

theorem row_l5 : lvl5 (F := Ideal) m c (Proc.devRef .tc main_v1) = rowOf (m ((c.tc : Thread nD τ).loc main_arg1)) :=
  (lvl5_keep m c main_v1 (by decide)).trans (row_l4 m c)

theorem col_l5 : lvl5 (F := Ideal) m c (Proc.devRef .tc main_v3) = colOf (m ((c.tc : Thread nD τ).loc main_arg1)) :=
  (lvl5_keep m c main_v3 (by decide)).trans (col_l4 m c)

/-! ## The embedding -/

theorem state_r0 : lvl1 (F := Ideal) m c (Proc.devRef .tc main_v7) = embedG (n := 50000) (m ((c.tc : Thread nD τ).loc main_arg0)) (m ((c.tc : Thread nD τ).loc main_arg4)) (rowVec (m ((c.tc : Thread nD τ).loc main_arg5))) := by
  refine (head_state (lvl0 (F := Ideal) m c)).trans ?_
  rw [lvl0_eq m c main_arg0, lvl0_eq m c main_arg4, lvl0_eq m c main_arg5]

/-! ## Round 1 -/

theorem w1_r1 : lvl1 (F := Ideal) m c (Proc.devRef .tc main_v9) = (w1At ![0, 0, 0] slices_S3x144x64_S1x144x64_0_0_0 (m ((c.tc : Thread nD τ).loc main_arg6))) := by
  refine (head_w1 (lvl0 (F := Ideal) m c)).trans ?_
  rw [lvl0_eq m c main_arg6]

theorem b1_r1 : lvl1 (F := Ideal) m c (Proc.devRef .tc main_v11) = (b64VecAt ![0, 0] slices_S3x64_S1x64_0_0 (m ((c.tc : Thread nD τ).loc main_arg7))) := by
  refine (head_b1 (lvl0 (F := Ideal) m c)).trans ?_
  rw [lvl0_eq m c main_arg7]

theorem w2_r1 : lvl1 (F := Ideal) m c (Proc.devRef .tc main_v13) = (w2At ![0, 0, 0] slices_S3x64x64_S1x64x64_0_0_0 (m ((c.tc : Thread nD τ).loc main_arg8))) := by
  refine (head_w2 (lvl0 (F := Ideal) m c)).trans ?_
  rw [lvl0_eq m c main_arg8]

theorem b2_r1 : lvl1 (F := Ideal) m c (Proc.devRef .tc main_v15) = (b64VecAt ![0, 0] slices_S3x64_S1x64_0_0 (m ((c.tc : Thread nD τ).loc main_arg9))) := by
  refine (head_b2 (lvl0 (F := Ideal) m c)).trans ?_
  rw [lvl0_eq m c main_arg9]

theorem wih_r1 : lvl1 (F := Ideal) m c (Proc.devRef .tc main_v17) = (wgAt ![0, 0, 0] slices_S3x192x64_S1x192x64_0_0_0 (m ((c.tc : Thread nD τ).loc main_arg10))) := by
  refine (head_wih (lvl0 (F := Ideal) m c)).trans ?_
  rw [lvl0_eq m c main_arg10]

theorem whh_r1 : lvl1 (F := Ideal) m c (Proc.devRef .tc main_v19) = (wgAt ![0, 0, 0] slices_S3x192x64_S1x192x64_0_0_0 (m ((c.tc : Thread nD τ).loc main_arg11))) := by
  refine (head_whh (lvl0 (F := Ideal) m c)).trans ?_
  rw [lvl0_eq m c main_arg11]

theorem bih_r1 : lvl1 (F := Ideal) m c (Proc.devRef .tc main_v21) = (bgVecAt ![0, 0] slices_S3x192_S1x192_0_0 (m ((c.tc : Thread nD τ).loc main_arg12))) := by
  refine (head_bih (lvl0 (F := Ideal) m c)).trans ?_
  rw [lvl0_eq m c main_arg12]

theorem bhh_r1 : lvl1 (F := Ideal) m c (Proc.devRef .tc main_v23) = (bgVecAt ![0, 0] slices_S3x192_S1x192_0_0 (m ((c.tc : Thread nD τ).loc main_arg13))) := by
  refine (head_bhh (lvl0 (F := Ideal) m c)).trans ?_
  rw [lvl0_eq m c main_arg13]

theorem state_r1 : lvl2 (F := Ideal) m c (Proc.devRef .tc main_v88)
    = layerR (lvl1 (F := Ideal) m c (Proc.devRef .tc main_v7)) (wrapIdx (rowOf (m ((c.tc : Thread nD τ).loc main_arg1)))) (wrapIdx (colOf (m ((c.tc : Thread nD τ).loc main_arg1)))) (colIdx (rowOf (m ((c.tc : Thread nD τ).loc main_arg1)))) (m ((c.tc : Thread nD τ).loc main_arg2))
        (w1At ![0, 0, 0] slices_S3x144x64_S1x144x64_0_0_0 (m ((c.tc : Thread nD τ).loc main_arg6)))
        (b64VecAt ![0, 0] slices_S3x64_S1x64_0_0 (m ((c.tc : Thread nD τ).loc main_arg7)))
        (w2At ![0, 0, 0] slices_S3x64x64_S1x64x64_0_0_0 (m ((c.tc : Thread nD τ).loc main_arg8)))
        (b64VecAt ![0, 0] slices_S3x64_S1x64_0_0 (m ((c.tc : Thread nD τ).loc main_arg9)))
        (wgAt ![0, 0, 0] slices_S3x192x64_S1x192x64_0_0_0 (m ((c.tc : Thread nD τ).loc main_arg10)))
        (wgAt ![0, 0, 0] slices_S3x192x64_S1x192x64_0_0_0 (m ((c.tc : Thread nD τ).loc main_arg11)))
        (bgVecAt ![0, 0] slices_S3x192_S1x192_0_0 (m ((c.tc : Thread nD τ).loc main_arg12)))
        (bgVecAt ![0, 0] slices_S3x192_S1x192_0_0 (m ((c.tc : Thread nD τ).loc main_arg13))) := by
  refine (opsR1_state (lvl1 (F := Ideal) m c)).trans ?_
  rw [row_l1 m c, col_l1 m c, kept1 m c main_arg2 (by decide), w1_r1 m c, b1_r1 m c, w2_r1 m c, b2_r1 m c, wih_r1 m c, whh_r1 m c, bih_r1 m c, bhh_r1 m c]

/-- The first round's states reach the second round untouched by its slices. -/
theorem state_l3 : lvl3 (F := Ideal) m c (Proc.devRef .tc main_v88) = lvl2 (F := Ideal) m c (Proc.devRef .tc main_v88) :=
  lvl3_keep m c main_v88 (by decide)

/-! ## Round 2 -/

theorem w1_r2 : lvl3 (F := Ideal) m c (Proc.devRef .tc main_v90) = (w1At ![1, 0, 0] slices_S3x144x64_S1x144x64_1_0_0 (m ((c.tc : Thread nD τ).loc main_arg6))) := by
  refine (opsS2_w1 (lvl2 (F := Ideal) m c)).trans ?_
  rw [kept2 m c main_arg6 (by decide) (by decide)]

theorem b1_r2 : lvl3 (F := Ideal) m c (Proc.devRef .tc main_v92) = (b64VecAt ![1, 0] slices_S3x64_S1x64_1_0 (m ((c.tc : Thread nD τ).loc main_arg7))) := by
  refine (opsS2_b1 (lvl2 (F := Ideal) m c)).trans ?_
  rw [kept2 m c main_arg7 (by decide) (by decide)]

theorem w2_r2 : lvl3 (F := Ideal) m c (Proc.devRef .tc main_v94) = (w2At ![1, 0, 0] slices_S3x64x64_S1x64x64_1_0_0 (m ((c.tc : Thread nD τ).loc main_arg8))) := by
  refine (opsS2_w2 (lvl2 (F := Ideal) m c)).trans ?_
  rw [kept2 m c main_arg8 (by decide) (by decide)]

theorem b2_r2 : lvl3 (F := Ideal) m c (Proc.devRef .tc main_v96) = (b64VecAt ![1, 0] slices_S3x64_S1x64_1_0 (m ((c.tc : Thread nD τ).loc main_arg9))) := by
  refine (opsS2_b2 (lvl2 (F := Ideal) m c)).trans ?_
  rw [kept2 m c main_arg9 (by decide) (by decide)]

theorem wih_r2 : lvl3 (F := Ideal) m c (Proc.devRef .tc main_v98) = (wgAt ![1, 0, 0] slices_S3x192x64_S1x192x64_1_0_0 (m ((c.tc : Thread nD τ).loc main_arg10))) := by
  refine (opsS2_wih (lvl2 (F := Ideal) m c)).trans ?_
  rw [kept2 m c main_arg10 (by decide) (by decide)]

theorem whh_r2 : lvl3 (F := Ideal) m c (Proc.devRef .tc main_v100) = (wgAt ![1, 0, 0] slices_S3x192x64_S1x192x64_1_0_0 (m ((c.tc : Thread nD τ).loc main_arg11))) := by
  refine (opsS2_whh (lvl2 (F := Ideal) m c)).trans ?_
  rw [kept2 m c main_arg11 (by decide) (by decide)]

theorem bih_r2 : lvl3 (F := Ideal) m c (Proc.devRef .tc main_v102) = (bgVecAt ![1, 0] slices_S3x192_S1x192_1_0 (m ((c.tc : Thread nD τ).loc main_arg12))) := by
  refine (opsS2_bih (lvl2 (F := Ideal) m c)).trans ?_
  rw [kept2 m c main_arg12 (by decide) (by decide)]

theorem bhh_r2 : lvl3 (F := Ideal) m c (Proc.devRef .tc main_v104) = (bgVecAt ![1, 0] slices_S3x192_S1x192_1_0 (m ((c.tc : Thread nD τ).loc main_arg13))) := by
  refine (opsS2_bhh (lvl2 (F := Ideal) m c)).trans ?_
  rw [kept2 m c main_arg13 (by decide) (by decide)]

theorem state_r2 : lvl4 (F := Ideal) m c (Proc.devRef .tc main_v169)
    = layerR (lvl3 (F := Ideal) m c (Proc.devRef .tc main_v88)) (wrapIdx (rowOf (m ((c.tc : Thread nD τ).loc main_arg1)))) (wrapIdx (colOf (m ((c.tc : Thread nD τ).loc main_arg1)))) (colIdx (rowOf (m ((c.tc : Thread nD τ).loc main_arg1)))) (m ((c.tc : Thread nD τ).loc main_arg2))
        (w1At ![1, 0, 0] slices_S3x144x64_S1x144x64_1_0_0 (m ((c.tc : Thread nD τ).loc main_arg6)))
        (b64VecAt ![1, 0] slices_S3x64_S1x64_1_0 (m ((c.tc : Thread nD τ).loc main_arg7)))
        (w2At ![1, 0, 0] slices_S3x64x64_S1x64x64_1_0_0 (m ((c.tc : Thread nD τ).loc main_arg8)))
        (b64VecAt ![1, 0] slices_S3x64_S1x64_1_0 (m ((c.tc : Thread nD τ).loc main_arg9)))
        (wgAt ![1, 0, 0] slices_S3x192x64_S1x192x64_1_0_0 (m ((c.tc : Thread nD τ).loc main_arg10)))
        (wgAt ![1, 0, 0] slices_S3x192x64_S1x192x64_1_0_0 (m ((c.tc : Thread nD τ).loc main_arg11)))
        (bgVecAt ![1, 0] slices_S3x192_S1x192_1_0 (m ((c.tc : Thread nD τ).loc main_arg12)))
        (bgVecAt ![1, 0] slices_S3x192_S1x192_1_0 (m ((c.tc : Thread nD τ).loc main_arg13))) := by
  refine (opsR2_state (lvl3 (F := Ideal) m c)).trans ?_
  rw [row_l3 m c, col_l3 m c, kept3 m c main_arg2 (by decide) (by decide) (by decide), w1_r2 m c, b1_r2 m c, w2_r2 m c, b2_r2 m c, wih_r2 m c, whh_r2 m c, bih_r2 m c, bhh_r2 m c]

/-- The second round's states reach the third round untouched by its slices. -/
theorem state_l5 : lvl5 (F := Ideal) m c (Proc.devRef .tc main_v169) = lvl4 (F := Ideal) m c (Proc.devRef .tc main_v169) :=
  lvl5_keep m c main_v169 (by decide)

/-! ## Round 3 -/

theorem w1_r3 : lvl5 (F := Ideal) m c (Proc.devRef .tc main_v171) = (w1At ![2, 0, 0] slices_S3x144x64_S1x144x64_2_0_0 (m ((c.tc : Thread nD τ).loc main_arg6))) := by
  refine (opsS3_w1 (lvl4 (F := Ideal) m c)).trans ?_
  rw [kept4 m c main_arg6 (by decide) (by decide) (by decide) (by decide)]

theorem b1_r3 : lvl5 (F := Ideal) m c (Proc.devRef .tc main_v173) = (b64VecAt ![2, 0] slices_S3x64_S1x64_2_0 (m ((c.tc : Thread nD τ).loc main_arg7))) := by
  refine (opsS3_b1 (lvl4 (F := Ideal) m c)).trans ?_
  rw [kept4 m c main_arg7 (by decide) (by decide) (by decide) (by decide)]

theorem w2_r3 : lvl5 (F := Ideal) m c (Proc.devRef .tc main_v175) = (w2At ![2, 0, 0] slices_S3x64x64_S1x64x64_2_0_0 (m ((c.tc : Thread nD τ).loc main_arg8))) := by
  refine (opsS3_w2 (lvl4 (F := Ideal) m c)).trans ?_
  rw [kept4 m c main_arg8 (by decide) (by decide) (by decide) (by decide)]

theorem b2_r3 : lvl5 (F := Ideal) m c (Proc.devRef .tc main_v177) = (b64VecAt ![2, 0] slices_S3x64_S1x64_2_0 (m ((c.tc : Thread nD τ).loc main_arg9))) := by
  refine (opsS3_b2 (lvl4 (F := Ideal) m c)).trans ?_
  rw [kept4 m c main_arg9 (by decide) (by decide) (by decide) (by decide)]

theorem wih_r3 : lvl5 (F := Ideal) m c (Proc.devRef .tc main_v179) = (wgAt ![2, 0, 0] slices_S3x192x64_S1x192x64_2_0_0 (m ((c.tc : Thread nD τ).loc main_arg10))) := by
  refine (opsS3_wih (lvl4 (F := Ideal) m c)).trans ?_
  rw [kept4 m c main_arg10 (by decide) (by decide) (by decide) (by decide)]

theorem whh_r3 : lvl5 (F := Ideal) m c (Proc.devRef .tc main_v181) = (wgAt ![2, 0, 0] slices_S3x192x64_S1x192x64_2_0_0 (m ((c.tc : Thread nD τ).loc main_arg11))) := by
  refine (opsS3_whh (lvl4 (F := Ideal) m c)).trans ?_
  rw [kept4 m c main_arg11 (by decide) (by decide) (by decide) (by decide)]

theorem bih_r3 : lvl5 (F := Ideal) m c (Proc.devRef .tc main_v183) = (bgVecAt ![2, 0] slices_S3x192_S1x192_2_0 (m ((c.tc : Thread nD τ).loc main_arg12))) := by
  refine (opsS3_bih (lvl4 (F := Ideal) m c)).trans ?_
  rw [kept4 m c main_arg12 (by decide) (by decide) (by decide) (by decide)]

theorem bhh_r3 : lvl5 (F := Ideal) m c (Proc.devRef .tc main_v185) = (bgVecAt ![2, 0] slices_S3x192_S1x192_2_0 (m ((c.tc : Thread nD τ).loc main_arg13))) := by
  refine (opsS3_bhh (lvl4 (F := Ideal) m c)).trans ?_
  rw [kept4 m c main_arg13 (by decide) (by decide) (by decide) (by decide)]

theorem state_r3 : lvl6 (F := Ideal) m c (Proc.devRef .tc main_v250)
    = layerR (lvl5 (F := Ideal) m c (Proc.devRef .tc main_v169)) (wrapIdx (rowOf (m ((c.tc : Thread nD τ).loc main_arg1)))) (wrapIdx (colOf (m ((c.tc : Thread nD τ).loc main_arg1)))) (colIdx (rowOf (m ((c.tc : Thread nD τ).loc main_arg1)))) (m ((c.tc : Thread nD τ).loc main_arg2))
        (w1At ![2, 0, 0] slices_S3x144x64_S1x144x64_2_0_0 (m ((c.tc : Thread nD τ).loc main_arg6)))
        (b64VecAt ![2, 0] slices_S3x64_S1x64_2_0 (m ((c.tc : Thread nD τ).loc main_arg7)))
        (w2At ![2, 0, 0] slices_S3x64x64_S1x64x64_2_0_0 (m ((c.tc : Thread nD τ).loc main_arg8)))
        (b64VecAt ![2, 0] slices_S3x64_S1x64_2_0 (m ((c.tc : Thread nD τ).loc main_arg9)))
        (wgAt ![2, 0, 0] slices_S3x192x64_S1x192x64_2_0_0 (m ((c.tc : Thread nD τ).loc main_arg10)))
        (wgAt ![2, 0, 0] slices_S3x192x64_S1x192x64_2_0_0 (m ((c.tc : Thread nD τ).loc main_arg11)))
        (bgVecAt ![2, 0] slices_S3x192_S1x192_2_0 (m ((c.tc : Thread nD τ).loc main_arg12)))
        (bgVecAt ![2, 0] slices_S3x192_S1x192_2_0 (m ((c.tc : Thread nD τ).loc main_arg13))) := by
  refine (opsR3_state (lvl5 (F := Ideal) m c)).trans ?_
  rw [row_l5 m c, col_l5 m c, kept5 m c main_arg2 (by decide) (by decide) (by decide) (by decide) (by decide), w1_r3 m c, b1_r3 m c, w2_r3 m c, b2_r3 m c, wih_r3 m c, whh_r3 m c, bih_r3 m c, bhh_r3 m c]

/-! ## The result -/

/-- The reference's result as a function of its arguments: the readout of three rounds from the embedding. -/
def resultTerm : FVec Ideal S64x1 .f32 :=
  readoutR
        (layerR (layerR (layerR (embedG (n := 50000) (m ((c.tc : Thread nD τ).loc main_arg0)) (m ((c.tc : Thread nD τ).loc main_arg4)) (rowVec (m ((c.tc : Thread nD τ).loc main_arg5)))) (wrapIdx (rowOf (m ((c.tc : Thread nD τ).loc main_arg1)))) (wrapIdx (colOf (m ((c.tc : Thread nD τ).loc main_arg1)))) (colIdx (rowOf (m ((c.tc : Thread nD τ).loc main_arg1)))) (m ((c.tc : Thread nD τ).loc main_arg2))
        (w1At ![0, 0, 0] slices_S3x144x64_S1x144x64_0_0_0 (m ((c.tc : Thread nD τ).loc main_arg6))) (b64VecAt ![0, 0] slices_S3x64_S1x64_0_0 (m ((c.tc : Thread nD τ).loc main_arg7))) (w2At ![0, 0, 0] slices_S3x64x64_S1x64x64_0_0_0 (m ((c.tc : Thread nD τ).loc main_arg8))) (b64VecAt ![0, 0] slices_S3x64_S1x64_0_0 (m ((c.tc : Thread nD τ).loc main_arg9))) (wgAt ![0, 0, 0] slices_S3x192x64_S1x192x64_0_0_0 (m ((c.tc : Thread nD τ).loc main_arg10))) (wgAt ![0, 0, 0] slices_S3x192x64_S1x192x64_0_0_0 (m ((c.tc : Thread nD τ).loc main_arg11))) (bgVecAt ![0, 0] slices_S3x192_S1x192_0_0 (m ((c.tc : Thread nD τ).loc main_arg12))) (bgVecAt ![0, 0] slices_S3x192_S1x192_0_0 (m ((c.tc : Thread nD τ).loc main_arg13))))
          (wrapIdx (rowOf (m ((c.tc : Thread nD τ).loc main_arg1)))) (wrapIdx (colOf (m ((c.tc : Thread nD τ).loc main_arg1)))) (colIdx (rowOf (m ((c.tc : Thread nD τ).loc main_arg1)))) (m ((c.tc : Thread nD τ).loc main_arg2))
          (w1At ![1, 0, 0] slices_S3x144x64_S1x144x64_1_0_0 (m ((c.tc : Thread nD τ).loc main_arg6))) (b64VecAt ![1, 0] slices_S3x64_S1x64_1_0 (m ((c.tc : Thread nD τ).loc main_arg7))) (w2At ![1, 0, 0] slices_S3x64x64_S1x64x64_1_0_0 (m ((c.tc : Thread nD τ).loc main_arg8))) (b64VecAt ![1, 0] slices_S3x64_S1x64_1_0 (m ((c.tc : Thread nD τ).loc main_arg9))) (wgAt ![1, 0, 0] slices_S3x192x64_S1x192x64_1_0_0 (m ((c.tc : Thread nD τ).loc main_arg10))) (wgAt ![1, 0, 0] slices_S3x192x64_S1x192x64_1_0_0 (m ((c.tc : Thread nD τ).loc main_arg11))) (bgVecAt ![1, 0] slices_S3x192_S1x192_1_0 (m ((c.tc : Thread nD τ).loc main_arg12))) (bgVecAt ![1, 0] slices_S3x192_S1x192_1_0 (m ((c.tc : Thread nD τ).loc main_arg13))))
          (wrapIdx (rowOf (m ((c.tc : Thread nD τ).loc main_arg1)))) (wrapIdx (colOf (m ((c.tc : Thread nD τ).loc main_arg1)))) (colIdx (rowOf (m ((c.tc : Thread nD τ).loc main_arg1)))) (m ((c.tc : Thread nD τ).loc main_arg2))
          (w1At ![2, 0, 0] slices_S3x144x64_S1x144x64_2_0_0 (m ((c.tc : Thread nD τ).loc main_arg6))) (b64VecAt ![2, 0] slices_S3x64_S1x64_2_0 (m ((c.tc : Thread nD τ).loc main_arg7))) (w2At ![2, 0, 0] slices_S3x64x64_S1x64x64_2_0_0 (m ((c.tc : Thread nD τ).loc main_arg8))) (b64VecAt ![2, 0] slices_S3x64_S1x64_2_0 (m ((c.tc : Thread nD τ).loc main_arg9))) (wgAt ![2, 0, 0] slices_S3x192x64_S1x192x64_2_0_0 (m ((c.tc : Thread nD τ).loc main_arg10))) (wgAt ![2, 0, 0] slices_S3x192x64_S1x192x64_2_0_0 (m ((c.tc : Thread nD τ).loc main_arg11))) (bgVecAt ![2, 0] slices_S3x192_S1x192_2_0 (m ((c.tc : Thread nD τ).loc main_arg12))) (bgVecAt ![2, 0] slices_S3x192_S1x192_2_0 (m ((c.tc : Thread nD τ).loc main_arg13))))
        (m ((c.tc : Thread nD τ).loc main_arg3)) (m ((c.tc : Thread nD τ).loc main_arg14)) (m ((c.tc : Thread nD τ).loc main_arg15)) (m ((c.tc : Thread nD τ).loc main_arg16)) (m ((c.tc : Thread nD τ).loc main_arg17))

/-- The fold's result buffer holds it. -/
theorem result : lvl7 (F := Ideal) m c (Proc.devRef .tc main_v277) = resultTerm m c := by
  unfold resultTerm
  refine (opsT_result (lvl6 (F := Ideal) m c)).trans ?_
  rw [kept6 m c main_arg3 (by decide) (by decide) (by decide) (by decide) (by decide) (by decide), kept6 m c main_arg14 (by decide) (by decide) (by decide) (by decide) (by decide) (by decide), kept6 m c main_arg15 (by decide) (by decide) (by decide) (by decide) (by decide) (by decide),
    kept6 m c main_arg16 (by decide) (by decide) (by decide) (by decide) (by decide) (by decide), kept6 m c main_arg17 (by decide) (by decide) (by decide) (by decide) (by decide) (by decide)]
  rw [state_r3 m c, state_l5 m c, state_r2 m c, state_l3 m c, state_r1 m c, state_r0 m c]

/-- On every device, from any memory with zero counters: every weakly fair execution of @main terminates with the
    result at `resultTerm` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v277) = resultTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v277).trans (result m c),
      (h c main_arg0).trans (kept7 m c main_arg0 (by decide) (by decide) (by decide) (by decide) (by decide) (by decide) (by decide)),
      (h c main_arg1).trans (kept7 m c main_arg1 (by decide) (by decide) (by decide) (by decide) (by decide) (by decide) (by decide)),
      (h c main_arg2).trans (kept7 m c main_arg2 (by decide) (by decide) (by decide) (by decide) (by decide) (by decide) (by decide)),
      (h c main_arg3).trans (kept7 m c main_arg3 (by decide) (by decide) (by decide) (by decide) (by decide) (by decide) (by decide)),
      (h c main_arg4).trans (kept7 m c main_arg4 (by decide) (by decide) (by decide) (by decide) (by decide) (by decide) (by decide)),
      (h c main_arg5).trans (kept7 m c main_arg5 (by decide) (by decide) (by decide) (by decide) (by decide) (by decide) (by decide)),
      (h c main_arg6).trans (kept7 m c main_arg6 (by decide) (by decide) (by decide) (by decide) (by decide) (by decide) (by decide)),
      (h c main_arg7).trans (kept7 m c main_arg7 (by decide) (by decide) (by decide) (by decide) (by decide) (by decide) (by decide)),
      (h c main_arg8).trans (kept7 m c main_arg8 (by decide) (by decide) (by decide) (by decide) (by decide) (by decide) (by decide)),
      (h c main_arg9).trans (kept7 m c main_arg9 (by decide) (by decide) (by decide) (by decide) (by decide) (by decide) (by decide)),
      (h c main_arg10).trans (kept7 m c main_arg10 (by decide) (by decide) (by decide) (by decide) (by decide) (by decide) (by decide)),
      (h c main_arg11).trans (kept7 m c main_arg11 (by decide) (by decide) (by decide) (by decide) (by decide) (by decide) (by decide)),
      (h c main_arg12).trans (kept7 m c main_arg12 (by decide) (by decide) (by decide) (by decide) (by decide) (by decide) (by decide)),
      (h c main_arg13).trans (kept7 m c main_arg13 (by decide) (by decide) (by decide) (by decide) (by decide) (by decide) (by decide)),
      (h c main_arg14).trans (kept7 m c main_arg14 (by decide) (by decide) (by decide) (by decide) (by decide) (by decide) (by decide)),
      (h c main_arg15).trans (kept7 m c main_arg15 (by decide) (by decide) (by decide) (by decide) (by decide) (by decide) (by decide)),
      (h c main_arg16).trans (kept7 m c main_arg16 (by decide) (by decide) (by decide) (by decide) (by decide) (by decide) (by decide)),
      (h c main_arg17).trans (kept7 m c main_arg17 (by decide) (by decide) (by decide) (by decide) (by decide) (by decide) (by decide))⟩)
    (run_fold (F := Ideal) m ρ)

end Cert.ReferenceIdeal.RChain

end
-- ==== Proof.PreRange.lean ====
/-
  What the precondition says of the edge list: every entry lies in −50000 … 49999.

  The precondition is a chain of conjunctions; its last two conjuncts compare every entry of the
  edge list with −50000 (at least) and with 50000 (less than), each comparison reduced by "and" over
  both axes.  A reduction by "and" that is all ones says every entry is one; a signed comparison
  that is one says the order of the two words as integers.
-/
import proofs.«420387_j4148938408095_1_alg».proof.Defs
import proofs.«420387_j4148938408095_1_alg».proof.Proof.KHost
import proofs.«420387_j4148938408095_1_alg».proof.Proof.Gen.Pre_finite_inputs
import Idealize.ShloMosaic.Lib.ReduceAll
import Idealize.ShloMosaic.Lib.StableHlo.Predicate

set_option maxRecDepth 16384

noncomputable section

open scoped BigOperators

namespace Cert.KernelIdeal.PreRange

open Idealize.ShloMosaic Idealize.ShloMosaic.TcCoe Idealize.ShloMosaic.ValueIdx Idealize.SL.Sem Cert.KernelIdeal Cert.KernelIdeal.Gen Cert.Gnn Cert.KernelIdeal.KHost

/-- The scalar shape has one index. -/
instance : Subsingleton Cert.Pre_finite_inputs.S_.Idx := ⟨fun a b => funext fun d => d.elim0⟩

/-- Every entry of the edge list is in −50000 … 49999. -/
theorem edge_range (m : (ℓ : Loc nD τ sig) → Buf (Elt Ideal) ℓ) (hpre : Cert.Pre_KernelIdeal m) (c : Dev nD) (i : S2x800000.Idx) :
    -50000 ≤ (m ((c.tc : Thread nD τ).loc main_arg1) i).toInt ∧ (m ((c.tc : Thread nD τ).loc main_arg1) i).toInt < 50000 := by
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  -- the outermost "and": the conjuncts before it, and "every entry is less than 50000"
  obtain ⟨h82, h85⟩ := IntOp.andi_eq_one.1 h
  -- the one inside it: the conjuncts before it, and "every entry is at least −50000"
  obtain ⟨-, h81⟩ := IntOp.andi_eq_one.1 h82
  -- a reduction by "and" over both axes that is 1 had a 1 at every entry
  have hge := Host.reduce_andi_all _ _ _ _ _ h81 i
  have hlt := Host.reduce_andi_all _ _ _ _ _ h85 i
  -- the two constants read signed; a signed comparison that is 1 is the order of the integers
  have e1 : (4294917296#32 : BitVec 32).toInt = -50000 := by decide
  have e2 : (50000#32 : BitVec 32).toInt = 50000 := by decide
  have g1 : (4294917296#32 : BitVec 32).toInt ≤ (m ((c.tc : Thread nD τ).loc main_arg1) i).toInt := IntOp.cmpi_sge.1 hge
  have g2 : (m ((c.tc : Thread nD τ).loc main_arg1) i).toInt < (50000#32 : BitVec 32).toInt := IntOp.cmpi_slt.1 hlt
  rw [e1] at g1
  rw [e2] at g2
  exact ⟨g1, g2⟩

/-- So is every source node. -/
theorem row_range (m : (ℓ : Loc nD τ sig) → Buf (Elt Ideal) ℓ) (hpre : Cert.Pre_KernelIdeal m) (c : Dev nD) (e : S800000.Idx) :
    -50000 ≤ (rowOf (m ((c.tc : Thread nD τ).loc main_arg1)) e).toInt ∧ (rowOf (m ((c.tc : Thread nD τ).loc main_arg1)) e).toInt < 50000 := by
  -- e is the index of its one coordinate k, and entry k of the source row is entry (0, k) of the edge list
  obtain ⟨k, rfl⟩ : ∃ k, e = ix1 k := ⟨e 0, eq_ix1 e⟩
  rw [rowOf_apply]
  exact edge_range m hpre c _

/-- So is every target node. -/
theorem col_range (m : (ℓ : Loc nD τ sig) → Buf (Elt Ideal) ℓ) (hpre : Cert.Pre_KernelIdeal m) (c : Dev nD) (e : S800000.Idx) :
    -50000 ≤ (colOf (m ((c.tc : Thread nD τ).loc main_arg1)) e).toInt ∧ (colOf (m ((c.tc : Thread nD τ).loc main_arg1)) e).toInt < 50000 := by
  -- e is the index of its one coordinate k, and entry k of the target row is entry (1, k) of the edge list
  obtain ⟨k, rfl⟩ : ∃ k, e = ix1 k := ⟨e 0, eq_ix1 e⟩
  rw [colOf_apply]
  exact edge_range m hpre c _

end Cert.KernelIdeal.PreRange

end
-- ==== Proof.Bridge.lean ====
/-
  The two programs' host sides are one.

  Around its regions the kernel program applies the reference's own host operations: the same
  slices of the weight stacks, the same wrapped indices, the same scatter-add, the same readout.
  Two things differ in spelling.  A bias enters a region as a one-row matrix (a reshape [n] → [1, n])
  where the reference broadcasts the vector: the reshape read at an index is the vector's entry
  (`shapeCast_row`).  And the kernel program's row gather replaces an out-of-range row by the
  not-a-number word, which under the precondition's index range never happens (`takeRow_eq`,
  `takeCol_eq`).  With these a round of the kernel program is the reference's round (`layer_eq`),
  whatever slice of the weight stacks it takes.
-/
import proofs.«420387_j4148938408095_1_alg».proof.Defs
import proofs.«420387_j4148938408095_1_alg».proof.Proof.Spec
import proofs.«420387_j4148938408095_1_alg».proof.Proof.KHost
import proofs.«420387_j4148938408095_1_alg».proof.Proof.KChain
import proofs.«420387_j4148938408095_1_alg».proof.Proof.PreRange
import proofs.«420387_j4148938408095_1_alg».proof.Proof.RHost
import Idealize.ShloMosaic.Lib.Pipeline.Value

set_option maxRecDepth 16384

noncomputable section

namespace Cert.Bridge

open Idealize.ShloMosaic Idealize.ShloMosaic.TcCoe Idealize.ShloMosaic.ValueIdx Idealize.SL.Sem Cert.Gnn

/-- A reshape that adds a leading unit axis reads as the vector's one-row matrix. -/
theorem shapeCast_row {n : Nat} (v : (⟨1, ![n]⟩ : Shape).Idx → EReal) (h : (⟨1, ![n]⟩ : Shape).ShapeCasts ⟨2, ![1, n]⟩) :
    shapeCast (⟨2, ![1, n]⟩ : Shape) v h = rowVec v := by
  funext j
  refine (shapeCast_addUnit_apply ![n] v h j).trans ?_
  unfold rowVec
  congr 1
  funext a
  match a with
  | ⟨0, _⟩ => rfl

variable (m : (ℓ : Loc Cert.KernelIdeal.nD Cert.KernelIdeal.τ Cert.KernelIdeal.sig) → Buf (Elt Ideal) ℓ)

/-- The kernel program's gather at the source nodes is the reference's. -/
theorem takeRow_eq (hpre : Cert.Pre_KernelIdeal m) (c : Dev Cert.KernelIdeal.nD) :
    (fun h : Mat 50000 64 => (Cert.KernelIdeal.KHost.takeFill h (Cert.KernelIdeal.KHost.rowOf (m ((c : Thread Cert.KernelIdeal.nD Cert.KernelIdeal.τ).loc Cert.KernelIdeal.main_arg1))) : Mat 800000 64))
      = fun h => Cert.ReferenceIdeal.RHost.gatherR h (Cert.ReferenceIdeal.RHost.wrapIdx (Cert.ReferenceIdeal.RHost.rowOf (m ((c : Thread Cert.KernelIdeal.nD Cert.KernelIdeal.τ).loc Cert.KernelIdeal.main_arg1)))) :=
  funext fun h => (Cert.KernelIdeal.KHost.takeFill_eq h _ (fun e => Cert.KernelIdeal.PreRange.row_range m hpre c e)).trans rfl

/-- The kernel program's gather at the target nodes is the reference's. -/
theorem takeCol_eq (hpre : Cert.Pre_KernelIdeal m) (c : Dev Cert.KernelIdeal.nD) :
    (fun h : Mat 50000 64 => (Cert.KernelIdeal.KHost.takeFill h (Cert.KernelIdeal.KHost.colOf (m ((c : Thread Cert.KernelIdeal.nD Cert.KernelIdeal.τ).loc Cert.KernelIdeal.main_arg1))) : Mat 800000 64))
      = fun h => Cert.ReferenceIdeal.RHost.gatherR h (Cert.ReferenceIdeal.RHost.wrapIdx (Cert.ReferenceIdeal.RHost.colOf (m ((c : Thread Cert.KernelIdeal.nD Cert.KernelIdeal.τ).loc Cert.KernelIdeal.main_arg1)))) :=
  funext fun h => (Cert.KernelIdeal.KHost.takeFill_eq h _ (fun e => Cert.KernelIdeal.PreRange.col_range m hpre c e)).trans rfl

/-- A round of the kernel program is the reference's round on the same slices of the weight stacks. -/
theorem layer_eq (hpre : Cert.Pre_KernelIdeal m) (c : Dev Cert.KernelIdeal.nD) (o3 : Fin 3 → Nat) (o2 : Fin 2 → Nat)
    (s1 : Cert.KernelIdeal.S3x144x64.Slices o3 Cert.KernelIdeal.S1x144x64) (s2 : Cert.KernelIdeal.S3x64.Slices o2 Cert.KernelIdeal.S1x64) (s3 : Cert.KernelIdeal.S3x64x64.Slices o3 Cert.KernelIdeal.S1x64x64)
    (s4 : Cert.KernelIdeal.S3x192x64.Slices o3 Cert.KernelIdeal.S1x192x64) (s5 : Cert.KernelIdeal.S3x192.Slices o2 Cert.KernelIdeal.S1x192)
    (t1 : Cert.ReferenceIdeal.S3x144x64.Slices o3 Cert.ReferenceIdeal.S1x144x64) (t2 : Cert.ReferenceIdeal.S3x64.Slices o2 Cert.ReferenceIdeal.S1x64) (t3 : Cert.ReferenceIdeal.S3x64x64.Slices o3 Cert.ReferenceIdeal.S1x64x64)
    (t4 : Cert.ReferenceIdeal.S3x192x64.Slices o3 Cert.ReferenceIdeal.S1x192x64) (t5 : Cert.ReferenceIdeal.S3x192.Slices o2 Cert.ReferenceIdeal.S1x192)
    (h : Vec Ideal Cert.KernelIdeal.S50000x64 .f32) :
    Cert.KernelIdeal.Chain.layerK m c o3 o2 s1 s2 s3 s4 s5 h
      = Cert.ReferenceIdeal.RHost.layerR h (Cert.ReferenceIdeal.RHost.wrapIdx (Cert.ReferenceIdeal.RHost.rowOf (m ((c : Thread Cert.KernelIdeal.nD Cert.KernelIdeal.τ).loc Cert.KernelIdeal.main_arg1)))) (Cert.ReferenceIdeal.RHost.wrapIdx (Cert.ReferenceIdeal.RHost.colOf (m ((c : Thread Cert.KernelIdeal.nD Cert.KernelIdeal.τ).loc Cert.KernelIdeal.main_arg1)))) (Cert.ReferenceIdeal.RHost.colIdx (Cert.ReferenceIdeal.RHost.rowOf (m ((c : Thread Cert.KernelIdeal.nD Cert.KernelIdeal.τ).loc Cert.KernelIdeal.main_arg1)))) (m ((c : Thread Cert.KernelIdeal.nD Cert.KernelIdeal.τ).loc Cert.KernelIdeal.main_arg2))
          (Cert.ReferenceIdeal.RHost.w1At o3 t1 (m ((c : Thread Cert.KernelIdeal.nD Cert.KernelIdeal.τ).loc Cert.KernelIdeal.main_arg6))) (Cert.ReferenceIdeal.RHost.b64VecAt o2 t2 (m ((c : Thread Cert.KernelIdeal.nD Cert.KernelIdeal.τ).loc Cert.KernelIdeal.main_arg7))) (Cert.ReferenceIdeal.RHost.w2At o3 t3 (m ((c : Thread Cert.KernelIdeal.nD Cert.KernelIdeal.τ).loc Cert.KernelIdeal.main_arg8))) (Cert.ReferenceIdeal.RHost.b64VecAt o2 t2 (m ((c : Thread Cert.KernelIdeal.nD Cert.KernelIdeal.τ).loc Cert.KernelIdeal.main_arg9)))
          (Cert.ReferenceIdeal.RHost.wgAt o3 t4 (m ((c : Thread Cert.KernelIdeal.nD Cert.KernelIdeal.τ).loc Cert.KernelIdeal.main_arg10))) (Cert.ReferenceIdeal.RHost.wgAt o3 t4 (m ((c : Thread Cert.KernelIdeal.nD Cert.KernelIdeal.τ).loc Cert.KernelIdeal.main_arg11))) (Cert.ReferenceIdeal.RHost.bgVecAt o2 t5 (m ((c : Thread Cert.KernelIdeal.nD Cert.KernelIdeal.τ).loc Cert.KernelIdeal.main_arg12))) (Cert.ReferenceIdeal.RHost.bgVecAt o2 t5 (m ((c : Thread Cert.KernelIdeal.nD Cert.KernelIdeal.τ).loc Cert.KernelIdeal.main_arg13))) := by
  unfold Cert.KernelIdeal.Chain.layerK Cert.ReferenceIdeal.RHost.layerR
  rw [takeRow_eq m hpre c, takeCol_eq m hpre c]
  rw [Cert.KernelIdeal.KHost.b64At, Cert.KernelIdeal.KHost.b64At, Cert.KernelIdeal.KHost.bgAt, Cert.KernelIdeal.KHost.bgAt, shapeCast_row, shapeCast_row, shapeCast_row, shapeCast_row]
  rfl

/-- The embedding's bias: the kernel program's one-row matrix is the vector's. -/
theorem biasRow_eq (b : Vec Ideal Cert.KernelIdeal.S64 .f32) : Cert.KernelIdeal.KHost.biasRow b = rowVec b := shapeCast_row b _

/-- The readouts are one function. -/
theorem readout_eq (h : FVec Ideal Cert.KernelIdeal.S50000x64 .f32) (batch : IVec Cert.KernelIdeal.S50000 32) (w1 : FVec Ideal Cert.KernelIdeal.S64x64 .f32) (b1 : FVec Ideal Cert.KernelIdeal.S64 .f32)
    (w2 : FVec Ideal Cert.KernelIdeal.S64x1 .f32) (b2 : FVec Ideal Cert.KernelIdeal.S1 .f32) :
    Cert.KernelIdeal.KHost.readout h batch w1 b1 w2 b2 = Cert.ReferenceIdeal.RHost.readoutR h batch w1 b1 w2 b2 := rfl

end Cert.Bridge

end
-- ==== Proof.lean ====
/-
  A graph network — node embedding, three rounds of (gather the rows of the two end nodes of every
  edge, a two-layer message function, sum the messages into their source nodes, a GRU update of the
  node states), a mean-pool readout — as a program of seven grid kernels among host operations,
  against the same network written in plain host operations.

  The two are equal over the extended reals wherever every entry of the edge list is a valid node
  index, −50000 ≤ index < 50000 (a negative index counting from the end, as the reference itself
  reads it): outside that range the reference clamps the index while the kernel program's gather
  yields the not-a-number word, and the two differ.  Inside it:

  * each kernel is row-wise, so the array a grid of row blocks leaves is one whole-array function of
    the arrays it found: `embedG`, `edgeG`, `gruG` of the specification (the regions' `final`);
  * the fold of host stretches and region write-backs through the kernel program's @main, read at
    the node states after every round, is the round's function of the states before it (`h0` … `h3`),
    and the result is the readout of the last (`out_from_W20`);
  * the reference's fold through its seven stretches reads the same way (`RChain.run`), a product
    into a zero accumulator and a host product both the sum over the contracted axis, the kernel's
    one logistic operation the reference's 1 / (1 + e^(−t));
  * the host operations around the rounds are literally the reference's (`Bridge`).

  No law here moves a factor across a sum or cancels, so finiteness of the float inputs is not used.
  Nothing of the first program is rewritten by the idealization, so the fourth claim is trivial.
-/
import proofs.«420387_j4148938408095_1_alg».proof.Defs
import proofs.«420387_j4148938408095_1_alg».proof.Proof.Gen.Kernel
import proofs.«420387_j4148938408095_1_alg».proof.Proof.Gen.Kernel.Frame
import proofs.«420387_j4148938408095_1_alg».proof.Proof.Gen.KernelIdeal
import proofs.«420387_j4148938408095_1_alg».proof.Proof.Gen.KernelIdeal.Frame
import proofs.«420387_j4148938408095_1_alg».proof.Proof.Gen.ReferenceIdeal
import proofs.«420387_j4148938408095_1_alg».proof.Proof.Gen.Pre_finite_inputs
import proofs.«420387_j4148938408095_1_alg».proof.Proof.KernelRun
import proofs.«420387_j4148938408095_1_alg».proof.Proof.KChain
import proofs.«420387_j4148938408095_1_alg».proof.Proof.KRound2
import proofs.«420387_j4148938408095_1_alg».proof.Proof.KRound3
import proofs.«420387_j4148938408095_1_alg».proof.Proof.KTail
import proofs.«420387_j4148938408095_1_alg».proof.Proof.RChain
import proofs.«420387_j4148938408095_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Cert.Gnn

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RChain.run m ρ)

/-- Both programs end with the readout of three rounds from the embedding, the same function of arguments that agree. -/
theorem algebraic : Cert.algebraic_KernelIdeal_ReferenceIdeal := by
  intro m ρ m' ρ' hpre hagree
  refine ⟨fun c => Cert.KernelIdeal.Gen.W23 (F := Ideal) m ρ c (Proc.devRef .tc Cert.KernelIdeal.main_v113), Cert.KernelIdeal.Gen.run_result (F := Ideal) m ρ, ?_⟩
  refine (θ_run Cert.ReferenceIdeal.defs _ _).mono (fun r h c => ⟨(h c).1.trans ?_, (h c).2⟩) (Cert.ReferenceIdeal.RChain.run m' ρ')
  obtain ⟨e0, e1, e2, e3, e4, e5, e6, e7, e8, e9, e10, e11, e12, e13, e14, e15, e16, e17⟩ := hagree c
  show Cert.ReferenceIdeal.RChain.resultTerm m' c = Cert.KernelIdeal.Gen.W23 (F := Ideal) m ρ c (Proc.devRef .tc Cert.KernelIdeal.main_v113)
  unfold Cert.ReferenceIdeal.RChain.resultTerm
  rw [e0, e1, e2, e3, e4, e5, e6, e7, e8, e9, e10, e11, e12, e13, e14, e15, e16, e17]
  rw [Cert.KernelIdeal.Chain.out_from_W20 m ρ c, Cert.KernelIdeal.Chain.arg_W20 m ρ c Cert.KernelIdeal.main_arg3 (by decide), Cert.KernelIdeal.Chain.arg_W20 m ρ c Cert.KernelIdeal.main_arg14 (by decide),
    Cert.KernelIdeal.Chain.arg_W20 m ρ c Cert.KernelIdeal.main_arg15 (by decide), Cert.KernelIdeal.Chain.arg_W20 m ρ c Cert.KernelIdeal.main_arg16 (by decide), Cert.KernelIdeal.Chain.arg_W20 m ρ c Cert.KernelIdeal.main_arg17 (by decide),
    Cert.KernelIdeal.Chain.h3 m ρ c, Cert.KernelIdeal.Chain.h2 m ρ c, Cert.KernelIdeal.Chain.h1 m ρ c, Cert.KernelIdeal.Chain.h0 m ρ c]
  rw [Cert.Bridge.layer_eq m hpre c ![2, 0, 0] ![2, 0] _ _ _ _ _ Cert.ReferenceIdeal.Gen.slices_S3x144x64_S1x144x64_2_0_0 Cert.ReferenceIdeal.Gen.slices_S3x64_S1x64_2_0 Cert.ReferenceIdeal.Gen.slices_S3x64x64_S1x64x64_2_0_0 Cert.ReferenceIdeal.Gen.slices_S3x192x64_S1x192x64_2_0_0 Cert.ReferenceIdeal.Gen.slices_S3x192_S1x192_2_0,
    Cert.Bridge.layer_eq m hpre c ![1, 0, 0] ![1, 0] _ _ _ _ _ Cert.ReferenceIdeal.Gen.slices_S3x144x64_S1x144x64_1_0_0 Cert.ReferenceIdeal.Gen.slices_S3x64_S1x64_1_0 Cert.ReferenceIdeal.Gen.slices_S3x64x64_S1x64x64_1_0_0 Cert.ReferenceIdeal.Gen.slices_S3x192x64_S1x192x64_1_0_0 Cert.ReferenceIdeal.Gen.slices_S3x192_S1x192_1_0,
    Cert.Bridge.layer_eq m hpre c ![0, 0, 0] ![0, 0] _ _ _ _ _ Cert.ReferenceIdeal.Gen.slices_S3x144x64_S1x144x64_0_0_0 Cert.ReferenceIdeal.Gen.slices_S3x64_S1x64_0_0 Cert.ReferenceIdeal.Gen.slices_S3x64x64_S1x64x64_0_0_0 Cert.ReferenceIdeal.Gen.slices_S3x192x64_S1x192x64_0_0_0 Cert.ReferenceIdeal.Gen.slices_S3x192_S1x192_0_0,
    Cert.Bridge.biasRow_eq, Cert.Bridge.readout_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
